-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S2x1600000 : Shape := ⟨2, ![2, 1600000]⟩
abbrev S1600000x64 : Shape := ⟨2, ![1600000, 64]⟩
abbrev S8192 : Shape := ⟨1, ![8192]⟩
abbrev S8192x64 : Shape := ⟨2, ![8192, 64]⟩
abbrev S1024x64 : Shape := ⟨2, ![1024, 64]⟩
abbrev S64 : Shape := ⟨1, ![64]⟩
abbrev S2x64x64 : Shape := ⟨3, ![2, 64, 64]⟩
abbrev S2x64 : Shape := ⟨2, ![2, 64]⟩
abbrev S2x64x1 : Shape := ⟨3, ![2, 64, 1]⟩
abbrev S2x1 : Shape := ⟨2, ![2, 1]⟩
abbrev S2x192x64 : Shape := ⟨3, ![2, 192, 64]⟩
abbrev S2x192 : Shape := ⟨2, ![2, 192]⟩
abbrev S256x64 : Shape := ⟨2, ![256, 64]⟩
abbrev S64x1 : Shape := ⟨2, ![64, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S8192 : S_.BroadcastsInDim S8192 (![] : Fin 0 → Fin S8192.rank)
  reducesTo_S8192_S_d0 : S8192.ReducesTo [0] S_
  bcast_S_S8192x64 : S_.BroadcastsInDim S8192x64 (![] : Fin 0 → Fin S8192x64.rank)
  reducesTo_S8192x64_S_d0_1 : S8192x64.ReducesTo [0, 1] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x1 : S_.BroadcastsInDim S2x64x1 (![] : Fin 0 → Fin S2x64x1.rank)
  reducesTo_S2x64x1_S_d0_1_2 : S2x64x1.ReducesTo [0, 1, 2] S_
  bcast_S_S2x1 : S_.BroadcastsInDim S2x1 (![] : Fin 0 → Fin S2x1.rank)
  reducesTo_S2x1_S_d0_1 : S2x1.ReducesTo [0, 1] S_
  bcast_S_S2x192x64 : S_.BroadcastsInDim S2x192x64 (![] : Fin 0 → Fin S2x192x64.rank)
  reducesTo_S2x192x64_S_d0_1_2 : S2x192x64.ReducesTo [0, 1, 2] S_
  bcast_S_S2x192 : S_.BroadcastsInDim S2x192 (![] : Fin 0 → Fin S2x192.rank)
  reducesTo_S2x192_S_d0_1 : S2x192.ReducesTo [0, 1] S_
  bcast_S_S256x64 : S_.BroadcastsInDim S256x64 (![] : Fin 0 → Fin S256x64.rank)
  reducesTo_S256x64_S_d0_1 : S256x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part7 {F : FTy → Type} [FloatOps F] (main_arg5 : IVec S8192 32) (main_v117 : IVec S_ 1) (main_v118 : IVec S8192 32) : IVec S_ 1 :=
  let main_v119 : IVec S8192 1 := cmpi .slt main_arg5 main_v118
  let main_c_47 : IVec S_ 1 := constantI S_ 1 1#1
  let main_v120 : IVec S_ 1 := (fun x v => Host.reduce IntOp.andi x v reducesTo_S8192_S_d0 h_S_) main_v119 main_c_47
  let main_v121 : IVec S_ 1 := andi main_v117 main_v120
  main_v121

def fn_part6 {F : FTy → Type} [FloatOps F] (main_arg4 : IVec S8192 32) (main_arg5 : IVec S8192 32) (main_v99 : IVec S_ 1) (main_v101 : IVec S1600000 32) (main_v102 : IVec S1600000 32) : IVec S_ 1 :=
  let main_v103 : IVec S1600000 1 := cmpi .slt main_v101 main_v102
  let main_c_39 : IVec S_ 1 := constantI S_ 1 1#1
  let main_v104 : IVec S_ 1 := (fun x v => Host.reduce IntOp.andi x v reducesTo_S1600000_S_d0 h_S_) main_v103 main_c_39
  let main_v105 : IVec S_ 1 := andi main_v99 main_v104
  let main_c_40 : IVec S_ 32 := constantI S_ 32 0#32
  let main_v106 : IVec S8192 32 := broadcastInDim S8192 ![] bcast_S_S8192 main_c_40
  let main_v107 : IVec S8192 1 := cmpi .sge main_arg4 main_v106
  let main_c_41 : IVec S_ 1 := constantI S_ 1 1#1
  let main_v108 : IVec S_ 1 := (fun x v => Host.reduce IntOp.andi x v reducesTo_S8192_S_d0 h_S_) main_v107 main_c_41
  let main_v109 : IVec S_ 1 := andi main_v105 main_v108
  let main_c_42 : IVec S_ 32 := constantI S_ 32 100000#32
  let main_v110 : IVec S8192 32 := broadcastInDim S8192 ![] bcast_S_S8192 main_c_42
  let main_v111 : IVec S8192 1 := cmpi .slt main_arg4 main_v110
  let main_c_43 : IVec S_ 1 := constantI S_ 1 1#1
  let main_v112 : IVec S_ 1 := (fun x v => Host.reduce IntOp.andi x v reducesTo_S8192_S_d0 h_S_) main_v111 main_c_43
  let main_v113 : IVec S_ 1 := andi main_v109 main_v112
  let main_c_44 : IVec S_ 32 := constantI S_ 32 0#32
  let main_v114 : IVec S8192 32 := broadcastInDim S8192 ![] bcast_S_S8192 main_c_44
  let main_v115 : IVec S8192 1 := cmpi .sge main_arg5 main_v114
  let main_c_45 : IVec S_ 1 := constantI S_ 1 1#1
  let main_v116 : IVec S_ 1 := (fun x v => Host.reduce IntOp.andi x v reducesTo_S8192_S_d0 h_S_) main_v115 main_c_45
  let main_v117 : IVec S_ 1 := andi main_v113 main_v116
  let main_c_46 : IVec S_ 32 := constantI S_ 32 100000#32
  let main_v118 : IVec S8192 32 := broadcastInDim S8192 ![] bcast_S_S8192 main_c_46
  fn_part7 (F := F) main_arg5 main_v117 main_v118

def fn_part5 {F : FTy → Type} [FloatOps F] (main_arg1 : IVec S2x1600000 32) (main_arg4 : IVec S8192 32) (main_arg5 : IVec S8192 32) (main_arg21 : FVec F S1 .f32) (main_v83 : IVec S_ 1) (main_v84 : FVec F S64x1 .f32) (main_cst_32 : FVec F S_ .f32) : IVec S_ 1 :=
  let main_v85 : FVec F S64x1 .f32 := broadcastInDim S64x1 ![] bcast_S_S64x1 main_cst_32
  let main_v86 : IVec S64x1 1 := cmpf .olt main_v84 main_v85
  let main_c_33 : IVec S_ 1 := constantI S_ 1 1#1
  let main_v87 : IVec S_ 1 := (fun x v => Host.reduce IntOp.andi x v reducesTo_S64x1_S_d0_1 h_S_) main_v86 main_c_33
  let main_v88 : IVec S_ 1 := andi main_v83 main_v87
  let main_v89 : FVec F S1 .f32 := Host.absf main_arg21
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : IVec S1x1600000 32 := (extractStridedSlice S1x1600000 ![0, 0] · slices_S2x1600000_S1x1600000_0_0) main_arg1
  let main_v95 : IVec S1600000 32 := shapeCast S1600000 main_v94 shapeCasts_S1x1600000_S1600000
  let main_c_36 : IVec S_ 32 := constantI S_ 32 0#32
  let main_v96 : IVec S1600000 32 := broadcastInDim S1600000 ![] bcast_S_S1600000 main_c_36
  let main_v97 : IVec S1600000 1 := cmpi .sge main_v95 main_v96
  let main_c_37 : IVec S_ 1 := constantI S_ 1 1#1
  let main_v98 : IVec S_ 1 := (fun x v => Host.reduce IntOp.andi x v reducesTo_S1600000_S_d0 h_S_) main_v97 main_c_37
  let main_v99 : IVec S_ 1 := andi main_v93 main_v98
  let main_v100 : IVec S1x1600000 32 := (extractStridedSlice S1x1600000 ![0, 0] · slices_S2x1600000_S1x1600000_0_0) main_arg1
  let main_v101 : IVec S1600000 32 := shapeCast S1600000 main_v100 shapeCasts_S1x1600000_S1600000
  let main_c_38 : IVec S_ 32 := constantI S_ 32 100000#32
  let main_v102 : IVec S1600000 32 := broadcastInDim S1600000 ![] bcast_S_S1600000 main_c_38
  fn_part6 (F := F) main_arg4 main_arg5 main_v99 main_v101 main_v102

def fn_part4 {F : FTy → Type} [FloatOps F] (main_arg1 : IVec S2x1600000 32) (main_arg4 : IVec S8192 32) (main_arg5 : IVec S8192 32) (main_arg17 : FVec F S2x192 .f32) (main_arg18 : FVec F S256x64 .f32) (main_arg19 : FVec F S64 .f32) (main_arg20 : FVec F S64x1 .f32) (main_arg21 : FVec F S1 .f32) (main_v63 : IVec S_ 1) (main_v67 : IVec S_ 1) : IVec S_ 1 :=
  let main_v68 : IVec S_ 1 := andi main_v63 main_v67
  let main_v69 : FVec F S2x192 .f32 := Host.absf main_arg17
  let main_cst_26 : FVec F S_ .f32 := constant S_ .f32 0x7F800000#32
  let main_v70 : FVec F S2x192 .f32 := broadcastInDim S2x192 ![] bcast_S_S2x192 main_cst_26
  let main_v71 : IVec S2x192 1 := cmpf .olt main_v69 main_v70
  let main_c_27 : IVec S_ 1 := constantI S_ 1 1#1
  let main_v72 : IVec S_ 1 := (fun x v => Host.reduce IntOp.andi x v reducesTo_S2x192_S_d0_1 h_S_) main_v71 main_c_27
  let main_v73 : IVec S_ 1 := andi main_v68 main_v72
  let main_v74 : FVec F S256x64 .f32 := Host.absf main_arg18
  let main_cst_28 : FVec F S_ .f32 := constant S_ .f32 0x7F800000#32
  let main_v75 : FVec F S256x64 .f32 := broadcastInDim S256x64 ![] bcast_S_S256x64 main_cst_28
  let main_v76 : IVec S256x64 1 := cmpf .olt main_v74 main_v75
  let main_c_29 : IVec S_ 1 := constantI S_ 1 1#1
  let main_v77 : IVec S_ 1 := (fun x v => Host.reduce IntOp.andi x v reducesTo_S256x64_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x1 .f32 := Host.absf main_arg20
  let main_cst_32 : FVec F S_ .f32 := constant S_ .f32 0x7F800000#32
  fn_part5 (F := F) main_arg1 main_arg4 main_arg5 main_arg21 main_v83 main_v84 main_cst_32

def fn_part3 {F : FTy → Type} [FloatOps F] (main_arg1 : IVec S2x1600000 32) (main_arg4 : IVec S8192 32) (main_arg5 : IVec S8192 32) (main_arg14 : FVec F S2x192x64 .f32) (main_arg15 : FVec F S2x192x64 .f32) (main_arg16 : FVec F S2x192 .f32) (main_arg17 : FVec F S2x192 .f32) (main_arg18 : FVec F S256x64 .f32) (main_arg19 : FVec F S64 .f32) (main_arg20 : FVec F S64x1 .f32) (main_arg21 : FVec F S1 .f32) (main_v48 : IVec S_ 1) (main_v49 : FVec F S2x1 .f32) (main_v50 : FVec F S2x1 .f32) : IVec S_ 1 :=
  let main_v51 : IVec S2x1 1 := cmpf .olt main_v49 main_v50
  let main_c_19 : IVec S_ 1 := constantI S_ 1 1#1
  let main_v52 : IVec S_ 1 := (fun x v => Host.reduce IntOp.andi x v reducesTo_S2x1_S_d0_1 h_S_) main_v51 main_c_19
  let main_v53 : IVec S_ 1 := andi main_v48 main_v52
  let main_v54 : FVec F S2x192x64 .f32 := Host.absf main_arg14
  let main_cst_20 : FVec F S_ .f32 := constant S_ .f32 0x7F800000#32
  let main_v55 : FVec F S2x192x64 .f32 := broadcastInDim S2x192x64 ![] bcast_S_S2x192x64 main_cst_20
  let main_v56 : IVec S2x192x64 1 := cmpf .olt main_v54 main_v55
  let main_c_21 : IVec S_ 1 := constantI S_ 1 1#1
  let main_v57 : IVec S_ 1 := (fun x v => Host.reduce IntOp.andi x v reducesTo_S2x192x64_S_d0_1_2 h_S_) main_v56 main_c_21
  let main_v58 : IVec S_ 1 := andi main_v53 main_v57
  let main_v59 : FVec F S2x192x64 .f32 := Host.absf main_arg15
  let main_cst_22 : FVec F S_ .f32 := constant S_ .f32 0x7F800000#32
  let main_v60 : FVec F S2x192x64 .f32 := broadcastInDim S2x192x64 ![] bcast_S_S2x192x64 main_cst_22
  let main_v61 : IVec S2x192x64 1 := cmpf .olt main_v59 main_v60
  let main_c_23 : IVec S_ 1 := constantI S_ 1 1#1
  let main_v62 : IVec S_ 1 := (fun x v => Host.reduce IntOp.andi x v reducesTo_S2x192x64_S_d0_1_2 h_S_) main_v61 main_c_23
  let main_v63 : IVec S_ 1 := andi main_v58 main_v62
  let main_v64 : FVec F S2x192 .f32 := Host.absf main_arg16
  let main_cst_24 : FVec F S_ .f32 := constant S_ .f32 0x7F800000#32
  let main_v65 : FVec F S2x192 .f32 := broadcastInDim S2x192 ![] bcast_S_S2x192 main_cst_24
  let main_v66 : IVec S2x192 1 := cmpf .olt main_v64 main_v65
  let main_c_25 : IVec S_ 1 := constantI S_ 1 1#1
  let main_v67 : IVec S_ 1 := (fun x v => Host.reduce IntOp.andi x v reducesTo_S2x192_S_d0_1 h_S_) main_v66 main_c_25
  fn_part4 (F := F) main_arg1 main_arg4 main_arg5 main_arg17 main_arg18 main_arg19 main_arg20 main_arg21 main_v63 main_v67

def fn_part2 {F : FTy → Type} [FloatOps F] (main_arg1 : IVec S2x1600000 32) (main_arg4 : IVec S8192 32) (main_arg5 : IVec S8192 32) (main_arg10 : FVec F S2x64x64 .f32) (main_arg11 : FVec F S2x64 .f32) (main_arg12 : FVec F S2x64x1 .f32) (main_arg13 : FVec F S2x1 .f32) (main_arg14 : FVec F S2x192x64 .f32) (main_arg15 : FVec F S2x192x64 .f32) (main_arg16 : FVec F S2x192 .f32) (main_arg17 : FVec F S2x192 .f32) (main_arg18 : FVec F S256x64 .f32) (main_arg19 : FVec F S64 .f32) (main_arg20 : FVec F S64x1 .f32) (main_arg21 : FVec F S1 .f32) (main_v33 : IVec S_ 1) : IVec S_ 1 :=
  let main_v34 : FVec F S2x64x64 .f32 := Host.absf main_arg10
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg11
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64x1 .f32 := Host.absf main_arg12
  let main_cst_16 : FVec F S_ .f32 := constant S_ .f32 0x7F800000#32
  let main_v45 : FVec F S2x64x1 .f32 := broadcastInDim S2x64x1 ![] bcast_S_S2x64x1 main_cst_16
  let main_v46 : IVec S2x64x1 1 := cmpf .olt main_v44 main_v45
  let main_c_17 : IVec S_ 1 := constantI S_ 1 1#1
  let main_v47 : IVec S_ 1 := (fun x v => Host.reduce IntOp.andi x v reducesTo_S2x64x1_S_d0_1_2 h_S_) main_v46 main_c_17
  let main_v48 : IVec S_ 1 := andi main_v43 main_v47
  let main_v49 : FVec F S2x1 .f32 := Host.absf main_arg13
  let main_cst_18 : FVec F S_ .f32 := constant S_ .f32 0x7F800000#32
  let main_v50 : FVec F S2x1 .f32 := broadcastInDim S2x1 ![] bcast_S_S2x1 main_cst_18
  fn_part3 (F := F) main_arg1 main_arg4 main_arg5 main_arg14 main_arg15 main_arg16 main_arg17 main_arg18 main_arg19 main_arg20 main_arg21 main_v48 main_v49 main_v50

def fn_part1 {F : FTy → Type} [FloatOps F] (main_arg1 : IVec S2x1600000 32) (main_arg4 : IVec S8192 32) (main_arg5 : IVec S8192 32) (main_arg7 : FVec F S8192x64 .f32) (main_arg8 : FVec F S1024x64 .f32) (main_arg9 : FVec F S64 .f32) (main_arg10 : FVec F S2x64x64 .f32) (main_arg11 : FVec F S2x64 .f32) (main_arg12 : FVec F S2x64x1 .f32) (main_arg13 : FVec F S2x1 .f32) (main_arg14 : FVec F S2x192x64 .f32) (main_arg15 : FVec F S2x192x64 .f32) (main_arg16 : FVec F S2x192 .f32) (main_arg17 : FVec F S2x192 .f32) (main_arg18 : FVec F S256x64 .f32) (main_arg19 : FVec F S64 .f32) (main_arg20 : FVec F S64x1 .f32) (main_arg21 : FVec F S1 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192x64 .f32 := Host.absf main_arg7
  let main_cst_6 : FVec F S_ .f32 := constant S_ .f32 0x7F800000#32
  let main_v20 : FVec F S8192x64 .f32 := broadcastInDim S8192x64 ![] bcast_S_S8192x64 main_cst_6
  let main_v21 : IVec S8192x64 1 := cmpf .olt main_v19 main_v20
  let main_c_7 : IVec S_ 1 := constantI S_ 1 1#1
  let main_v22 : IVec S_ 1 := (fun x v => Host.reduce IntOp.andi x v reducesTo_S8192x64_S_d0_1 h_S_) main_v21 main_c_7
  let main_v23 : IVec S_ 1 := andi main_v18 main_v22
  let main_v24 : FVec F S1024x64 .f32 := Host.absf main_arg8
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg4 main_arg5 main_arg10 main_arg11 main_arg12 main_arg13 main_arg14 main_arg15 main_arg16 main_arg17 main_arg18 main_arg19 main_arg20 main_arg21 main_v33

def fn {F : FTy → Type} [FloatOps F] (main_arg0 : FVec F S100000x1024 .f32) (main_arg1 : IVec S2x1600000 32) (main_arg2 : FVec F S1600000x64 .f32) (main_arg3 : FVec F S1600000x64 .f32) (main_arg4 : IVec S8192 32) (main_arg5 : IVec S8192 32) (main_arg6 : FVec F S8192 .f32) (main_arg7 : FVec F S8192x64 .f32) (main_arg8 : FVec F S1024x64 .f32) (main_arg9 : FVec F S64 .f32) (main_arg10 : FVec F S2x64x64 .f32) (main_arg11 : FVec F S2x64 .f32) (main_arg12 : FVec F S2x64x1 .f32) (main_arg13 : FVec F S2x1 .f32) (main_arg14 : FVec F S2x192x64 .f32) (main_arg15 : FVec F S2x192x64 .f32) (main_arg16 : FVec F S2x192 .f32) (main_arg17 : FVec F S2x192 .f32) (main_arg18 : FVec F S256x64 .f32) (main_arg19 : FVec F S64 .f32) (main_arg20 : FVec F S64x1 .f32) (main_arg21 : FVec F S1 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S1600000x64 .f32 := Host.absf main_arg3
  let main_cst_2 : FVec F S_ .f32 := constant S_ .f32 0x7F800000#32
  let main_v10 : FVec F S1600000x64 .f32 := broadcastInDim S1600000x64 ![] bcast_S_S1600000x64 main_cst_2
  let main_v11 : IVec S1600000x64 1 := cmpf .olt main_v9 main_v10
  let main_c_3 : IVec S_ 1 := constantI S_ 1 1#1
  let main_v12 : IVec S_ 1 := (fun x v => Host.reduce IntOp.andi x v reducesTo_S1600000x64_S_d0_1 h_S_) main_v11 main_c_3
  let main_v13 : IVec S_ 1 := andi main_v8 main_v12
  let main_v14 : FVec F S8192 .f32 := Host.absf main_arg6
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg1 main_arg4 main_arg5 main_arg7 main_arg8 main_arg9 main_arg10 main_arg11 main_arg12 main_arg13 main_arg14 main_arg15 main_arg16 main_arg17 main_arg18 main_arg19 main_arg20 main_arg21 main_v13 main_v16
-- ==== Kernel.lean ====
abbrev S100000x1024 : Shape := ⟨2, ![100000, 1024]⟩
abbrev S2x1600000 : Shape := ⟨2, ![2, 1600000]⟩
abbrev S1600000x64 : Shape := ⟨2, ![1600000, 64]⟩
abbrev S8192 : Shape := ⟨1, ![8192]⟩
abbrev S8192x64 : Shape := ⟨2, ![8192, 64]⟩
abbrev S1024x64 : Shape := ⟨2, ![1024, 64]⟩
abbrev S64 : Shape := ⟨1, ![64]⟩
abbrev S2x64x64 : Shape := ⟨3, ![2, 64, 64]⟩
abbrev S2x64 : Shape := ⟨2, ![2, 64]⟩
abbrev S2x64x1 : Shape := ⟨3, ![2, 64, 1]⟩
abbrev S2x1 : Shape := ⟨2, ![2, 1]⟩
abbrev S2x192x64 : Shape := ⟨3, ![2, 192, 64]⟩
abbrev S2x192 : Shape := ⟨2, ![2, 192]⟩
abbrev S256x64 : Shape := ⟨2, ![256, 64]⟩
abbrev S64x1 : Shape := ⟨2, ![64, 1]⟩
abbrev S1 : Shape := ⟨1, ![1]⟩
abbrev S100000x64 : Shape := ⟨2, ![100000, 64]⟩
abbrev S2000x1024 : Shape := ⟨2, ![2000, 1024]⟩
abbrev S2000x64 : Shape := ⟨2, ![2000, 64]⟩
abbrev S1x64 : Shape := ⟨2, ![1, 64]⟩
abbrev S1x64x64 : Shape := ⟨3, ![1, 64, 64]⟩
abbrev S64x64 : Shape := ⟨2, ![64, 64]⟩
abbrev S10000x64 : Shape := ⟨2, ![10000, 64]⟩
abbrev S1x64x1 : Shape := ⟨3, ![1, 64, 1]⟩
abbrev S1x1 : Shape := ⟨2, ![1, 1]⟩
abbrev S1600000x1 : Shape := ⟨2, ![1600000, 1]⟩
abbrev S12800x64 : Shape := ⟨2, ![12800, 64]⟩
abbrev S12800x1 : Shape := ⟨2, ![12800, 1]⟩
abbrev S12800 : Shape := ⟨1, ![12800]⟩
abbrev S1x1600000 : Shape := ⟨2, ![1, 1600000]⟩
abbrev S1600000 : Shape := ⟨1, ![1600000]⟩
abbrev S_ : Shape := ⟨0, ![]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S64x192 : Shape := ⟨2, ![64, 192]⟩
abbrev S4000x64 : Shape := ⟨2, ![4000, 64]⟩
abbrev S8192x1 : Shape := ⟨2, ![8192, 1]⟩
abbrev S8192x256 : Shape := ⟨2, ![8192, 256]⟩

abbrev nBuf : Space → Nat
  | .hbm => 209
  | .vmem => 79
  | .smem => 0
  | _ => 0

abbrev hbmTy0_0 (i : Nat) : BufTy := match i % 128 with
  | 0 => ⟨S100000x1024, .f32⟩
  | 1 => ⟨S2x1600000, .i32⟩
  | 2 => ⟨S1600000x64, .f32⟩
  | 3 => ⟨S1600000x64, .f32⟩
  | 4 => ⟨S8192, .i32⟩
  | 5 => ⟨S8192, .i32⟩
  | 6 => ⟨S8192, .f32⟩
  | 7 => ⟨S8192x64, .f32⟩
  | 8 => ⟨S1024x64, .f32⟩
  | 9 => ⟨S64, .f32⟩
  | 10 => ⟨S2x64x64, .f32⟩
  | 11 => ⟨S2x64, .f32⟩
  | 12 => ⟨S2x64x1, .f32⟩
  | 13 => ⟨S2x1, .f32⟩
  | 14 => ⟨S2x192x64, .f32⟩
  | 15 => ⟨S2x192x64, .f32⟩
  | 16 => ⟨S2x192, .f32⟩
  | 17 => ⟨S2x192, .f32⟩
  | 18 => ⟨S256x64, .f32⟩
  | 19 => ⟨S64, .f32⟩
  | 20 => ⟨S64x1, .f32⟩
  | 21 => ⟨S1, .f32⟩
  | 22 => ⟨S100000x64, .f32⟩
  | 23 => ⟨S1x64x64, .f32⟩
  | 24 => ⟨S64x64, .f32⟩
  | 25 => ⟨S1x64, .f32⟩
  | 26 => ⟨S64, .f32⟩
  | 27 => ⟨S100000x64, .f32⟩
  | 28 => ⟨S1x64x1, .f32⟩
  | 29 => ⟨S64x1, .f32⟩
  | 30 => ⟨S1x64, .f32⟩
  | 31 => ⟨S1x1, .f32⟩
  | 32 => ⟨S1, .f32⟩
  | 33 => ⟨S1600000x1, .f32⟩
  | 34 => ⟨S1x1600000, .i32⟩
  | 35 => ⟨S1600000, .i32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1, .i32⟩
  | 45 => ⟨S_, .i32⟩
  | 46 => ⟨S1600000x1, .i32⟩
  | 47 => ⟨S1600000x1, .i1⟩
  | 48 => ⟨S1x1, .i32⟩
  | 49 => ⟨S1600000x1, .i32⟩
  | 50 => ⟨S1600000x1, .i1⟩
  | 51 => ⟨S1600000x1, .i1⟩
  | 52 => ⟨S_, .i1⟩
  | 53 => ⟨S1600000, .i1⟩
  | 54 => ⟨S1600000x64, .f32⟩
  | 55 => ⟨S1600000x64, .i1⟩
  | 56 => ⟨S_, .f32⟩
  | 57 => ⟨S1600000x64, .f32⟩
  | 58 => ⟨S1600000x64, .f32⟩
  | 59 => ⟨S1600000x64, .f32⟩
  | 60 => ⟨S1600000x64, .f32⟩
  | 61 => ⟨S1x1600000, .i32⟩
  | 62 => ⟨S1600000, .i32⟩
  | 63 => ⟨S_, .f32⟩
  | 64 => ⟨S100000x64, .f32⟩
  | 65 => ⟨S1600000x1, .i32⟩
  | 66 => ⟨S100000x64, .f32⟩
  | 67 => ⟨S1x192x64, .f32⟩
  | 68 => ⟨S192x64, .f32⟩
  | 69 => ⟨S1x192x64, .f32⟩
  | 70 => ⟨S192x64, .f32⟩
  | 71 => ⟨S1x192, .f32⟩
  | 72 => ⟨S192, .f32⟩
  | 73 => ⟨S1x192, .f32⟩
  | 74 => ⟨S192, .f32⟩
  | 75 => ⟨S64x192, .f32⟩
  | 76 => ⟨S64x192, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64, .f32⟩
  | 84 => ⟨S64, .f32⟩
  | 85 => ⟨S64, .f32⟩
  | 86 => ⟨S64, .f32⟩
  | 87 => ⟨S64, .f32⟩
  | 88 => ⟨S64, .f32⟩
  | 89 => ⟨S100000x64, .f32⟩
  | 90 => ⟨S1x64x64, .f32⟩
  | 91 => ⟨S64x64, .f32⟩
  | 92 => ⟨S1x64, .f32⟩
  | 93 => ⟨S64, .f32⟩
  | 94 => ⟨S100000x64, .f32⟩
  | 95 => ⟨S1x64x1, .f32⟩
  | 96 => ⟨S64x1, .f32⟩
  | 97 => ⟨S1x64, .f32⟩
  | 98 => ⟨S1x1, .f32⟩
  | 99 => ⟨S1, .f32⟩
  | 100 => ⟨S1600000x1, .f32⟩
  | 101 => ⟨S1x1600000, .i32⟩
  | 102 => ⟨S1600000, .i32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1, .i32⟩
  | 112 => ⟨S_, .i32⟩
  | 113 => ⟨S1600000x1, .i32⟩
  | 114 => ⟨S1600000x1, .i1⟩
  | 115 => ⟨S1x1, .i32⟩
  | 116 => ⟨S1600000x1, .i32⟩
  | 117 => ⟨S1600000x1, .i1⟩
  | 118 => ⟨S1600000x1, .i1⟩
  | 119 => ⟨S_, .i1⟩
  | 120 => ⟨S1600000, .i1⟩
  | 121 => ⟨S1600000x64, .f32⟩
  | 122 => ⟨S1600000x64, .i1⟩
  | 123 => ⟨S_, .f32⟩
  | 124 => ⟨S1600000x64, .f32⟩
  | 125 => ⟨S1600000x64, .f32⟩
  | 126 => ⟨S1600000x64, .f32⟩
  | 127 => ⟨S1600000x64, .f32⟩
  | _ => ⟨S100000x1024, .f32⟩

abbrev hbmTy0_1 (i : Nat) : BufTy := match i % 128 with
  | 0 => ⟨S1x1600000, .i32⟩
  | 1 => ⟨S1600000, .i32⟩
  | 2 => ⟨S_, .f32⟩
  | 3 => ⟨S100000x64, .f32⟩
  | 4 => ⟨S1600000x1, .i32⟩
  | 5 => ⟨S100000x64, .f32⟩
  | 6 => ⟨S1x192x64, .f32⟩
  | 7 => ⟨S192x64, .f32⟩
  | 8 => ⟨S1x192x64, .f32⟩
  | 9 => ⟨S192x64, .f32⟩
  | 10 => ⟨S1x192, .f32⟩
  | 11 => ⟨S192, .f32⟩
  | 12 => ⟨S1x192, .f32⟩
  | 13 => ⟨S192, .f32⟩
  | 14 => ⟨S64x192, .f32⟩
  | 15 => ⟨S64x192, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64, .f32⟩
  | 23 => ⟨S64, .f32⟩
  | 24 => ⟨S64, .f32⟩
  | 25 => ⟨S64, .f32⟩
  | 26 => ⟨S64, .f32⟩
  | 27 => ⟨S64, .f32⟩
  | 28 => ⟨S100000x64, .f32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S1, .i32⟩
  | 38 => ⟨S_, .i32⟩
  | 39 => ⟨S8192x1, .i32⟩
  | 40 => ⟨S8192x1, .i1⟩
  | 41 => ⟨S1x1, .i32⟩
  | 42 => ⟨S8192x1, .i32⟩
  | 43 => ⟨S8192x1, .i1⟩
  | 44 => ⟨S8192x1, .i1⟩
  | 45 => ⟨S_, .i1⟩
  | 46 => ⟨S8192, .i1⟩
  | 47 => ⟨S8192x64, .f32⟩
  | 48 => ⟨S8192x64, .i1⟩
  | 49 => ⟨S_, .f32⟩
  | 50 => ⟨S8192x64, .f32⟩
  | 51 => ⟨S8192x64, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S1, .i32⟩
  | 61 => ⟨S_, .i32⟩
  | 62 => ⟨S8192x1, .i32⟩
  | 63 => ⟨S8192x1, .i1⟩
  | 64 => ⟨S1x1, .i32⟩
  | 65 => ⟨S8192x1, .i32⟩
  | 66 => ⟨S8192x1, .i1⟩
  | 67 => ⟨S8192x1, .i1⟩
  | 68 => ⟨S_, .i1⟩
  | 69 => ⟨S8192, .i1⟩
  | 70 => ⟨S8192x64, .f32⟩
  | 71 => ⟨S8192x64, .i1⟩
  | 72 => ⟨S_, .f32⟩
  | 73 => ⟨S8192x64, .f32⟩
  | 74 => ⟨S8192x64, .f32⟩
  | 75 => ⟨S8192x1, .f32⟩
  | 76 => ⟨S8192x1, .f32⟩
  | 77 => ⟨S_, .f32⟩
  | 78 => ⟨S_, .f32⟩
  | 79 => ⟨S_, .f32⟩
  | 80 => ⟨S_, .f32⟩
  | _ => ⟨S100000x1024, .f32⟩

abbrev hbmTy (i : Nat) : BufTy := match i / 128 with
  | 0 => hbmTy0_0 i
  | 1 => hbmTy0_1 i
  | _ => ⟨S100000x1024, .f32⟩

abbrev bufTy : (tb : Table) → Fin (tcTables nBuf tb) → BufTy
  | .hbm, ⟨i, _⟩ => hbmTy i
  | .local _ .vmem, ⟨0, _⟩ => ⟨S2000x1024, .f32⟩
  | .local _ .vmem, ⟨1, _⟩ => ⟨S2000x1024, .f32⟩
  | .local _ .vmem, ⟨2, _⟩ => ⟨S1024x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S12800x64, .f32⟩
  | .local _ .vmem, ⟨13, _⟩ => ⟨S12800x64, .f32⟩
  | .local _ .vmem, ⟨14, _⟩ => ⟨S12800x64, .f32⟩
  | .local _ .vmem, ⟨15, _⟩ => ⟨S12800x64, .f32⟩
  | .local _ .vmem, ⟨16, _⟩ => ⟨S1x64, .f32⟩
  | .local _ .vmem, ⟨17, _⟩ => ⟨S1, .f32⟩
  | .local _ .vmem, ⟨18, _⟩ => ⟨S12800x1, .f32⟩
  | .local _ .vmem, ⟨19, _⟩ => ⟨S12800x1, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S64x64, .f32⟩
  | .local _ .vmem, ⟨25, _⟩ => ⟨S64x64, .f32⟩
  | .local _ .vmem, ⟨26, _⟩ => ⟨S64x64, .f32⟩
  | .local _ .vmem, ⟨27, _⟩ => ⟨S64x64, .f32⟩
  | .local _ .vmem, ⟨28, _⟩ => ⟨S64x64, .f32⟩
  | .local _ .vmem, ⟨29, _⟩ => ⟨S64x64, .f32⟩
  | .local _ .vmem, ⟨30, _⟩ => ⟨S64, .f32⟩
  | .local _ .vmem, ⟨31, _⟩ => ⟨S64, .f32⟩
  | .local _ .vmem, ⟨32, _⟩ => ⟨S64, .f32⟩
  | .local _ .vmem, ⟨33, _⟩ => ⟨S64, .f32⟩
  | .local _ .vmem, ⟨34, _⟩ => ⟨S64, .f32⟩
  | .local _ .vmem, ⟨35, _⟩ => ⟨S64, .f32⟩
  | .local _ .vmem, ⟨36, _⟩ => ⟨S4000x64, .f32⟩
  | .local _ .vmem, ⟨37, _⟩ => ⟨S4000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S64, .f32⟩
  | .local _ .vmem, ⟨42, _⟩ => ⟨S10000x64, .f32⟩
  | .local _ .vmem, ⟨43, _⟩ => ⟨S10000x64, .f32⟩
  | .local _ .vmem, ⟨44, _⟩ => ⟨S12800x64, .f32⟩
  | .local _ .vmem, ⟨45, _⟩ => ⟨S12800x64, .f32⟩
  | .local _ .vmem, ⟨46, _⟩ => ⟨S12800x64, .f32⟩
  | .local _ .vmem, ⟨47, _⟩ => ⟨S12800x64, .f32⟩
  | .local _ .vmem, ⟨48, _⟩ => ⟨S1x64, .f32⟩
  | .local _ .vmem, ⟨49, _⟩ => ⟨S1, .f32⟩
  | .local _ .vmem, ⟨50, _⟩ => ⟨S12800x1, .f32⟩
  | .local _ .vmem, ⟨51, _⟩ => ⟨S12800x1, .f32⟩
  | .local _ .vmem, ⟨52, _⟩ => ⟨S4000x64, .f32⟩
  | .local _ .vmem, ⟨53, _⟩ => ⟨S4000x64, .f32⟩
  | .local _ .vmem, ⟨54, _⟩ => ⟨S4000x64, .f32⟩
  | .local _ .vmem, ⟨55, _⟩ => ⟨S4000x64, .f32⟩
  | .local _ .vmem, ⟨56, _⟩ => ⟨S64x64, .f32⟩
  | .local _ .vmem, ⟨57, _⟩ => ⟨S64x64, .f32⟩
  | .local _ .vmem, ⟨58, _⟩ => ⟨S64x64, .f32⟩
  | .local _ .vmem, ⟨59, _⟩ => ⟨S64x64, .f32⟩
  | .local _ .vmem, ⟨60, _⟩ => ⟨S64x64, .f32⟩
  | .local _ .vmem, ⟨61, _⟩ => ⟨S64x64, .f32⟩
  | .local _ .vmem, ⟨62, _⟩ => ⟨S64, .f32⟩
  | .local _ .vmem, ⟨63, _⟩ => ⟨S64, .f32⟩
  | .local _ .vmem, ⟨64, _⟩ => ⟨S64, .f32⟩
  | .local _ .vmem, ⟨65, _⟩ => ⟨S64, .f32⟩
  | .local _ .vmem, ⟨66, _⟩ => ⟨S64, .f32⟩
  | .local _ .vmem, ⟨67, _⟩ => ⟨S64, .f32⟩
  | .local _ .vmem, ⟨68, _⟩ => ⟨S4000x64, .f32⟩
  | .local _ .vmem, ⟨69, _⟩ => ⟨S4000x64, .f32⟩
  | .local _ .vmem, ⟨70, _⟩ => ⟨S8192x64, .f32⟩
  | .local _ .vmem, ⟨71, _⟩ => ⟨S8192x64, .f32⟩
  | .local _ .vmem, ⟨72, _⟩ => ⟨S8192x64, .f32⟩
  | .local _ .vmem, ⟨73, _⟩ => ⟨S256x64, .f32⟩
  | .local _ .vmem, ⟨74, _⟩ => ⟨S64, .f32⟩
  | .local _ .vmem, ⟨75, _⟩ => ⟨S64x1, .f32⟩
  | .local _ .vmem, ⟨76, _⟩ => ⟨S1, .f32⟩
  | .local _ .vmem, ⟨77, _⟩ => ⟨S8192x1, .f32⟩
  | .local _ .vmem, ⟨78, _⟩ => ⟨S8192x1, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_call1_c : Ref sig .tc := ⟨.hbm, 103, rfl⟩
abbrev main_call1_v0 : Ref sig .tc := ⟨.hbm, 104, rfl⟩
abbrev main_call1_v1 : Ref sig .tc := ⟨.hbm, 105, rfl⟩
abbrev main_call1_c_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_c_1 : Ref sig .tc := ⟨.hbm, 111, rfl⟩
abbrev main_call1_c_2 : Ref sig .tc := ⟨.hbm, 112, rfl⟩
abbrev main_call1_v6 : Ref sig .tc := ⟨.hbm, 113, rfl⟩
abbrev main_call1_v7 : Ref sig .tc := ⟨.hbm, 114, rfl⟩
abbrev main_call1_v8 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_c_3 : Ref sig .tc := ⟨.hbm, 119, rfl⟩
abbrev main_call1_v12 : Ref sig .tc := ⟨.hbm, 120, rfl⟩
abbrev main_call1_v13 : Ref sig .tc := ⟨.hbm, 121, rfl⟩
abbrev main_call1_v14 : Ref sig .tc := ⟨.hbm, 122, rfl⟩
abbrev main_call1_cst : Ref sig .tc := ⟨.hbm, 123, rfl⟩
abbrev main_call1_v15 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_cst_0 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_call2_c : Ref sig .tc := ⟨.hbm, 157, rfl⟩
abbrev main_call2_v0 : Ref sig .tc := ⟨.hbm, 158, rfl⟩
abbrev main_call2_v1 : Ref sig .tc := ⟨.hbm, 159, rfl⟩
abbrev main_call2_c_0 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_call2_v5 : Ref sig .tc := ⟨.hbm, 164, rfl⟩
abbrev main_call2_c_1 : Ref sig .tc := ⟨.hbm, 165, rfl⟩
abbrev main_call2_c_2 : Ref sig .tc := ⟨.hbm, 166, rfl⟩
abbrev main_call2_v6 : Ref sig .tc := ⟨.hbm, 167, rfl⟩
abbrev main_call2_v7 : Ref sig .tc := ⟨.hbm, 168, rfl⟩
abbrev main_call2_v8 : Ref sig .tc := ⟨.hbm, 169, rfl⟩
abbrev main_call2_v9 : Ref sig .tc := ⟨.hbm, 170, rfl⟩
abbrev main_call2_v10 : Ref sig .tc := ⟨.hbm, 171, rfl⟩
abbrev main_call2_v11 : Ref sig .tc := ⟨.hbm, 172, rfl⟩
abbrev main_call2_c_3 : Ref sig .tc := ⟨.hbm, 173, rfl⟩
abbrev main_call2_v12 : Ref sig .tc := ⟨.hbm, 174, rfl⟩
abbrev main_call2_v13 : Ref sig .tc := ⟨.hbm, 175, rfl⟩
abbrev main_call2_v14 : Ref sig .tc := ⟨.hbm, 176, rfl⟩
abbrev main_call2_cst : Ref sig .tc := ⟨.hbm, 177, rfl⟩
abbrev main_call2_v15 : Ref sig .tc := ⟨.hbm, 178, rfl⟩
abbrev main_v89 : Ref sig .tc := ⟨.hbm, 179, rfl⟩
abbrev main_call3_c : Ref sig .tc := ⟨.hbm, 180, rfl⟩
abbrev main_call3_v0 : Ref sig .tc := ⟨.hbm, 181, rfl⟩
abbrev main_call3_v1 : Ref sig .tc := ⟨.hbm, 182, rfl⟩
abbrev main_call3_c_0 : Ref sig .tc := ⟨.hbm, 183, rfl⟩
abbrev main_call3_v2 : Ref sig .tc := ⟨.hbm, 184, rfl⟩
abbrev main_call3_v3 : Ref sig .tc := ⟨.hbm, 185, rfl⟩
abbrev main_call3_v4 : Ref sig .tc := ⟨.hbm, 186, rfl⟩
abbrev main_call3_v5 : Ref sig .tc := ⟨.hbm, 187, rfl⟩
abbrev main_call3_c_1 : Ref sig .tc := ⟨.hbm, 188, rfl⟩
abbrev main_call3_c_2 : Ref sig .tc := ⟨.hbm, 189, rfl⟩
abbrev main_call3_v6 : Ref sig .tc := ⟨.hbm, 190, rfl⟩
abbrev main_call3_v7 : Ref sig .tc := ⟨.hbm, 191, rfl⟩
abbrev main_call3_v8 : Ref sig .tc := ⟨.hbm, 192, rfl⟩
abbrev main_call3_v9 : Ref sig .tc := ⟨.hbm, 193, rfl⟩
abbrev main_call3_v10 : Ref sig .tc := ⟨.hbm, 194, rfl⟩
abbrev main_call3_v11 : Ref sig .tc := ⟨.hbm, 195, rfl⟩
abbrev main_call3_c_3 : Ref sig .tc := ⟨.hbm, 196, rfl⟩
abbrev main_call3_v12 : Ref sig .tc := ⟨.hbm, 197, rfl⟩
abbrev main_call3_v13 : Ref sig .tc := ⟨.hbm, 198, rfl⟩
abbrev main_call3_v14 : Ref sig .tc := ⟨.hbm, 199, rfl⟩
abbrev main_call3_cst : Ref sig .tc := ⟨.hbm, 200, rfl⟩
abbrev main_call3_v15 : Ref sig .tc := ⟨.hbm, 201, rfl⟩
abbrev main_v90 : Ref sig .tc := ⟨.hbm, 202, rfl⟩
abbrev main_v91 : Ref sig .tc := ⟨.hbm, 203, rfl⟩
abbrev main_v92 : Ref sig .tc := ⟨.hbm, 204, rfl⟩
abbrev main_cst_1 : Ref sig .tc := ⟨.hbm, 205, rfl⟩
abbrev main_v93 : Ref sig .tc := ⟨.hbm, 206, rfl⟩
abbrev main_cst_2 : Ref sig .tc := ⟨.hbm, 207, rfl⟩
abbrev main_v94 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc3_stg11_0 : Ref sig .tc := ⟨.vmem, 33, rfl⟩
abbrev cc3_stg12_0 : Ref sig .tc := ⟨.vmem, 34, rfl⟩
abbrev cc3_stg13_0 : Ref sig .tc := ⟨.vmem, 35, rfl⟩
abbrev cc3_stg14_0 : Ref sig .tc := ⟨.vmem, 36, rfl⟩
abbrev cc3_stg14_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg7_0 : Ref sig .tc := ⟨.vmem, 61, rfl⟩
abbrev cc6_stg8_0 : Ref sig .tc := ⟨.vmem, 62, rfl⟩
abbrev cc6_stg9_0 : Ref sig .tc := ⟨.vmem, 63, rfl⟩
abbrev cc6_stg10_0 : Ref sig .tc := ⟨.vmem, 64, rfl⟩
abbrev cc6_stg11_0 : Ref sig .tc := ⟨.vmem, 65, rfl⟩
abbrev cc6_stg12_0 : Ref sig .tc := ⟨.vmem, 66, rfl⟩
abbrev cc6_stg13_0 : Ref sig .tc := ⟨.vmem, 67, rfl⟩
abbrev cc6_stg14_0 : Ref sig .tc := ⟨.vmem, 68, rfl⟩
abbrev cc6_stg14_1 : Ref sig .tc := ⟨.vmem, 69, rfl⟩
abbrev cc7_stg0_0 : Ref sig .tc := ⟨.vmem, 70, rfl⟩
abbrev cc7_stg1_0 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg6_0 : Ref sig .tc := ⟨.vmem, 76, rfl⟩
abbrev cc7_stg7_0 : Ref sig .tc := ⟨.vmem, 77, rfl⟩
abbrev cc7_stg8_0 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem9_0 : DmaSem sig := 31
abbrev cc3_sem10_0 : DmaSem sig := 32
abbrev cc3_sem11_0 : DmaSem sig := 33
abbrev cc3_sem12_0 : DmaSem sig := 34
abbrev cc3_sem13_0 : DmaSem sig := 35
abbrev cc3_sem14_0 : DmaSem sig := 36
abbrev cc3_sem14_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem7_0 : DmaSem sig := 61
abbrev cc6_sem8_0 : DmaSem sig := 62
abbrev cc6_sem9_0 : DmaSem sig := 63
abbrev cc6_sem10_0 : DmaSem sig := 64
abbrev cc6_sem11_0 : DmaSem sig := 65
abbrev cc6_sem12_0 : DmaSem sig := 66
abbrev cc6_sem13_0 : DmaSem sig := 67
abbrev cc6_sem14_0 : DmaSem sig := 68
abbrev cc6_sem14_1 : DmaSem sig := 69
abbrev cc7_sem0_0 : DmaSem sig := 70
abbrev cc7_sem1_0 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem6_0 : DmaSem sig := 76
abbrev cc7_sem7_0 : DmaSem sig := 77
abbrev cc7_sem8_0 : DmaSem sig := 78

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12800x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12800x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S12800x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S4000x64 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12800x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S12800x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S12800x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_9 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_10 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_11 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_12 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_13 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_14 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S64 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S64 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S64 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S64 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S64 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 2 → Memref sig .tc .vmem S4000x64 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S8192x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S8192x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S8192x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S256x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S8192x1 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![true]

abbrev stage7_8 : Fin 1 → Memref sig .tc .vmem S8192x1 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![true]

class Facts₀ : Prop where
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  broadcasts_S1x64_S10000x64 : S1x64.Broadcasts S10000x64
  slices_S2x64x1_S1x64x1_0_0_0 : S2x64x1.Slices ![0, 0, 0] S1x64x1
  shapeCasts_S1x64x1_S64x1 : S1x64x1.ShapeCasts S64x1
  transposes_S64x1_S1x64_1_0 : S64x1.Transposes [1, 0] S1x64
  slices_S2x1_S1x1_0_0 : S2x1.Slices ![0, 0] S1x1
  shapeCasts_S1x1_S1 : S1x1.ShapeCasts S1
  inb_S12800x64_S12800x64_0_0 : ∀ a, (![0, 0] : Fin 2 → Nat) a + S12800x64.size a ≤ S12800x64.size a
  h_S12800x64 : 0 < S12800x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  reduces_S12800x64_S12800 : S12800x64.Reduces [1] S12800
  shapeCasts_S12800_S12800x1 : S12800.ShapeCasts S12800x1
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S12800x1 : S1x1.Broadcasts S12800x1
  inb_S12800x1_S12800x1_0_0 : ∀ a, (![0, 0] : Fin 2 → Nat) a + S12800x1.size a ≤ S12800x1.size a
  h_S12800x1 : 0 < S12800x1.numel
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  slices_S2x1600000_S1x1600000_1_0 : S2x1600000.Slices ![1, 0] S1x1600000
  bcast_S_S100000x64 : S_.BroadcastsInDim S100000x64 (![] : Fin 0 → Fin S100000x64.rank)
  slices_S2x192x64_S1x192x64_0_0_0 : S2x192x64.Slices ![0, 0, 0] S1x192x64
  shapeCasts_S1x192x64_S192x64 : S1x192x64.ShapeCasts S192x64
  slices_S2x192_S1x192_0_0 : S2x192.Slices ![0, 0] S1x192
  shapeCasts_S1x192_S192 : S1x192.ShapeCasts S192
  transposes_S192x64_S64x192_1_0 : S192x64.Transposes [1, 0] S64x192
  slices_S64x192_S64x64_0_0 : S64x192.Slices ![0, 0] S64x64
  slices_S64x192_S64x64_0_64 : S64x192.Slices ![0, 64] S64x64
  slices_S64x192_S64x64_0_128 : S64x192.Slices ![0, 128] S64x64
  slices_S192_S64_0 : S192.Slices ![0] S64
  slices_S192_S64_64 : S192.Slices ![64] S64
  slices_S192_S64_128 : S192.Slices ![128] S64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  slices_S2x64x64_S1x64x64_1_0_0 : S2x64x64.Slices ![1, 0, 0] S1x64x64
  slices_S2x64_S1x64_1_0 : S2x64.Slices ![1, 0] S1x64
  slices_S2x64x1_S1x64x1_1_0_0 : S2x64x1.Slices ![1, 0, 0] S1x64x1
  slices_S2x1_S1x1_1_0 : S2x1.Slices ![1, 0] S1x1
  slices_S2x192x64_S1x192x64_1_0_0 : S2x192x64.Slices ![1, 0, 0] S1x192x64
  slices_S2x192_S1x192_1_0 : S2x192.Slices ![1, 0] S1x192
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x64_0 : S8192.BroadcastsInDim S8192x64 (![0] : Fin 1 → Fin S8192x64.rank)
  bcast_S_S8192x64 : S_.BroadcastsInDim S8192x64 (![] : Fin 0 → Fin S8192x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  concatenates_S8192x64_S8192x64_S8192x64_S8192x64_S8192x256_d1 : Shape.Concatenates [S8192x64, S8192x64, S8192x64, S8192x64] S8192x256 1
  inb_S256x64_S256x64_0_0 : ∀ a, (![0, 0] : Fin 2 → Nat) a + S256x64.size a ≤ S256x64.size a
  h_S256x64 : 0 < S256x64.numel
  broadcasts_S1x64_S8192x64 : S1x64.Broadcasts S8192x64
  inb_S64x1_S64x1_0_0 : ∀ a, (![0, 0] : Fin 2 → Nat) a + S64x1.size a ≤ S64x1.size a
  h_S64x1 : 0 < S64x1.numel
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reducesTo_S8192x1_S_d0_1 : S8192x1.ReducesTo [0, 1] S_
  dot_S2000x1024_S1024x64_S2000x64_1_0_0_1_n_n_wf : DotDims.WF S2000x1024 S1024x64 S2000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  gather_S100000x64_S8192x1_S8192x64_1_0_n_n_0_1_164_wf : GatherDims.WF S100000x64 S8192x1 S8192x64 [1] [0] [] [0] [] 1 ![1, 64]
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12800x64.size a ≤ S1600000x64.size a
  hwx2_0 : ∀ i : grid2.Coords, EltTy.bits .f32 = 32 ∨ (Rect.block (s := S1600000x64) S12800x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12800x64.size a ≤ S1600000x64.size a
  hwx2_1 : ∀ i : grid2.Coords, EltTy.bits .f32 = 32 ∨ (Rect.block (s := S1600000x64) S12800x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S12800x1.size a ≤ S1600000x1.size a
  hwx2_4 : ∀ i : grid2.Coords, EltTy.bits .f32 = 32 ∨ (Rect.block (s := S1600000x1) S12800x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64.size a ≤ S64.size a
  hwx3_8 : ∀ i : grid3.Coords, EltTy.bits .f32 = 32 ∨ (Rect.block (s := S64) S64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64.size a ≤ S64.size a
  hwx3_9 : ∀ i : grid3.Coords, EltTy.bits .f32 = 32 ∨ (Rect.block (s := S64) S64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64.size a ≤ S64.size a
  hwx3_10 : ∀ i : grid3.Coords, EltTy.bits .f32 = 32 ∨ (Rect.block (s := S64) S64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S64.size a ≤ S64.size a
  hwx3_11 : ∀ i : grid3.Coords, EltTy.bits .f32 = 32 ∨ (Rect.block (s := S64) S64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S64.size a ≤ S64.size a
  hwx3_12 : ∀ i : grid3.Coords, EltTy.bits .f32 = 32 ∨ (Rect.block (s := S64) S64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S64.size a ≤ S64.size a
  hwx3_13 : ∀ i : grid3.Coords, EltTy.bits .f32 = 32 ∨ (Rect.block (s := S64) S64.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S4000x64.size a ≤ S100000x64.size a
  hwx3_14 : ∀ i : grid3.Coords, EltTy.bits .f32 = 32 ∨ (Rect.block (s := S100000x64) S4000x64.size (cc3_transform_14 i) (hinb3_14 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S12800x64.size a ≤ S1600000x64.size a
  hwx5_0 : ∀ i : grid5.Coords, EltTy.bits .f32 = 32 ∨ (Rect.block (s := S1600000x64) S12800x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S12800x64.size a ≤ S1600000x64.size a
  hwx5_1 : ∀ i : grid5.Coords, EltTy.bits .f32 = 32 ∨ (Rect.block (s := S1600000x64) S12800x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1.size a ≤ S1.size a
  hwx5_3 : ∀ i : grid5.Coords, EltTy.bits .f32 = 32 ∨ (Rect.block (s := S1) S1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S12800x1.size a ≤ S1600000x1.size a
  hwx5_4 : ∀ i : grid5.Coords, EltTy.bits .f32 = 32 ∨ (Rect.block (s := S1600000x1) S12800x1.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x64.size a ≤ S100000x64.size a
  hwx6_1 : ∀ i : grid6.Coords, EltTy.bits .f32 = 32 ∨ (Rect.block (s := S100000x64) S4000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x64.size a ≤ S64x64.size a
  hwx6_6 : ∀ i : grid6.Coords, EltTy.bits .f32 = 32 ∨ (Rect.block (s := S64x64) S64x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x64.size a ≤ S64x64.size a
  hwx6_7 : ∀ i : grid6.Coords, EltTy.bits .f32 = 32 ∨ (Rect.block (s := S64x64) S64x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S64.size a ≤ S64.size a
  hwx6_8 : ∀ i : grid6.Coords, EltTy.bits .f32 = 32 ∨ (Rect.block (s := S64) S64.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S64.size a ≤ S64.size a
  hwx6_9 : ∀ i : grid6.Coords, EltTy.bits .f32 = 32 ∨ (Rect.block (s := S64) S64.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S64.size a ≤ S64.size a
  hwx6_10 : ∀ i : grid6.Coords, EltTy.bits .f32 = 32 ∨ (Rect.block (s := S64) S64.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S64.size a ≤ S64.size a
  hwx6_11 : ∀ i : grid6.Coords, EltTy.bits .f32 = 32 ∨ (Rect.block (s := S64) S64.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S64.size a ≤ S64.size a
  hwx6_12 : ∀ i : grid6.Coords, EltTy.bits .f32 = 32 ∨ (Rect.block (s := S64) S64.size (cc6_transform_12 i) (hinb6_12 i)).WholeWords (EltTy.packing .f32)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S64.size a ≤ S64.size a
  hwx6_13 : ∀ i : grid6.Coords, EltTy.bits .f32 = 32 ∨ (Rect.block (s := S64) S64.size (cc6_transform_13 i) (hinb6_13 i)).WholeWords (EltTy.packing .f32)
  hstage6_14 : ∀ j, (stage6_14 j).IsWhole
  nbuf6_14 : grid6.bufCount reads6_14 false = 2
  hreads6_14 : ∀ i i' : grid6.Coords, (∀ a, reads6_14 a = true → i a = i' a) → cc6_transform_14 i = cc6_transform_14 i'
  hinb6_14 : ∀ (i : grid6.Coords) a, (cc6_transform_14 i a + 1) * S4000x64.size a ≤ S100000x64.size a
  hwx6_14 : ∀ i : grid6.Coords, EltTy.bits .f32 = 32 ∨ (Rect.block (s := S100000x64) S4000x64.size (cc6_transform_14 i) (hinb6_14 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S8192x64.size a ≤ S8192x64.size a
  hwx7_0 : ∀ i : grid7.Coords, EltTy.bits .f32 = 32 ∨ (Rect.block (s := S8192x64) S8192x64.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S8192x64.size a ≤ S8192x64.size a
  hwx7_1 : ∀ i : grid7.Coords, EltTy.bits .f32 = 32 ∨ (Rect.block (s := S8192x64) S8192x64.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S8192x64.size a ≤ S8192x64.size a
  hwx7_2 : ∀ i : grid7.Coords, EltTy.bits .f32 = 32 ∨ (Rect.block (s := S8192x64) S8192x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x64.size a ≤ S256x64.size a
  hwx7_3 : ∀ i : grid7.Coords, EltTy.bits .f32 = 32 ∨ (Rect.block (s := S256x64) S256x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64.size a ≤ S64.size a
  hwx7_4 : ∀ i : grid7.Coords, EltTy.bits .f32 = 32 ∨ (Rect.block (s := S64) S64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x1.size a ≤ S64x1.size a
  hwx7_5 : ∀ i : grid7.Coords, EltTy.bits .f32 = 32 ∨ (Rect.block (s := S64x1) S64x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1.size a ≤ S1.size a
  hwx7_6 : ∀ i : grid7.Coords, EltTy.bits .f32 = 32 ∨ (Rect.block (s := S1) S1.size (cc7_transform_6 i) (hinb7_6 i)).WholeWords (EltTy.packing .f32)
  hstage7_7 : ∀ j, (stage7_7 j).IsWhole
  nbuf7_7 : grid7.bufCount reads7_7 false = 1
  hreads7_7 : ∀ i i' : grid7.Coords, (∀ a, reads7_7 a = true → i a = i' a) → cc7_transform_7 i = cc7_transform_7 i'
  hinb7_7 : ∀ (i : grid7.Coords) a, (cc7_transform_7 i a + 1) * S8192x1.size a ≤ S8192x1.size a
  hwx7_7 : ∀ i : grid7.Coords, EltTy.bits .f32 = 32 ∨ (Rect.block (s := S8192x1) S8192x1.size (cc7_transform_7 i) (hinb7_7 i)).WholeWords (EltTy.packing .f32)
  hstage7_8 : ∀ j, (stage7_8 j).IsWhole
  nbuf7_8 : grid7.bufCount reads7_8 false = 1
  hreads7_8 : ∀ i i' : grid7.Coords, (∀ a, reads7_8 a = true → i a = i' a) → cc7_transform_8 i = cc7_transform_8 i'
  hinb7_8 : ∀ (i : grid7.Coords) a, (cc7_transform_8 i a + 1) * S8192x1.size a ≤ S8192x1.size a
  hwx7_8 : ∀ i : grid7.Coords, EltTy.bits .f32 = 32 ∨ (Rect.block (s := S8192x1) S8192x1.size (cc7_transform_8 i) (hinb7_8 i)).WholeWords (EltTy.packing .f32)

variable [Facts₀]

def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S12800x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S12800x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S12800x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v21) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v36) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v37) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v38) S64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v39) S64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v40) S64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v41) S64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v42) S64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v43) S64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v44) S4000x64.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

abbrev win4_0 : Pipeline.Window sig grid4 :=
  Pipeline.Window.ofSpec (Memref.whole main_v44) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg2) S12800x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg3) S12800x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v55) S12800x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v65) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v44) S4000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v76) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v78) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v79) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v80) S64x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v81) S64x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v82) S64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v83) S64.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v84) S64.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v85) S64.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v86) S64.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v87) S64.size cc6_transform_13 reads6_13 false true 1 stage6_13 sem6_13
    hrank6 hreads6_13 hinb6_13 nbuf6_13 (Memref.isWhole_whole _) hwx6_13 hstage6_13

abbrev win6_14 : Pipeline.Window sig grid6 :=
  Pipeline.Window.ofSpec (Memref.whole main_v88) S4000x64.size cc6_transform_14 reads6_14 true false 2 stage6_14 sem6_14
    hrank6 hreads6_14 hinb6_14 nbuf6_14 (Memref.isWhole_whole _) hwx6_14 hstage6_14

abbrev win6 : Fin 15 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | ⟨_ + 15, h⟩ => absurd h (Nat.not_lt.2 (Nat.le_add_left _ _))
abbrev spec6 : Fin 15 → Pipeline.WinSpec sig grid6.rank := fun w => (win6 w).toWinSpec

abbrev win7_0 : Pipeline.Window sig grid7 :=
  Pipeline.Window.ofSpec (Memref.whole main_v89) S8192x64.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v90) S8192x64.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_arg7) S8192x64.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_arg18) S256x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg19) S64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg20) S64x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg21) S1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v91) S8192x1.size cc7_transform_7 reads7_7 false false 1 stage7_7 sem7_7
    hrank7 hreads7_7 hinb7_7 nbuf7_7 (Memref.isWhole_whole _) hwx7_7 hstage7_7

abbrev win7_8 : Pipeline.Window sig grid7 :=
  Pipeline.Window.ofSpec (Memref.whole main_v92) S8192x1.size cc7_transform_8 reads7_8 true false 1 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S100000x1024 : Shape := ⟨2, ![100000, 1024]⟩
abbrev S2x1600000 : Shape := ⟨2, ![2, 1600000]⟩
abbrev S1600000x64 : Shape := ⟨2, ![1600000, 64]⟩
abbrev S8192 : Shape := ⟨1, ![8192]⟩
abbrev S8192x64 : Shape := ⟨2, ![8192, 64]⟩
abbrev S1024x64 : Shape := ⟨2, ![1024, 64]⟩
abbrev S64 : Shape := ⟨1, ![64]⟩
abbrev S2x64x64 : Shape := ⟨3, ![2, 64, 64]⟩
abbrev S2x64 : Shape := ⟨2, ![2, 64]⟩
abbrev S2x64x1 : Shape := ⟨3, ![2, 64, 1]⟩
abbrev S2x1 : Shape := ⟨2, ![2, 1]⟩
abbrev S2x192x64 : Shape := ⟨3, ![2, 192, 64]⟩
abbrev S2x192 : Shape := ⟨2, ![2, 192]⟩
abbrev S256x64 : Shape := ⟨2, ![256, 64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S1x64x1 : Shape := ⟨3, ![1, 64, 1]⟩
abbrev S1x1 : Shape := ⟨2, ![1, 1]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S1600000x1 : Shape := ⟨2, ![1600000, 1]⟩
abbrev S_ : Shape := ⟨0, ![]⟩
abbrev S1x1600000 : Shape := ⟨2, ![1, 1600000]⟩
abbrev S1600000 : Shape := ⟨1, ![1600000]⟩
abbrev S64x192 : Shape := ⟨2, ![64, 192]⟩
abbrev S100000x192 : Shape := ⟨2, ![100000, 192]⟩
abbrev S8192x1 : Shape := ⟨2, ![8192, 1]⟩
abbrev S8192x256 : Shape := ⟨2, ![8192, 256]⟩

abbrev nBuf : Space → Nat
  | .hbm => 262
  | .vmem => 0
  | .smem => 0
  | _ => 0

abbrev hbmTy0_0 (i : Nat) : BufTy := match i % 128 with
  | 0 => ⟨S100000x1024, .f32⟩
  | 1 => ⟨S2x1600000, .i32⟩
  | 2 => ⟨S1600000x64, .f32⟩
  | 3 => ⟨S1600000x64, .f32⟩
  | 4 => ⟨S8192, .i32⟩
  | 5 => ⟨S8192, .i32⟩
  | 6 => ⟨S8192, .f32⟩
  | 7 => ⟨S8192x64, .f32⟩
  | 8 => ⟨S1024x64, .f32⟩
  | 9 => ⟨S64, .f32⟩
  | 10 => ⟨S2x64x64, .f32⟩
  | 11 => ⟨S2x64, .f32⟩
  | 12 => ⟨S2x64x1, .f32⟩
  | 13 => ⟨S2x1, .f32⟩
  | 14 => ⟨S2x192x64, .f32⟩
  | 15 => ⟨S2x192x64, .f32⟩
  | 16 => ⟨S2x192, .f32⟩
  | 17 => ⟨S2x192, .f32⟩
  | 18 => ⟨S256x64, .f32⟩
  | 19 => ⟨S64, .f32⟩
  | 20 => ⟨S64x1, .f32⟩
  | 21 => ⟨S1, .f32⟩
  | 22 => ⟨S100000x64, .f32⟩
  | 23 => ⟨S1x64, .f32⟩
  | 24 => ⟨S100000x64, .f32⟩
  | 25 => ⟨S100000x64, .f32⟩
  | 26 => ⟨S1x64x64, .f32⟩
  | 27 => ⟨S64x64, .f32⟩
  | 28 => ⟨S1x64, .f32⟩
  | 29 => ⟨S64, .f32⟩
  | 30 => ⟨S1x64x1, .f32⟩
  | 31 => ⟨S64x1, .f32⟩
  | 32 => ⟨S1x1, .f32⟩
  | 33 => ⟨S1, .f32⟩
  | 34 => ⟨S1x192x64, .f32⟩
  | 35 => ⟨S192x64, .f32⟩
  | 36 => ⟨S1x192x64, .f32⟩
  | 37 => ⟨S192x64, .f32⟩
  | 38 => ⟨S1x192, .f32⟩
  | 39 => ⟨S192, .f32⟩
  | 40 => ⟨S1x192, .f32⟩
  | 41 => ⟨S192, .f32⟩
  | 42 => ⟨S1600000x64, .f32⟩
  | 43 => ⟨S1600000x1, .f32⟩
  | 44 => ⟨S1x1, .f32⟩
  | 45 => ⟨S1600000x1, .f32⟩
  | 46 => ⟨S1600000x1, .f32⟩
  | 47 => ⟨S1600000x1, .f32⟩
  | 48 => ⟨S1600000x1, .f32⟩
  | 49 => ⟨S_, .f32⟩
  | 50 => ⟨S1600000x1, .f32⟩
  | 51 => ⟨S1600000x1, .f32⟩
  | 52 => ⟨S_, .f32⟩
  | 53 => ⟨S1600000x1, .f32⟩
  | 54 => ⟨S1600000x1, .f32⟩
  | 55 => ⟨S1x1600000, .i32⟩
  | 56 => ⟨S1600000, .i32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x64, .f32⟩
  | 67 => ⟨S1x64, .f32⟩
  | 68 => ⟨S1600000x64, .f32⟩
  | 69 => ⟨S1600000x64, .f32⟩
  | 70 => ⟨S1600000x64, .f32⟩
  | 71 => ⟨S1600000x64, .f32⟩
  | 72 => ⟨S1x1600000, .i32⟩
  | 73 => ⟨S1600000, .i32⟩
  | 74 => ⟨S_, .f32⟩
  | 75 => ⟨S100000x64, .f32⟩
  | 76 => ⟨S1600000x1, .i32⟩
  | 77 => ⟨S100000x64, .f32⟩
  | 78 => ⟨S64x192, .f32⟩
  | 79 => ⟨S100000x192, .f32⟩
  | 80 => ⟨S1x192, .f32⟩
  | 81 => ⟨S100000x192, .f32⟩
  | 82 => ⟨S100000x192, .f32⟩
  | 83 => ⟨S64x192, .f32⟩
  | 84 => ⟨S100000x192, .f32⟩
  | 85 => ⟨S1x192, .f32⟩
  | 86 => ⟨S100000x192, .f32⟩
  | 87 => ⟨S100000x192, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S100000x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S100000x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S100000x64, .f32⟩
  | 119 => ⟨S100000x64, .f32⟩
  | 120 => ⟨S100000x64, .f32⟩
  | 121 => ⟨S1x64x64, .f32⟩
  | 122 => ⟨S64x64, .f32⟩
  | 123 => ⟨S1x64, .f32⟩
  | 124 => ⟨S64, .f32⟩
  | 125 => ⟨S1x64x1, .f32⟩
  | 126 => ⟨S64x1, .f32⟩
  | 127 => ⟨S1x1, .f32⟩
  | _ => ⟨S100000x1024, .f32⟩

abbrev hbmTy0_1 (i : Nat) : BufTy := match i % 128 with
  | 0 => ⟨S1, .f32⟩
  | 1 => ⟨S1x192x64, .f32⟩
  | 2 => ⟨S192x64, .f32⟩
  | 3 => ⟨S1x192x64, .f32⟩
  | 4 => ⟨S192x64, .f32⟩
  | 5 => ⟨S1x192, .f32⟩
  | 6 => ⟨S192, .f32⟩
  | 7 => ⟨S1x192, .f32⟩
  | 8 => ⟨S192, .f32⟩
  | 9 => ⟨S1600000x64, .f32⟩
  | 10 => ⟨S1600000x1, .f32⟩
  | 11 => ⟨S1x1, .f32⟩
  | 12 => ⟨S1600000x1, .f32⟩
  | 13 => ⟨S1600000x1, .f32⟩
  | 14 => ⟨S1600000x1, .f32⟩
  | 15 => ⟨S1600000x1, .f32⟩
  | 16 => ⟨S_, .f32⟩
  | 17 => ⟨S1600000x1, .f32⟩
  | 18 => ⟨S1600000x1, .f32⟩
  | 19 => ⟨S_, .f32⟩
  | 20 => ⟨S1600000x1, .f32⟩
  | 21 => ⟨S1600000x1, .f32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x64, .f32⟩
  | 34 => ⟨S1x64, .f32⟩
  | 35 => ⟨S1600000x64, .f32⟩
  | 36 => ⟨S1600000x64, .f32⟩
  | 37 => ⟨S1600000x64, .f32⟩
  | 38 => ⟨S1600000x64, .f32⟩
  | 39 => ⟨S1x1600000, .i32⟩
  | 40 => ⟨S1600000, .i32⟩
  | 41 => ⟨S_, .f32⟩
  | 42 => ⟨S100000x64, .f32⟩
  | 43 => ⟨S1600000x1, .i32⟩
  | 44 => ⟨S100000x64, .f32⟩
  | 45 => ⟨S64x192, .f32⟩
  | 46 => ⟨S100000x192, .f32⟩
  | 47 => ⟨S1x192, .f32⟩
  | 48 => ⟨S100000x192, .f32⟩
  | 49 => ⟨S100000x192, .f32⟩
  | 50 => ⟨S64x192, .f32⟩
  | 51 => ⟨S100000x192, .f32⟩
  | 52 => ⟨S1x192, .f32⟩
  | 53 => ⟨S100000x192, .f32⟩
  | 54 => ⟨S100000x192, .f32⟩
  | 55 => ⟨S100000x64, .f32⟩
  | 56 => ⟨S100000x64, .f32⟩
  | 57 => ⟨S100000x64, .f32⟩
  | 58 => ⟨S100000x64, .f32⟩
  | 59 => ⟨S100000x64, .f32⟩
  | 60 => ⟨S100000x64, .f32⟩
  | 61 => ⟨S100000x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S100000x64, .f32⟩
  | 87 => ⟨S100000x64, .f32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S8192x64, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S8192x64, .f32⟩
  | 106 => ⟨S8192x64, .f32⟩
  | 107 => ⟨S8192x256, .f32⟩
  | 108 => ⟨S8192x64, .f32⟩
  | 109 => ⟨S1x64, .f32⟩
  | 110 => ⟨S8192x64, .f32⟩
  | 111 => ⟨S8192x64, .f32⟩
  | 112 => ⟨S_, .f32⟩
  | 113 => ⟨S8192x64, .f32⟩
  | 114 => ⟨S8192x64, .f32⟩
  | 115 => ⟨S8192x1, .f32⟩
  | 116 => ⟨S1x1, .f32⟩
  | 117 => ⟨S8192x1, .f32⟩
  | 118 => ⟨S8192x1, .f32⟩
  | 119 => ⟨S8192, .f32⟩
  | 120 => ⟨S_, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S100000x1024, .f32⟩

abbrev hbmTy0_2 (i : Nat) : BufTy := match i % 128 with
  | 0 => ⟨S8192, .f32⟩
  | 1 => ⟨S8192, .f32⟩
  | 2 => ⟨S_, .f32⟩
  | 3 => ⟨S_, .f32⟩
  | 4 => ⟨S_, .f32⟩
  | 5 => ⟨S_, .f32⟩
  | _ => ⟨S100000x1024, .f32⟩

abbrev hbmTy (i : Nat) : BufTy := match i / 128 with
  | 0 => hbmTy0_0 i
  | 1 => hbmTy0_1 i
  | 2 => hbmTy0_2 i
  | _ => ⟨S100000x1024, .f32⟩

abbrev bufTy : (tb : Table) → Fin (tcTables nBuf tb) → BufTy
  | .hbm, ⟨i, _⟩ => hbmTy i
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_cst_0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c : Ref sig .tc := ⟨.hbm, 57, rfl⟩
abbrev main_v33 : Ref sig .tc := ⟨.hbm, 58, rfl⟩
abbrev main_v34 : Ref sig .tc := ⟨.hbm, 59, rfl⟩
abbrev main_c_1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_2 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_3 : Ref sig .tc := ⟨.hbm, 97, rfl⟩
abbrev main_v70 : Ref sig .tc := ⟨.hbm, 98, rfl⟩
abbrev main_v71 : Ref sig .tc := ⟨.hbm, 99, rfl⟩
abbrev main_cst_4 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_5 : Ref sig .tc := ⟨.hbm, 106, rfl⟩
abbrev main_v77 : Ref sig .tc := ⟨.hbm, 107, rfl⟩
abbrev main_v78 : Ref sig .tc := ⟨.hbm, 108, rfl⟩
abbrev main_cst_6 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_7 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_8 : Ref sig .tc := ⟨.hbm, 144, rfl⟩
abbrev main_v112 : Ref sig .tc := ⟨.hbm, 145, rfl⟩
abbrev main_v113 : Ref sig .tc := ⟨.hbm, 146, rfl⟩
abbrev main_cst_9 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_c_10 : Ref sig .tc := ⟨.hbm, 152, rfl⟩
abbrev main_v118 : Ref sig .tc := ⟨.hbm, 153, rfl⟩
abbrev main_v119 : Ref sig .tc := ⟨.hbm, 154, rfl⟩
abbrev main_c_11 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_12 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_13 : Ref sig .tc := ⟨.hbm, 192, rfl⟩
abbrev main_v155 : Ref sig .tc := ⟨.hbm, 193, rfl⟩
abbrev main_v156 : Ref sig .tc := ⟨.hbm, 194, rfl⟩
abbrev main_cst_14 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_15 : Ref sig .tc := ⟨.hbm, 201, rfl⟩
abbrev main_v162 : Ref sig .tc := ⟨.hbm, 202, rfl⟩
abbrev main_v163 : Ref sig .tc := ⟨.hbm, 203, rfl⟩
abbrev main_cst_16 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_cst_17 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_c_18 : Ref sig .tc := ⟨.hbm, 216, rfl⟩
abbrev main_v174 : Ref sig .tc := ⟨.hbm, 217, rfl⟩
abbrev main_v175 : Ref sig .tc := ⟨.hbm, 218, rfl⟩
abbrev main_c_19 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_c_20 : Ref sig .tc := ⟨.hbm, 225, rfl⟩
abbrev main_v181 : Ref sig .tc := ⟨.hbm, 226, rfl⟩
abbrev main_v182 : Ref sig .tc := ⟨.hbm, 227, rfl⟩
abbrev main_c_21 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_call0_cst : Ref sig .tc := ⟨.hbm, 240, rfl⟩
abbrev main_call0_v0 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_cst_22 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_cst_23 : Ref sig .tc := ⟨.hbm, 258, rfl⟩
abbrev main_v209 : Ref sig .tc := ⟨.hbm, 259, rfl⟩
abbrev main_cst_24 : Ref sig .tc := ⟨.hbm, 260, rfl⟩
abbrev main_v210 : Ref sig .tc := ⟨.hbm, 261, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x1_S1x64x1_0_0_0 : S2x64x1.Slices ![0, 0, 0] S1x64x1
  shapeCasts_S1x64x1_S64x1 : S1x64x1.ShapeCasts S64x1
  slices_S2x1_S1x1_0_0 : S2x1.Slices ![0, 0] S1x1
  shapeCasts_S1x1_S1 : S1x1.ShapeCasts S1
  slices_S2x192x64_S1x192x64_0_0_0 : S2x192x64.Slices ![0, 0, 0] S1x192x64
  shapeCasts_S1x192x64_S192x64 : S1x192x64.ShapeCasts S192x64
  slices_S2x192_S1x192_0_0 : S2x192.Slices ![0, 0] S1x192
  shapeCasts_S1x192_S192 : S1x192.ShapeCasts S192
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1x64_S1600000x64_0_1 : S1x64.BroadcastsInDim S1600000x64 (![0, 1] : Fin 2 → Fin S1600000x64.rank)
  bcast_S1600000x1_S1600000x64_0_1 : S1600000x1.BroadcastsInDim S1600000x64 (![0, 1] : Fin 2 → Fin S1600000x64.rank)
  slices_S2x1600000_S1x1600000_1_0 : S2x1600000.Slices ![1, 0] S1x1600000
  bcast_S_S100000x64 : S_.BroadcastsInDim S100000x64 (![] : Fin 0 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  slices_S2x64x64_S1x64x64_1_0_0 : S2x64x64.Slices ![1, 0, 0] S1x64x64
  slices_S2x64_S1x64_1_0 : S2x64.Slices ![1, 0] S1x64
  slices_S2x64x1_S1x64x1_1_0_0 : S2x64x1.Slices ![1, 0, 0] S1x64x1
  slices_S2x1_S1x1_1_0 : S2x1.Slices ![1, 0] S1x1
  slices_S2x192x64_S1x192x64_1_0_0 : S2x192x64.Slices ![1, 0, 0] S1x192x64
  slices_S2x192_S1x192_1_0 : S2x192.Slices ![1, 0] S1x192
  bcast_S_S8192 : S_.BroadcastsInDim S8192 (![] : Fin 0 → Fin S8192.rank)
  bcast_S8192_S8192x1_0 : S8192.BroadcastsInDim S8192x1 (![0] : Fin 1 → Fin S8192x1.rank)
  concatenates_S8192x64_S8192x64_S8192x64_S8192x64_S8192x256_d1 : Shape.Concatenates [S8192x64, S8192x64, S8192x64, S8192x64] S8192x256 1
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1x1_S8192x1_0_1 : S1x1.BroadcastsInDim S8192x1 (![0, 1] : Fin 2 → Fin S8192x1.rank)
  shapeCasts_S8192x1_S8192 : S8192x1.ShapeCasts S8192
  reducesTo_S8192_S_d0 : S8192.ReducesTo [0] S_
  h_S_ : 0 < S_.numel
  dot_S100000x1024_S1024x64_S100000x64_1_0_0_1_n_n_wf : DotDims.WF S100000x1024 S1024x64 S100000x64 [1] [0] [0] [1] [] []
  dot_S1600000x64_S64x1_S1600000x1_1_0_0_1_n_n_wf : DotDims.WF S1600000x64 S64x1 S1600000x1 [1] [0] [0] [1] [] []
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x64_S64x192_S100000x192_1_0_0_1_n_n_wf : DotDims.WF S100000x64 S64x192 S100000x192 [1] [0] [0] [1] [] []
  gather_S100000x64_S8192x1_S8192x64_1_0_n_n_0_1_164_wf : GatherDims.WF S100000x64 S8192x1 S8192x64 [1] [0] [] [0] [] 1 ![1, 64]
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []

variable [Facts₀]

def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.RRun.lean ====
/-
  The reference program's run, stage by stage.

  The program is a straight line of 240 host operations. Its list is cut at the three node tables: the projection
  (4 operations), the first layer (95), the second layer (95), the pair scorer's two row lookups and their product (19), the scorer from its feature
  rows on and the loss (27). Run from any
  memory, each stretch leaves its last buffer at the stage function of the arguments, GIVEN that the stretch
  before it left the node table it reads at its stage function; no stretch writes an argument. Chaining the five
  stretches gives the run: the result buffer holds the loss stage of the 22 arguments, the arguments unchanged.
  Reading the node table through its name at each stretch keeps the three reads per layer shared.
-/
import proofs.«422311_j73100343378050_3_alg».proof.Proof.RRead
import Idealize.ShloMosaic.Lib.StableHlo.Run

noncomputable section

namespace Cert.ReferenceIdeal.RRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]
/-- The projection: operations 1 to 4. -/
abbrev ops0 : List (HloOp τ sig (Elt F)) :=
  [ binary main_arg0 main_arg8 main_v0 ((fun l r => Host.dotGeneral dot_S100000x1024_S1024x64_S100000x64_1_0_0_1_n_n none l r) : (⟨S100000x1024, .f32⟩ : BufTy).Contents (Elt F) → (⟨S1024x64, .f32⟩ : BufTy).Contents (Elt F) → (⟨S100000x64, .f32⟩ : BufTy).Contents (Elt F)),
    unary main_arg9 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)) ]

/-- The first layer: operations 5 to 99. -/
abbrev ops1 : List (HloOp τ sig (Elt F)) :=
  [ unary main_arg10 main_v4 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v4 main_v5 rfl shapeCasts_S1x64x64_S64x64,
    unary main_arg11 main_v6 ((extractStridedSlice S1x64 ![0, 0] · slices_S2x64_S1x64_0_0) : (⟨S2x64, .f32⟩ : BufTy).Contents (Elt F) → (⟨S1x64, .f32⟩ : BufTy).Contents (Elt F)),
    reshape main_v6 main_v7 rfl shapeCasts_S1x64_S64,
    unary main_arg12 main_v8 ((extractStridedSlice S1x64x1 ![0, 0, 0] · slices_S2x64x1_S1x64x1_0_0_0) : (⟨S2x64x1, .f32⟩ : BufTy).Contents (Elt F) → (⟨S1x64x1, .f32⟩ : BufTy).Contents (Elt F)),
    reshape main_v8 main_v9 rfl shapeCasts_S1x64x1_S64x1,
    unary main_arg13 main_v10 ((extractStridedSlice S1x1 ![0, 0] · slices_S2x1_S1x1_0_0) : (⟨S2x1, .f32⟩ : BufTy).Contents (Elt F) → (⟨S1x1, .f32⟩ : BufTy).Contents (Elt F)),
    reshape main_v10 main_v11 rfl shapeCasts_S1x1_S1,
    unary main_arg14 main_v12 ((extractStridedSlice S1x192x64 ![0, 0, 0] · slices_S2x192x64_S1x192x64_0_0_0) : (⟨S2x192x64, .f32⟩ : BufTy).Contents (Elt F) → (⟨S1x192x64, .f32⟩ : BufTy).Contents (Elt F)),
    reshape main_v12 main_v13 rfl shapeCasts_S1x192x64_S192x64,
    unary main_arg15 main_v14 ((extractStridedSlice S1x192x64 ![0, 0, 0] · slices_S2x192x64_S1x192x64_0_0_0) : (⟨S2x192x64, .f32⟩ : BufTy).Contents (Elt F) → (⟨S1x192x64, .f32⟩ : BufTy).Contents (Elt F)),
    reshape main_v14 main_v15 rfl shapeCasts_S1x192x64_S192x64,
    unary main_arg16 main_v16 ((extractStridedSlice S1x192 ![0, 0] · slices_S2x192_S1x192_0_0) : (⟨S2x192, .f32⟩ : BufTy).Contents (Elt F) → (⟨S1x192, .f32⟩ : BufTy).Contents (Elt F)),
    reshape main_v16 main_v17 rfl shapeCasts_S1x192_S192,
    unary main_arg17 main_v18 ((extractStridedSlice S1x192 ![0, 0] · slices_S2x192_S1x192_0_0) : (⟨S2x192, .f32⟩ : BufTy).Contents (Elt F) → (⟨S1x192, .f32⟩ : BufTy).Contents (Elt F)),
    reshape main_v18 main_v19 rfl shapeCasts_S1x192_S192,
    binary main_arg3 main_arg2 main_v20 (mulf : (⟨S1600000x64, .f32⟩ : BufTy).Contents (Elt F) → (⟨S1600000x64, .f32⟩ : BufTy).Contents (Elt F) → (⟨S1600000x64, .f32⟩ : BufTy).Contents (Elt F)),
    binary main_v20 main_v9 main_v21 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_v11 main_v22 (broadcastInDim S1x1 ![1] bcast_S1_S1x1_1 : (⟨S1, .f32⟩ : BufTy).Contents (Elt F) → (⟨S1x1, .f32⟩ : BufTy).Contents (Elt F)),
    unary main_v22 main_v23 (broadcastInDim S1600000x1 ![0, 1] bcast_S1x1_S1600000x1_0_1 : (⟨S1x1, .f32⟩ : BufTy).Contents (Elt F) → (⟨S1600000x1, .f32⟩ : BufTy).Contents (Elt F)),
    binary main_v21 main_v23 main_v24 (addf : (⟨S1600000x1, .f32⟩ : BufTy).Contents (Elt F) → (⟨S1600000x1, .f32⟩ : BufTy).Contents (Elt F) → (⟨S1600000x1, .f32⟩ : BufTy).Contents (Elt F)),
    unary main_v24 main_v25 (Host.negf : (⟨S1600000x1, .f32⟩ : BufTy).Contents (Elt F) → (⟨S1600000x1, .f32⟩ : BufTy).Contents (Elt F)),
    unary main_v25 main_v26 (Host.exp : (⟨S1600000x1, .f32⟩ : BufTy).Contents (Elt F) → (⟨S1600000x1, .f32⟩ : BufTy).Contents (Elt F)),
    nullary main_cst (constant S_ .f32 0x3F800000#32),
    unary main_cst main_v27 (broadcastInDim S1600000x1 ![] bcast_S_S1600000x1 : (⟨S_, .f32⟩ : BufTy).Contents (Elt F) → (⟨S1600000x1, .f32⟩ : BufTy).Contents (Elt F)),
    binary main_v27 main_v26 main_v28 (addf : (⟨S1600000x1, .f32⟩ : BufTy).Contents (Elt F) → (⟨S1600000x1, .f32⟩ : BufTy).Contents (Elt F) → (⟨S1600000x1, .f32⟩ : BufTy).Contents (Elt F)),
    nullary main_cst_0 (constant S_ .f32 0x3F800000#32),
    unary main_cst_0 main_v29 (broadcastInDim S1600000x1 ![] bcast_S_S1600000x1 : (⟨S_, .f32⟩ : BufTy).Contents (Elt F) → (⟨S1600000x1, .f32⟩ : BufTy).Contents (Elt F)),
    binary main_v29 main_v28 main_v30 (Host.divf : (⟨S1600000x1, .f32⟩ : BufTy).Contents (Elt F) → (⟨S1600000x1, .f32⟩ : BufTy).Contents (Elt F) → (⟨S1600000x1, .f32⟩ : BufTy).Contents (Elt F)),
    unary main_arg1 main_v31 ((extractStridedSlice S1x1600000 ![0, 0] · slices_S2x1600000_S1x1600000_0_0) : (⟨S2x1600000, .i32⟩ : BufTy).Contents (Elt F) → (⟨S1x1600000, .i32⟩ : BufTy).Contents (Elt F)),
    reshape main_v31 main_v32 rfl shapeCasts_S1x1600000_S1600000,
    nullary main_c (constantI S_ 32 0#32),
    unary main_c main_v33 (broadcastInDim S1600000 ![] bcast_S_S1600000 : (⟨S_, .i32⟩ : BufTy).Contents (Elt F) → (⟨S1600000, .i32⟩ : BufTy).Contents (Elt F)),
    binary main_v32 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v35 (broadcastInDim S1600000 ![] bcast_S_S1600000 : (⟨S_, .i32⟩ : BufTy).Contents (Elt F) → (⟨S1600000, .i32⟩ : BufTy).Contents (Elt F)),
    binary main_v32 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v32 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v3 main_v38 main_v39 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v39 main_v5 main_v40 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_v7 main_v41 (broadcastInDim S1x64 ![1] bcast_S64_S1x64_1 : (⟨S64, .f32⟩ : BufTy).Contents (Elt F) → (⟨S1x64, .f32⟩ : BufTy).Contents (Elt F)),
    unary main_v41 main_v42 (broadcastInDim S1600000x64 ![0, 1] bcast_S1x64_S1600000x64_0_1 : (⟨S1x64, .f32⟩ : BufTy).Contents (Elt F) → (⟨S1600000x64, .f32⟩ : BufTy).Contents (Elt F)),
    binary main_v40 main_v42 main_v43 (addf : (⟨S1600000x64, .f32⟩ : BufTy).Contents (Elt F) → (⟨S1600000x64, .f32⟩ : BufTy).Contents (Elt F) → (⟨S1600000x64, .f32⟩ : BufTy).Contents (Elt F)),
    unary main_v30 main_v44 (broadcastInDim S1600000x64 ![0, 1] bcast_S1600000x1_S1600000x64_0_1 : (⟨S1600000x1, .f32⟩ : BufTy).Contents (Elt F) → (⟨S1600000x64, .f32⟩ : BufTy).Contents (Elt F)),
    binary main_v44 main_v43 main_v45 (mulf : (⟨S1600000x64, .f32⟩ : BufTy).Contents (Elt F) → (⟨S1600000x64, .f32⟩ : BufTy).Contents (Elt F) → (⟨S1600000x64, .f32⟩ : BufTy).Contents (Elt F)),
    unary main_arg1 main_v46 ((extractStridedSlice S1x1600000 ![1, 0] · slices_S2x1600000_S1x1600000_1_0) : (⟨S2x1600000, .i32⟩ : BufTy).Contents (Elt F) → (⟨S1x1600000, .i32⟩ : BufTy).Contents (Elt F)),
    reshape main_v46 main_v47 rfl shapeCasts_S1x1600000_S1600000,
    nullary main_cst_2 (constant S_ .f32 0x00000000#32),
    unary main_cst_2 main_v48 (broadcastInDim S100000x64 ![] bcast_S_S100000x64 : (⟨S_, .f32⟩ : BufTy).Contents (Elt F) → (⟨S100000x64, .f32⟩ : BufTy).Contents (Elt F)),
    unary main_v47 main_v49 (broadcastInDim S1600000x1 ![0] bcast_S1600000_S1600000x1_0 : (⟨S1600000, .i32⟩ : BufTy).Contents (Elt F) → (⟨S1600000x1, .i32⟩ : BufTy).Contents (Elt F)),
    ternary main_v48 main_v49 main_v45 main_v50 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v13 main_v51 ((transpose S64x192 [1, 0] · transposes_S192x64_S64x192_1_0) : (⟨S192x64, .f32⟩ : BufTy).Contents (Elt F) → (⟨S64x192, .f32⟩ : BufTy).Contents (Elt F)),
    binary main_v50 main_v51 main_v52 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_v17 main_v53 (broadcastInDim S1x192 ![1] bcast_S192_S1x192_1 : (⟨S192, .f32⟩ : BufTy).Contents (Elt F) → (⟨S1x192, .f32⟩ : BufTy).Contents (Elt F)),
    unary main_v53 main_v54 (broadcastInDim S100000x192 ![0, 1] bcast_S1x192_S100000x192_0_1 : (⟨S1x192, .f32⟩ : BufTy).Contents (Elt F) → (⟨S100000x192, .f32⟩ : BufTy).Contents (Elt F)),
    binary main_v52 main_v54 main_v55 (addf : (⟨S100000x192, .f32⟩ : BufTy).Contents (Elt F) → (⟨S100000x192, .f32⟩ : BufTy).Contents (Elt F) → (⟨S100000x192, .f32⟩ : BufTy).Contents (Elt F)),
    unary main_v15 main_v56 ((transpose S64x192 [1, 0] · transposes_S192x64_S64x192_1_0) : (⟨S192x64, .f32⟩ : BufTy).Contents (Elt F) → (⟨S64x192, .f32⟩ : BufTy).Contents (Elt F)),
    binary main_v3 main_v56 main_v57 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_v19 main_v58 (broadcastInDim S1x192 ![1] bcast_S192_S1x192_1 : (⟨S192, .f32⟩ : BufTy).Contents (Elt F) → (⟨S1x192, .f32⟩ : BufTy).Contents (Elt F)),
    unary main_v58 main_v59 (broadcastInDim S100000x192 ![0, 1] bcast_S1x192_S100000x192_0_1 : (⟨S1x192, .f32⟩ : BufTy).Contents (Elt F) → (⟨S100000x192, .f32⟩ : BufTy).Contents (Elt F)),
    binary main_v57 main_v59 main_v60 (addf : (⟨S100000x192, .f32⟩ : BufTy).Contents (Elt F) → (⟨S100000x192, .f32⟩ : BufTy).Contents (Elt F) → (⟨S100000x192, .f32⟩ : BufTy).Contents (Elt F)),
    unary main_v55 main_v61 ((extractStridedSlice S100000x64 ![0, 0] · slices_S100000x192_S100000x64_0_0) : (⟨S100000x192, .f32⟩ : BufTy).Contents (Elt F) → (⟨S100000x64, .f32⟩ : BufTy).Contents (Elt F)),
    unary main_v55 main_v62 ((extractStridedSlice S100000x64 ![0, 64] · slices_S100000x192_S100000x64_0_64) : (⟨S100000x192, .f32⟩ : BufTy).Contents (Elt F) → (⟨S100000x64, .f32⟩ : BufTy).Contents (Elt F)),
    unary main_v55 main_v63 ((extractStridedSlice S100000x64 ![0, 128] · slices_S100000x192_S100000x64_0_128) : (⟨S100000x192, .f32⟩ : BufTy).Contents (Elt F) → (⟨S100000x64, .f32⟩ : BufTy).Contents (Elt F)),
    unary main_v60 main_v64 ((extractStridedSlice S100000x64 ![0, 0] · slices_S100000x192_S100000x64_0_0) : (⟨S100000x192, .f32⟩ : BufTy).Contents (Elt F) → (⟨S100000x64, .f32⟩ : BufTy).Contents (Elt F)),
    unary main_v60 main_v65 ((extractStridedSlice S100000x64 ![0, 64] · slices_S100000x192_S100000x64_0_64) : (⟨S100000x192, .f32⟩ : BufTy).Contents (Elt F) → (⟨S100000x64, .f32⟩ : BufTy).Contents (Elt F)),
    unary main_v60 main_v66 ((extractStridedSlice S100000x64 ![0, 128] · slices_S100000x192_S100000x64_0_128) : (⟨S100000x192, .f32⟩ : BufTy).Contents (Elt F) → (⟨S100000x64, .f32⟩ : BufTy).Contents (Elt F)),
    binary main_v61 main_v64 main_v67 (addf : (⟨S100000x64, .f32⟩ : BufTy).Contents (Elt F) → (⟨S100000x64, .f32⟩ : BufTy).Contents (Elt F) → (⟨S100000x64, .f32⟩ : BufTy).Contents (Elt F)),
    unary main_v67 main_v68 (Host.negf : (⟨S100000x64, .f32⟩ : BufTy).Contents (Elt F) → (⟨S100000x64, .f32⟩ : BufTy).Contents (Elt F)),
    unary main_v68 main_v69 (Host.exp : (⟨S100000x64, .f32⟩ : BufTy).Contents (Elt F) → (⟨S100000x64, .f32⟩ : BufTy).Contents (Elt F)),
    nullary main_cst_3 (constant S_ .f32 0x3F800000#32),
    unary main_cst_3 main_v70 (broadcastInDim S100000x64 ![] bcast_S_S100000x64 : (⟨S_, .f32⟩ : BufTy).Contents (Elt F) → (⟨S100000x64, .f32⟩ : BufTy).Contents (Elt F)),
    binary main_v70 main_v69 main_v71 (addf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3F800000#32),
    unary main_cst_4 main_v72 (broadcastInDim S100000x64 ![] bcast_S_S100000x64 : (⟨S_, .f32⟩ : BufTy).Contents (Elt F) → (⟨S100000x64, .f32⟩ : BufTy).Contents (Elt F)),
    binary main_v72 main_v71 main_v73 (Host.divf : (⟨S100000x64, .f32⟩ : BufTy).Contents (Elt F) → (⟨S100000x64, .f32⟩ : BufTy).Contents (Elt F) → (⟨S100000x64, .f32⟩ : BufTy).Contents (Elt F)),
    binary main_v62 main_v65 main_v74 (addf : (⟨S100000x64, .f32⟩ : BufTy).Contents (Elt F) → (⟨S100000x64, .f32⟩ : BufTy).Contents (Elt F) → (⟨S100000x64, .f32⟩ : BufTy).Contents (Elt F)),
    unary main_v74 main_v75 (Host.negf : (⟨S100000x64, .f32⟩ : BufTy).Contents (Elt F) → (⟨S100000x64, .f32⟩ : BufTy).Contents (Elt F)),
    unary main_v75 main_v76 (Host.exp : (⟨S100000x64, .f32⟩ : BufTy).Contents (Elt F) → (⟨S100000x64, .f32⟩ : BufTy).Contents (Elt F)),
    nullary main_cst_5 (constant S_ .f32 0x3F800000#32),
    unary main_cst_5 main_v77 (broadcastInDim S100000x64 ![] bcast_S_S100000x64 : (⟨S_, .f32⟩ : BufTy).Contents (Elt F) → (⟨S100000x64, .f32⟩ : BufTy).Contents (Elt F)),
    binary main_v77 main_v76 main_v78 (addf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x3F800000#32),
    unary main_cst_6 main_v79 (broadcastInDim S100000x64 ![] bcast_S_S100000x64 : (⟨S_, .f32⟩ : BufTy).Contents (Elt F) → (⟨S100000x64, .f32⟩ : BufTy).Contents (Elt F)),
    binary main_v79 main_v78 main_v80 (Host.divf : (⟨S100000x64, .f32⟩ : BufTy).Contents (Elt F) → (⟨S100000x64, .f32⟩ : BufTy).Contents (Elt F) → (⟨S100000x64, .f32⟩ : BufTy).Contents (Elt F)),
    binary main_v73 main_v66 main_v81 (mulf : (⟨S100000x64, .f32⟩ : BufTy).Contents (Elt F) → (⟨S100000x64, .f32⟩ : BufTy).Contents (Elt F) → (⟨S100000x64, .f32⟩ : BufTy).Contents (Elt F)),
    binary main_v63 main_v81 main_v82 (addf : (⟨S100000x64, .f32⟩ : BufTy).Contents (Elt F) → (⟨S100000x64, .f32⟩ : BufTy).Contents (Elt F) → (⟨S100000x64, .f32⟩ : BufTy).Contents (Elt F)),
    unary main_v82 main_v83 (Host.tanh : (⟨S100000x64, .f32⟩ : BufTy).Contents (Elt F) → (⟨S100000x64, .f32⟩ : BufTy).Contents (Elt F)),
    nullary main_cst_7 (constant S_ .f32 0x3F800000#32),
    unary main_cst_7 main_v84 (broadcastInDim S100000x64 ![] bcast_S_S100000x64 : (⟨S_, .f32⟩ : BufTy).Contents (Elt F) → (⟨S100000x64, .f32⟩ : BufTy).Contents (Elt F)),
    binary main_v84 main_v80 main_v85 (subf : (⟨S100000x64, .f32⟩ : BufTy).Contents (Elt F) → (⟨S100000x64, .f32⟩ : BufTy).Contents (Elt F) → (⟨S100000x64, .f32⟩ : BufTy).Contents (Elt F)),
    binary main_v85 main_v83 main_v86 (mulf : (⟨S100000x64, .f32⟩ : BufTy).Contents (Elt F) → (⟨S100000x64, .f32⟩ : BufTy).Contents (Elt F) → (⟨S100000x64, .f32⟩ : BufTy).Contents (Elt F)),
    binary main_v80 main_v3 main_v87 (mulf : (⟨S100000x64, .f32⟩ : BufTy).Contents (Elt F) → (⟨S100000x64, .f32⟩ : BufTy).Contents (Elt F) → (⟨S100000x64, .f32⟩ : BufTy).Contents (Elt F)),
    binary main_v86 main_v87 main_v88 (addf : (⟨S100000x64, .f32⟩ : BufTy).Contents (Elt F) → (⟨S100000x64, .f32⟩ : BufTy).Contents (Elt F) → (⟨S100000x64, .f32⟩ : BufTy).Contents (Elt F)) ]

/-- The second layer: operations 100 to 194. -/
abbrev ops2 : List (HloOp τ sig (Elt F)) :=
  [ unary main_arg10 main_v89 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v89 main_v90 rfl shapeCasts_S1x64x64_S64x64,
    unary main_arg11 main_v91 ((extractStridedSlice S1x64 ![1, 0] · slices_S2x64_S1x64_1_0) : (⟨S2x64, .f32⟩ : BufTy).Contents (Elt F) → (⟨S1x64, .f32⟩ : BufTy).Contents (Elt F)),
    reshape main_v91 main_v92 rfl shapeCasts_S1x64_S64,
    unary main_arg12 main_v93 ((extractStridedSlice S1x64x1 ![1, 0, 0] · slices_S2x64x1_S1x64x1_1_0_0) : (⟨S2x64x1, .f32⟩ : BufTy).Contents (Elt F) → (⟨S1x64x1, .f32⟩ : BufTy).Contents (Elt F)),
    reshape main_v93 main_v94 rfl shapeCasts_S1x64x1_S64x1,
    unary main_arg13 main_v95 ((extractStridedSlice S1x1 ![1, 0] · slices_S2x1_S1x1_1_0) : (⟨S2x1, .f32⟩ : BufTy).Contents (Elt F) → (⟨S1x1, .f32⟩ : BufTy).Contents (Elt F)),
    reshape main_v95 main_v96 rfl shapeCasts_S1x1_S1,
    unary main_arg14 main_v97 ((extractStridedSlice S1x192x64 ![1, 0, 0] · slices_S2x192x64_S1x192x64_1_0_0) : (⟨S2x192x64, .f32⟩ : BufTy).Contents (Elt F) → (⟨S1x192x64, .f32⟩ : BufTy).Contents (Elt F)),
    reshape main_v97 main_v98 rfl shapeCasts_S1x192x64_S192x64,
    unary main_arg15 main_v99 ((extractStridedSlice S1x192x64 ![1, 0, 0] · slices_S2x192x64_S1x192x64_1_0_0) : (⟨S2x192x64, .f32⟩ : BufTy).Contents (Elt F) → (⟨S1x192x64, .f32⟩ : BufTy).Contents (Elt F)),
    reshape main_v99 main_v100 rfl shapeCasts_S1x192x64_S192x64,
    unary main_arg16 main_v101 ((extractStridedSlice S1x192 ![1, 0] · slices_S2x192_S1x192_1_0) : (⟨S2x192, .f32⟩ : BufTy).Contents (Elt F) → (⟨S1x192, .f32⟩ : BufTy).Contents (Elt F)),
    reshape main_v101 main_v102 rfl shapeCasts_S1x192_S192,
    unary main_arg17 main_v103 ((extractStridedSlice S1x192 ![1, 0] · slices_S2x192_S1x192_1_0) : (⟨S2x192, .f32⟩ : BufTy).Contents (Elt F) → (⟨S1x192, .f32⟩ : BufTy).Contents (Elt F)),
    reshape main_v103 main_v104 rfl shapeCasts_S1x192_S192,
    binary main_arg3 main_arg2 main_v105 (mulf : (⟨S1600000x64, .f32⟩ : BufTy).Contents (Elt F) → (⟨S1600000x64, .f32⟩ : BufTy).Contents (Elt F) → (⟨S1600000x64, .f32⟩ : BufTy).Contents (Elt F)),
    binary main_v105 main_v94 main_v106 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_v96 main_v107 (broadcastInDim S1x1 ![1] bcast_S1_S1x1_1 : (⟨S1, .f32⟩ : BufTy).Contents (Elt F) → (⟨S1x1, .f32⟩ : BufTy).Contents (Elt F)),
    unary main_v107 main_v108 (broadcastInDim S1600000x1 ![0, 1] bcast_S1x1_S1600000x1_0_1 : (⟨S1x1, .f32⟩ : BufTy).Contents (Elt F) → (⟨S1600000x1, .f32⟩ : BufTy).Contents (Elt F)),
    binary main_v106 main_v108 main_v109 (addf : (⟨S1600000x1, .f32⟩ : BufTy).Contents (Elt F) → (⟨S1600000x1, .f32⟩ : BufTy).Contents (Elt F) → (⟨S1600000x1, .f32⟩ : BufTy).Contents (Elt F)),
    unary main_v109 main_v110 (Host.negf : (⟨S1600000x1, .f32⟩ : BufTy).Contents (Elt F) → (⟨S1600000x1, .f32⟩ : BufTy).Contents (Elt F)),
    unary main_v110 main_v111 (Host.exp : (⟨S1600000x1, .f32⟩ : BufTy).Contents (Elt F) → (⟨S1600000x1, .f32⟩ : BufTy).Contents (Elt F)),
    nullary main_cst_8 (constant S_ .f32 0x3F800000#32),
    unary main_cst_8 main_v112 (broadcastInDim S1600000x1 ![] bcast_S_S1600000x1 : (⟨S_, .f32⟩ : BufTy).Contents (Elt F) → (⟨S1600000x1, .f32⟩ : BufTy).Contents (Elt F)),
    binary main_v112 main_v111 main_v113 (addf : (⟨S1600000x1, .f32⟩ : BufTy).Contents (Elt F) → (⟨S1600000x1, .f32⟩ : BufTy).Contents (Elt F) → (⟨S1600000x1, .f32⟩ : BufTy).Contents (Elt F)),
    nullary main_cst_9 (constant S_ .f32 0x3F800000#32),
    unary main_cst_9 main_v114 (broadcastInDim S1600000x1 ![] bcast_S_S1600000x1 : (⟨S_, .f32⟩ : BufTy).Contents (Elt F) → (⟨S1600000x1, .f32⟩ : BufTy).Contents (Elt F)),
    binary main_v114 main_v113 main_v115 (Host.divf : (⟨S1600000x1, .f32⟩ : BufTy).Contents (Elt F) → (⟨S1600000x1, .f32⟩ : BufTy).Contents (Elt F) → (⟨S1600000x1, .f32⟩ : BufTy).Contents (Elt F)),
    unary main_arg1 main_v116 ((extractStridedSlice S1x1600000 ![0, 0] · slices_S2x1600000_S1x1600000_0_0) : (⟨S2x1600000, .i32⟩ : BufTy).Contents (Elt F) → (⟨S1x1600000, .i32⟩ : BufTy).Contents (Elt F)),
    reshape main_v116 main_v117 rfl shapeCasts_S1x1600000_S1600000,
    nullary main_c_10 (constantI S_ 32 0#32),
    unary main_c_10 main_v118 (broadcastInDim S1600000 ![] bcast_S_S1600000 : (⟨S_, .i32⟩ : BufTy).Contents (Elt F) → (⟨S1600000, .i32⟩ : BufTy).Contents (Elt F)),
    binary main_v117 main_v118 main_v119 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v120 (broadcastInDim S1600000 ![] bcast_S_S1600000 : (⟨S_, .i32⟩ : BufTy).Contents (Elt F) → (⟨S1600000, .i32⟩ : BufTy).Contents (Elt F)),
    binary main_v117 main_v120 main_v121 (addi : (⟨S1600000, .i32⟩ : BufTy).Contents (Elt F) → (⟨S1600000, .i32⟩ : BufTy).Contents (Elt F) → (⟨S1600000, .i32⟩ : BufTy).Contents (Elt F)),
    ternary main_v119 main_v121 main_v117 main_v122 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v122 main_v123 (broadcastInDim S1600000x1 ![0] bcast_S1600000_S1600000x1_0 : (⟨S1600000, .i32⟩ : BufTy).Contents (Elt F) → (⟨S1600000x1, .i32⟩ : BufTy).Contents (Elt F)),
    binary main_v88 main_v123 main_v124 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v124 main_v90 main_v125 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_v92 main_v126 (broadcastInDim S1x64 ![1] bcast_S64_S1x64_1 : (⟨S64, .f32⟩ : BufTy).Contents (Elt F) → (⟨S1x64, .f32⟩ : BufTy).Contents (Elt F)),
    unary main_v126 main_v127 (broadcastInDim S1600000x64 ![0, 1] bcast_S1x64_S1600000x64_0_1 : (⟨S1x64, .f32⟩ : BufTy).Contents (Elt F) → (⟨S1600000x64, .f32⟩ : BufTy).Contents (Elt F)),
    binary main_v125 main_v127 main_v128 (addf : (⟨S1600000x64, .f32⟩ : BufTy).Contents (Elt F) → (⟨S1600000x64, .f32⟩ : BufTy).Contents (Elt F) → (⟨S1600000x64, .f32⟩ : BufTy).Contents (Elt F)),
    unary main_v115 main_v129 (broadcastInDim S1600000x64 ![0, 1] bcast_S1600000x1_S1600000x64_0_1 : (⟨S1600000x1, .f32⟩ : BufTy).Contents (Elt F) → (⟨S1600000x64, .f32⟩ : BufTy).Contents (Elt F)),
    binary main_v129 main_v128 main_v130 (mulf : (⟨S1600000x64, .f32⟩ : BufTy).Contents (Elt F) → (⟨S1600000x64, .f32⟩ : BufTy).Contents (Elt F) → (⟨S1600000x64, .f32⟩ : BufTy).Contents (Elt F)),
    unary main_arg1 main_v131 ((extractStridedSlice S1x1600000 ![1, 0] · slices_S2x1600000_S1x1600000_1_0) : (⟨S2x1600000, .i32⟩ : BufTy).Contents (Elt F) → (⟨S1x1600000, .i32⟩ : BufTy).Contents (Elt F)),
    reshape main_v131 main_v132 rfl shapeCasts_S1x1600000_S1600000,
    nullary main_cst_12 (constant S_ .f32 0x00000000#32),
    unary main_cst_12 main_v133 (broadcastInDim S100000x64 ![] bcast_S_S100000x64 : (⟨S_, .f32⟩ : BufTy).Contents (Elt F) → (⟨S100000x64, .f32⟩ : BufTy).Contents (Elt F)),
    unary main_v132 main_v134 (broadcastInDim S1600000x1 ![0] bcast_S1600000_S1600000x1_0 : (⟨S1600000, .i32⟩ : BufTy).Contents (Elt F) → (⟨S1600000x1, .i32⟩ : BufTy).Contents (Elt F)),
    ternary main_v133 main_v134 main_v130 main_v135 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v98 main_v136 ((transpose S64x192 [1, 0] · transposes_S192x64_S64x192_1_0) : (⟨S192x64, .f32⟩ : BufTy).Contents (Elt F) → (⟨S64x192, .f32⟩ : BufTy).Contents (Elt F)),
    binary main_v135 main_v136 main_v137 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_v102 main_v138 (broadcastInDim S1x192 ![1] bcast_S192_S1x192_1 : (⟨S192, .f32⟩ : BufTy).Contents (Elt F) → (⟨S1x192, .f32⟩ : BufTy).Contents (Elt F)),
    unary main_v138 main_v139 (broadcastInDim S100000x192 ![0, 1] bcast_S1x192_S100000x192_0_1 : (⟨S1x192, .f32⟩ : BufTy).Contents (Elt F) → (⟨S100000x192, .f32⟩ : BufTy).Contents (Elt F)),
    binary main_v137 main_v139 main_v140 (addf : (⟨S100000x192, .f32⟩ : BufTy).Contents (Elt F) → (⟨S100000x192, .f32⟩ : BufTy).Contents (Elt F) → (⟨S100000x192, .f32⟩ : BufTy).Contents (Elt F)),
    unary main_v100 main_v141 ((transpose S64x192 [1, 0] · transposes_S192x64_S64x192_1_0) : (⟨S192x64, .f32⟩ : BufTy).Contents (Elt F) → (⟨S64x192, .f32⟩ : BufTy).Contents (Elt F)),
    binary main_v88 main_v141 main_v142 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_v104 main_v143 (broadcastInDim S1x192 ![1] bcast_S192_S1x192_1 : (⟨S192, .f32⟩ : BufTy).Contents (Elt F) → (⟨S1x192, .f32⟩ : BufTy).Contents (Elt F)),
    unary main_v143 main_v144 (broadcastInDim S100000x192 ![0, 1] bcast_S1x192_S100000x192_0_1 : (⟨S1x192, .f32⟩ : BufTy).Contents (Elt F) → (⟨S100000x192, .f32⟩ : BufTy).Contents (Elt F)),
    binary main_v142 main_v144 main_v145 (addf : (⟨S100000x192, .f32⟩ : BufTy).Contents (Elt F) → (⟨S100000x192, .f32⟩ : BufTy).Contents (Elt F) → (⟨S100000x192, .f32⟩ : BufTy).Contents (Elt F)),
    unary main_v140 main_v146 ((extractStridedSlice S100000x64 ![0, 0] · slices_S100000x192_S100000x64_0_0) : (⟨S100000x192, .f32⟩ : BufTy).Contents (Elt F) → (⟨S100000x64, .f32⟩ : BufTy).Contents (Elt F)),
    unary main_v140 main_v147 ((extractStridedSlice S100000x64 ![0, 64] · slices_S100000x192_S100000x64_0_64) : (⟨S100000x192, .f32⟩ : BufTy).Contents (Elt F) → (⟨S100000x64, .f32⟩ : BufTy).Contents (Elt F)),
    unary main_v140 main_v148 ((extractStridedSlice S100000x64 ![0, 128] · slices_S100000x192_S100000x64_0_128) : (⟨S100000x192, .f32⟩ : BufTy).Contents (Elt F) → (⟨S100000x64, .f32⟩ : BufTy).Contents (Elt F)),
    unary main_v145 main_v149 ((extractStridedSlice S100000x64 ![0, 0] · slices_S100000x192_S100000x64_0_0) : (⟨S100000x192, .f32⟩ : BufTy).Contents (Elt F) → (⟨S100000x64, .f32⟩ : BufTy).Contents (Elt F)),
    unary main_v145 main_v150 ((extractStridedSlice S100000x64 ![0, 64] · slices_S100000x192_S100000x64_0_64) : (⟨S100000x192, .f32⟩ : BufTy).Contents (Elt F) → (⟨S100000x64, .f32⟩ : BufTy).Contents (Elt F)),
    unary main_v145 main_v151 ((extractStridedSlice S100000x64 ![0, 128] · slices_S100000x192_S100000x64_0_128) : (⟨S100000x192, .f32⟩ : BufTy).Contents (Elt F) → (⟨S100000x64, .f32⟩ : BufTy).Contents (Elt F)),
    binary main_v146 main_v149 main_v152 (addf : (⟨S100000x64, .f32⟩ : BufTy).Contents (Elt F) → (⟨S100000x64, .f32⟩ : BufTy).Contents (Elt F) → (⟨S100000x64, .f32⟩ : BufTy).Contents (Elt F)),
    unary main_v152 main_v153 (Host.negf : (⟨S100000x64, .f32⟩ : BufTy).Contents (Elt F) → (⟨S100000x64, .f32⟩ : BufTy).Contents (Elt F)),
    unary main_v153 main_v154 (Host.exp : (⟨S100000x64, .f32⟩ : BufTy).Contents (Elt F) → (⟨S100000x64, .f32⟩ : BufTy).Contents (Elt F)),
    nullary main_cst_13 (constant S_ .f32 0x3F800000#32),
    unary main_cst_13 main_v155 (broadcastInDim S100000x64 ![] bcast_S_S100000x64 : (⟨S_, .f32⟩ : BufTy).Contents (Elt F) → (⟨S100000x64, .f32⟩ : BufTy).Contents (Elt F)),
    binary main_v155 main_v154 main_v156 (addf : (⟨S100000x64, .f32⟩ : BufTy).Contents (Elt F) → (⟨S100000x64, .f32⟩ : BufTy).Contents (Elt F) → (⟨S100000x64, .f32⟩ : BufTy).Contents (Elt F)),
    nullary main_cst_14 (constant S_ .f32 0x3F800000#32),
    unary main_cst_14 main_v157 (broadcastInDim S100000x64 ![] bcast_S_S100000x64 : (⟨S_, .f32⟩ : BufTy).Contents (Elt F) → (⟨S100000x64, .f32⟩ : BufTy).Contents (Elt F)),
    binary main_v157 main_v156 main_v158 (Host.divf : (⟨S100000x64, .f32⟩ : BufTy).Contents (Elt F) → (⟨S100000x64, .f32⟩ : BufTy).Contents (Elt F) → (⟨S100000x64, .f32⟩ : BufTy).Contents (Elt F)),
    binary main_v147 main_v150 main_v159 (addf : (⟨S100000x64, .f32⟩ : BufTy).Contents (Elt F) → (⟨S100000x64, .f32⟩ : BufTy).Contents (Elt F) → (⟨S100000x64, .f32⟩ : BufTy).Contents (Elt F)),
    unary main_v159 main_v160 (Host.negf : (⟨S100000x64, .f32⟩ : BufTy).Contents (Elt F) → (⟨S100000x64, .f32⟩ : BufTy).Contents (Elt F)),
    unary main_v160 main_v161 (Host.exp : (⟨S100000x64, .f32⟩ : BufTy).Contents (Elt F) → (⟨S100000x64, .f32⟩ : BufTy).Contents (Elt F)),
    nullary main_cst_15 (constant S_ .f32 0x3F800000#32),
    unary main_cst_15 main_v162 (broadcastInDim S100000x64 ![] bcast_S_S100000x64 : (⟨S_, .f32⟩ : BufTy).Contents (Elt F) → (⟨S100000x64, .f32⟩ : BufTy).Contents (Elt F)),
    binary main_v162 main_v161 main_v163 (addf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x3F800000#32),
    unary main_cst_16 main_v164 (broadcastInDim S100000x64 ![] bcast_S_S100000x64 : (⟨S_, .f32⟩ : BufTy).Contents (Elt F) → (⟨S100000x64, .f32⟩ : BufTy).Contents (Elt F)),
    binary main_v164 main_v163 main_v165 (Host.divf : (⟨S100000x64, .f32⟩ : BufTy).Contents (Elt F) → (⟨S100000x64, .f32⟩ : BufTy).Contents (Elt F) → (⟨S100000x64, .f32⟩ : BufTy).Contents (Elt F)),
    binary main_v158 main_v151 main_v166 (mulf : (⟨S100000x64, .f32⟩ : BufTy).Contents (Elt F) → (⟨S100000x64, .f32⟩ : BufTy).Contents (Elt F) → (⟨S100000x64, .f32⟩ : BufTy).Contents (Elt F)),
    binary main_v148 main_v166 main_v167 (addf : (⟨S100000x64, .f32⟩ : BufTy).Contents (Elt F) → (⟨S100000x64, .f32⟩ : BufTy).Contents (Elt F) → (⟨S100000x64, .f32⟩ : BufTy).Contents (Elt F)),
    unary main_v167 main_v168 (Host.tanh : (⟨S100000x64, .f32⟩ : BufTy).Contents (Elt F) → (⟨S100000x64, .f32⟩ : BufTy).Contents (Elt F)),
    nullary main_cst_17 (constant S_ .f32 0x3F800000#32),
    unary main_cst_17 main_v169 (broadcastInDim S100000x64 ![] bcast_S_S100000x64 : (⟨S_, .f32⟩ : BufTy).Contents (Elt F) → (⟨S100000x64, .f32⟩ : BufTy).Contents (Elt F)),
    binary main_v169 main_v165 main_v170 (subf : (⟨S100000x64, .f32⟩ : BufTy).Contents (Elt F) → (⟨S100000x64, .f32⟩ : BufTy).Contents (Elt F) → (⟨S100000x64, .f32⟩ : BufTy).Contents (Elt F)),
    binary main_v170 main_v168 main_v171 (mulf : (⟨S100000x64, .f32⟩ : BufTy).Contents (Elt F) → (⟨S100000x64, .f32⟩ : BufTy).Contents (Elt F) → (⟨S100000x64, .f32⟩ : BufTy).Contents (Elt F)),
    binary main_v165 main_v88 main_v172 (mulf : (⟨S100000x64, .f32⟩ : BufTy).Contents (Elt F) → (⟨S100000x64, .f32⟩ : BufTy).Contents (Elt F) → (⟨S100000x64, .f32⟩ : BufTy).Contents (Elt F)),
    binary main_v171 main_v172 main_v173 (addf : (⟨S100000x64, .f32⟩ : BufTy).Contents (Elt F) → (⟨S100000x64, .f32⟩ : BufTy).Contents (Elt F) → (⟨S100000x64, .f32⟩ : BufTy).Contents (Elt F)) ]

/-- The two row lookups of the pair scorer and their product: operations 195 to 213. -/
abbrev ops3 : List (HloOp τ sig (Elt F)) :=
  [ nullary main_c_18 (constantI S_ 32 0#32),
    unary main_c_18 main_v174 (broadcastInDim S8192 ![] bcast_S_S8192 : (⟨S_, .i32⟩ : BufTy).Contents (Elt F) → (⟨S8192, .i32⟩ : BufTy).Contents (Elt F)),
    binary main_arg4 main_v174 main_v175 (cmpi .slt : (⟨S8192, .i32⟩ : BufTy).Contents (Elt F) → (⟨S8192, .i32⟩ : BufTy).Contents (Elt F) → (⟨S8192, .i1⟩ : BufTy).Contents (Elt F)),
    nullary main_c_19 (constantI S_ 32 100000#32),
    unary main_c_19 main_v176 (broadcastInDim S8192 ![] bcast_S_S8192 : (⟨S_, .i32⟩ : BufTy).Contents (Elt F) → (⟨S8192, .i32⟩ : BufTy).Contents (Elt F)),
    binary main_arg4 main_v176 main_v177 (addi : (⟨S8192, .i32⟩ : BufTy).Contents (Elt F) → (⟨S8192, .i32⟩ : BufTy).Contents (Elt F) → (⟨S8192, .i32⟩ : BufTy).Contents (Elt F)),
    ternary main_v175 main_v177 main_arg4 main_v178 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v178 main_v179 (broadcastInDim S8192x1 ![0] bcast_S8192_S8192x1_0 : (⟨S8192, .i32⟩ : BufTy).Contents (Elt F) → (⟨S8192x1, .i32⟩ : BufTy).Contents (Elt F)),
    binary main_v173 main_v179 main_v180 ((fun x i => Host.gather gather_S100000x64_S8192x1_S8192x64_1_0_n_n_0_1_164 x i) : (⟨S100000x64, .f32⟩ : BufTy).Contents (Elt F) → (⟨S8192x1, .i32⟩ : BufTy).Contents (Elt F) → (⟨S8192x64, .f32⟩ : BufTy).Contents (Elt F)),
    nullary main_c_20 (constantI S_ 32 0#32),
    unary main_c_20 main_v181 (broadcastInDim S8192 ![] bcast_S_S8192 : (⟨S_, .i32⟩ : BufTy).Contents (Elt F) → (⟨S8192, .i32⟩ : BufTy).Contents (Elt F)),
    binary main_arg5 main_v181 main_v182 (cmpi .slt : (⟨S8192, .i32⟩ : BufTy).Contents (Elt F) → (⟨S8192, .i32⟩ : BufTy).Contents (Elt F) → (⟨S8192, .i1⟩ : BufTy).Contents (Elt F)),
    nullary main_c_21 (constantI S_ 32 100000#32),
    unary main_c_21 main_v183 (broadcastInDim S8192 ![] bcast_S_S8192 : (⟨S_, .i32⟩ : BufTy).Contents (Elt F) → (⟨S8192, .i32⟩ : BufTy).Contents (Elt F)),
    binary main_arg5 main_v183 main_v184 (addi : (⟨S8192, .i32⟩ : BufTy).Contents (Elt F) → (⟨S8192, .i32⟩ : BufTy).Contents (Elt F) → (⟨S8192, .i32⟩ : BufTy).Contents (Elt F)),
    ternary main_v182 main_v184 main_arg5 main_v185 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v185 main_v186 (broadcastInDim S8192x1 ![0] bcast_S8192_S8192x1_0 : (⟨S8192, .i32⟩ : BufTy).Contents (Elt F) → (⟨S8192x1, .i32⟩ : BufTy).Contents (Elt F)),
    binary main_v173 main_v186 main_v187 ((fun x i => Host.gather gather_S100000x64_S8192x1_S8192x64_1_0_n_n_0_1_164 x i) : (⟨S100000x64, .f32⟩ : BufTy).Contents (Elt F) → (⟨S8192x1, .i32⟩ : BufTy).Contents (Elt F) → (⟨S8192x64, .f32⟩ : BufTy).Contents (Elt F)),
    binary main_v180 main_v187 main_v188 (mulf : (⟨S8192x64, .f32⟩ : BufTy).Contents (Elt F) → (⟨S8192x64, .f32⟩ : BufTy).Contents (Elt F) → (⟨S8192x64, .f32⟩ : BufTy).Contents (Elt F)) ]

/-- The pair scorer from its feature rows on, and the loss: operations 214 to 240 (the relu function's three operations stand inline). -/
abbrev ops4 : List (HloOp τ sig (Elt F)) :=
  [ nary ![main_v180, main_v187, main_v188, main_arg7] main_v189 (fun u => concatenate S8192x256 1 [⟨S8192x64, u 0⟩, ⟨S8192x64, u 1⟩, ⟨S8192x64, u 2⟩, ⟨S8192x64, u 3⟩] concatenates_S8192x64_S8192x64_S8192x64_S8192x64_S8192x256_d1),
    binary main_v189 main_arg18 main_v190 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    unary main_arg19 main_v191 (broadcastInDim S1x64 ![1] bcast_S64_S1x64_1 : (⟨S64, .f32⟩ : BufTy).Contents (Elt F) → (⟨S1x64, .f32⟩ : BufTy).Contents (Elt F)),
    unary main_v191 main_v192 (broadcastInDim S8192x64 ![0, 1] bcast_S1x64_S8192x64_0_1 : (⟨S1x64, .f32⟩ : BufTy).Contents (Elt F) → (⟨S8192x64, .f32⟩ : BufTy).Contents (Elt F)),
    binary main_v190 main_v192 main_v193 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x64, .f32⟩) main_call0_v0) (broadcastInDim S8192x64 ![] bcast_S_S8192x64),
    TRef.binary (TRef.of (T := ⟨S8192x64, .f32⟩) main_v193) (TRef.of (T := ⟨S8192x64, .f32⟩) main_call0_v0) (TRef.of (T := ⟨S8192x64, .f32⟩) main_v194) maximumf,
    binary main_v194 main_arg20 main_v195 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_arg21 main_v196 (broadcastInDim S1x1 ![1] bcast_S1_S1x1_1 : (⟨S1, .f32⟩ : BufTy).Contents (Elt F) → (⟨S1x1, .f32⟩ : BufTy).Contents (Elt F)),
    unary main_v196 main_v197 (broadcastInDim S8192x1 ![0, 1] bcast_S1x1_S8192x1_0_1 : (⟨S1x1, .f32⟩ : BufTy).Contents (Elt F) → (⟨S8192x1, .f32⟩ : BufTy).Contents (Elt F)),
    binary main_v195 main_v197 main_v198 (addf : (⟨S8192x1, .f32⟩ : BufTy).Contents (Elt F) → (⟨S8192x1, .f32⟩ : BufTy).Contents (Elt F) → (⟨S8192x1, .f32⟩ : BufTy).Contents (Elt F)),
    reshape main_v198 main_v199 rfl shapeCasts_S8192x1_S8192,
    nullary main_cst_22 (constant S_ .f32 0x00000000#32),
    unary main_cst_22 main_v200 (broadcastInDim S8192 ![] bcast_S_S8192 : (⟨S_, .f32⟩ : BufTy).Contents (Elt F) → (⟨S8192, .f32⟩ : BufTy).Contents (Elt F)),
    binary main_v199 main_v200 main_v201 (maximumf : (⟨S8192, .f32⟩ : BufTy).Contents (Elt F) → (⟨S8192, .f32⟩ : BufTy).Contents (Elt F) → (⟨S8192, .f32⟩ : BufTy).Contents (Elt F)),
    binary main_v199 main_arg6 main_v202 (mulf : (⟨S8192, .f32⟩ : BufTy).Contents (Elt F) → (⟨S8192, .f32⟩ : BufTy).Contents (Elt F) → (⟨S8192, .f32⟩ : BufTy).Contents (Elt F)),
    binary main_v201 main_v202 main_v203 (subf : (⟨S8192, .f32⟩ : BufTy).Contents (Elt F) → (⟨S8192, .f32⟩ : BufTy).Contents (Elt F) → (⟨S8192, .f32⟩ : BufTy).Contents (Elt F)),
    unary main_v199 main_v204 (Host.absf : (⟨S8192, .f32⟩ : BufTy).Contents (Elt F) → (⟨S8192, .f32⟩ : BufTy).Contents (Elt F)),
    unary main_v204 main_v205 (Host.negf : (⟨S8192, .f32⟩ : BufTy).Contents (Elt F) → (⟨S8192, .f32⟩ : BufTy).Contents (Elt F)),
    unary main_v205 main_v206 (Host.exp : (⟨S8192, .f32⟩ : BufTy).Contents (Elt F) → (⟨S8192, .f32⟩ : BufTy).Contents (Elt F)),
    unary main_v206 main_v207 (Host.log1p : (⟨S8192, .f32⟩ : BufTy).Contents (Elt F) → (⟨S8192, .f32⟩ : BufTy).Contents (Elt F)),
    binary main_v203 main_v207 main_v208 (addf : (⟨S8192, .f32⟩ : BufTy).Contents (Elt F) → (⟨S8192, .f32⟩ : BufTy).Contents (Elt F) → (⟨S8192, .f32⟩ : BufTy).Contents (Elt F)),
    nullary main_cst_23 (constant S_ .f32 0x00000000#32),
    binary main_v208 main_cst_23 main_v209 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_24 (constant S_ .f32 0x46000000#32),
    binary main_v209 main_cst_24 main_v210 (Host.divf : (⟨S_, .f32⟩ : BufTy).Contents (Elt F) → (⟨S_, .f32⟩ : BufTy).Contents (Elt F) → (⟨S_, .f32⟩ : BufTy).Contents (Elt F)) ]

/-- The whole line. -/
abbrev allOps : List (HloOp τ sig (Elt F)) := ops0 ++ (ops1 ++ (ops2 ++ (ops3 ++ ops4)))

set_option maxRecDepth 8192 in
set_option maxHeartbeats 4000000 in
theorem main_eq (c : Dev nD) : main (F := F) c = seq allOps := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨binary_bufs_sub .., unary_bufs_sub .., unary_bufs_sub .., binary_bufs_sub ..⟩
set_option maxRecDepth 8192 in
theorem ops1_sub : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., binary_bufs_sub .., unary_bufs_sub .., reshape_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem ops2_sub : (ops2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., binary_bufs_sub .., unary_bufs_sub .., reshape_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem ops4_sub : (ops4 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., nullary_bufs_sub .., unary_bufs_sub .., binary_bufs_sub .., binary_bufs_sub .., binary_bufs_sub .., unary_bufs_sub .., unary_bufs_sub .., unary_bufs_sub .., unary_bufs_sub .., binary_bufs_sub .., nullary_bufs_sub .., binary_bufs_sub .., nullary_bufs_sub .., binary_bufs_sub ..⟩

theorem allOps_sub : (allOps : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, ops4_sub⟩⟩⟩⟩

/-! Every operation determines its result (none allocates). -/
set_option maxRecDepth 8192 in
theorem ops0_fresh : ∀ op ∈ (ops0 : List (HloOp τ sig (Elt F))), op.fresh = ∅ := by
  intro _ h; (repeat (cases h with | head => rfl | tail _ h => ?_)); exact nomatch h
set_option maxRecDepth 8192 in
theorem ops1_fresh : ∀ op ∈ (ops1 : List (HloOp τ sig (Elt F))), op.fresh = ∅ := by
  intro _ h; (repeat (cases h with | head => rfl | tail _ h => ?_)); exact nomatch h
set_option maxRecDepth 8192 in
theorem ops2_fresh : ∀ op ∈ (ops2 : List (HloOp τ sig (Elt F))), op.fresh = ∅ := by
  intro _ h; (repeat (cases h with | head => rfl | tail _ h => ?_)); exact nomatch h
set_option maxRecDepth 8192 in
theorem ops3_fresh : ∀ op ∈ (ops3 : List (HloOp τ sig (Elt F))), op.fresh = ∅ := by
  intro _ h; (repeat (cases h with | head => rfl | tail _ h => ?_)); exact nomatch h
set_option maxRecDepth 8192 in
theorem ops4_fresh : ∀ op ∈ (ops4 : List (HloOp τ sig (Elt F))), op.fresh = ∅ := by
  intro _ h; (repeat (cases h with | head => rfl | tail _ h => ?_)); exact nomatch h

theorem allOps_fresh : ∀ op ∈ (allOps : List (HloOp τ sig (Elt F))), op.fresh = ∅ := by
  intro op h
  rcases List.mem_append.mp h with h | h
  · exact ops0_fresh op h
  · rcases List.mem_append.mp h with h | h
    · exact ops1_fresh op h
    · rcases List.mem_append.mp h with h | h
      · exact ops2_fresh op h
      · rcases List.mem_append.mp h with h | h
        · exact ops3_fresh op h
        · exact ops4_fresh op h

/-! ## What the line writes, and what it keeps -/

/-- Every buffer the line writes, in order. -/
abbrev written : List (Ref sig .tc) :=
  [ main_v0, main_v1, main_v2, main_v3, main_v4, main_v5, main_v6, main_v7, main_v8, main_v9,
    main_v10, main_v11, main_v12, main_v13, main_v14, main_v15, main_v16, main_v17, main_v18, main_v19,
    main_v20, main_v21, main_v22, main_v23, main_v24, main_v25, main_v26, main_cst, main_v27, main_v28,
    main_cst_0, main_v29, main_v30, main_v31, main_v32, main_c, main_v33, main_v34, main_c_1, main_v35,
    main_v36, main_v37, main_v38, main_v39, main_v40, main_v41, main_v42, main_v43, main_v44, main_v45,
    main_v46, main_v47, main_cst_2, main_v48, main_v49, main_v50, main_v51, main_v52, main_v53, main_v54,
    main_v55, main_v56, main_v57, main_v58, main_v59, main_v60, main_v61, main_v62, main_v63, main_v64,
    main_v65, main_v66, main_v67, main_v68, main_v69, main_cst_3, main_v70, main_v71, main_cst_4, main_v72,
    main_v73, main_v74, main_v75, main_v76, main_cst_5, main_v77, main_v78, main_cst_6, main_v79, main_v80,
    main_v81, main_v82, main_v83, main_cst_7, main_v84, main_v85, main_v86, main_v87, main_v88, main_v89,
    main_v90, main_v91, main_v92, main_v93, main_v94, main_v95, main_v96, main_v97, main_v98, main_v99,
    main_v100, main_v101, main_v102, main_v103, main_v104, main_v105, main_v106, main_v107, main_v108, main_v109,
    main_v110, main_v111, main_cst_8, main_v112, main_v113, main_cst_9, main_v114, main_v115, main_v116, main_v117,
    main_c_10, main_v118, main_v119, main_c_11, main_v120, main_v121, main_v122, main_v123, main_v124, main_v125,
    main_v126, main_v127, main_v128, main_v129, main_v130, main_v131, main_v132, main_cst_12, main_v133, main_v134,
    main_v135, main_v136, main_v137, main_v138, main_v139, main_v140, main_v141, main_v142, main_v143, main_v144,
    main_v145, main_v146, main_v147, main_v148, main_v149, main_v150, main_v151, main_v152, main_v153, main_v154,
    main_cst_13, main_v155, main_v156, main_cst_14, main_v157, main_v158, main_v159, main_v160, main_v161, main_cst_15,
    main_v162, main_v163, main_cst_16, main_v164, main_v165, main_v166, main_v167, main_v168, main_cst_17, main_v169,
    main_v170, main_v171, main_v172, main_v173, main_c_18, main_v174, main_v175, main_c_19, main_v176, main_v177,
    main_v178, main_v179, main_v180, main_c_20, main_v181, main_v182, main_c_21, main_v183, main_v184, main_v185,
    main_v186, main_v187, main_v188, main_v189, main_v190, main_v191, main_v192, main_v193, main_call0_cst, main_call0_v0,
    main_v194, main_v195, main_v196, main_v197, main_v198, main_v199, main_cst_22, main_v200, main_v201, main_v202,
    main_v203, main_v204, main_v205, main_v206, main_v207, main_v208, main_cst_23, main_v209, main_cst_24, main_v210 ]

/-- The one buffer an operation writes lies among the written ones. -/
theorem single_sub_written {y : Ref sig .tc} (h : y ∈ written) :
    ({Proc.devRef (τ := τ) .tc y} : Finset (DevRef τ sig)) ⊆ (written.map (Proc.devRef (τ := τ) .tc)).toFinset :=
  Finset.singleton_subset_iff.mpr (List.mem_toFinset.mpr (List.mem_map.mpr ⟨y, h, rfl⟩))

set_option maxRecDepth 8192 in
theorem ops0_writes : (ops0 : List (HloOp τ sig (Elt F))).Forall fun op =>
    op.writes ⊆ (written.map (Proc.devRef (τ := τ) .tc)).toFinset := by
  simp only [ops0, List.Forall, nullary_writes, unary_writes, binary_writes, ternary_writes, reshape_writes, nary_writes]
  repeat' apply And.intro
  all_goals exact single_sub_written (by decide)
/-- Stretch 0 keeps every buffer the line never writes (the arguments). -/
theorem kept0 (V : Valuation τ sig (Elt F)) {r : Ref sig .tc} (hr : r ∉ written) :
    after ops0 V (Proc.devRef .tc r) = V (Proc.devRef .tc r) :=
  after_of_writes_sub ops0 V ops0_writes hr

set_option maxRecDepth 8192 in
theorem ops1_writes : (ops1 : List (HloOp τ sig (Elt F))).Forall fun op =>
    op.writes ⊆ (written.map (Proc.devRef (τ := τ) .tc)).toFinset := by
  simp only [ops1, List.Forall, nullary_writes, unary_writes, binary_writes, ternary_writes, reshape_writes, nary_writes]
  repeat' apply And.intro
  all_goals exact single_sub_written (by decide)
/-- Stretch 1 keeps every buffer the line never writes (the arguments). -/
theorem kept1 (V : Valuation τ sig (Elt F)) {r : Ref sig .tc} (hr : r ∉ written) :
    after ops1 V (Proc.devRef .tc r) = V (Proc.devRef .tc r) :=
  after_of_writes_sub ops1 V ops1_writes hr

set_option maxRecDepth 8192 in
theorem ops2_writes : (ops2 : List (HloOp τ sig (Elt F))).Forall fun op =>
    op.writes ⊆ (written.map (Proc.devRef (τ := τ) .tc)).toFinset := by
  simp only [ops2, List.Forall, nullary_writes, unary_writes, binary_writes, ternary_writes, reshape_writes, nary_writes]
  repeat' apply And.intro
  all_goals exact single_sub_written (by decide)
/-- Stretch 2 keeps every buffer the line never writes (the arguments). -/
theorem kept2 (V : Valuation τ sig (Elt F)) {r : Ref sig .tc} (hr : r ∉ written) :
    after ops2 V (Proc.devRef .tc r) = V (Proc.devRef .tc r) :=
  after_of_writes_sub ops2 V ops2_writes hr

set_option maxRecDepth 8192 in
theorem ops3_writes : (ops3 : List (HloOp τ sig (Elt F))).Forall fun op =>
    op.writes ⊆ (written.map (Proc.devRef (τ := τ) .tc)).toFinset := by
  simp only [ops3, List.Forall, nullary_writes, unary_writes, binary_writes, ternary_writes, reshape_writes, nary_writes]
  repeat' apply And.intro
  all_goals exact single_sub_written (by decide)
/-- Stretch 3 keeps every buffer the line never writes (the arguments). -/
theorem kept3 (V : Valuation τ sig (Elt F)) {r : Ref sig .tc} (hr : r ∉ written) :
    after ops3 V (Proc.devRef .tc r) = V (Proc.devRef .tc r) :=
  after_of_writes_sub ops3 V ops3_writes hr

set_option maxRecDepth 8192 in
theorem ops4_writes : (ops4 : List (HloOp τ sig (Elt F))).Forall fun op =>
    op.writes ⊆ (written.map (Proc.devRef (τ := τ) .tc)).toFinset := by
  simp only [ops4, List.Forall, nullary_writes, unary_writes, binary_writes, ternary_writes, reshape_writes, nary_writes]
  repeat' apply And.intro
  all_goals exact single_sub_written (by decide)
/-- Stretch 4 keeps every buffer the line never writes (the arguments). -/
theorem kept4 (V : Valuation τ sig (Elt F)) {r : Ref sig .tc} (hr : r ∉ written) :
    after ops4 V (Proc.devRef .tc r) = V (Proc.devRef .tc r) :=
  after_of_writes_sub ops4 V ops4_writes hr

/-- Two stretches run one after the other are their concatenation run as one. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The four stretches, each from the stage before it -/

/-- The projection stretch leaves the node table at the projection stage. -/
theorem res0 (V : Valuation τ sig (Elt F)) (x0 : (⟨S100000x1024, .f32⟩ : BufTy).Contents (Elt F)) (x8 : (⟨S1024x64, .f32⟩ : BufTy).Contents (Elt F)) (x9 : (⟨S64, .f32⟩ : BufTy).Contents (Elt F))
    (h0 : V (Proc.devRef .tc main_arg0) = x0) (h8 : V (Proc.devRef .tc main_arg8) = x8) (h9 : V (Proc.devRef .tc main_arg9) = x9) :
    after ops0 V (Proc.devRef .tc main_v3) = val_main_v3 (F := F) x0 x8 x9 := by
  subst h0 h8 h9
  after_results_simp <;> rfl

set_option maxRecDepth 8192 in
set_option maxHeartbeats 8000000 in
/-- The first layer's stretch, entered with the node table at the projection stage, leaves its node table at the
    first layer's stage. -/
theorem res1 (V : Valuation τ sig (Elt F)) (x0 : (⟨S100000x1024, .f32⟩ : BufTy).Contents (Elt F)) (x1 : (⟨S2x1600000, .i32⟩ : BufTy).Contents (Elt F)) (x2 : (⟨S1600000x64, .f32⟩ : BufTy).Contents (Elt F)) (x3 : (⟨S1600000x64, .f32⟩ : BufTy).Contents (Elt F)) (x8 : (⟨S1024x64, .f32⟩ : BufTy).Contents (Elt F)) (x9 : (⟨S64, .f32⟩ : BufTy).Contents (Elt F)) (x10 : (⟨S2x64x64, .f32⟩ : BufTy).Contents (Elt F)) (x11 : (⟨S2x64, .f32⟩ : BufTy).Contents (Elt F)) (x12 : (⟨S2x64x1, .f32⟩ : BufTy).Contents (Elt F)) (x13 : (⟨S2x1, .f32⟩ : BufTy).Contents (Elt F)) (x14 : (⟨S2x192x64, .f32⟩ : BufTy).Contents (Elt F)) (x15 : (⟨S2x192x64, .f32⟩ : BufTy).Contents (Elt F)) (x16 : (⟨S2x192, .f32⟩ : BufTy).Contents (Elt F)) (x17 : (⟨S2x192, .f32⟩ : BufTy).Contents (Elt F))
    (hin : V (Proc.devRef .tc main_v3) = val_main_v3 (F := F) x0 x8 x9)
    (h1 : V (Proc.devRef .tc main_arg1) = x1) (h2 : V (Proc.devRef .tc main_arg2) = x2) (h3 : V (Proc.devRef .tc main_arg3) = x3) (h10 : V (Proc.devRef .tc main_arg10) = x10) (h11 : V (Proc.devRef .tc main_arg11) = x11) (h12 : V (Proc.devRef .tc main_arg12) = x12) (h13 : V (Proc.devRef .tc main_arg13) = x13) (h14 : V (Proc.devRef .tc main_arg14) = x14) (h15 : V (Proc.devRef .tc main_arg15) = x15) (h16 : V (Proc.devRef .tc main_arg16) = x16) (h17 : V (Proc.devRef .tc main_arg17) = x17) :
    after ops1 V (Proc.devRef .tc main_v88) = val_main_v88 (F := F) x0 x1 x2 x3 x8 x9 x10 x11 x12 x13 x14 x15 x16 x17 := by
  subst h1 h2 h3 h10 h11 h12 h13 h14 h15 h16 h17
  after_results_simp
  rw [hin]
  rfl

set_option maxRecDepth 8192 in
set_option maxHeartbeats 8000000 in
/-- The second layer's stretch, entered with the node table at the first layer's stage, leaves its node table at the
    second layer's stage. -/
theorem res2 (V : Valuation τ sig (Elt F)) (x0 : (⟨S100000x1024, .f32⟩ : BufTy).Contents (Elt F)) (x1 : (⟨S2x1600000, .i32⟩ : BufTy).Contents (Elt F)) (x2 : (⟨S1600000x64, .f32⟩ : BufTy).Contents (Elt F)) (x3 : (⟨S1600000x64, .f32⟩ : BufTy).Contents (Elt F)) (x8 : (⟨S1024x64, .f32⟩ : BufTy).Contents (Elt F)) (x9 : (⟨S64, .f32⟩ : BufTy).Contents (Elt F)) (x10 : (⟨S2x64x64, .f32⟩ : BufTy).Contents (Elt F)) (x11 : (⟨S2x64, .f32⟩ : BufTy).Contents (Elt F)) (x12 : (⟨S2x64x1, .f32⟩ : BufTy).Contents (Elt F)) (x13 : (⟨S2x1, .f32⟩ : BufTy).Contents (Elt F)) (x14 : (⟨S2x192x64, .f32⟩ : BufTy).Contents (Elt F)) (x15 : (⟨S2x192x64, .f32⟩ : BufTy).Contents (Elt F)) (x16 : (⟨S2x192, .f32⟩ : BufTy).Contents (Elt F)) (x17 : (⟨S2x192, .f32⟩ : BufTy).Contents (Elt F))
    (hin : V (Proc.devRef .tc main_v88) = val_main_v88 (F := F) x0 x1 x2 x3 x8 x9 x10 x11 x12 x13 x14 x15 x16 x17)
    (h1 : V (Proc.devRef .tc main_arg1) = x1) (h2 : V (Proc.devRef .tc main_arg2) = x2) (h3 : V (Proc.devRef .tc main_arg3) = x3) (h10 : V (Proc.devRef .tc main_arg10) = x10) (h11 : V (Proc.devRef .tc main_arg11) = x11) (h12 : V (Proc.devRef .tc main_arg12) = x12) (h13 : V (Proc.devRef .tc main_arg13) = x13) (h14 : V (Proc.devRef .tc main_arg14) = x14) (h15 : V (Proc.devRef .tc main_arg15) = x15) (h16 : V (Proc.devRef .tc main_arg16) = x16) (h17 : V (Proc.devRef .tc main_arg17) = x17) :
    after ops2 V (Proc.devRef .tc main_v173) = val_main_v173 (F := F) x0 x1 x2 x3 x8 x9 x10 x11 x12 x13 x14 x15 x16 x17 := by
  subst h1 h2 h3 h10 h11 h12 h13 h14 h15 h16 h17
  after_results_simp
  rw [hin]
  rfl

set_option maxRecDepth 8192 in
set_option maxHeartbeats 8000000 in
/-- The lookup stretch, entered with the node table at the second layer's stage, leaves the source rows at their stage … -/
theorem res3_src (V : Valuation τ sig (Elt F)) (x0 : (⟨S100000x1024, .f32⟩ : BufTy).Contents (Elt F)) (x1 : (⟨S2x1600000, .i32⟩ : BufTy).Contents (Elt F)) (x2 : (⟨S1600000x64, .f32⟩ : BufTy).Contents (Elt F)) (x3 : (⟨S1600000x64, .f32⟩ : BufTy).Contents (Elt F)) (x4 : (⟨S8192, .i32⟩ : BufTy).Contents (Elt F)) (x8 : (⟨S1024x64, .f32⟩ : BufTy).Contents (Elt F)) (x9 : (⟨S64, .f32⟩ : BufTy).Contents (Elt F)) (x10 : (⟨S2x64x64, .f32⟩ : BufTy).Contents (Elt F)) (x11 : (⟨S2x64, .f32⟩ : BufTy).Contents (Elt F)) (x12 : (⟨S2x64x1, .f32⟩ : BufTy).Contents (Elt F)) (x13 : (⟨S2x1, .f32⟩ : BufTy).Contents (Elt F)) (x14 : (⟨S2x192x64, .f32⟩ : BufTy).Contents (Elt F)) (x15 : (⟨S2x192x64, .f32⟩ : BufTy).Contents (Elt F)) (x16 : (⟨S2x192, .f32⟩ : BufTy).Contents (Elt F)) (x17 : (⟨S2x192, .f32⟩ : BufTy).Contents (Elt F))
    (hin : V (Proc.devRef .tc main_v173) = val_main_v173 (F := F) x0 x1 x2 x3 x8 x9 x10 x11 x12 x13 x14 x15 x16 x17)
    (h4 : V (Proc.devRef .tc main_arg4) = x4) :
    after ops3 V (Proc.devRef .tc main_v180) = val_main_v180 (F := F) x0 x1 x2 x3 x4 x8 x9 x10 x11 x12 x13 x14 x15 x16 x17 := by
  subst h4
  after_results_simp
  rw [hin]
  rfl

set_option maxRecDepth 8192 in
set_option maxHeartbeats 8000000 in
/-- … the target rows at theirs … -/
theorem res3_dst (V : Valuation τ sig (Elt F)) (x0 : (⟨S100000x1024, .f32⟩ : BufTy).Contents (Elt F)) (x1 : (⟨S2x1600000, .i32⟩ : BufTy).Contents (Elt F)) (x2 : (⟨S1600000x64, .f32⟩ : BufTy).Contents (Elt F)) (x3 : (⟨S1600000x64, .f32⟩ : BufTy).Contents (Elt F)) (x5 : (⟨S8192, .i32⟩ : BufTy).Contents (Elt F)) (x8 : (⟨S1024x64, .f32⟩ : BufTy).Contents (Elt F)) (x9 : (⟨S64, .f32⟩ : BufTy).Contents (Elt F)) (x10 : (⟨S2x64x64, .f32⟩ : BufTy).Contents (Elt F)) (x11 : (⟨S2x64, .f32⟩ : BufTy).Contents (Elt F)) (x12 : (⟨S2x64x1, .f32⟩ : BufTy).Contents (Elt F)) (x13 : (⟨S2x1, .f32⟩ : BufTy).Contents (Elt F)) (x14 : (⟨S2x192x64, .f32⟩ : BufTy).Contents (Elt F)) (x15 : (⟨S2x192x64, .f32⟩ : BufTy).Contents (Elt F)) (x16 : (⟨S2x192, .f32⟩ : BufTy).Contents (Elt F)) (x17 : (⟨S2x192, .f32⟩ : BufTy).Contents (Elt F))
    (hin : V (Proc.devRef .tc main_v173) = val_main_v173 (F := F) x0 x1 x2 x3 x8 x9 x10 x11 x12 x13 x14 x15 x16 x17)
    (h5 : V (Proc.devRef .tc main_arg5) = x5) :
    after ops3 V (Proc.devRef .tc main_v187) = val_main_v187 (F := F) x0 x1 x2 x3 x5 x8 x9 x10 x11 x12 x13 x14 x15 x16 x17 := by
  subst h5
  after_results_simp
  rw [hin]
  rfl

set_option maxRecDepth 8192 in
set_option maxHeartbeats 8000000 in
/-- … and their product at its stage. -/
theorem res3_prod (V : Valuation τ sig (Elt F)) (x0 : (⟨S100000x1024, .f32⟩ : BufTy).Contents (Elt F)) (x1 : (⟨S2x1600000, .i32⟩ : BufTy).Contents (Elt F)) (x2 : (⟨S1600000x64, .f32⟩ : BufTy).Contents (Elt F)) (x3 : (⟨S1600000x64, .f32⟩ : BufTy).Contents (Elt F)) (x4 : (⟨S8192, .i32⟩ : BufTy).Contents (Elt F)) (x5 : (⟨S8192, .i32⟩ : BufTy).Contents (Elt F)) (x8 : (⟨S1024x64, .f32⟩ : BufTy).Contents (Elt F)) (x9 : (⟨S64, .f32⟩ : BufTy).Contents (Elt F)) (x10 : (⟨S2x64x64, .f32⟩ : BufTy).Contents (Elt F)) (x11 : (⟨S2x64, .f32⟩ : BufTy).Contents (Elt F)) (x12 : (⟨S2x64x1, .f32⟩ : BufTy).Contents (Elt F)) (x13 : (⟨S2x1, .f32⟩ : BufTy).Contents (Elt F)) (x14 : (⟨S2x192x64, .f32⟩ : BufTy).Contents (Elt F)) (x15 : (⟨S2x192x64, .f32⟩ : BufTy).Contents (Elt F)) (x16 : (⟨S2x192, .f32⟩ : BufTy).Contents (Elt F)) (x17 : (⟨S2x192, .f32⟩ : BufTy).Contents (Elt F))
    (hin : V (Proc.devRef .tc main_v173) = val_main_v173 (F := F) x0 x1 x2 x3 x8 x9 x10 x11 x12 x13 x14 x15 x16 x17)
    (h4 : V (Proc.devRef .tc main_arg4) = x4) (h5 : V (Proc.devRef .tc main_arg5) = x5) :
    after ops3 V (Proc.devRef .tc main_v188) = val_main_v188 (F := F) x0 x1 x2 x3 x4 x5 x8 x9 x10 x11 x12 x13 x14 x15 x16 x17 := by
  subst h4 h5
  after_results_simp
  rw [hin]
  rfl

set_option maxRecDepth 8192 in
set_option maxHeartbeats 8000000 in
/-- The last stretch, entered with the three row arrays at their stages, leaves the result at the loss stage. The
    four-piece concatenate is read with each piece at its own buffer. -/
theorem res4 (V : Valuation τ sig (Elt F)) (x0 : (⟨S100000x1024, .f32⟩ : BufTy).Contents (Elt F)) (x1 : (⟨S2x1600000, .i32⟩ : BufTy).Contents (Elt F)) (x2 : (⟨S1600000x64, .f32⟩ : BufTy).Contents (Elt F)) (x3 : (⟨S1600000x64, .f32⟩ : BufTy).Contents (Elt F)) (x4 : (⟨S8192, .i32⟩ : BufTy).Contents (Elt F)) (x5 : (⟨S8192, .i32⟩ : BufTy).Contents (Elt F)) (x6 : (⟨S8192, .f32⟩ : BufTy).Contents (Elt F)) (x7 : (⟨S8192x64, .f32⟩ : BufTy).Contents (Elt F)) (x8 : (⟨S1024x64, .f32⟩ : BufTy).Contents (Elt F)) (x9 : (⟨S64, .f32⟩ : BufTy).Contents (Elt F)) (x10 : (⟨S2x64x64, .f32⟩ : BufTy).Contents (Elt F)) (x11 : (⟨S2x64, .f32⟩ : BufTy).Contents (Elt F)) (x12 : (⟨S2x64x1, .f32⟩ : BufTy).Contents (Elt F)) (x13 : (⟨S2x1, .f32⟩ : BufTy).Contents (Elt F)) (x14 : (⟨S2x192x64, .f32⟩ : BufTy).Contents (Elt F)) (x15 : (⟨S2x192x64, .f32⟩ : BufTy).Contents (Elt F)) (x16 : (⟨S2x192, .f32⟩ : BufTy).Contents (Elt F)) (x17 : (⟨S2x192, .f32⟩ : BufTy).Contents (Elt F)) (x18 : (⟨S256x64, .f32⟩ : BufTy).Contents (Elt F)) (x19 : (⟨S64, .f32⟩ : BufTy).Contents (Elt F)) (x20 : (⟨S64x1, .f32⟩ : BufTy).Contents (Elt F)) (x21 : (⟨S1, .f32⟩ : BufTy).Contents (Elt F))
    (hsrc : V (Proc.devRef .tc main_v180) = val_main_v180 (F := F) x0 x1 x2 x3 x4 x8 x9 x10 x11 x12 x13 x14 x15 x16 x17)
    (hdst : V (Proc.devRef .tc main_v187) = val_main_v187 (F := F) x0 x1 x2 x3 x5 x8 x9 x10 x11 x12 x13 x14 x15 x16 x17)
    (hprod : V (Proc.devRef .tc main_v188) = val_main_v188 (F := F) x0 x1 x2 x3 x4 x5 x8 x9 x10 x11 x12 x13 x14 x15 x16 x17)
    (h6 : V (Proc.devRef .tc main_arg6) = x6) (h7 : V (Proc.devRef .tc main_arg7) = x7) (h18 : V (Proc.devRef .tc main_arg18) = x18) (h19 : V (Proc.devRef .tc main_arg19) = x19) (h20 : V (Proc.devRef .tc main_arg20) = x20) (h21 : V (Proc.devRef .tc main_arg21) = x21) :
    after ops4 V (Proc.devRef .tc main_v210) = val_main_v210 (F := F) x0 x1 x2 x3 x4 x5 x6 x7 x8 x9 x10 x11 x12 x13 x14 x15 x16 x17 x18 x19 x20 x21 := by
  subst h6 h7 h18 h19 h20 h21
  simp (disch := decide) only [after_cons, after_nil, nullary_result', unary_result', binary_result', ternary_result',
    reshape_result', nary4_result', nullary_result_ne', unary_result_ne', binary_result_ne', ternary_result_ne',
    reshape_result_ne', nary_result_ne']
  rw [hsrc, hdst, hprod]
  rfl

/-! ## The run -/

/-! No argument is written. -/
theorem arg0_kept : main_arg0 ∉ written := by decide
theorem arg1_kept : main_arg1 ∉ written := by decide
theorem arg2_kept : main_arg2 ∉ written := by decide
theorem arg3_kept : main_arg3 ∉ written := by decide
theorem arg4_kept : main_arg4 ∉ written := by decide
theorem arg5_kept : main_arg5 ∉ written := by decide
theorem arg6_kept : main_arg6 ∉ written := by decide
theorem arg7_kept : main_arg7 ∉ written := by decide
theorem arg8_kept : main_arg8 ∉ written := by decide
theorem arg9_kept : main_arg9 ∉ written := by decide
theorem arg10_kept : main_arg10 ∉ written := by decide
theorem arg11_kept : main_arg11 ∉ written := by decide
theorem arg12_kept : main_arg12 ∉ written := by decide
theorem arg13_kept : main_arg13 ∉ written := by decide
theorem arg14_kept : main_arg14 ∉ written := by decide
theorem arg15_kept : main_arg15 ∉ written := by decide
theorem arg16_kept : main_arg16 ∉ written := by decide
theorem arg17_kept : main_arg17 ∉ written := by decide
theorem arg18_kept : main_arg18 ∉ written := by decide
theorem arg19_kept : main_arg19 ∉ written := by decide
theorem arg20_kept : main_arg20 ∉ written := by decide
theorem arg21_kept : main_arg21 ∉ written := by decide

/-! A buffer the line never writes holds what the launch memory holds after each stretch. -/
theorem at1 (m : (ℓ : Loc nD τ sig) → Buf (Elt F) ℓ) (c : Dev nD) {r : Ref sig .tc} (hr : r ∉ written) :
    after ops0 (launchContents m c) (Proc.devRef .tc r) = m ((c.tc : Thread nD τ).loc r) :=
  (kept0 _ hr).trans rfl
theorem at2 (m : (ℓ : Loc nD τ sig) → Buf (Elt F) ℓ) (c : Dev nD) {r : Ref sig .tc} (hr : r ∉ written) :
    after ops1 (after ops0 (launchContents m c)) (Proc.devRef .tc r) = m ((c.tc : Thread nD τ).loc r) :=
  (kept1 _ hr).trans (at1 m c hr)
theorem at3 (m : (ℓ : Loc nD τ sig) → Buf (Elt F) ℓ) (c : Dev nD) {r : Ref sig .tc} (hr : r ∉ written) :
    after ops2 (after ops1 (after ops0 (launchContents m c))) (Proc.devRef .tc r) = m ((c.tc : Thread nD τ).loc r) :=
  (kept2 _ hr).trans (at2 m c hr)
theorem at4 (m : (ℓ : Loc nD τ sig) → Buf (Elt F) ℓ) (c : Dev nD) {r : Ref sig .tc} (hr : r ∉ written) :
    after ops3 (after ops2 (after ops1 (after ops0 (launchContents m c)))) (Proc.devRef .tc r) = m ((c.tc : Thread nD τ).loc r) :=
  (kept3 _ hr).trans (at3 m c hr)
theorem at5 (m : (ℓ : Loc nD τ sig) → Buf (Elt F) ℓ) (c : Dev nD) {r : Ref sig .tc} (hr : r ∉ written) :
    after ops4 (after ops3 (after ops2 (after ops1 (after ops0 (launchContents m c))))) (Proc.devRef .tc r) = m ((c.tc : Thread nD τ).loc r) :=
  (kept4 _ hr).trans (at4 m c hr)

/-- The whole line is its five stretches in order. -/
theorem allOps_after (V : Valuation τ sig (Elt F)) :
    after allOps V = after ops4 (after ops3 (after ops2 (after ops1 (after ops0 V)))) := by
  show after (ops0 ++ (ops1 ++ (ops2 ++ (ops3 ++ ops4)))) V = _
  rw [after_app, after_app, after_app, after_app]

/-- The result buffer after the whole line: the loss stage of the arguments, by chaining the stretches. -/
theorem result_final (m : (ℓ : Loc nD τ sig) → Buf (Elt F) ℓ) (c : Dev nD) :
    after allOps (launchContents m c) (Proc.devRef .tc main_v210)
      = val_main_v210 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  rw [allOps_after]
  have e0 := res0 (launchContents m c) (m ((c.tc : Thread nD τ).loc main_arg0)) (m ((c.tc : Thread nD τ).loc main_arg8)) (m ((c.tc : Thread nD τ).loc main_arg9)) rfl rfl rfl
  have e1 := res1 (after ops0 (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) e0
    (at1 m c arg1_kept) (at1 m c arg2_kept) (at1 m c arg3_kept) (at1 m c arg10_kept) (at1 m c arg11_kept) (at1 m c arg12_kept) (at1 m c arg13_kept) (at1 m c arg14_kept) (at1 m c arg15_kept) (at1 m c arg16_kept) (at1 m c arg17_kept)
  have e2 := res2 (after ops1 (after ops0 (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) e1
    (at2 m c arg1_kept) (at2 m c arg2_kept) (at2 m c arg3_kept) (at2 m c arg10_kept) (at2 m c arg11_kept) (at2 m c arg12_kept) (at2 m c arg13_kept) (at2 m c arg14_kept) (at2 m c arg15_kept) (at2 m c arg16_kept) (at2 m c arg17_kept)
  have esrc := res3_src (after ops2 (after ops1 (after ops0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) e2 (at3 m c arg4_kept)
  have edst := res3_dst (after ops2 (after ops1 (after ops0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) e2 (at3 m c arg5_kept)
  have eprod := res3_prod (after ops2 (after ops1 (after ops0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) e2 (at3 m c arg4_kept) (at3 m c arg5_kept)
  exact res4 (after ops3 (after ops2 (after ops1 (after ops0 (launchContents m c))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) esrc edst eprod
    (at4 m c arg6_kept) (at4 m c arg7_kept) (at4 m c arg18_kept) (at4 m c arg19_kept) (at4 m c arg20_kept) (at4 m c arg21_kept)

/-- An argument after the whole line: what the launch memory holds. -/
theorem arg_final (m : (ℓ : Loc nD τ sig) → Buf (Elt F) ℓ) (c : Dev nD) {r : Ref sig .tc} (hr : r ∉ written) :
    after allOps (launchContents m c) (Proc.devRef .tc r) = m ((c.tc : Thread nD τ).loc r) := by
  rw [allOps_after]
  exact at5 m c hr

/-- On every device, for any float values, from any memory with zero counters: every weakly fair execution of
    @main terminates with the result buffer at the loss stage of the 22 arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v210) = val_main_v210 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v210).trans (result_final m c),
      (h c main_arg0).trans (arg_final m c arg0_kept),
      (h c main_arg1).trans (arg_final m c arg1_kept),
      (h c main_arg2).trans (arg_final m c arg2_kept),
      (h c main_arg3).trans (arg_final m c arg3_kept),
      (h c main_arg4).trans (arg_final m c arg4_kept),
      (h c main_arg5).trans (arg_final m c arg5_kept),
      (h c main_arg6).trans (arg_final m c arg6_kept),
      (h c main_arg7).trans (arg_final m c arg7_kept),
      (h c main_arg8).trans (arg_final m c arg8_kept),
      (h c main_arg9).trans (arg_final m c arg9_kept),
      (h c main_arg10).trans (arg_final m c arg10_kept),
      (h c main_arg11).trans (arg_final m c arg11_kept),
      (h c main_arg12).trans (arg_final m c arg12_kept),
      (h c main_arg13).trans (arg_final m c arg13_kept),
      (h c main_arg14).trans (arg_final m c arg14_kept),
      (h c main_arg15).trans (arg_final m c arg15_kept),
      (h c main_arg16).trans (arg_final m c arg16_kept),
      (h c main_arg17).trans (arg_final m c arg17_kept),
      (h c main_arg18).trans (arg_final m c arg18_kept),
      (h c main_arg19).trans (arg_final m c arg19_kept),
      (h c main_arg20).trans (arg_final m c arg20_kept),
      (h c main_arg21).trans (arg_final m c arg21_kept)⟩)
    (run_seq scopedRefs_eq scopedSems_eq defs main (fun _ => allOps) main_eq (fun _ => allOps_sub) m ρ
      (fun _ => allOps_fresh))

end Cert.ReferenceIdeal.RRun

end
-- ==== Proof.Spec.lean ====
/-
  The mathematics of the edge-gated graph network, one whole-array function per stage, on the extended reals.
  A node table is a [100000, 64] array; an edge list has 1600000 edges; 8192 node pairs are scored.

  * proj      : h[n, j]   = (sum over k < 1024 of x[n, k] * W[k, j]) + b[j]
  * lin64     : y[n, j]   = (sum over k < 64 of h[n, k] * W[k, j]) + b[j]              (the message linear, per NODE)
  * gate      : g[e, 0]   = logistic ((sum over k < 64 of (a[e, k] * q[e, k]) * w[0, k]) + beta[0])
  * gru       : the GRU cell, gates r | z | n, each gate its own 64 x 64 weight and 64-bias:
                r = logistic (i_r + h_r), z = logistic (i_z + h_z), n = tanh (i_n + r * h_n),
                out = (1 - z) * n + z * h, where i_* = aggr @ W_i* + b_i* and h_* = h @ W_h* + b_h*
  * feat      : the pair feature row [hs | hd | hs * hd | qp] of width 256
  * pairLoss  : per pair, l = relu (feat @ W1 + b1) @ W2 + b2 and
                loss = (max l 0 - l * label) + log1p (exp (- |l|))
  Every sum is a finite sum in the commutative monoid of extended reals, so neither its order nor its tiling matters.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Mat (a b : Nat) : Type := (⟨2, ![a, b]⟩ : Shape).Idx → EReal
/-- A rank-1 array of extended reals. -/
abbrev Row (a : Nat) : Type := (⟨1, ![a]⟩ : Shape).Idx → EReal

/-- A row of a table times a weight matrix, plus a bias: entry (n, j) of table @ W + b, contracting over K columns. -/
def affine {N K J : Nat} (t : Mat N K) (W : Mat K J) (b : Row J) : Mat N J :=
  fun i => (∑ k : Fin K, t (ix2 (i 0) k) * W (ix2 k (i 1))) + b (ix1 (i 1))

/-- The node projection x @ Wproj + bproj. -/
abbrev proj (x : Mat 100000 1024) (W : Mat 1024 64) (b : Row 64) : Mat 100000 64 := affine x W b

/-- The per-node message linear h @ Wm + bm. -/
abbrev lin64 (h : Mat 100000 64) (W : Mat 64 64) (b : Row 64) : Mat 100000 64 := affine h W b

/-- The edge gate: the logistic of the 64-term dot of (edge attribute * query) with the gate row, plus the gate bias. -/
def gate (a q : Mat 1600000 64) (w : Mat 1 64) (beta : Row 1) : Mat 1600000 1 :=
  fun i => Ideal.logistic ((∑ k : Fin 64, (a (ix2 (i 0) k) * q (ix2 (i 0) k)) * w (ix2 0 k)) + beta (ix1 0))

/-- The GRU cell on node rows, one weight matrix and one bias per gate and per side. -/
def gru (aggr h : Mat 100000 64) (wir wiz win whr whz whn : Mat 64 64) (bir biz bin bhr bhz bhn : Row 64) : Mat 100000 64 :=
  fun i =>
    let r := Ideal.logistic (affine aggr wir bir i + affine h whr bhr i)
    let z := Ideal.logistic (affine aggr wiz biz i + affine h whz bhz i)
    let n := Ideal.tanh (affine aggr win bin i + r * affine h whn bhn i)
    (1 - z) * n + z * h i

/-- The pair feature row: source row, target row, their product, the pair query, side by side (width 256). -/
def feat (hs hd qp : Mat 8192 64) : Mat 8192 256 :=
  fun i =>
    if h0 : (i 1).val < 64 then hs (ix2 (i 0) ⟨(i 1).val, h0⟩)
    else if h1 : (i 1).val < 128 then hd (ix2 (i 0) ⟨(i 1).val - 64, by omega⟩)
    else if h2 : (i 1).val < 192 then hs (ix2 (i 0) ⟨(i 1).val - 128, by omega⟩) * hd (ix2 (i 0) ⟨(i 1).val - 128, by omega⟩)
    else qp (ix2 (i 0) ⟨(i 1).val - 192, by have := idx2_lt1 i; omega⟩)

/-- The pair logit: relu (feat @ W1 + b1) @ W2 + b2, a column. -/
def logit (f : Mat 8192 256) (W1 : Mat 256 64) (b1 : Row 64) (W2 : Mat 64 1) (b2 : Row 1) : Mat 8192 1 :=
  affine (fun i => max (affine f W1 b1 i) 0) W2 b2

/-- Binary cross-entropy with logits, per pair: (max l 0 - l * y) + log1p (exp (- |l|)). -/
def bce (l y : EReal) : EReal := (max l 0 - l * y) + Ideal.log1p (Ideal.exp (-(max l (-l))))

/-- The per-pair loss column. -/
def pairLoss (hs hd qp : Mat 8192 64) (W1 : Mat 256 64) (b1 : Row 64) (W2 : Mat 64 1) (b2 : Row 1) (lab : Mat 8192 1) : Mat 8192 1 :=
  fun i => bce (logit (feat hs hd qp) W1 b1 W2 b2 i) (lab i)

end Cert.Spec

end
-- ==== Proof.Model.lean ====
/-
  The whole network as ONE function of its 22 input arrays, on the extended reals.

  Inputs (in the programs' argument order): x0 = node features [100000, 1024]; x1 = edge index [2, 1600000] (row 0: the
  node an edge reads, row 1: the node it adds into); x2 = edge attributes and x3 = edge queries [1600000, 64];
  x4, x5 = the source and target node of each of 8192 pairs; x6 = pair labels [8192]; x7 = pair queries [8192, 64];
  x8, x9 = the projection's weight and bias; x10 .. x17 = the two layers' parameters stacked on a leading axis of
  extent 2 (message weight [2, 64, 64] and bias [2, 64]; gate vector [2, 64, 1] and bias [2, 1]; the GRU's input and
  hidden weights [2, 192, 64] and biases [2, 192], gates r | z | n in blocks of 64 rows); x18 .. x21 = the pair
  scorer's two affine maps.

  h0 = proj x0 x8 x9. Layer L (L = 0, 1) sends a node table h to
    gru (segsum (e, j ↦ gate_L[e] * (lin64 h Wm_L bm_L)[x1[0, e], j])) h (the six weight blocks and six bias blocks of L),
  where segsum adds each edge row into the node row x1[1, e] names. It is a PARAMETER here: the two programs apply
  literally the same scatter-add to their message arrays, so nothing about it is needed beyond that it is one function.
  The message linear is applied per NODE and then looked up per edge; applying it per edge after the lookup gives the
  same number, because entry (e, j) of either is the same finite sum over the looked-up row.
  A row lookup by a 32-bit index word reads the word as a natural number, clamped into the table (for a word that is
  a node id, below 100000, it is that row).
  The result is the mean over the 8192 pairs of the per-pair binary cross-entropy of the scorer's logit.
-/
import proofs.«422311_j73100343378050_3_alg».proof.Proof.Spec

noncomputable section

open scoped BigOperators

namespace Cert.Model

open Idealize.ShloMosaic Idealize.ShloMosaic.ValueIdx Cert.Spec

/-- A rank-3 array of extended reals. -/
abbrev Ten3 (a b c : Nat) : Type := (⟨3, ![a, b, c]⟩ : Shape).Idx → EReal

/-! ## One layer's parameters, cut out of the stacked arrays -/

/-- The message weight of layer L. -/
def wm (x10 : Ten3 2 64 64) (L : Fin 2) : Mat 64 64 := fun i => x10 (ix3 L (i 0) (i 1))
/-- The message bias of layer L. -/
def bm (x11 : Mat 2 64) (L : Fin 2) : Row 64 := fun i => x11 (ix2 L (i 0))
/-- The gate vector of layer L, laid out as a row. -/
def wrow (x12 : Ten3 2 64 1) (L : Fin 2) : Mat 1 64 := fun i => x12 (ix3 L (i 1) 0)
/-- The gate bias of layer L. -/
def beta (x13 : Mat 2 1) (L : Fin 2) : Row 1 := fun i => x13 (ix2 L (i 0))
/-- Gate block g (0 = r, 1 = z, 2 = n) of a stacked [2, 192, 64] GRU weight of layer L, TRANSPOSED: entry (k, j) is the
    stacked array's entry (L, 64 g + j, k). -/
def wblock (x : Ten3 2 192 64) (L : Fin 2) (g : Fin 3) : Mat 64 64 :=
  fun i => x (ix3 L ⟨64 * g.val + (i 1).val, by have := idx2_lt1 i; have := g.isLt; omega⟩ (i 0))
/-- Gate block g of a stacked [2, 192] GRU bias of layer L: entry j is the stacked array's entry (L, 64 g + j). -/
def bblock (x : Mat 2 192) (L : Fin 2) (g : Fin 3) : Row 64 :=
  fun i => x (ix2 L ⟨64 * g.val + (i 0).val, by have h : (i 0).val < 64 := (i 0).isLt; have := g.isLt; omega⟩)

/-! ## Row lookup -/

/-- Rows of a node table looked up by index words: row e of the result is the table's row "word e as a natural
    number, clamped to the last row". -/
def rowsOf {n : Nat} (t : Mat 100000 64) (idx : Fin n → BitVec 32) : Mat n 64 :=
  fun i => t (ix2 ⟨min (idx (i 0)).toNat 99999, by omega⟩ (i 1))

/-! ## The network -/

section
variable (x0 : Mat 100000 1024) (x1 : IVec ⟨2, ![2, 1600000]⟩ 32) (x2 x3 : Mat 1600000 64)
  (x4 x5 : IVec ⟨1, ![8192]⟩ 32) (x6 : Row 8192) (x7 : Mat 8192 64) (x8 : Mat 1024 64) (x9 : Row 64)
  (x10 : Ten3 2 64 64) (x11 : Mat 2 64) (x12 : Ten3 2 64 1) (x13 : Mat 2 1) (x14 x15 : Ten3 2 192 64) (x16 x17 : Mat 2 192)
  (x18 : Mat 256 64) (x19 : Row 64) (x20 : Mat 64 1) (x21 : Row 1)
  (segsum : Mat 1600000 64 → Mat 100000 64)

/-- The gated messages of layer L from the node table h: edge e, column j holds gate_L[e] times the message linear of
    the node the edge reads. -/
def msg (L : Fin 2) (h : Mat 100000 64) : Mat 1600000 64 :=
  fun i => gate x2 x3 (wrow x12 L) (beta x13 L) (ix2 (i 0) 0)
    * rowsOf (lin64 h (wm x10 L) (bm x11 L)) (fun e : Fin 1600000 => x1 (ix2 0 e)) i

/-- One layer: the node table after the GRU update on the aggregated messages. -/
def layer (L : Fin 2) (h : Mat 100000 64) : Mat 100000 64 :=
  gru (segsum (msg x1 x2 x3 x10 x11 x12 x13 L h)) h
    (wblock x14 L 0) (wblock x14 L 1) (wblock x14 L 2) (wblock x15 L 0) (wblock x15 L 1) (wblock x15 L 2)
    (bblock x16 L 0) (bblock x16 L 1) (bblock x16 L 2) (bblock x17 L 0) (bblock x17 L 1) (bblock x17 L 2)

/-- The node table after the projection. -/
def h0 : Mat 100000 64 := proj x0 x8 x9
/-- The node table after the first layer. -/
def h1 : Mat 100000 64 :=
  layer x1 x2 x3 x10 x11 x12 x13 x14 x15 x16 x17 segsum 0 (h0 x0 x8 x9)
/-- The node table after the second layer. -/
def h2 : Mat 100000 64 :=
  layer x1 x2 x3 x10 x11 x12 x13 x14 x15 x16 x17 segsum 1 (h1 x0 x1 x2 x3 x8 x9 x10 x11 x12 x13 x14 x15 x16 x17 segsum)

/-- The per-pair loss column from a final node table t: the scorer on the rows x4 and x5 name. -/
def lossRows (t : Mat 100000 64) : Mat 8192 1 :=
  pairLoss (rowsOf t (fun p : Fin 8192 => x4 (ix1 p))) (rowsOf t (fun p : Fin 8192 => x5 (ix1 p)))
    x7 x18 x19 x20 x21 (fun i => x6 (ix1 (i 0)))

/-- The mean loss from a final node table t: the sum of the 8192 per-pair losses divided by 8192 (the f32 word
    0x46000000). -/
def lossFrom (t : Mat 100000 64) : EReal :=
  Ideal.div (∑ p : Fin 8192, lossRows x4 x5 x6 x7 x18 x19 x20 x21 t (ix2 p 0)) (Ideal.ofBits .f32 0x46000000#32)

/-- The network's result. -/
def loss : EReal :=
  lossFrom x4 x5 x6 x7 x18 x19 x20 x21 (h2 x0 x1 x2 x3 x8 x9 x10 x11 x12 x13 x14 x15 x16 x17 segsum)

end

end Cert.Model

end
-- ==== Proof.Seg.lean ====
/-
  The segment sum both programs apply to their message arrays: a scatter-add of the 1600000 message rows into a
  zero [100000, 64] table at the rows that row 1 of the edge index names (a message whose index is outside the table
  is dropped). The kernel program and the reference apply this same operation, each through its own copy of the
  dimension records; the two copies are one function.
-/
import proofs.«422311_j73100343378050_3_alg».proof.Proof.Gen.KernelIdeal
import proofs.«422311_j73100343378050_3_alg».proof.Proof.Gen.ReferenceIdeal
import Idealize.ShloMosaic.PureOps.Ideal

noncomputable section

open Idealize.ShloMosaic

namespace Cert.Seg

/-- The segment sum as the kernel program spells it, a function of the edge index x1 and the message array u. -/
def ksegsum (x1 : IVec Cert.KernelIdeal.S2x1600000 32) (u : FVec Ideal Cert.KernelIdeal.S1600000x64 .f32) :
    FVec Ideal Cert.KernelIdeal.S100000x64 .f32 :=
  open Cert.KernelIdeal Cert.KernelIdeal.Facts₀ in
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0
      (shapeCast S1600000 ((extractStridedSlice S1x1600000 ![1, 0] · slices_S2x1600000_S1x1600000_1_0) x1) shapeCasts_S1x1600000_S1600000))
    u

/-- The segment sum as the reference spells it. -/
def rsegsum (x1 : IVec Cert.ReferenceIdeal.S2x1600000 32) (u : FVec Ideal Cert.ReferenceIdeal.S1600000x64 .f32) :
    FVec Ideal Cert.ReferenceIdeal.S100000x64 .f32 :=
  open Cert.ReferenceIdeal Cert.ReferenceIdeal.Facts₀ in
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0
      (shapeCast S1600000 ((extractStridedSlice S1x1600000 ![1, 0] · slices_S2x1600000_S1x1600000_1_0) x1) shapeCasts_S1x1600000_S1600000))
    u

/-- The two spellings are one function: the records hold the same lists, and the evidence fields are propositions. -/
theorem ksegsum_eq_rsegsum : ksegsum = rsegsum := rfl

end Cert.Seg

end
-- ==== Proof.PreFacts.lean ====
/-
  DECODING THE PRECONDITION'S INDEX RANGES.

  The statement's precondition is printed as the pure function `Cert.Pre_finite_inputs.fn`: a chain of scalar bits
  joined by `and`, the claim being that the last bit is 1. The chain's first conjuncts say that every float input is
  finite; its last six say that three index arrays lie in the node range:

    all(edge_index[0] ≥ 0), all(edge_index[0] < 100000), all(src ≥ 0), all(src < 100000), all(dst ≥ 0), all(dst < 100000).

  This module reads those six back. Each is a signed comparison of an index array with a broadcast constant, reduced by
  `and` to one bit (jnp's `all`) and joined to the bit so far. A conjunction of bits that is 1 has both bits 1; a
  reduction by `and` that is 1 met only 1s; and a 32-bit word that tests `0 ≤ x` and `x < 100000` as a SIGNED number has
  its top bit clear, so its unsigned value is that same number: `x.toNat < 100000`. The first row of `edge_index` is
  printed as a slice `[0:1, :]` reshaped to a vector; element `e` of it is `edge_index (0, e)`.

  The finiteness conjuncts are not opened: each part of the printed chain is read over an ARBITRARY bit-so-far, and only
  the parts' nesting is followed down to the part that holds the first range conjunct. Nothing here depends on the float
  instance; the result is stated generically (`index_ranges_of`) and at the extended reals (`index_ranges`).
-/
import proofs.«422311_j73100343378050_3_alg».proof.Pre_finite_inputs
import Idealize.ShloMosaic.Lib.ReduceAll
import Idealize.ShloMosaic.Lib.ValueLayout
import Idealize.ShloMosaic.Lib.IdealHost

namespace Cert.PreFacts

open Idealize.ShloMosaic Idealize.ShloMosaic.ValueIdx Cert.Pre_finite_inputs

/-- The scalar shape has one index. -/
instance : Subsingleton S_.Idx := ⟨fun a b => funext fun d => d.elim0⟩

/-! ## Words -/

/-- A 32-bit word that is nonnegative and below 100000 as a signed number is below 100000 as an unsigned one: being
    nonnegative, its top bit is clear and the two readings agree. -/
theorem toNat_lt_of_signed_range (x : BitVec 32) (h0 : IntOp.cmpi .sge x 0#32 = 1#1)
    (h1 : IntOp.cmpi .slt x 100000#32 = 1#1) : x.toNat < 100000 := by
  rw [IntOp.cmpi_sge, show (0#32 : BitVec 32).toInt = 0 from by decide] at h0
  rw [IntOp.cmpi_slt, show (100000#32 : BitVec 32).toInt = 100000 from by decide] at h1
  have hx := BitVec.toInt_eq_toNat_cond x
  split at hx <;> omega

/-! ## One conjunct: `all` of a bit array, joined to the bit so far -/

/-- `b ∧ all(p) = 1`: the bit so far is 1 and every element of `p` is 1. -/
theorem and_all {S : Shape} {axes : List (Fin S.rank)} (b : IVec S_ 1) (p : IVec S 1) (init : IVec S_ 1)
    (hr : S.ReducesTo axes S_) (hu : 0 < S_.numel)
    (h : andi b (Host.reduce IntOp.andi p init hr hu) ix0 = 1#1) : b ix0 = 1#1 ∧ ∀ i : S.Idx, p i = 1#1 := by
  obtain ⟨hb, hp⟩ := IntOp.andi_eq_one.1
    (show IntOp.andi (b ix0) (Host.reduce IntOp.andi p init hr hu ix0) = 1#1 from h)
  exact ⟨hb, fun i => Host.reduce_andi_all p init hr hu ix0 hp i⟩

/-- An element of an index array that tests `≥ 0` and `< 100000` against the broadcast constants is below 100000. -/
theorem lt_of_bits {S : Shape} (v : IVec S 32) (hb : S_.BroadcastsInDim S ![]) (i : S.Idx)
    (h0 : cmpi .sge v (broadcastInDim S ![] hb (constantI S_ 32 0#32)) i = 1#1)
    (h1 : cmpi .slt v (broadcastInDim S ![] hb (constantI S_ 32 100000#32)) i = 1#1) : (v i).toNat < 100000 := by
  have z0 : broadcastInDim S ![] hb (constantI S_ 32 0#32) i = 0#32 := broadcastInDim_scalar_apply hb _ i
  have z1 : broadcastInDim S ![] hb (constantI S_ 32 100000#32) i = 100000#32 := broadcastInDim_scalar_apply hb _ i
  have h0' : IntOp.cmpi .sge (v i) (broadcastInDim S ![] hb (constantI S_ 32 0#32) i) = 1#1 := h0
  have h1' : IntOp.cmpi .slt (v i) (broadcastInDim S ![] hb (constantI S_ 32 100000#32) i) = 1#1 := h1
  rw [z0] at h0'
  rw [z1] at h1'
  exact toNat_lt_of_signed_range (v i) h0' h1'

variable [Facts] {F : FTy → Type} [FloatOps F]

/-! ## The chain's parts, last first, each over an arbitrary bit so far -/

/-- The last part: `all(dst < c)` joined to the bit so far. -/
theorem part7_bits (a5 : IVec S8192 32) (b : IVec S_ 1) (c : IVec S8192 32)
    (h : fn_part7 (F := F) a5 b c ix0 = 1#1) : b ix0 = 1#1 ∧ ∀ i : S8192.Idx, cmpi .slt a5 c i = 1#1 := by
  dsimp only [fn_part7] at h
  exact and_all _ _ _ _ _ h

/-- The part before it: `all(row < c)` for the vector and bound it is handed, then both ranges of `src` and of `dst`. -/
theorem part6_bits (a4 a5 : IVec S8192 32) (b : IVec S_ 1) (v c : IVec S1600000 32)
    (h : fn_part6 (F := F) a4 a5 b v c ix0 = 1#1) :
    b ix0 = 1#1 ∧ (∀ i : S1600000.Idx, cmpi .slt v c i = 1#1)
      ∧ (∀ p : Fin 8192, (a4 (ix1 p)).toNat < 100000) ∧ (∀ p : Fin 8192, (a5 (ix1 p)).toNat < 100000) := by
  dsimp only [fn_part6] at h
  obtain ⟨h117, dlt⟩ := part7_bits (F := F) _ _ _ h
  obtain ⟨h113, dge⟩ := and_all _ _ _ _ _ h117
  obtain ⟨h109, slt⟩ := and_all _ _ _ _ _ h113
  obtain ⟨h105, sge⟩ := and_all _ _ _ _ _ h109
  obtain ⟨hb, rlt⟩ := and_all _ _ _ _ _ h105
  exact ⟨hb, rlt, fun p => lt_of_bits a4 _ (ix1 p) (sge _) (slt _), fun p => lt_of_bits a5 _ (ix1 p) (dge _) (dlt _)⟩

/-- Element `e` of the first row of a `[2, n]` array, cut out as a `[1, n]` slice and reshaped to a vector. -/
theorem row0_apply (a1 : IVec S2x1600000 32) (e : Fin 1600000) :
    shapeCast S1600000 (extractStridedSlice S1x1600000 ![0, 0] a1 Facts.slices_S2x1600000_S1x1600000_0_0)
      Facts.shapeCasts_S1x1600000_S1600000 (ix1 e) = a1 (ix2 0 e) :=
  (shapeCast_1a_a_apply _ _ e).trans (slice2_axis0_apply 0 a1 _ (0 : Fin 1) e (0 : Fin 2) rfl)

/-- The part that cuts the first row of `edge_index`: its range, and the ranges of `src` and `dst` from the parts after. -/
theorem part5_ranges (a1 : IVec S2x1600000 32) (a4 a5 : IVec S8192 32) (a21 : FVec F S1 .f32) (b : IVec S_ 1)
    (v84 : FVec F S64x1 .f32) (cst : FVec F S_ .f32)
    (h : fn_part5 (F := F) a1 a4 a5 a21 b v84 cst ix0 = 1#1) :
    (∀ e : Fin 1600000, (a1 (ix2 0 e)).toNat < 100000)
      ∧ (∀ p : Fin 8192, (a4 (ix1 p)).toNat < 100000) ∧ (∀ p : Fin 8192, (a5 (ix1 p)).toNat < 100000) := by
  dsimp only [fn_part5] at h
  obtain ⟨h99, rlt, hs, hd⟩ := part6_bits (F := F) _ _ _ _ _ h
  obtain ⟨-, rge⟩ := and_all _ _ _ _ _ h99
  refine ⟨fun e => ?_, hs, hd⟩
  rw [← row0_apply a1 e]
  exact lt_of_bits _ _ (ix1 e) (rge _) (rlt _)

/-! ## The earlier parts only pass the three index arrays on -/

theorem part4_ranges (a1 : IVec S2x1600000 32) (a4 a5 : IVec S8192 32) (a17 : FVec F S2x192 .f32)
    (a18 : FVec F S256x64 .f32) (a19 : FVec F S64 .f32) (a20 : FVec F S64x1 .f32) (a21 : FVec F S1 .f32)
    (b b' : IVec S_ 1) (h : fn_part4 (F := F) a1 a4 a5 a17 a18 a19 a20 a21 b b' ix0 = 1#1) :
    (∀ e : Fin 1600000, (a1 (ix2 0 e)).toNat < 100000)
      ∧ (∀ p : Fin 8192, (a4 (ix1 p)).toNat < 100000) ∧ (∀ p : Fin 8192, (a5 (ix1 p)).toNat < 100000) := by
  dsimp only [fn_part4] at h
  exact part5_ranges (F := F) _ _ _ _ _ _ _ h

theorem part3_ranges (a1 : IVec S2x1600000 32) (a4 a5 : IVec S8192 32) (a14 a15 : FVec F S2x192x64 .f32)
    (a16 a17 : FVec F S2x192 .f32) (a18 : FVec F S256x64 .f32) (a19 : FVec F S64 .f32) (a20 : FVec F S64x1 .f32)
    (a21 : FVec F S1 .f32) (b : IVec S_ 1) (v49 v50 : FVec F S2x1 .f32)
    (h : fn_part3 (F := F) a1 a4 a5 a14 a15 a16 a17 a18 a19 a20 a21 b v49 v50 ix0 = 1#1) :
    (∀ e : Fin 1600000, (a1 (ix2 0 e)).toNat < 100000)
      ∧ (∀ p : Fin 8192, (a4 (ix1 p)).toNat < 100000) ∧ (∀ p : Fin 8192, (a5 (ix1 p)).toNat < 100000) := by
  dsimp only [fn_part3] at h
  exact part4_ranges (F := F) _ _ _ _ _ _ _ _ _ _ h

theorem part2_ranges (a1 : IVec S2x1600000 32) (a4 a5 : IVec S8192 32) (a10 : FVec F S2x64x64 .f32)
    (a11 : FVec F S2x64 .f32) (a12 : FVec F S2x64x1 .f32) (a13 : FVec F S2x1 .f32) (a14 a15 : FVec F S2x192x64 .f32)
    (a16 a17 : FVec F S2x192 .f32) (a18 : FVec F S256x64 .f32) (a19 : FVec F S64 .f32) (a20 : FVec F S64x1 .f32)
    (a21 : FVec F S1 .f32) (b : IVec S_ 1)
    (h : fn_part2 (F := F) a1 a4 a5 a10 a11 a12 a13 a14 a15 a16 a17 a18 a19 a20 a21 b ix0 = 1#1) :
    (∀ e : Fin 1600000, (a1 (ix2 0 e)).toNat < 100000)
      ∧ (∀ p : Fin 8192, (a4 (ix1 p)).toNat < 100000) ∧ (∀ p : Fin 8192, (a5 (ix1 p)).toNat < 100000) := by
  dsimp only [fn_part2] at h
  exact part3_ranges (F := F) _ _ _ _ _ _ _ _ _ _ _ _ _ _ h

theorem part1_ranges (a1 : IVec S2x1600000 32) (a4 a5 : IVec S8192 32) (a7 : FVec F S8192x64 .f32)
    (a8 : FVec F S1024x64 .f32) (a9 : FVec F S64 .f32) (a10 : FVec F S2x64x64 .f32)
    (a11 : FVec F S2x64 .f32) (a12 : FVec F S2x64x1 .f32) (a13 : FVec F S2x1 .f32) (a14 a15 : FVec F S2x192x64 .f32)
    (a16 a17 : FVec F S2x192 .f32) (a18 : FVec F S256x64 .f32) (a19 : FVec F S64 .f32) (a20 : FVec F S64x1 .f32)
    (a21 : FVec F S1 .f32) (b : IVec S_ 1) (v16 : IVec S8192 1)
    (h : fn_part1 (F := F) a1 a4 a5 a7 a8 a9 a10 a11 a12 a13 a14 a15 a16 a17 a18 a19 a20 a21 b v16 ix0 = 1#1) :
    (∀ e : Fin 1600000, (a1 (ix2 0 e)).toNat < 100000)
      ∧ (∀ p : Fin 8192, (a4 (ix1 p)).toNat < 100000) ∧ (∀ p : Fin 8192, (a5 (ix1 p)).toNat < 100000) := by
  dsimp only [fn_part1] at h
  exact part2_ranges (F := F) _ _ _ _ _ _ _ _ _ _ _ _ _ _ _ _ h

/-! ## The precondition -/

/-- Under the precondition, at any float instance: the first row of `edge_index`, `src` and `dst` hold node numbers. -/
theorem index_ranges_of (a0 : FVec F S100000x1024 .f32) (a1 : IVec S2x1600000 32) (a2 a3 : FVec F S1600000x64 .f32)
    (a4 a5 : IVec S8192 32) (a6 : FVec F S8192 .f32) (a7 : FVec F S8192x64 .f32) (a8 : FVec F S1024x64 .f32)
    (a9 : FVec F S64 .f32) (a10 : FVec F S2x64x64 .f32) (a11 : FVec F S2x64 .f32) (a12 : FVec F S2x64x1 .f32)
    (a13 : FVec F S2x1 .f32) (a14 a15 : FVec F S2x192x64 .f32) (a16 a17 : FVec F S2x192 .f32)
    (a18 : FVec F S256x64 .f32) (a19 : FVec F S64 .f32) (a20 : FVec F S64x1 .f32) (a21 : FVec F S1 .f32)
    (h : fn (F := F) a0 a1 a2 a3 a4 a5 a6 a7 a8 a9 a10 a11 a12 a13 a14 a15 a16 a17 a18 a19 a20 a21 = fun _ => 1#1) :
    (∀ e : Fin 1600000, (a1 (ix2 0 e)).toNat < 100000)
      ∧ (∀ p : Fin 8192, (a4 (ix1 p)).toNat < 100000) ∧ (∀ p : Fin 8192, (a5 (ix1 p)).toNat < 100000) := by
  have h0 := congrFun h ix0
  dsimp only [fn] at h0
  exact part1_ranges (F := F) _ _ _ _ _ _ _ _ _ _ _ _ _ _ _ _ _ _ _ _ h0

/-- The same at the extended reals, the instance the value proof is stated at. -/
theorem index_ranges (a0 : FVec Ideal S100000x1024 .f32) (a1 : IVec S2x1600000 32) (a2 a3 : FVec Ideal S1600000x64 .f32)
    (a4 a5 : IVec S8192 32) (a6 : FVec Ideal S8192 .f32) (a7 : FVec Ideal S8192x64 .f32) (a8 : FVec Ideal S1024x64 .f32)
    (a9 : FVec Ideal S64 .f32) (a10 : FVec Ideal S2x64x64 .f32) (a11 : FVec Ideal S2x64 .f32)
    (a12 : FVec Ideal S2x64x1 .f32) (a13 : FVec Ideal S2x1 .f32) (a14 a15 : FVec Ideal S2x192x64 .f32)
    (a16 a17 : FVec Ideal S2x192 .f32) (a18 : FVec Ideal S256x64 .f32) (a19 : FVec Ideal S64 .f32)
    (a20 : FVec Ideal S64x1 .f32) (a21 : FVec Ideal S1 .f32)
    (h : fn (F := Ideal) a0 a1 a2 a3 a4 a5 a6 a7 a8 a9 a10 a11 a12 a13 a14 a15 a16 a17 a18 a19 a20 a21 = fun _ => 1#1) :
    (∀ e : Fin 1600000, (a1 (ix2 0 e)).toNat < 100000)
      ∧ (∀ p : Fin 8192, (a4 (ix1 p)).toNat < 100000) ∧ (∀ p : Fin 8192, (a5 (ix1 p)).toNat < 100000) :=
  index_ranges_of (F := Ideal) a0 a1 a2 a3 a4 a5 a6 a7 a8 a9 a10 a11 a12 a13 a14 a15 a16 a17 a18 a19 a20 a21 h

end Cert.PreFacts
-- ==== Proof.RegionProj.lean ====
/-
  REGION 0, THE NODE PROJECTION: h = x @ W + b.

  The feature table x is [100000, 1024], the weight W is [1024, 64], the bias b is [64]; the result h is [100000, 64].
  The grid has 50 points. Point t works on rows 2000 t .. 2000 t + 1999: it reads block t of x (a [2000, 1024] row
  block), all of W and all of b, and writes block t of h (a [2000, 64] row block). The 50 row blocks tile the 100000 rows,
  so every row r of h is written exactly by point r / 2000.

  What the body stores, at entry (p, q) of its block: the two operands are cast to bf16 (the identity on the extended
  reals), multiplied by the matrix unit into a zero accumulator (a plain finite sum over the 1024 contracted columns:
  the contraction index has one axis, and the sum is re-indexed along the bijection of that axis with Fin 1024), and the
  bias, cast to one row and repeated over the 2000 rows, is added: (sum over k of xblk[p, k] * W[k, q]) + b[q].
  Block entry (p, k) of x at point t is x[2000 t + p, k], so the stored entry is entry (2000 t + p, q) of the
  specification's x @ W + b; the blocks' cover then gives the whole array.
-/
import proofs.«422311_j73100343378050_3_alg».proof.Proof.Gen.KernelIdeal.Frame
import proofs.«422311_j73100343378050_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionProj

open Idealize.ShloMosaic Idealize.ShloMosaic.TcCoe Idealize.SL.Sem Cert.KernelIdeal Cert.KernelIdeal.Gen
open Idealize.ShloMosaic.ValueIdx
open Idealize.ShloMosaic.Pipeline (Dat)

/-! ## The body's arithmetic at one entry of a block -/

/-- On the left operand of the contraction, axis 0 is the output's row. -/
theorem lhs_row (i : S2000x64.Idx) (q : dot_S2000x1024_S1024x64_S2000x64_1_0_0_1_n_n.contr.Idx) :
    (dot_S2000x1024_S1024x64_S2000x64_1_0_0_1_n_n.lhsIdx i q 0).val = (i 0).val := by
  unfold DotDims.lhsIdx
  rw [dif_neg (show ¬(0 : Fin S2000x1024.rank) ∈ dot_S2000x1024_S1024x64_S2000x64_1_0_0_1_n_n.lhsBatch by decide), dif_pos (show (0 : Fin S2000x1024.rank) ∈ dot_S2000x1024_S1024x64_S2000x64_1_0_0_1_n_n.lhsNonContracting by decide)]
  rfl
/-- On the left operand, axis 1 is the contracted one. -/
theorem lhs_contr (i : S2000x64.Idx) (q : dot_S2000x1024_S1024x64_S2000x64_1_0_0_1_n_n.contr.Idx) :
    (dot_S2000x1024_S1024x64_S2000x64_1_0_0_1_n_n.lhsIdx i q 1).val = (q ⟨0, by decide⟩).val :=
  dot_S2000x1024_S1024x64_S2000x64_1_0_0_1_n_n.lhsIdx_val_of_single rfl i q
/-- On the right operand, axis 0 is the contracted one. -/
theorem rhs_contr (i : S2000x64.Idx) (q : dot_S2000x1024_S1024x64_S2000x64_1_0_0_1_n_n.contr.Idx) :
    (dot_S2000x1024_S1024x64_S2000x64_1_0_0_1_n_n.rhsIdx i q 0).val = (q ⟨0, by decide⟩).val :=
  dot_S2000x1024_S1024x64_S2000x64_1_0_0_1_n_n.rhsIdx_val_of_single rfl i q
/-- On the right operand, axis 1 is the output's column. -/
theorem rhs_col (i : S2000x64.Idx) (q : dot_S2000x1024_S1024x64_S2000x64_1_0_0_1_n_n.contr.Idx) :
    (dot_S2000x1024_S1024x64_S2000x64_1_0_0_1_n_n.rhsIdx i q 1).val = (i 1).val := by
  unfold DotDims.rhsIdx
  rw [dif_neg (show ¬(1 : Fin S1024x64.rank) ∈ dot_S2000x1024_S1024x64_S2000x64_1_0_0_1_n_n.rhsBatch by decide), dif_pos (show (1 : Fin S1024x64.rank) ∈ dot_S2000x1024_S1024x64_S2000x64_1_0_0_1_n_n.rhsNonContracting by decide)]
  rfl

/-- The matrix unit's product into a zero accumulator, at entry (p, q): the plain sum over the 1024 contracted
    columns of the block's row p against the weight's column q (the contraction index is its one coordinate). -/
theorem matmul_at (x : FVec Ideal S2000x1024 .bf16) (w : FVec Ideal S1024x64 .bf16) (p : Fin 2000) (q : Fin 64) :
    matmul dot_S2000x1024_S1024x64_S2000x64_1_0_0_1_n_n none x w (constant (F := Ideal) S2000x64 .f32 0x00000000#32) (ix2 p q)
      = ∑ k : Fin 1024, x (ix2 p k) * w (ix2 k q) := by
  show FloatOps.matmul dot_S2000x1024_S1024x64_S2000x64_1_0_0_1_n_n none x w (constant (F := Ideal) S2000x64 .f32 0x00000000#32) (ix2 p q) = _
  rw [Ideal.matmul_constant_zero_apply, ← Equiv.sum_comp (contrEquiv1 dot_S2000x1024_S1024x64_S2000x64_1_0_0_1_n_n 1024 rfl rfl).symm]
  refine Finset.sum_congr rfl fun k _ => ?_
  have hk := contrEquiv1_symm_val dot_S2000x1024_S1024x64_S2000x64_1_0_0_1_n_n 1024 rfl rfl k
  have el : dot_S2000x1024_S1024x64_S2000x64_1_0_0_1_n_n.lhsIdx (ix2 p q) ((contrEquiv1 dot_S2000x1024_S1024x64_S2000x64_1_0_0_1_n_n 1024 rfl rfl).symm k) = ix2 p k := funext fun a => Fin.ext (by
    match a with
    | ⟨0, _⟩ => exact lhs_row _ _
    | ⟨1, _⟩ => exact (lhs_contr _ _).trans hk)
  have er : dot_S2000x1024_S1024x64_S2000x64_1_0_0_1_n_n.rhsIdx (ix2 p q) ((contrEquiv1 dot_S2000x1024_S1024x64_S2000x64_1_0_0_1_n_n 1024 rfl rfl).symm k) = ix2 k q := funext fun a => Fin.ext (by
    match a with
    | ⟨0, _⟩ => exact (rhs_contr _ _).trans hk
    | ⟨1, _⟩ => exact rhs_col _ _)
  rw [el, er]

/-- The bias row, cast to one row and repeated over the block's 2000 rows, reads the bias at the column. -/
theorem bias_at (b : FVec Ideal S64 .f32) (p : Fin 2000) (q : Fin 64) :
    broadcastTo S2000x64 (shapeCast S1x64 b shapeCasts_S64_S1x64) broadcasts_S1x64_S2000x64 (ix2 p q) = b (ix1 q) := by
  rw [broadcastTo_1b_ab_apply, shapeCast_a_1a_apply]

/-- THE BODY AT AN ENTRY: entry (p, q) of what the body stores is the 1024-term dot of the feature block's row p
    with the weight's column q, plus the bias at q (the bf16 casts are the identity on the extended reals). -/
theorem pay_at (x : Vec Ideal S2000x1024 .f32) (w : Vec Ideal S1024x64 .f32) (b : Vec Ideal S64 .f32) (p : Fin 2000) (q : Fin 64) :
    k0_pay1 (F := Ideal) x w b (ix2 p q) = (∑ k : Fin 1024, x (ix2 p k) * w (ix2 k q)) + b (ix1 q) := by
  unfold k0_pay1
  show matmul dot_S2000x1024_S1024x64_S2000x64_1_0_0_1_n_n none (truncf .bf16 x bitsLt_bf16_f32) (truncf .bf16 w bitsLt_bf16_f32) (constant (F := Ideal) S2000x64 .f32 0x00000000#32) (ix2 p q)
      + broadcastTo S2000x64 (shapeCast S1x64 b shapeCasts_S64_S1x64) broadcasts_S1x64_S2000x64 (ix2 p q) = _
  rw [matmul_at, bias_at]
  rfl

/-! ## The blocks: where each window's block lies in its array -/

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The four index maps, decided over the 50 points: the feature and result windows are at row block t, column
    block 0; the weight and bias windows stay at block 0. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The three input arrays as the region finds them, at their literal shapes: the feature table, the weight, the bias. -/
abbrev xarr (c : Dev nD) : Cert.Spec.Mat 100000 1024 := V c main_arg0
abbrev warr (c : Dev nD) : Cert.Spec.Mat 1024 64 := V c main_arg8
abbrev barr (c : Dev nD) : Cert.Spec.Row 64 := V c main_arg9

/-- Entry (p, k) of the feature block at point t is entry (2000 t + p, k) of the feature table. -/
theorem xblk_at (c : Dev nD) (t : Fin cfg0.N) (p : Fin 2000) (k : Fin 1024) (r : Fin 100000) (hr : r.val = t.val * 2000 + p.val) :
    (iblk0 V c 0 t : Vec Ideal S2000x1024 .f32) (ix2 p k) = xarr V c (ix2 r k) := by
  obtain ⟨e0, e1, -⟩ := block_index t
  show xarr V c (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 1024 + 1 * k.val = k.val; omega

/-- The weight's window is the whole weight at every point. -/
theorem wblk_at (c : Dev nD) (t : Fin cfg0.N) (k : Fin 1024) (q : Fin 64) :
    (iblk0 V c 1 t : Vec Ideal S1024x64 .f32) (ix2 k q) = warr V c (ix2 k q) := by
  obtain ⟨-, -, e2, e3, -⟩ := block_index t
  show warr V c (((cfg0.win 1).blk t).view.emb (ix2 k q)) = _
  refine congrArg _ (funext fun a => Fin.ext ?_)
  match a with
  | ⟨0, _⟩ => show win0_1.index t (0 : Fin 2) * 1024 + 1 * k.val = k.val; omega
  | ⟨1, _⟩ => show win0_1.index t (1 : Fin 2) * 64 + 1 * q.val = q.val; omega

/-- The bias's window is the whole bias at every point. -/
theorem bblk_at (c : Dev nD) (t : Fin cfg0.N) (q : Fin 64) :
    (iblk0 V c 2 t : Vec Ideal S64 .f32) (ix1 q) = barr V c (ix1 q) := by
  obtain ⟨-, -, -, -, e4, -⟩ := block_index t
  show barr V c (((cfg0.win 2).blk t).view.emb (ix1 q)) = _
  refine congrArg _ (funext fun a => Fin.ext ?_)
  match a with
  | ⟨0, _⟩ => show win0_2.index t (0 : Fin 1) * 64 + 1 * q.val = q.val; omega

/-- Entry (p, q) of the result block at point t lies at (2000 t + p, q) of the result array. -/
theorem oblk_at (t : Fin cfg0.N) (p : Fin 2000) (q : Fin 64) (r : Fin 100000) (hr : r.val = t.val * 2000 + p.val) :
    ((cfg0.win 3).blk t).view.emb (ix2 p q) = (ix2 r q : S100000x64.Idx) := by
  obtain ⟨-, -, -, -, -, e5, e6⟩ := block_index t
  refine funext fun a => Fin.ext ?_
  match a with
  | ⟨0, _⟩ => show win0_3.index t (0 : Fin 2) * 2000 + 1 * p.val = r.val; omega
  | ⟨1, _⟩ => show win0_3.index t (1 : Fin 2) * 64 + 1 * q.val = q.val; omega

/-! ## What a point writes back -/

/-- WHAT POINT t WRITES BACK is block t of x @ W + b of the arrays as the region finds them. -/
theorem flushed_eq (c : Dev nD) (t : Fin cfg0.N) :
    (dat0 (F := Ideal) V c).flushed 3 t
      = ((cfg0.win 3).blk t).view.read (Elt Ideal) (Cert.Spec.proj (V c main_arg0) (V c main_arg8) (V c main_arg9)) := by
  show (cfg0.win 3).cut (grid0.coords t) ((dat0 (F := Ideal) V c).after 3 t) = _
  rw [after0_3]
  unfold out0_3
  rw [View.canon_unit_zero off2]
  simp only [View.ld_unit_zero (S := S2000x1024) off2, View.ld_unit_zero (S := S1024x64) off2, View.ld_unit_zero (S := S64) off1]
  refine funext fun (j : S2000x64.Idx) => ?_
  obtain ⟨p, q, rfl⟩ : ∃ (p : Fin 2000) (q : Fin 64), j = ix2 p q := ⟨j 0, j 1, eq_ix2 j⟩
  refine (pay_at (iblk0 V c 0 t) (iblk0 V c 1 t) (iblk0 V c 2 t) p q).trans ?_
  have hN : cfg0.N = 50 := N_0
  have ht : t.val < cfg0.N := t.isLt
  have hr : t.val * 2000 + p.val < 100000 := by have := p.isLt; omega
  show _ = Cert.Spec.proj (xarr V c) (warr V c) (barr V c) (((cfg0.win 3).blk t).view.emb (ix2 p q))
  rw [oblk_at t p q ⟨t.val * 2000 + p.val, hr⟩ rfl]
  show _ = (∑ k : Fin 1024, xarr V c (ix2 (⟨t.val * 2000 + p.val, hr⟩ : Fin 100000) k) * warr V c (ix2 k q)) + barr V c (ix1 q)
  rw [bblk_at V c t q]
  refine congrArg (fun s => s + barr V c (ix1 q)) (Finset.sum_congr rfl fun k _ => ?_)
  rw [xblk_at V c t p k ⟨t.val * 2000 + p.val, hr⟩ rfl, wblk_at V c t k q]

/-! ## The blocks cover the array -/

/-- An index of the result array is in point t's block iff each coordinate is in the block's range on its axis. -/
theorem mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v0).slice (win0_3.rect t)).set ↔ _
  rw [View.set_slice_whole, Rect.mem_set_unit]
  exact Iff.rfl

/-- Row r of the result lies in the block of point r / 2000, which is written back. -/
theorem cover (i : S100000x64.Idx) : ∃ t : Fin cfg0.N, (cfg0.win 3).flush t = true ∧ i ∈ ((cfg0.win 3).blk t).view.set := by
  have hN : cfg0.N = 50 := N_0
  have h0 : (i 0).val < 100000 := (i 0).isLt
  have h1 : (i 1).val < 64 := (i 1).isLt
  have ht : (i 0).val / 2000 < cfg0.N := by omega
  have e5 : win0_3.index ⟨(i 0).val / 2000, ht⟩ (0 : Fin 2) = (i 0).val / 2000 := (block_index ⟨(i 0).val / 2000, ht⟩).2.2.2.2.2.1
  have e6 : win0_3.index ⟨(i 0).val / 2000, ht⟩ (1 : Fin 2) = 0 := (block_index ⟨(i 0).val / 2000, ht⟩).2.2.2.2.2.2
  refine ⟨⟨(i 0).val / 2000, ht⟩, flush0_3 _, ?_⟩
  rw [mem_blk]
  intro a
  match a with
  | ⟨0, _⟩ => show win0_3.index ⟨(i 0).val / 2000, ht⟩ (0 : Fin 2) * 2000 ≤ (i 0).val ∧ (i 0).val < win0_3.index ⟨(i 0).val / 2000, ht⟩ (0 : Fin 2) * 2000 + 2000; omega
  | ⟨1, _⟩ => show win0_3.index ⟨(i 0).val / 2000, ht⟩ (1 : Fin 2) * 64 ≤ (i 1).val ∧ (i 1).val < win0_3.index ⟨(i 0).val / 2000, ht⟩ (1 : Fin 2) * 64 + 64; omega

/-! ## The region's result -/

/-- THE RESULT ARRAY after the 50 points, whatever the buffers held when the region was entered: x @ W + b of the three
    input arrays, index by index. -/
theorem value (c : Dev nD) :
    (dat0 (F := Ideal) V c).arrAt 3 cfg0.N = Cert.Spec.proj (V c main_arg0) (V c main_arg8) (V c main_arg9) :=
  (dat0 (F := Ideal) V c).arrAt_eq_of_cover 3 _ (fun t _ => flushed_eq V c t) cover

end Cert.KernelIdeal.RegionProj

end
-- ==== Proof.RegionLin.lean ====
/-
  The per-node message linear of the edge-gated graph network (regions 1 and 4 of @main): y = h @ W + b.

  What a grid point computes. The body loads one block of 10000 node rows (a [10000, 64] block of the [100000, 64] node
  table), the whole [64, 64] weight and the whole [64] bias, and stores ONE value: the block product into a zero
  accumulator plus the bias row copied down the rows. On the extended reals the two format changes in front of the
  product are the identity, and the product into a zero accumulator, read at entry (p, q), is the finite sum
  over the 64 contraction positions of block[p, k] * W[k, q]: the contraction index set of the dimension numbers
  ([1] against [0], no batch axis) is in bijection with Fin 64, and the operands are read at (p, k) and (k, q).

  How blocks tile the array. The grid has 10 points; point t reads rows 10000 t .. 10000 t + 9999 of the node table
  and writes the same rows of the result (block index (t, 0), block size (10000, 64): an element (y0, y1) of block t is
  element (10000 t + y0, y1) of the array); the weight and the bias are one block each, at block index zero. So what
  point t writes back is block t of the whole-array function (n, j) |-> (sum over k < 64 of h[n, k] * W[k, j]) + b[j];
  row r of the result lies in the block of point r / 10000, the ten blocks cover the array, and the array ends
  holding that function.
-/
import proofs.«422311_j73100343378050_3_alg».proof.Proof.Gen.KernelIdeal.Frame
import proofs.«422311_j73100343378050_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.RegionLin

open Idealize.ShloMosaic Idealize.ShloMosaic.TcCoe Idealize.SL.Sem Cert.KernelIdeal Cert.KernelIdeal.Gen
open Idealize.ShloMosaic.ValueIdx
open Idealize.ShloMosaic.Pipeline (Dat)

/-! ## The block product's operand indices -/

/-- The left operand is read at the output's row. -/
theorem lhs_row (j : S10000x64.Idx) (k : dot_S10000x64_S64x64_S10000x64_1_0_0_1_n_n.contr.Idx) :
    (dot_S10000x64_S64x64_S10000x64_1_0_0_1_n_n.lhsIdx j k (0 : Fin S10000x64.rank)).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The left operand is read at the contraction coordinate on its second axis. -/
theorem lhs_col (j : S10000x64.Idx) (k : dot_S10000x64_S64x64_S10000x64_1_0_0_1_n_n.contr.Idx) :
    (dot_S10000x64_S64x64_S10000x64_1_0_0_1_n_n.lhsIdx j k (1 : Fin S10000x64.rank)).val = (k ⟨0, by decide⟩).val :=
  dot_S10000x64_S64x64_S10000x64_1_0_0_1_n_n.lhsIdx_val_of_single (cl := (1 : Fin S10000x64.rank)) rfl j k

/-- The right operand is read at the contraction coordinate on its first axis. -/
theorem rhs_row (j : S10000x64.Idx) (k : dot_S10000x64_S64x64_S10000x64_1_0_0_1_n_n.contr.Idx) :
    (dot_S10000x64_S64x64_S10000x64_1_0_0_1_n_n.rhsIdx j k (0 : Fin S64x64.rank)).val = (k ⟨0, by decide⟩).val :=
  dot_S10000x64_S64x64_S10000x64_1_0_0_1_n_n.rhsIdx_val_of_single (cr := (0 : Fin S64x64.rank)) rfl j k

/-- The right operand is read at the output's column. -/
theorem rhs_col (j : S10000x64.Idx) (k : dot_S10000x64_S64x64_S10000x64_1_0_0_1_n_n.contr.Idx) :
    (dot_S10000x64_S64x64_S10000x64_1_0_0_1_n_n.rhsIdx j k (1 : Fin S64x64.rank)).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block product into a zero accumulator, at (p, q): the 64-term sum of row p of the left block against
    column q of the right block. The contraction index is its one coordinate. -/
theorem matmul_at (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  show FloatOps.matmul dot_S10000x64_S64x64_S10000x64_1_0_0_1_n_n none A B (constant (F := Ideal) S10000x64 .f32 0x00000000#32) (ix2 p q) = _
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_row _ _
    | ⟨1, _⟩ => exact (lhs_col _ _).trans hk
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_row _ _).trans hk
    | ⟨1, _⟩ => exact rhs_col _ _
  rw [hl, hr]

/-! ## The payload at an index -/

/-- The body's one stored value at (p, q): row p of the node block against column q of the weight, plus the bias at q.
    The format changes are the identity on extended reals; the bias row is cast to one row and copied down the rows. -/
theorem pay1_at (x0 : Vec Ideal S10000x64 .f32) (x1 : Vec Ideal S64x64 .f32) (x2 : Vec Ideal S64 .f32)
    (p : Fin 10000) (q : Fin 64) :
    k1_pay1 (F := Ideal) x0 x1 x2 (ix2 p q) = (∑ k : Fin 64, x0 (ix2 p k) * x1 (ix2 k q)) + x2 (ix1 q) := by
  unfold k1_pay1
  rw [addf_apply, matmul_at, broadcastTo_1b_ab_apply, shapeCast_a_1a_apply]
  simp only [shapeCast_self, truncf_apply]

/-- Region 4's body stores the same term. -/
theorem pay4_at (x0 : Vec Ideal S10000x64 .f32) (x1 : Vec Ideal S64x64 .f32) (x2 : Vec Ideal S64 .f32)
    (p : Fin 10000) (q : Fin 64) :
    k4_pay1 (F := Ideal) x0 x1 x2 (ix2 p q) = (∑ k : Fin 64, x0 (ix2 p k) * x1 (ix2 k q)) + x2 (ix1 q) :=
  pay1_at x0 x1 x2 p q

/-! ## One entry of a block against one entry of the whole-array function -/

theorem hz2 : (![0, 0] : Fin 2 → Nat) = fun _ => 0 := funext fun a => by fin_cases a <;> rfl
theorem hz1 : (![0] : Fin 1 → Nat) = fun _ => 0 := funext fun a => by fin_cases a <;> rfl

/-- If a node block holds the rows of the table H that entry i's row names (entry y of the block is entry z of H
    whenever y is on j's row, z on i's row, and their columns agree), the weight block is W, the bias block is b, and i's
    column is j's, then the stored term at j is the message linear of (H, W, b) at i. -/
theorem lin_at (x0 : Vec Ideal S10000x64 .f32) (x1 : Vec Ideal S64x64 .f32) (x2 : Vec Ideal S64 .f32)
    (H : Spec.Mat 100000 64) (W : Spec.Mat 64 64) (b : Spec.Row 64) (j : S10000x64.Idx) (i : S100000x64.Idx)
    (hcol : (i 1).val = (j 1).val)
    (h0 : ∀ (y : S10000x64.Idx) (z : S100000x64.Idx), (y 0).val = (j 0).val → (z 0).val = (i 0).val →
      (z 1).val = (y 1).val → x0 y = H z)
    (h1 : ∀ y : S64x64.Idx, x1 y = W y) (h2 : ∀ y : S64.Idx, x2 y = b y) :
    k1_pay1 (F := Ideal) x0 x1 x2 j = Spec.lin64 H W b i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : s = q := Fin.ext hcol
  rw [pay1_at]
  show _ = (∑ k : Fin 64, H (ix2 r k) * W (ix2 k s)) + b (ix1 s)
  rw [h2 (ix1 s)]
  refine congrArg (· + b (ix1 s)) (Finset.sum_congr rfl fun k _ => ?_)
  rw [h0 (ix2 p k) (ix2 r k) rfl rfl rfl, h1 (ix2 k s)]

/-! ## Region 1 -/

section Region1

variable (V : (c : Dev nD) → (b : Ref sig .tc) → Buf (Elt Ideal) ((c : Thread nD τ).loc b))

/-- The printed index maps over the 10 grid points: the node table's and the result's block index is (t, 0); the
    weight's and the bias's is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- WHAT POINT t WRITES BACK is block t of the message linear of the node table, the weight and the bias as the region
    finds them. -/
theorem flushed1_eq (c : Dev nD) (t : Fin cfg1.N) :
    (dat1 (F := Ideal) V c).flushed 3 t
      = ((cfg1.win 3).blk t).view.read (Elt Ideal) (Spec.lin64 (V c main_v0) (V c main_v2) (V c main_v4)) := by
  show (cfg1.win 3).cut (grid1.coords t) ((dat1 (F := Ideal) V c).after 3 t) = _
  rw [after1_3]
  unfold out1_3
  rw [View.canon_unit_zero hz2]
  simp only [View.ld_unit_zero (S := S10000x64) hz2, View.ld_unit_zero (S := S64x64) hz2, View.ld_unit_zero (S := S64) hz1]
  obtain ⟨e00, e01, e10, e11, e20, e30, e31⟩ := idx_facts1 t
  funext j
  show k1_pay1 (F := Ideal) (iblk1 V c 0 t) (iblk1 V c 1 t) (iblk1 V c 2 t) j
    = Spec.lin64 (V c main_v0) (V c main_v2) (V c main_v4) (((cfg1.win 3).blk t).view.emb j)
  have hj0 : (j 0).val < 10000 := (j 0).isLt
  have hj1 : (j 1).val < 64 := (j 1).isLt
  refine lin_at _ _ _ _ _ _ j _ ?_ (fun y z hy hz hyz => ?_) (fun y => ?_) (fun y => ?_)
  · show win1_3.index t (1 : Fin 2) * 64 + 1 * (j 1).val = (j 1).val
    omega
  · have hz' : (z 0).val = win1_3.index t (0 : Fin 2) * 10000 + 1 * (j 0).val := hz
    show V c main_v0 (((cfg1.win 0).blk t).view.emb y) = V c main_v0 z
    refine congrArg (V c main_v0) (funext fun a => Fin.ext ?_)
    match a with
    | ⟨0, _⟩ => show win1_0.index t (0 : Fin 2) * 10000 + 1 * (y 0).val = (z 0).val; omega
    | ⟨1, _⟩ => show win1_0.index t (1 : Fin 2) * 64 + 1 * (y 1).val = (z 1).val; omega
  · show V c main_v2 (((cfg1.win 1).blk t).view.emb y) = V c main_v2 y
    refine congrArg (V c main_v2) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · show V c main_v4 (((cfg1.win 2).blk t).view.emb y) = V c main_v4 y
    refine congrArg (V c main_v4) (funext fun a => Fin.ext ?_)
    match a with
    | ⟨0, _⟩ => show win1_2.index t (0 : Fin 1) * 64 + 1 * (y 0).val = (y 0).val; omega

/-- An index of the result is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v5).slice (win1_3.rect t)).set ↔ _
  rw [View.set_slice_whole, Rect.mem_set_unit]
  exact Iff.rfl

/-- Row r of the result is in the block of point r / 10000: the ten blocks cover the array. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, e30, e31⟩ := idx_facts1 t
  have e30' : win1_3.index t (0 : Fin 2) = (i 0).val / 10000 := e30
  refine ⟨t, flush1_3 t, ?_⟩
  rw [mem_blk1]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- THE RESULT ARRAY after region 1: the message linear of the node table, the weight and the bias at region entry. -/
theorem value1 (c : Dev nD) :
    (dat1 (F := Ideal) V c).arrAt 3 cfg1.N = Cert.Spec.lin64 (V c main_v0) (V c main_v2) (V c main_v4) :=
  (dat1 (F := Ideal) V c).arrAt_eq_of_cover 3 (Spec.lin64 (V c main_v0) (V c main_v2) (V c main_v4))
    (fun t _ => flushed1_eq V c t) cover1

end Region1

/-! ## Region 4 -/

/-- Region 4's body stores the same term, so the same entry-against-entry statement holds of it. -/
theorem lin_at4 (x0 : Vec Ideal S10000x64 .f32) (x1 : Vec Ideal S64x64 .f32) (x2 : Vec Ideal S64 .f32)
    (H : Spec.Mat 100000 64) (W : Spec.Mat 64 64) (b : Spec.Row 64) (j : S10000x64.Idx) (i : S100000x64.Idx)
    (hcol : (i 1).val = (j 1).val)
    (h0 : ∀ (y : S10000x64.Idx) (z : S100000x64.Idx), (y 0).val = (j 0).val → (z 0).val = (i 0).val →
      (z 1).val = (y 1).val → x0 y = H z)
    (h1 : ∀ y : S64x64.Idx, x1 y = W y) (h2 : ∀ y : S64.Idx, x2 y = b y) :
    k4_pay1 (F := Ideal) x0 x1 x2 j = Spec.lin64 H W b i :=
  lin_at x0 x1 x2 H W b j i hcol h0 h1 h2

section Region4

variable (V : (c : Dev nD) → (b : Ref sig .tc) → Buf (Elt Ideal) ((c : Thread nD τ).loc b))

/-- The printed index maps over the 10 grid points: the node table's and the result's block index is (t, 0); the
    weight's and the bias's is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- WHAT POINT t WRITES BACK is block t of the message linear of the node table, the weight and the bias as the region
    finds them. -/
theorem flushed4_eq (c : Dev nD) (t : Fin cfg4.N) :
    (dat4 (F := Ideal) V c).flushed 3 t
      = ((cfg4.win 3).blk t).view.read (Elt Ideal) (Spec.lin64 (V c main_v44) (V c main_v46) (V c main_v48)) := by
  show (cfg4.win 3).cut (grid4.coords t) ((dat4 (F := Ideal) V c).after 3 t) = _
  rw [after4_3]
  unfold out4_3
  rw [View.canon_unit_zero hz2]
  simp only [View.ld_unit_zero (S := S10000x64) hz2, View.ld_unit_zero (S := S64x64) hz2, View.ld_unit_zero (S := S64) hz1]
  obtain ⟨e00, e01, e10, e11, e20, e30, e31⟩ := idx_facts4 t
  funext j
  show k4_pay1 (F := Ideal) (iblk4 V c 0 t) (iblk4 V c 1 t) (iblk4 V c 2 t) j
    = Spec.lin64 (V c main_v44) (V c main_v46) (V c main_v48) (((cfg4.win 3).blk t).view.emb j)
  have hj0 : (j 0).val < 10000 := (j 0).isLt
  have hj1 : (j 1).val < 64 := (j 1).isLt
  refine lin_at4 _ _ _ _ _ _ j _ ?_ (fun y z hy hz hyz => ?_) (fun y => ?_) (fun y => ?_)
  · show win4_3.index t (1 : Fin 2) * 64 + 1 * (j 1).val = (j 1).val
    omega
  · have hz' : (z 0).val = win4_3.index t (0 : Fin 2) * 10000 + 1 * (j 0).val := hz
    show V c main_v44 (((cfg4.win 0).blk t).view.emb y) = V c main_v44 z
    refine congrArg (V c main_v44) (funext fun a => Fin.ext ?_)
    match a with
    | ⟨0, _⟩ => show win4_0.index t (0 : Fin 2) * 10000 + 1 * (y 0).val = (z 0).val; omega
    | ⟨1, _⟩ => show win4_0.index t (1 : Fin 2) * 64 + 1 * (y 1).val = (z 1).val; omega
  · show V c main_v46 (((cfg4.win 1).blk t).view.emb y) = V c main_v46 y
    refine congrArg (V c main_v46) (funext fun a => Fin.ext ?_)
    match a with
    | ⟨0, _⟩ => show win4_1.index t (0 : Fin 2) * 64 + 1 * (y 0).val = (y 0).val; omega
    | ⟨1, _⟩ => show win4_1.index t (1 : Fin 2) * 64 + 1 * (y 1).val = (y 1).val; omega
  · show V c main_v48 (((cfg4.win 2).blk t).view.emb y) = V c main_v48 y
    refine congrArg (V c main_v48) (funext fun a => Fin.ext ?_)
    match a with
    | ⟨0, _⟩ => show win4_2.index t (0 : Fin 1) * 64 + 1 * (y 0).val = (y 0).val; omega

/-- An index of the result is in point t's block iff each coordinate is in the block's range on its axis. -/
theorem mem_blk4 (t : Fin cfg4.N) (i : S100000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v49).slice (win4_3.rect t)).set ↔ _
  rw [View.set_slice_whole, Rect.mem_set_unit]
  exact Iff.rfl

/-- Row r of the result is in the block of point r / 10000: the ten blocks cover the array. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 10 := N_4
  let t : Fin cfg4.N := ⟨(i 0).val / 10000, by rw [hN]; omega⟩
  obtain ⟨-, -, -, -, -, e30, e31⟩ := idx_facts4 t
  have e30' : win4_3.index t (0 : Fin 2) = (i 0).val / 10000 := e30
  refine ⟨t, flush4_3 t, ?_⟩
  rw [mem_blk4]
  intro a
  match a with
  | ⟨0, _⟩ =>
    show win4_3.index t (0 : Fin 2) * 10000 ≤ (i 0).val ∧ (i 0).val < win4_3.index t (0 : Fin 2) * 10000 + 10000
    omega
  | ⟨1, _⟩ =>
    show win4_3.index t (1 : Fin 2) * 64 ≤ (i 1).val ∧ (i 1).val < win4_3.index t (1 : Fin 2) * 64 + 64
    omega

/-- THE RESULT ARRAY after region 4: the message linear of the node table, the weight and the bias at region entry. -/
theorem value4 (c : Dev nD) :
    (dat4 (F := Ideal) V c).arrAt 3 cfg4.N = Cert.Spec.lin64 (V c main_v44) (V c main_v46) (V c main_v48) :=
  (dat4 (F := Ideal) V c).arrAt_eq_of_cover 3 (Spec.lin64 (V c main_v44) (V c main_v46) (V c main_v48))
    (fun t _ => flushed4_eq V c t) cover4

end Region4

end Cert.KernelIdeal.RegionLin

end
-- ==== Proof.RegionGate.lean ====
/-
  THE EDGE GATE (regions 2 and 5 of the program: the first and the second layer's gate).

  What a region computes. For every edge e of the 1600000 edges,
      g[e, 0] = logistic ((sum over k < 64 of (a[e, k] * q[e, k]) * w[0, k]) + beta[0]),
  where a is the edge-attribute array [1600000, 64], q the expanded query array [1600000, 64], w the gate row [1, 64]
  and beta the one-word gate bias. The body works on a block of 12800 rows: it multiplies the query block by the
  attribute block entry by entry (in that order: multiplication of extended reals commutes, so the order is free),
  multiplies by the gate row broadcast over the rows, sums the 64 lanes of every row (a lane reduction from the
  accumulator word 0: at the ideal values a bare finite sum over the 64 lanes), casts the row vector to a column, adds
  the broadcast bias and takes the logistic.

  How blocks tile the array. The grid has 125 points; at point t the attribute, query and output windows hold rows
  12800 t .. 12800 t + 12799 of their arrays (block index t on axis 0, block index 0 on axis 1; a block's coordinate is
  always index * size + 1 * the coordinate inside the block), the gate row and the bias are whole at every point. Row r
  of the output column lies in the block of point r / 12800, and every point writes its block back: the 125 blocks
  cover the column, so the array ends holding the gate column, index by index.

  Which law is used where. The lane sum is read as a sum over `Fin 64` by the single-axis law of the add reduction;
  the layout operations (the identity casts, the cast of a vector to a column, the two broadcasts) are read at an index
  by one small lemma each; the rest is pointwise.
-/
import proofs.«422311_j73100343378050_3_alg».proof.Proof.Gen.KernelIdeal.Frame
import proofs.«422311_j73100343378050_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators
open Idealize.ShloMosaic Idealize.ShloMosaic.TcCoe Idealize.SL.Sem Cert.KernelIdeal Cert.KernelIdeal.Gen
open Idealize.ShloMosaic.ValueIdx
open Idealize.ShloMosaic.Pipeline (Dat)

namespace Cert.KernelIdeal.RegionGate

/-! ## The body's term at a row -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a lane sum over axis 1 of an `[n, 64]` array inserts at row `r`, lane `k`, is `(r, k)`. -/
theorem lift_row {n : ℕ} (h : (⟨2, ![n, 64]⟩ : Shape).Reduces [1] ⟨1, ![n]⟩) (r : Fin n) (k : Fin 64) :
    h.lift (ix1 r) k = ix2 r k := by
  funext c
  apply Fin.ext
  match c with
  | ⟨0, _⟩ => rfl
  | ⟨1, _⟩ => rfl

/-- THE GATE AT A ROW: the body's term (product of the two blocks, times the broadcast gate row, summed over the
    64 lanes, cast to a column, plus the broadcast bias, through the logistic) read at row `r` is the logistic of the
    64-term dot of (attribute * query) with the gate row, plus the bias. The first factor of the body's product is the
    query block; multiplication of extended reals commutes. -/
theorem gate_term_apply {n : ℕ} (q a : FVec Ideal ⟨2, ![n, 64]⟩ .f32) (w : FVec Ideal ⟨2, ![1, 64]⟩ .f32)
    (β : FVec Ideal ⟨1, ![1]⟩ .f32)
    (hw : (⟨2, ![1, 64]⟩ : Shape).ShapeCasts ⟨2, ![1, 64]⟩)
    (hbw : (⟨2, ![1, 64]⟩ : Shape).Broadcasts ⟨2, ![n, 64]⟩)
    (hred : (⟨2, ![n, 64]⟩ : Shape).Reduces [1] ⟨1, ![n]⟩) (hφ : FKind.Formats .f32)
    (hacc : (0x00000000#32 : BitVec FTy.f32.bits) = FKind.add.neutral .f32 hφ)
    (hc : (⟨1, ![n]⟩ : Shape).ShapeCasts ⟨2, ![n, 1]⟩)
    (hs1 : (⟨1, ![1]⟩ : Shape).ShapeCasts ⟨1, ![1]⟩)
    (hs11 : (⟨1, ![1]⟩ : Shape).ShapeCasts ⟨2, ![1, 1]⟩)
    (hb1 : (⟨2, ![1, 1]⟩ : Shape).Broadcasts ⟨2, ![n, 1]⟩)
    (r : Fin n) (u : Fin 1) :
    logistic (addf
        (shapeCast ⟨2, ![n, 1]⟩
          (multiReduction (F := Ideal) .add [1] ⟨1, ![n]⟩
            (mulf (mulf q a) (broadcastTo ⟨2, ![n, 64]⟩ (shapeCast ⟨2, ![1, 64]⟩ w hw) hbw))
            0x00000000#32 hred hφ hacc) hc)
        (broadcastTo ⟨2, ![n, 1]⟩ (shapeCast ⟨2, ![1, 1]⟩ (shapeCast ⟨1, ![1]⟩ β hs1) hs11) hb1)) (ix2 r u)
      = Ideal.logistic ((∑ k : Fin 64, (a (ix2 r k) * q (ix2 r k)) * w (ix2 (0 : Fin 1) k)) + β (ix1 (0 : Fin 1))) := by
  refine congrArg Ideal.logistic ?_
  show shapeCast ⟨2, ![n, 1]⟩ _ hc (ix2 r u) + broadcastTo ⟨2, ![n, 1]⟩ _ hb1 (ix2 r u) = _
  rw [shapeCast_a_a1_apply, broadcastTo_1b_ab_apply, shapeCast_a_1a_apply, shapeCast_self β hs1, shapeCast_self w hw]
  rw [show u = (0 : Fin 1) from Subsingleton.elim _ _]
  refine congrArg (· + β (ix1 (0 : Fin 1))) ?_
  refine (Ideal.multiReduction_add_single _ _ hred hφ hacc (ix1 r)).trans ?_
  show ∑ k : Fin 64, (mulf (mulf q a) (broadcastTo ⟨2, ![n, 64]⟩ w hbw)) (hred.lift (ix1 r) k) = _
  refine Finset.sum_congr rfl fun k _ => ?_
  rw [lift_row hred r k]
  show (q (ix2 r k) * a (ix2 r k)) * broadcastTo ⟨2, ![n, 64]⟩ w hbw (ix2 r k) = _
  rw [broadcastTo_1b_ab_apply, mul_comm (q (ix2 r k)) (a (ix2 r k))]

/-- The gate body's stored value at row `r` of its block (region 2's payload). -/
theorem pay2_apply (v0 v1 : FVec Ideal S12800x64 .f32) (v3 : FVec Ideal S1x64 .f32) (v9 : FVec Ideal S1 .f32)
    (r : Fin 12800) (u : Fin 1) :
    k2_pay1 (F := Ideal) v0 v1 v3 v9 (ix2 r u)
      = Ideal.logistic ((∑ k : Fin 64, (v1 (ix2 r k) * v0 (ix2 r k)) * v3 (ix2 (0 : Fin 1) k)) + v9 (ix1 (0 : Fin 1))) := by
  unfold k2_pay1
  exact gate_term_apply v0 v1 v3 v9 _ _ _ _ _ _ _ _ _ r u

/-- The gate body's stored value at row `r` of its block (region 5's payload). -/
theorem pay5_apply (v0 v1 : FVec Ideal S12800x64 .f32) (v3 : FVec Ideal S1x64 .f32) (v9 : FVec Ideal S1 .f32)
    (r : Fin 12800) (u : Fin 1) :
    k5_pay1 (F := Ideal) v0 v1 v3 v9 (ix2 r u)
      = Ideal.logistic ((∑ k : Fin 64, (v1 (ix2 r k) * v0 (ix2 r k)) * v3 (ix2 (0 : Fin 1) k)) + v9 (ix1 (0 : Fin 1))) := by
  unfold k5_pay1
  exact gate_term_apply v0 v1 v3 v9 _ _ _ _ _ _ _ _ _ r u

/-- The zero offsets of a whole-block access, however spelt. -/
theorem hz2 : (![0, 0] : Fin 2 → Nat) = fun _ => 0 := funext fun a => match a with | ⟨0, _⟩ => rfl | ⟨1, _⟩ => rfl
theorem hz1 : (![0] : Fin 1 → Nat) = fun _ => 0 := funext fun a => match a with | ⟨0, _⟩ => rfl

/-! ## Region 2: the index maps over the grid -/

/-- The printed index maps of region 2, decided once over its 125 points: the two edge windows and the output move
    one row block per point, the gate row and the bias stay at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-! ## Region 2: each block read where the output's rows say -/

/-- Row `r` of point `t`'s edge-attribute block sits at row `12800 t + r` of the array. -/
theorem attr_emb2 (t : Fin cfg2.N) (r : Fin 12800) (k : Fin 64) (R : Fin 1600000) (hR : R.val = t.val * 12800 + r.val) :
    ((cfg2.win 0).blk t).view.emb (ix2 r k) = (ix2 R k : S1600000x64.Idx) := by
  obtain ⟨e0, e1, -⟩ := idx2 t
  funext a; apply Fin.ext
  match a with
  | ⟨0, _⟩ => show win2_0.index t (0 : Fin 2) * 12800 + 1 * r.val = R.val; rw [e0, hR, Nat.one_mul]
  | ⟨1, _⟩ => show win2_0.index t (1 : Fin 2) * 64 + 1 * k.val = k.val; rw [e1, Nat.zero_mul, Nat.zero_add, Nat.one_mul]

/-- Row `r` of point `t`'s query block sits at row `12800 t + r` of the array. -/
theorem query_emb2 (t : Fin cfg2.N) (r : Fin 12800) (k : Fin 64) (R : Fin 1600000) (hR : R.val = t.val * 12800 + r.val) :
    ((cfg2.win 1).blk t).view.emb (ix2 r k) = (ix2 R k : S1600000x64.Idx) := by
  obtain ⟨-, -, e2, e3, -⟩ := idx2 t
  funext a; apply Fin.ext
  match a with
  | ⟨0, _⟩ => show win2_1.index t (0 : Fin 2) * 12800 + 1 * r.val = R.val; rw [e2, hR, Nat.one_mul]
  | ⟨1, _⟩ => show win2_1.index t (1 : Fin 2) * 64 + 1 * k.val = k.val; rw [e3, Nat.zero_mul, Nat.zero_add, Nat.one_mul]

/-- The gate row's block is the whole row at every point. -/
theorem row_emb2 (t : Fin cfg2.N) (k : Fin 64) :
    ((cfg2.win 2).blk t).view.emb (ix2 (0 : Fin 1) k) = (ix2 (0 : Fin 1) k : S1x64.Idx) := by
  obtain ⟨-, -, -, -, e4, e5, -⟩ := idx2 t
  funext a; apply Fin.ext
  match a with
  | ⟨0, _⟩ => show win2_2.index t (0 : Fin 2) * 1 + 1 * 0 = 0; rw [e4]
  | ⟨1, _⟩ => show win2_2.index t (1 : Fin 2) * 64 + 1 * k.val = k.val; rw [e5, Nat.zero_mul, Nat.zero_add, Nat.one_mul]

/-- The bias's block is the whole one-word array at every point. -/
theorem bias_emb2 (t : Fin cfg2.N) :
    ((cfg2.win 3).blk t).view.emb (ix1 (0 : Fin 1)) = (ix1 (0 : Fin 1) : S1.Idx) := by
  obtain ⟨-, -, -, -, -, -, e6, -⟩ := idx2 t
  funext a; apply Fin.ext
  match a with
  | ⟨0, _⟩ => show win2_3.index t (0 : Fin 1) * 1 + 1 * 0 = 0; rw [e6]

/-- Row `r` of point `t`'s output block sits at row `12800 t + r` of the output column. -/
theorem out_emb2 (t : Fin cfg2.N) (r : Fin 12800) (u : Fin 1) (R : Fin 1600000) (hR : R.val = t.val * 12800 + r.val) :
    ((cfg2.win 4).blk t).view.emb (ix2 r u) = (ix2 R u : S1600000x1.Idx) := by
  obtain ⟨-, -, -, -, -, -, -, e7, e8⟩ := idx2 t
  funext a; apply Fin.ext
  match a with
  | ⟨0, _⟩ => show win2_4.index t (0 : Fin 2) * 12800 + 1 * r.val = R.val; rw [e7, hR, Nat.one_mul]
  | ⟨1, _⟩ => show win2_4.index t (1 : Fin 2) * 1 + 1 * u.val = u.val; rw [e8, Nat.zero_mul, Nat.zero_add, Nat.one_mul]

/-- The four input blocks at point `t`, read at a row, are the arrays at the rows the output's block names. -/
theorem attr_blk2 (V : (c : Dev nD) → (b : Ref sig .tc) → Buf (Elt Ideal) ((c : Thread nD τ).loc b)) (c : Dev nD) (t : Fin cfg2.N)
    (r : Fin 12800) (k : Fin 64) (R : Fin 1600000) (hR : R.val = t.val * 12800 + r.val) :
    (iblk2 V c 0 t : FVec Ideal S12800x64 .f32) (ix2 r k) = (V c main_arg2 : FVec Ideal S1600000x64 .f32) (ix2 R k) := by
  show (V c main_arg2 : FVec Ideal S1600000x64 .f32) (((cfg2.win 0).blk t).view.emb (ix2 r k)) = _
  rw [attr_emb2 t r k R hR]

theorem query_blk2 (V : (c : Dev nD) → (b : Ref sig .tc) → Buf (Elt Ideal) ((c : Thread nD τ).loc b)) (c : Dev nD) (t : Fin cfg2.N)
    (r : Fin 12800) (k : Fin 64) (R : Fin 1600000) (hR : R.val = t.val * 12800 + r.val) :
    (iblk2 V c 1 t : FVec Ideal S12800x64 .f32) (ix2 r k) = (V c main_arg3 : FVec Ideal S1600000x64 .f32) (ix2 R k) := by
  show (V c main_arg3 : FVec Ideal S1600000x64 .f32) (((cfg2.win 1).blk t).view.emb (ix2 r k)) = _
  rw [query_emb2 t r k R hR]

theorem row_blk2 (V : (c : Dev nD) → (b : Ref sig .tc) → Buf (Elt Ideal) ((c : Thread nD τ).loc b)) (c : Dev nD) (t : Fin cfg2.N) (k : Fin 64) :
    (iblk2 V c 2 t : FVec Ideal S1x64 .f32) (ix2 (0 : Fin 1) k) = (V c main_v8 : FVec Ideal S1x64 .f32) (ix2 (0 : Fin 1) k) := by
  show (V c main_v8 : FVec Ideal S1x64 .f32) (((cfg2.win 2).blk t).view.emb (ix2 (0 : Fin 1) k)) = _
  rw [row_emb2 t k]

theorem bias_blk2 (V : (c : Dev nD) → (b : Ref sig .tc) → Buf (Elt Ideal) ((c : Thread nD τ).loc b)) (c : Dev nD) (t : Fin cfg2.N) :
    (iblk2 V c 3 t : FVec Ideal S1 .f32) (ix1 (0 : Fin 1)) = (V c main_v10 : FVec Ideal S1 .f32) (ix1 (0 : Fin 1)) := by
  show (V c main_v10 : FVec Ideal S1 .f32) (((cfg2.win 3).blk t).view.emb (ix1 (0 : Fin 1))) = _
  rw [bias_emb2 t]

/-! ## Region 2: what a point writes back, the cover, the array -/

/-- WHAT POINT `t` WRITES BACK is block `t` of the gate column of the arrays as the region finds them. -/
theorem flushed2 (V : (c : Dev nD) → (b : Ref sig .tc) → Buf (Elt Ideal) ((c : Thread nD τ).loc b)) (c : Dev nD) (t : Fin cfg2.N) :
    (dat2 (F := Ideal) V c).flushed 4 t
      = ((cfg2.win 4).blk t).view.read (Elt Ideal) (Cert.Spec.gate (V c main_arg2) (V c main_arg3) (V c main_v8) (V c main_v10)) := by
  show (cfg2.win 4).cut (grid2.coords t) ((dat2 (F := Ideal) V c).after 4 t) = _
  rw [after2_4]
  unfold out2_4
  rw [View.canon_unit_zero hz2]
  simp only [View.ld_unit_zero (S := S12800x64) hz2, View.ld_unit_zero (S := S1x64) hz2, View.ld_unit_zero (S := S1) hz1]
  refine funext fun (j : S12800x1.Idx) => ?_
  obtain ⟨r, u, rfl⟩ : ∃ (r : Fin 12800) (u : Fin 1), j = ix2 r u := ⟨j 0, j 1, eq_ix2 j⟩
  have hN : cfg2.N = 125 := N_2
  have hR : t.val * 12800 + r.val < 1600000 := by have h1 := t.isLt; have h2 := r.isLt; omega
  show k2_pay1 (F := Ideal) (iblk2 V c 1 t) (iblk2 V c 0 t) (iblk2 V c 2 t) (iblk2 V c 3 t) (ix2 r u)
      = Cert.Spec.gate (V c main_arg2) (V c main_arg3) (V c main_v8) (V c main_v10) (((cfg2.win 4).blk t).view.emb (ix2 r u))
  rw [out_emb2 t r u ⟨_, hR⟩ rfl]
  refine (pay2_apply _ _ _ _ r u).trans ?_
  refine congrArg Ideal.logistic ?_
  refine congrArg₂ (fun x y : EReal => x + y) (Finset.sum_congr rfl fun k _ => ?_) (bias_blk2 V c t)
  exact congrArg₂ (fun x y : EReal => x * y)
    (congrArg₂ (fun x y : EReal => x * y) (attr_blk2 V c t r k ⟨_, hR⟩ rfl) (query_blk2 V c t r k ⟨_, hR⟩ rfl))
    (row_blk2 V c t k)

/-- An index of the output column is in point `t`'s block iff each coordinate is in the block's range on its axis. -/
theorem mem_blk2 (t : Fin cfg2.N) (i : S1600000x1.Idx) :
    i ∈ ((cfg2.win 4).blk t).view.set ↔ ∀ a : Fin 2, win2_4.index t a * S12800x1.size a ≤ (i a).val ∧ (i a).val < win2_4.index t a * S12800x1.size a + S12800x1.size a := by
  show i ∈ ((View.whole main_v11).slice (win2_4.rect t)).set ↔ _
  rw [View.set_slice_whole, Rect.mem_set_unit]
  exact Iff.rfl

/-- THE COVER: row `r` of the output column is in the block of point `r / 12800`, which is written back. -/
theorem cover2 (i : S1600000x1.Idx) :
    ∃ t : Fin cfg2.N, (cfg2.win 4).flush t = true ∧ i ∈ ((cfg2.win 4).blk t).view.set := by
  have h0 : (i 0).val < 1600000 := (i 0).isLt
  have h1 : (i 1).val < 1 := (i 1).isLt
  have hN : cfg2.N = 125 := N_2
  have hq : (i 0).val / 12800 < cfg2.N := by rw [hN]; omega
  refine ⟨⟨(i 0).val / 12800, hq⟩, flush2_4 _, ?_⟩
  rw [mem_blk2]
  obtain ⟨-, -, -, -, -, -, -, e7, e8⟩ := idx2 ⟨(i 0).val / 12800, hq⟩
  intro a
  match a with
  | ⟨0, _⟩ =>
    show win2_4.index ⟨(i 0).val / 12800, hq⟩ (0 : Fin 2) * 12800 ≤ (i 0).val ∧ (i 0).val < win2_4.index ⟨(i 0).val / 12800, hq⟩ (0 : Fin 2) * 12800 + 12800
    rw [e7]; show (i 0).val / 12800 * 12800 ≤ (i 0).val ∧ (i 0).val < (i 0).val / 12800 * 12800 + 12800; omega
  | ⟨1, _⟩ =>
    show win2_4.index ⟨(i 0).val / 12800, hq⟩ (1 : Fin 2) * 1 ≤ (i 1).val ∧ (i 1).val < win2_4.index ⟨(i 0).val / 12800, hq⟩ (1 : Fin 2) * 1 + 1
    rw [e8]; omega

/-- THE ARRAY after region 2: the first layer's gate column of the arrays as the region finds them. -/
theorem value2 (V : (c : Dev nD) → (b : Ref sig .tc) → Buf (Elt Ideal) ((c : Thread nD τ).loc b)) (c : Dev nD) :
    (dat2 (F := Ideal) V c).arrAt 4 cfg2.N = Cert.Spec.gate (V c main_arg2) (V c main_arg3) (V c main_v8) (V c main_v10) :=
  (dat2 (F := Ideal) V c).arrAt_eq_of_cover 4 _ (fun t _ => flushed2 V c t) cover2

/-! ## Region 5: the index maps over the grid -/

/-- The printed index maps of region 5, decided once over its 125 points: the two edge windows and the output move
    one row block per point, the gate row and the bias stay at block 0. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-! ## Region 5: each block read where the output's rows say -/

/-- Row `r` of point `t`'s edge-attribute block sits at row `12800 t + r` of the array. -/
theorem attr_emb5 (t : Fin cfg5.N) (r : Fin 12800) (k : Fin 64) (R : Fin 1600000) (hR : R.val = t.val * 12800 + r.val) :
    ((cfg5.win 0).blk t).view.emb (ix2 r k) = (ix2 R k : S1600000x64.Idx) := by
  obtain ⟨e0, e1, -⟩ := idx5 t
  funext a; apply Fin.ext
  match a with
  | ⟨0, _⟩ => show win5_0.index t (0 : Fin 2) * 12800 + 1 * r.val = R.val; rw [e0, hR, Nat.one_mul]
  | ⟨1, _⟩ => show win5_0.index t (1 : Fin 2) * 64 + 1 * k.val = k.val; rw [e1, Nat.zero_mul, Nat.zero_add, Nat.one_mul]

/-- Row `r` of point `t`'s query block sits at row `12800 t + r` of the array. -/
theorem query_emb5 (t : Fin cfg5.N) (r : Fin 12800) (k : Fin 64) (R : Fin 1600000) (hR : R.val = t.val * 12800 + r.val) :
    ((cfg5.win 1).blk t).view.emb (ix2 r k) = (ix2 R k : S1600000x64.Idx) := by
  obtain ⟨-, -, e2, e3, -⟩ := idx5 t
  funext a; apply Fin.ext
  match a with
  | ⟨0, _⟩ => show win5_1.index t (0 : Fin 2) * 12800 + 1 * r.val = R.val; rw [e2, hR, Nat.one_mul]
  | ⟨1, _⟩ => show win5_1.index t (1 : Fin 2) * 64 + 1 * k.val = k.val; rw [e3, Nat.zero_mul, Nat.zero_add, Nat.one_mul]

/-- The gate row's block is the whole row at every point. -/
theorem row_emb5 (t : Fin cfg5.N) (k : Fin 64) :
    ((cfg5.win 2).blk t).view.emb (ix2 (0 : Fin 1) k) = (ix2 (0 : Fin 1) k : S1x64.Idx) := by
  obtain ⟨-, -, -, -, e4, e5, -⟩ := idx5 t
  funext a; apply Fin.ext
  match a with
  | ⟨0, _⟩ => show win5_2.index t (0 : Fin 2) * 1 + 1 * 0 = 0; rw [e4]
  | ⟨1, _⟩ => show win5_2.index t (1 : Fin 2) * 64 + 1 * k.val = k.val; rw [e5, Nat.zero_mul, Nat.zero_add, Nat.one_mul]

/-- The bias's block is the whole one-word array at every point. -/
theorem bias_emb5 (t : Fin cfg5.N) :
    ((cfg5.win 3).blk t).view.emb (ix1 (0 : Fin 1)) = (ix1 (0 : Fin 1) : S1.Idx) := by
  obtain ⟨-, -, -, -, -, -, e6, -⟩ := idx5 t
  funext a; apply Fin.ext
  match a with
  | ⟨0, _⟩ => show win5_3.index t (0 : Fin 1) * 1 + 1 * 0 = 0; rw [e6]

/-- Row `r` of point `t`'s output block sits at row `12800 t + r` of the output column. -/
theorem out_emb5 (t : Fin cfg5.N) (r : Fin 12800) (u : Fin 1) (R : Fin 1600000) (hR : R.val = t.val * 12800 + r.val) :
    ((cfg5.win 4).blk t).view.emb (ix2 r u) = (ix2 R u : S1600000x1.Idx) := by
  obtain ⟨-, -, -, -, -, -, -, e7, e8⟩ := idx5 t
  funext a; apply Fin.ext
  match a with
  | ⟨0, _⟩ => show win5_4.index t (0 : Fin 2) * 12800 + 1 * r.val = R.val; rw [e7, hR, Nat.one_mul]
  | ⟨1, _⟩ => show win5_4.index t (1 : Fin 2) * 1 + 1 * u.val = u.val; rw [e8, Nat.zero_mul, Nat.zero_add, Nat.one_mul]

/-- The four input blocks at point `t`, read at a row, are the arrays at the rows the output's block names. -/
theorem attr_blk5 (V : (c : Dev nD) → (b : Ref sig .tc) → Buf (Elt Ideal) ((c : Thread nD τ).loc b)) (c : Dev nD) (t : Fin cfg5.N)
    (r : Fin 12800) (k : Fin 64) (R : Fin 1600000) (hR : R.val = t.val * 12800 + r.val) :
    (iblk5 V c 0 t : FVec Ideal S12800x64 .f32) (ix2 r k) = (V c main_arg2 : FVec Ideal S1600000x64 .f32) (ix2 R k) := by
  show (V c main_arg2 : FVec Ideal S1600000x64 .f32) (((cfg5.win 0).blk t).view.emb (ix2 r k)) = _
  rw [attr_emb5 t r k R hR]

theorem query_blk5 (V : (c : Dev nD) → (b : Ref sig .tc) → Buf (Elt Ideal) ((c : Thread nD τ).loc b)) (c : Dev nD) (t : Fin cfg5.N)
    (r : Fin 12800) (k : Fin 64) (R : Fin 1600000) (hR : R.val = t.val * 12800 + r.val) :
    (iblk5 V c 1 t : FVec Ideal S12800x64 .f32) (ix2 r k) = (V c main_arg3 : FVec Ideal S1600000x64 .f32) (ix2 R k) := by
  show (V c main_arg3 : FVec Ideal S1600000x64 .f32) (((cfg5.win 1).blk t).view.emb (ix2 r k)) = _
  rw [query_emb5 t r k R hR]

theorem row_blk5 (V : (c : Dev nD) → (b : Ref sig .tc) → Buf (Elt Ideal) ((c : Thread nD τ).loc b)) (c : Dev nD) (t : Fin cfg5.N) (k : Fin 64) :
    (iblk5 V c 2 t : FVec Ideal S1x64 .f32) (ix2 (0 : Fin 1) k) = (V c main_v52 : FVec Ideal S1x64 .f32) (ix2 (0 : Fin 1) k) := by
  show (V c main_v52 : FVec Ideal S1x64 .f32) (((cfg5.win 2).blk t).view.emb (ix2 (0 : Fin 1) k)) = _
  rw [row_emb5 t k]

theorem bias_blk5 (V : (c : Dev nD) → (b : Ref sig .tc) → Buf (Elt Ideal) ((c : Thread nD τ).loc b)) (c : Dev nD) (t : Fin cfg5.N) :
    (iblk5 V c 3 t : FVec Ideal S1 .f32) (ix1 (0 : Fin 1)) = (V c main_v54 : FVec Ideal S1 .f32) (ix1 (0 : Fin 1)) := by
  show (V c main_v54 : FVec Ideal S1 .f32) (((cfg5.win 3).blk t).view.emb (ix1 (0 : Fin 1))) = _
  rw [bias_emb5 t]

/-! ## Region 5: what a point writes back, the cover, the array -/

/-- WHAT POINT `t` WRITES BACK is block `t` of the gate column of the arrays as the region finds them. -/
theorem flushed5 (V : (c : Dev nD) → (b : Ref sig .tc) → Buf (Elt Ideal) ((c : Thread nD τ).loc b)) (c : Dev nD) (t : Fin cfg5.N) :
    (dat5 (F := Ideal) V c).flushed 4 t
      = ((cfg5.win 4).blk t).view.read (Elt Ideal) (Cert.Spec.gate (V c main_arg2) (V c main_arg3) (V c main_v52) (V c main_v54)) := by
  show (cfg5.win 4).cut (grid5.coords t) ((dat5 (F := Ideal) V c).after 4 t) = _
  rw [after5_4]
  unfold out5_4
  rw [View.canon_unit_zero hz2]
  simp only [View.ld_unit_zero (S := S12800x64) hz2, View.ld_unit_zero (S := S1x64) hz2, View.ld_unit_zero (S := S1) hz1]
  refine funext fun (j : S12800x1.Idx) => ?_
  obtain ⟨r, u, rfl⟩ : ∃ (r : Fin 12800) (u : Fin 1), j = ix2 r u := ⟨j 0, j 1, eq_ix2 j⟩
  have hN : cfg5.N = 125 := N_5
  have hR : t.val * 12800 + r.val < 1600000 := by have h1 := t.isLt; have h2 := r.isLt; omega
  show k5_pay1 (F := Ideal) (iblk5 V c 1 t) (iblk5 V c 0 t) (iblk5 V c 2 t) (iblk5 V c 3 t) (ix2 r u)
      = Cert.Spec.gate (V c main_arg2) (V c main_arg3) (V c main_v52) (V c main_v54) (((cfg5.win 4).blk t).view.emb (ix2 r u))
  rw [out_emb5 t r u ⟨_, hR⟩ rfl]
  refine (pay5_apply _ _ _ _ r u).trans ?_
  refine congrArg Ideal.logistic ?_
  refine congrArg₂ (fun x y : EReal => x + y) (Finset.sum_congr rfl fun k _ => ?_) (bias_blk5 V c t)
  exact congrArg₂ (fun x y : EReal => x * y)
    (congrArg₂ (fun x y : EReal => x * y) (attr_blk5 V c t r k ⟨_, hR⟩ rfl) (query_blk5 V c t r k ⟨_, hR⟩ rfl))
    (row_blk5 V c t k)

/-- An index of the output column is in point `t`'s block iff each coordinate is in the block's range on its axis. -/
theorem mem_blk5 (t : Fin cfg5.N) (i : S1600000x1.Idx) :
    i ∈ ((cfg5.win 4).blk t).view.set ↔ ∀ a : Fin 2, win5_4.index t a * S12800x1.size a ≤ (i a).val ∧ (i a).val < win5_4.index t a * S12800x1.size a + S12800x1.size a := by
  show i ∈ ((View.whole main_v55).slice (win5_4.rect t)).set ↔ _
  rw [View.set_slice_whole, Rect.mem_set_unit]
  exact Iff.rfl

/-- THE COVER: row `r` of the output column is in the block of point `r / 12800`, which is written back. -/
theorem cover5 (i : S1600000x1.Idx) :
    ∃ t : Fin cfg5.N, (cfg5.win 4).flush t = true ∧ i ∈ ((cfg5.win 4).blk t).view.set := by
  have h0 : (i 0).val < 1600000 := (i 0).isLt
  have h1 : (i 1).val < 1 := (i 1).isLt
  have hN : cfg5.N = 125 := N_5
  have hq : (i 0).val / 12800 < cfg5.N := by rw [hN]; omega
  refine ⟨⟨(i 0).val / 12800, hq⟩, flush5_4 _, ?_⟩
  rw [mem_blk5]
  obtain ⟨-, -, -, -, -, -, -, e7, e8⟩ := idx5 ⟨(i 0).val / 12800, hq⟩
  intro a
  match a with
  | ⟨0, _⟩ =>
    show win5_4.index ⟨(i 0).val / 12800, hq⟩ (0 : Fin 2) * 12800 ≤ (i 0).val ∧ (i 0).val < win5_4.index ⟨(i 0).val / 12800, hq⟩ (0 : Fin 2) * 12800 + 12800
    rw [e7]; show (i 0).val / 12800 * 12800 ≤ (i 0).val ∧ (i 0).val < (i 0).val / 12800 * 12800 + 12800; omega
  | ⟨1, _⟩ =>
    show win5_4.index ⟨(i 0).val / 12800, hq⟩ (1 : Fin 2) * 1 ≤ (i 1).val ∧ (i 1).val < win5_4.index ⟨(i 0).val / 12800, hq⟩ (1 : Fin 2) * 1 + 1
    rw [e8]; omega

/-- THE ARRAY after region 5: the second layer's gate column of the arrays as the region finds them. -/
theorem value5 (V : (c : Dev nD) → (b : Ref sig .tc) → Buf (Elt Ideal) ((c : Thread nD τ).loc b)) (c : Dev nD) :
    (dat5 (F := Ideal) V c).arrAt 4 cfg5.N = Cert.Spec.gate (V c main_arg2) (V c main_arg3) (V c main_v52) (V c main_v54) :=
  (dat5 (F := Ideal) V c).arrAt_eq_of_cover 4 _ (fun t _ => flushed5 V c t) cover5

end Cert.KernelIdeal.RegionGate

end
-- ==== Proof.RegionGru.lean ====
/-
  The GRU cell of the edge-gated graph network: regions 3 and 6 of the program, the two rounds of node update.

  Mathematics. Each region maps the aggregated messages a and the node table h, both [100000, 64], to the new node
  table. For a row n and a column j, with six 64 x 64 weights and six 64-biases (input side r, z, n; hidden side r, z, n),
      i_g[n, j] = (sum over k < 64 of a[n, k] * W_ig[k, j]) + b_ig[j],     h_g[n, j] = (sum over k < 64 of h[n, k] * W_hg[k, j]) + b_hg[j],
      r = logistic (i_r + h_r),   z = logistic (i_z + h_z),   c = tanh (i_n + r * h_n),   out[n, j] = (1 - z) * c + z * h[n, j].
  The body computes exactly this on a block of 4000 rows: the casts to the 16-bit format and back are the identity on
  extended reals, each block product into a zero accumulator is the finite sum over the contracted column, a bias is a
  row broadcast down the block, and the literal one is the real one.

  Tiling. The grid has 25 points; point t reads rows 4000 t .. 4000 t + 3999 of a and of h, reads the twelve weight and
  bias arrays whole, and writes rows 4000 t .. 4000 t + 3999 of the result. Row n of the result is therefore written by
  point n / 4000, every point writes, and the blocks are restrictions of one whole-array function: the result array is
  that function.

  Law used. A block product read at an index is the sum of products over the contraction index, and the contraction
  index set of a one-axis contraction is in bijection with the 64 values of its coordinate; entry (n, j) only needs row
  n of the two tables and column j of each weight, which is what the blocks hold. No algebraic rearrangement is needed:
  the two sides are the same expression term by term.
-/
import proofs.«422311_j73100343378050_3_alg».proof.Proof.Gen.KernelIdeal.Frame
import proofs.«422311_j73100343378050_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.RegionGru

open Idealize.ShloMosaic Idealize.ShloMosaic.TcCoe Idealize.SL.Sem Cert.KernelIdeal Cert.KernelIdeal.Gen
open Idealize.ShloMosaic.ValueIdx
open Idealize.ShloMosaic.Pipeline (Dat)

/-! ## The block product at an index: a sum over the contracted column -/

/-- The left operand's row is the output's row. -/
theorem lhs_ax0 (j : S4000x64.Idx) (k : dot_S4000x64_S64x64_S4000x64_1_0_0_1_n_n.contr.Idx) :
    (dot_S4000x64_S64x64_S4000x64_1_0_0_1_n_n.lhsIdx j k 0 : ℕ) = j 0 := by
  simp [DotDims.lhsIdx, dot_S4000x64_S64x64_S4000x64_1_0_0_1_n_n]; rfl
/-- The left operand's column is the contraction coordinate. -/
theorem lhs_ax1 (j : S4000x64.Idx) (k : dot_S4000x64_S64x64_S4000x64_1_0_0_1_n_n.contr.Idx) :
    (dot_S4000x64_S64x64_S4000x64_1_0_0_1_n_n.lhsIdx j k 1 : ℕ) = k ⟨0, by decide⟩ := by
  simp [DotDims.lhsIdx, dot_S4000x64_S64x64_S4000x64_1_0_0_1_n_n]; rfl
/-- The right operand's row is the contraction coordinate. -/
theorem rhs_ax0 (j : S4000x64.Idx) (k : dot_S4000x64_S64x64_S4000x64_1_0_0_1_n_n.contr.Idx) :
    (dot_S4000x64_S64x64_S4000x64_1_0_0_1_n_n.rhsIdx j k 0 : ℕ) = k ⟨0, by decide⟩ := by
  simp [DotDims.rhsIdx, dot_S4000x64_S64x64_S4000x64_1_0_0_1_n_n]; rfl
/-- The right operand's column is the output's column. -/
theorem rhs_ax1 (j : S4000x64.Idx) (k : dot_S4000x64_S64x64_S4000x64_1_0_0_1_n_n.contr.Idx) :
    (dot_S4000x64_S64x64_S4000x64_1_0_0_1_n_n.rhsIdx j k 1 : ℕ) = j 1 := by
  simp [DotDims.rhsIdx, dot_S4000x64_S64x64_S4000x64_1_0_0_1_n_n]; rfl

/-- A [4000, 64] block times a [64, 64] weight into the zero accumulator, read at (p, q): the 64-term dot of row p with column q. -/
theorem matmul_at {φ₁ φ₂ : FTy} (a : FVec Ideal S4000x64 φ₁) (w : FVec Ideal S64x64 φ₂) (p : Fin 4000) (q : Fin 64) :
    matmul dot_S4000x64_S64x64_S4000x64_1_0_0_1_n_n none a w (constant (F := Ideal) S4000x64 .f32 0x00000000#32) (ix2 p q)
      = ∑ k : Fin 64, a (ix2 p k) * w (ix2 k q) := by
  show FloatOps.matmul dot_S4000x64_S64x64_S4000x64_1_0_0_1_n_n none a w (constant (F := Ideal) S4000x64 .f32 0x00000000#32) (ix2 p q) = _
  rw [Ideal.matmul_constant_zero_apply]
  refine (Equiv.sum_comp (contrEquiv1 dot_S4000x64_S64x64_S4000x64_1_0_0_1_n_n 64 rfl rfl).symm _).symm.trans ?_
  refine Finset.sum_congr rfl fun k _ => ?_
  have hl : dot_S4000x64_S64x64_S4000x64_1_0_0_1_n_n.lhsIdx (ix2 p q) ((contrEquiv1 dot_S4000x64_S64x64_S4000x64_1_0_0_1_n_n 64 rfl rfl).symm k) = ix2 p k := by
    funext ax; apply Fin.ext
    match ax with
    | ⟨0, _⟩ => exact lhs_ax0 _ _
    | ⟨1, _⟩ => exact (lhs_ax1 _ _).trans (contrEquiv1_symm_val _ 64 rfl rfl k)
  have hr : dot_S4000x64_S64x64_S4000x64_1_0_0_1_n_n.rhsIdx (ix2 p q) ((contrEquiv1 dot_S4000x64_S64x64_S4000x64_1_0_0_1_n_n 64 rfl rfl).symm k) = ix2 k q := by
    funext ax; apply Fin.ext
    match ax with
    | ⟨0, _⟩ => exact (rhs_ax0 _ _).trans (contrEquiv1_symm_val _ 64 rfl rfl k)
    | ⟨1, _⟩ => exact rhs_ax1 _ _
  rw [hl, hr]

/-- A 64-bias made a row and broadcast down the block reads, at (p, q), the bias at q. -/
theorem bias_at {α : Type} (b : S64.Idx → α) (h1 : S64.ShapeCasts S64) (h2 : S64.ShapeCasts S1x64) (h3 : S1x64.Broadcasts S4000x64)
    (p : Fin 4000) (q : Fin 64) :
    broadcastTo S4000x64 (shapeCast S1x64 (shapeCast S64 b h1) h2) h3 (ix2 p q) = b (ix1 q) := by
  rw [broadcastTo_1b_ab_apply, shapeCast_a_1a_apply, shapeCast_self]

theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl
/-- The word 0x3F800000 is the real one. -/
theorem one_word : (Scalar.ofBits .f32 0x3F800000#32 : Ideal .f32) = (1 : EReal) := Ideal.ofBits_one_f32

/-! ## The body's payloads at an index -/

/-- Row p of a block against column q of a weight, plus the bias at q. -/
def rowAffine (x : Vec Ideal S4000x64 .f32) (w : Vec Ideal S64x64 .f32) (b : Vec Ideal S64 .f32) (p : Fin 4000) (q : Fin 64) : EReal :=
  (∑ k : Fin 64, x (ix2 p k) * w (ix2 k q)) + b (ix1 q)

/-- The gate arithmetic of the cell on scalars: the six affine terms and the old state to the new state. -/
def cell (ir iz ic hr hz hc h : EReal) : EReal :=
  let r := Ideal.logistic (ir + hr)
  let z := Ideal.logistic (iz + hz)
  let n := Ideal.tanh (ic + r * hc)
  (1 - z) * n + z * h

/-- The reset-gate input term: messages times the weight plus the bias. -/
theorem pay8_at (x : Vec Ideal S4000x64 .f32) (w : Vec Ideal S64x64 .f32) (b : Vec Ideal S64 .f32) (p : Fin 4000) (q : Fin 64) :
    k3_pay8 x w b (ix2 p q) = (∑ k : Fin 64, x (ix2 p k) * w (ix2 k q)) + b (ix1 q) := by
  unfold k3_pay8 k3_pay2
  rw [addf_apply, matmul_at, bias_at]
  simp only [truncf_apply, shapeCast_self]

/-- The update-gate input term. -/
theorem pay9_at (x : Vec Ideal S4000x64 .f32) (w : Vec Ideal S64x64 .f32) (b : Vec Ideal S64 .f32) (p : Fin 4000) (q : Fin 64) :
    k3_pay9 x w b (ix2 p q) = (∑ k : Fin 64, x (ix2 p k) * w (ix2 k q)) + b (ix1 q) := by
  unfold k3_pay9 k3_pay2
  rw [addf_apply, matmul_at, bias_at]
  simp only [truncf_apply, shapeCast_self]

/-- The candidate's input product (its bias is added later). -/
theorem pay10_at (x : Vec Ideal S4000x64 .f32) (w : Vec Ideal S64x64 .f32) (p : Fin 4000) (q : Fin 64) :
    k3_pay10 x w (ix2 p q) = ∑ k : Fin 64, x (ix2 p k) * w (ix2 k q) := by
  unfold k3_pay10 k3_pay2
  rw [matmul_at]
  simp only [truncf_apply, shapeCast_self]

/-- The recast copies of the state block and of the hidden-side weights are the blocks themselves. -/
theorem pay3_at (x : Vec Ideal S4000x64 .f32) (i : S4000x64.Idx) : k3_pay3 x i = x i := by
  unfold k3_pay3; rw [shapeCast_self]
theorem pay4_at (x : Vec Ideal S4000x64 .f32) (i : S4000x64.Idx) : k3_pay4 x i = x i := by
  unfold k3_pay4 k3_pay3; rw [truncf_apply, shapeCast_self]
theorem pay5_at (x : Vec Ideal S64x64 .f32) (i : S64x64.Idx) : k3_pay5 x i = x i := by
  unfold k3_pay5; rw [truncf_apply, shapeCast_self]
theorem pay6_at (x : Vec Ideal S64x64 .f32) (i : S64x64.Idx) : k3_pay6 x i = x i := by
  unfold k3_pay6; rw [truncf_apply, shapeCast_self]
theorem pay7_at (x : Vec Ideal S64x64 .f32) (i : S64x64.Idx) : k3_pay7 x i = x i := by
  unfold k3_pay7; rw [truncf_apply, shapeCast_self]

/-- The stored value at (p, q): the gate arithmetic of the three input terms, the three hidden products with their biases, and the state. -/
theorem pay1_at (h : FVec Ideal S4000x64 .f32) (hb : FVec Ideal S4000x64 .bf16) (whr whz whn : FVec Ideal S64x64 .bf16)
    (ir iz ic : FVec Ideal S4000x64 .f32) (bic bhr bhz bhn : Vec Ideal S64 .f32) (p : Fin 4000) (q : Fin 64) :
    k3_pay1 h hb whr whz whn ir iz ic bic bhr bhz bhn (ix2 p q)
      = cell (ir (ix2 p q)) (iz (ix2 p q)) (ic (ix2 p q) + bic (ix1 q))
          ((∑ k : Fin 64, hb (ix2 p k) * whr (ix2 k q)) + bhr (ix1 q))
          ((∑ k : Fin 64, hb (ix2 p k) * whz (ix2 k q)) + bhz (ix1 q))
          ((∑ k : Fin 64, hb (ix2 p k) * whn (ix2 k q)) + bhn (ix1 q))
          (h (ix2 p q)) := by
  unfold k3_pay1
  simp only [addf_apply, mulf_apply, subf_apply, logistic_at, tanh_at, broadcast_apply, matmul_at, bias_at, one_word]
  rfl

theorem hz2 : (![0, 0] : Fin 2 → Nat) = fun _ => 0 := funext fun a => by fin_cases a <;> rfl
theorem hz1 : (![0] : Fin 1 → Nat) = fun _ => 0 := funext fun a => by fin_cases a <;> rfl

/-- What the body leaves in the output block at (p, q), from the fourteen input blocks. -/
theorem block_at (x0 x1 : Vec Ideal S4000x64 .f32) (x2 x3 x4 x5 x6 x7 : Vec Ideal S64x64 .f32) (x8 x9 x10 x11 x12 x13 : Vec Ideal S64 .f32)
    (p : Fin 4000) (q : Fin 64) :
    out3_14 x0 x1 x2 x3 x4 x5 x6 x7 x8 x9 x10 x11 x12 x13 (ix2 p q)
      = cell (rowAffine x0 x2 x8 p q) (rowAffine x0 x3 x9 p q) (rowAffine x0 x4 x10 p q)
          (rowAffine x1 x5 x11 p q) (rowAffine x1 x6 x12 p q) (rowAffine x1 x7 x13 p q) (x1 (ix2 p q)) := by
  unfold out3_14
  rw [View.canon_unit_zero hz2]
  simp only [View.ld_unit_zero (S := S4000x64) hz2, View.ld_unit_zero (S := S64x64) hz2, View.ld_unit_zero (S := S64) hz1]
  rw [pay1_at, pay8_at, pay9_at, pay10_at]
  simp only [pay3_at, pay4_at, pay5_at, pay6_at, pay7_at]
  rfl

/-- The second round's body is the same term as the first's. -/
theorem out6_eq (x0 x1 : Vec Ideal S4000x64 .f32) (x2 x3 x4 x5 x6 x7 : Vec Ideal S64x64 .f32) (x8 x9 x10 x11 x12 x13 : Vec Ideal S64 .f32) :
    out6_14 x0 x1 x2 x3 x4 x5 x6 x7 x8 x9 x10 x11 x12 x13 = out3_14 x0 x1 x2 x3 x4 x5 x6 x7 x8 x9 x10 x11 x12 x13 := rfl

/-! ## The specification's cell at an index, and the blocks as restrictions of the arrays -/

/-- The specification's cell at an index is the gate arithmetic of its six affine terms and the old state. -/
theorem gru_eq_cell (A H : Cert.Spec.Mat 100000 64) (W2 W3 W4 W5 W6 W7 : Cert.Spec.Mat 64 64) (B8 B9 B10 B11 B12 B13 : Cert.Spec.Row 64)
    (i : (⟨2, ![100000, 64]⟩ : Shape).Idx) :
    Cert.Spec.gru A H W2 W3 W4 W5 W6 W7 B8 B9 B10 B11 B12 B13 i
      = cell (Cert.Spec.affine A W2 B8 i) (Cert.Spec.affine A W3 B9 i) (Cert.Spec.affine A W4 B10 i)
          (Cert.Spec.affine H W5 B11 i) (Cert.Spec.affine H W6 B12 i) (Cert.Spec.affine H W7 B13 i) (H i) := rfl

/-- A block row against a block weight is the array row against the array weight, when the block's row p is the array's
    row r, the weight's column q is the array weight's column s, and the biases agree there. -/
theorem rowAffine_eq (x : Vec Ideal S4000x64 .f32) (w : Vec Ideal S64x64 .f32) (b : Vec Ideal S64 .f32)
    (A : Cert.Spec.Mat 100000 64) (W : Cert.Spec.Mat 64 64) (B : Cert.Spec.Row 64)
    (p : Fin 4000) (q : Fin 64) (r : Fin 100000) (s : Fin 64)
    (hx : ∀ k : Fin 64, x (ix2 p k) = A (ix2 r k)) (hw : ∀ k : Fin 64, w (ix2 k q) = W (ix2 k s)) (hb : b (ix1 q) = B (ix1 s)) :
    rowAffine x w b p q = Cert.Spec.affine A W B (ix2 r s) := by
  show (∑ k : Fin 64, x (ix2 p k) * w (ix2 k q)) + b (ix1 q) = (∑ k : Fin 64, A (ix2 r k) * W (ix2 k s)) + B (ix1 s)
  rw [hb]
  exact congrArg (· + B (ix1 s)) (Finset.sum_congr rfl fun k _ => by rw [hx k, hw k])

/-- The output block at (p, q) is the specification at (r, s) when every input block reads its array where the output's
    rectangle says: the two row blocks at row r, the weights and biases at column s. -/
theorem cell_of_reads (x0 x1 : Vec Ideal S4000x64 .f32) (x2 x3 x4 x5 x6 x7 : Vec Ideal S64x64 .f32) (x8 x9 x10 x11 x12 x13 : Vec Ideal S64 .f32)
    (A H : Cert.Spec.Mat 100000 64) (W2 W3 W4 W5 W6 W7 : Cert.Spec.Mat 64 64) (B8 B9 B10 B11 B12 B13 : Cert.Spec.Row 64)
    (p : Fin 4000) (q : Fin 64) (r : Fin 100000) (s : Fin 64)
    (h0 : ∀ k : Fin 64, x0 (ix2 p k) = A (ix2 r k)) (h1 : ∀ k : Fin 64, x1 (ix2 p k) = H (ix2 r k))
    (h2 : ∀ k : Fin 64, x2 (ix2 k q) = W2 (ix2 k s))
    (h3 : ∀ k : Fin 64, x3 (ix2 k q) = W3 (ix2 k s))
    (h4 : ∀ k : Fin 64, x4 (ix2 k q) = W4 (ix2 k s))
    (h5 : ∀ k : Fin 64, x5 (ix2 k q) = W5 (ix2 k s))
    (h6 : ∀ k : Fin 64, x6 (ix2 k q) = W6 (ix2 k s))
    (h7 : ∀ k : Fin 64, x7 (ix2 k q) = W7 (ix2 k s))
    (h8 : x8 (ix1 q) = B8 (ix1 s))
    (h9 : x9 (ix1 q) = B9 (ix1 s))
    (h10 : x10 (ix1 q) = B10 (ix1 s))
    (h11 : x11 (ix1 q) = B11 (ix1 s))
    (h12 : x12 (ix1 q) = B12 (ix1 s))
    (h13 : x13 (ix1 q) = B13 (ix1 s))
    (hh : x1 (ix2 p q) = H (ix2 r s)) :
    out3_14 x0 x1 x2 x3 x4 x5 x6 x7 x8 x9 x10 x11 x12 x13 (ix2 p q)
      = Cert.Spec.gru A H W2 W3 W4 W5 W6 W7 B8 B9 B10 B11 B12 B13 (ix2 r s) := by
  rw [block_at, gru_eq_cell,
    rowAffine_eq x0 x2 x8 A W2 B8 p q r s h0 h2 h8, rowAffine_eq x0 x3 x9 A W3 B9 p q r s h0 h3 h9,
    rowAffine_eq x0 x4 x10 A W4 B10 p q r s h0 h4 h10, rowAffine_eq x1 x5 x11 H W5 B11 p q r s h1 h5 h11,
    rowAffine_eq x1 x6 x12 H W6 B12 p q r s h1 h6 h12, rowAffine_eq x1 x7 x13 H W7 B13 p q r s h1 h7 h13, hh]

/-! ## Region 3: from blocks to the array -/

section Region3
variable (V : (c : Dev nD) → (b : Ref sig .tc) → Buf (Elt Ideal) ((c : Thread nD τ).loc b))

/-- The printed index maps, decided over the 25 grid points: the two row windows and the output move with the point on
    the row axis; the weights and biases stay whole. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_14.index t (0 : Fin 2) = t.val
    ∧ win3_14.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 1) = 0
    ∧ win3_9.index t (0 : Fin 1) = 0
    ∧ win3_10.index t (0 : Fin 1) = 0
    ∧ win3_11.index t (0 : Fin 1) = 0
    ∧ win3_12.index t (0 : Fin 1) = 0
    ∧ win3_13.index t (0 : Fin 1) = 0 :=
  (by decide +kernel : ∀ t : Fin grid3.N, _)

/-- Row p of window 0's block at point t is row 4000 t + p of its array. -/
theorem rows3_0 (c : Dev nD) (t : Fin cfg3.N) (p : Fin 4000) (k : Fin 64) (r : Fin 100000) (hr : r.val = t.val * 4000 + p.val) :
    (iblk3 V c 0 t : Vec Ideal S4000x64 .f32) (ix2 p k) = (V c main_v21 : S100000x64.Idx → EReal) (ix2 r k) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v21 : S100000x64.Idx → EReal) _ = _
  refine congrArg (V c main_v21 : S100000x64.Idx → EReal) (funext fun ax => Fin.ext ?_)
  match ax with
  | ⟨0, _⟩ => show win3_0.index t (0 : Fin 2) * 4000 + 1 * p.val = r.val; rw [e0_0, hr]; omega
  | ⟨1, _⟩ => show win3_0.index t (1 : Fin 2) * 64 + 1 * k.val = k.val; rw [e0_1]; omega

/-- Row p of window 1's block at point t is row 4000 t + p of its array. -/
theorem rows3_1 (c : Dev nD) (t : Fin cfg3.N) (p : Fin 4000) (k : Fin 64) (r : Fin 100000) (hr : r.val = t.val * 4000 + p.val) :
    (iblk3 V c 1 t : Vec Ideal S4000x64 .f32) (ix2 p k) = (V c main_v0 : S100000x64.Idx → EReal) (ix2 r k) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v0 : S100000x64.Idx → EReal) _ = _
  refine congrArg (V c main_v0 : S100000x64.Idx → EReal) (funext fun ax => Fin.ext ?_)
  match ax with
  | ⟨0, _⟩ => show win3_1.index t (0 : Fin 2) * 4000 + 1 * p.val = r.val; rw [e1_0, hr]; omega
  | ⟨1, _⟩ => show win3_1.index t (1 : Fin 2) * 64 + 1 * k.val = k.val; rw [e1_1]; omega

/-- Window 2's block is its whole [64, 64] array. -/
theorem whole3_2 (c : Dev nD) (t : Fin cfg3.N) (a b : Fin 64) :
    (iblk3 V c 2 t : Vec Ideal S64x64 .f32) (ix2 a b) = (V c main_v32 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v32 : S64x64.Idx → EReal) _ = _
  refine congrArg (V c main_v32 : S64x64.Idx → EReal) (funext fun ax => Fin.ext ?_)
  match ax with
  | ⟨0, _⟩ => show win3_2.index t (0 : Fin 2) * 64 + 1 * a.val = a.val; rw [e2_0]; omega
  | ⟨1, _⟩ => show win3_2.index t (1 : Fin 2) * 64 + 1 * b.val = b.val; rw [e2_1]; omega

/-- Window 3's block is its whole [64, 64] array. -/
theorem whole3_3 (c : Dev nD) (t : Fin cfg3.N) (a b : Fin 64) :
    (iblk3 V c 3 t : Vec Ideal S64x64 .f32) (ix2 a b) = (V c main_v33 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v33 : S64x64.Idx → EReal) _ = _
  refine congrArg (V c main_v33 : S64x64.Idx → EReal) (funext fun ax => Fin.ext ?_)
  match ax with
  | ⟨0, _⟩ => show win3_3.index t (0 : Fin 2) * 64 + 1 * a.val = a.val; rw [e3_0]; omega
  | ⟨1, _⟩ => show win3_3.index t (1 : Fin 2) * 64 + 1 * b.val = b.val; rw [e3_1]; omega

/-- Window 4's block is its whole [64, 64] array. -/
theorem whole3_4 (c : Dev nD) (t : Fin cfg3.N) (a b : Fin 64) :
    (iblk3 V c 4 t : Vec Ideal S64x64 .f32) (ix2 a b) = (V c main_v34 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v34 : S64x64.Idx → EReal) _ = _
  refine congrArg (V c main_v34 : S64x64.Idx → EReal) (funext fun ax => Fin.ext ?_)
  match ax with
  | ⟨0, _⟩ => show win3_4.index t (0 : Fin 2) * 64 + 1 * a.val = a.val; rw [e4_0]; omega
  | ⟨1, _⟩ => show win3_4.index t (1 : Fin 2) * 64 + 1 * b.val = b.val; rw [e4_1]; omega

/-- Window 5's block is its whole [64, 64] array. -/
theorem whole3_5 (c : Dev nD) (t : Fin cfg3.N) (a b : Fin 64) :
    (iblk3 V c 5 t : Vec Ideal S64x64 .f32) (ix2 a b) = (V c main_v35 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v35 : S64x64.Idx → EReal) _ = _
  refine congrArg (V c main_v35 : S64x64.Idx → EReal) (funext fun ax => Fin.ext ?_)
  match ax with
  | ⟨0, _⟩ => show win3_5.index t (0 : Fin 2) * 64 + 1 * a.val = a.val; rw [e5_0]; omega
  | ⟨1, _⟩ => show win3_5.index t (1 : Fin 2) * 64 + 1 * b.val = b.val; rw [e5_1]; omega

/-- Window 6's block is its whole [64, 64] array. -/
theorem whole3_6 (c : Dev nD) (t : Fin cfg3.N) (a b : Fin 64) :
    (iblk3 V c 6 t : Vec Ideal S64x64 .f32) (ix2 a b) = (V c main_v36 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v36 : S64x64.Idx → EReal) _ = _
  refine congrArg (V c main_v36 : S64x64.Idx → EReal) (funext fun ax => Fin.ext ?_)
  match ax with
  | ⟨0, _⟩ => show win3_6.index t (0 : Fin 2) * 64 + 1 * a.val = a.val; rw [e6_0]; omega
  | ⟨1, _⟩ => show win3_6.index t (1 : Fin 2) * 64 + 1 * b.val = b.val; rw [e6_1]; omega

/-- Window 7's block is its whole [64, 64] array. -/
theorem whole3_7 (c : Dev nD) (t : Fin cfg3.N) (a b : Fin 64) :
    (iblk3 V c 7 t : Vec Ideal S64x64 .f32) (ix2 a b) = (V c main_v37 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v37 : S64x64.Idx → EReal) _ = _
  refine congrArg (V c main_v37 : S64x64.Idx → EReal) (funext fun ax => Fin.ext ?_)
  match ax with
  | ⟨0, _⟩ => show win3_7.index t (0 : Fin 2) * 64 + 1 * a.val = a.val; rw [e7_0]; omega
  | ⟨1, _⟩ => show win3_7.index t (1 : Fin 2) * 64 + 1 * b.val = b.val; rw [e7_1]; omega

/-- Window 8's block is its whole 64-bias. -/
theorem whole3_8 (c : Dev nD) (t : Fin cfg3.N) (a : Fin 64) :
    (iblk3 V c 8 t : Vec Ideal S64 .f32) (ix1 a) = (V c main_v38 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v38 : S64.Idx → EReal) _ = _
  refine congrArg (V c main_v38 : S64.Idx → EReal) (funext fun ax => Fin.ext ?_)
  match ax with
  | ⟨0, _⟩ => show win3_8.index t (0 : Fin 1) * 64 + 1 * a.val = a.val; rw [e8_0]; omega

/-- Window 9's block is its whole 64-bias. -/
theorem whole3_9 (c : Dev nD) (t : Fin cfg3.N) (a : Fin 64) :
    (iblk3 V c 9 t : Vec Ideal S64 .f32) (ix1 a) = (V c main_v39 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v39 : S64.Idx → EReal) _ = _
  refine congrArg (V c main_v39 : S64.Idx → EReal) (funext fun ax => Fin.ext ?_)
  match ax with
  | ⟨0, _⟩ => show win3_9.index t (0 : Fin 1) * 64 + 1 * a.val = a.val; rw [e9_0]; omega

/-- Window 10's block is its whole 64-bias. -/
theorem whole3_10 (c : Dev nD) (t : Fin cfg3.N) (a : Fin 64) :
    (iblk3 V c 10 t : Vec Ideal S64 .f32) (ix1 a) = (V c main_v40 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v40 : S64.Idx → EReal) _ = _
  refine congrArg (V c main_v40 : S64.Idx → EReal) (funext fun ax => Fin.ext ?_)
  match ax with
  | ⟨0, _⟩ => show win3_10.index t (0 : Fin 1) * 64 + 1 * a.val = a.val; rw [e10_0]; omega

/-- Window 11's block is its whole 64-bias. -/
theorem whole3_11 (c : Dev nD) (t : Fin cfg3.N) (a : Fin 64) :
    (iblk3 V c 11 t : Vec Ideal S64 .f32) (ix1 a) = (V c main_v41 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v41 : S64.Idx → EReal) _ = _
  refine congrArg (V c main_v41 : S64.Idx → EReal) (funext fun ax => Fin.ext ?_)
  match ax with
  | ⟨0, _⟩ => show win3_11.index t (0 : Fin 1) * 64 + 1 * a.val = a.val; rw [e11_0]; omega

/-- Window 12's block is its whole 64-bias. -/
theorem whole3_12 (c : Dev nD) (t : Fin cfg3.N) (a : Fin 64) :
    (iblk3 V c 12 t : Vec Ideal S64 .f32) (ix1 a) = (V c main_v42 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v42 : S64.Idx → EReal) _ = _
  refine congrArg (V c main_v42 : S64.Idx → EReal) (funext fun ax => Fin.ext ?_)
  match ax with
  | ⟨0, _⟩ => show win3_12.index t (0 : Fin 1) * 64 + 1 * a.val = a.val; rw [e12_0]; omega

/-- Window 13's block is its whole 64-bias. -/
theorem whole3_13 (c : Dev nD) (t : Fin cfg3.N) (a : Fin 64) :
    (iblk3 V c 13 t : Vec Ideal S64 .f32) (ix1 a) = (V c main_v43 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  unfold iblk3
  rw [View.read_apply]
  show (V c main_v43 : S64.Idx → EReal) _ = _
  refine congrArg (V c main_v43 : S64.Idx → EReal) (funext fun ax => Fin.ext ?_)
  match ax with
  | ⟨0, _⟩ => show win3_13.index t (0 : Fin 1) * 64 + 1 * a.val = a.val; rw [e13_0]; omega

/-- WHAT POINT t WRITES BACK is block t of the specification's array: rows 4000 t .. 4000 t + 3999 of the cell. -/
theorem flushed3_eq (c : Dev nD) (t : Fin cfg3.N) :
    (dat3 (F := Ideal) V c).flushed 14 t = ((cfg3.win 14).blk t).view.read (Elt Ideal) (Cert.Spec.gru (V c main_v21) (V c main_v0) (V c main_v32) (V c main_v33) (V c main_v34) (V c main_v35) (V c main_v36) (V c main_v37) (V c main_v38) (V c main_v39) (V c main_v40) (V c main_v41) (V c main_v42) (V c main_v43)) := by
  show (cfg3.win 14).cut (grid3.coords t) ((dat3 (F := Ideal) V c).after 14 t) = _
  rw [after3_14]
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  funext j
  show out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) j
    = Cert.Spec.gru (V c main_v21) (V c main_v0) (V c main_v32) (V c main_v33) (V c main_v34) (V c main_v35) (V c main_v36) (V c main_v37) (V c main_v38) (V c main_v39) (V c main_v40) (V c main_v41) (V c main_v42) (V c main_v43) (((cfg3.win 14).blk t).view.emb j)
  have hr : ((((cfg3.win 14).blk t).view.emb j) 0).val = t.val * 4000 + (j 0).val := by
    show win3_14.index t (0 : Fin 2) * 4000 + 1 * (j 0).val = _; rw [e14_0]; omega
  have hs : ((((cfg3.win 14).blk t).view.emb j) 1).val = (j 1).val := by
    show win3_14.index t (1 : Fin 2) * 64 + 1 * (j 1).val = _; rw [e14_1]; omega
  refine (congrArg (out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)) (eq_ix2 (n0 := 4000) (n1 := 64) j)).trans ?_
  have hi : ((cfg3.win 14).blk t).view.emb j = ix2 (n0 := 100000) (n1 := 64) ((((cfg3.win 14).blk t).view.emb j) 0) (j 1) := by
    funext ax; apply Fin.ext
    match ax with
    | ⟨0, _⟩ => rfl
    | ⟨1, _⟩ => exact hs
  refine Eq.trans ?_ (congrArg (Cert.Spec.gru (V c main_v21) (V c main_v0) (V c main_v32) (V c main_v33) (V c main_v34) (V c main_v35) (V c main_v36) (V c main_v37) (V c main_v38) (V c main_v39) (V c main_v40) (V c main_v41) (V c main_v42) (V c main_v43)) hi).symm
  exact cell_of_reads (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    (V c main_v21) (V c main_v0) (V c main_v32) (V c main_v33) (V c main_v34) (V c main_v35) (V c main_v36) (V c main_v37) (V c main_v38) (V c main_v39) (V c main_v40) (V c main_v41) (V c main_v42) (V c main_v43)
    (j 0) (j 1) ((((cfg3.win 14).blk t).view.emb j) 0) (j 1)
    (fun k => rows3_0 V c t (j 0) k _ hr) (fun k => rows3_1 V c t (j 0) k _ hr)
    (fun k => whole3_2 V c t k (j 1)) (fun k => whole3_3 V c t k (j 1)) (fun k => whole3_4 V c t k (j 1)) (fun k => whole3_5 V c t k (j 1)) (fun k => whole3_6 V c t k (j 1)) (fun k => whole3_7 V c t k (j 1))
    (whole3_8 V c t (j 1)) (whole3_9 V c t (j 1)) (whole3_10 V c t (j 1)) (whole3_11 V c t (j 1)) (whole3_12 V c t (j 1)) (whole3_13 V c t (j 1))
    (rows3_1 V c t (j 0) (j 1) _ hr)

/-- An index of the array is in point t's block iff each coordinate is in the block's range on its axis. -/
theorem mem_blk3 (t : Fin cfg3.N) (i : S100000x64.Idx) :
    i ∈ ((cfg3.win 14).blk t).view.set ↔ ∀ a : Fin 2, win3_14.index t a * S4000x64.size a ≤ (i a).val ∧ (i a).val < win3_14.index t a * S4000x64.size a + S4000x64.size a := by
  show i ∈ ((View.whole main_v44).slice (win3_14.rect t)).set ↔ _
  rw [View.set_slice_whole, Rect.mem_set_unit]
  exact Iff.rfl

/-- Every row is written: row n by point n / 4000. -/
theorem cover3 (i : S100000x64.Idx) : ∃ t : Fin cfg3.N, (cfg3.win 14).flush t = true ∧ i ∈ ((cfg3.win 14).blk t).view.set := by
  have hi0 : (i 0).val < 100000 := idx2_lt0 i
  have hi1 : (i 1).val < 64 := idx2_lt1 i
  have hN : cfg3.N = 25 := N_3
  obtain ⟨t, ht⟩ : ∃ t : Fin cfg3.N, t.val = (i 0).val / 4000 := ⟨⟨(i 0).val / 4000, by rw [hN]; omega⟩, rfl⟩
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts3 t
  refine ⟨t, flush3_14 t, ?_⟩
  rw [mem_blk3]
  intro a
  match a with
  | ⟨0, _⟩ => show win3_14.index t (0 : Fin 2) * 4000 ≤ (i 0).val ∧ (i 0).val < win3_14.index t (0 : Fin 2) * 4000 + 4000; rw [e14_0, ht]; omega
  | ⟨1, _⟩ => show win3_14.index t (1 : Fin 2) * 64 ≤ (i 1).val ∧ (i 1).val < win3_14.index t (1 : Fin 2) * 64 + 64; rw [e14_1]; omega

/-- THE ARRAY after region 3: the cell of the region's fourteen input arrays, index by index. -/
theorem value3 (c : Dev nD) :
    (dat3 (F := Ideal) V c).arrAt 14 cfg3.N = Cert.Spec.gru (V c main_v21) (V c main_v0) (V c main_v32) (V c main_v33) (V c main_v34) (V c main_v35) (V c main_v36) (V c main_v37) (V c main_v38) (V c main_v39) (V c main_v40) (V c main_v41) (V c main_v42) (V c main_v43) :=
  (dat3 (F := Ideal) V c).arrAt_eq_of_cover 14 (Cert.Spec.gru (V c main_v21) (V c main_v0) (V c main_v32) (V c main_v33) (V c main_v34) (V c main_v35) (V c main_v36) (V c main_v37) (V c main_v38) (V c main_v39) (V c main_v40) (V c main_v41) (V c main_v42) (V c main_v43))
    (fun t _ => flushed3_eq V c t) (cover3)

end Region3

/-! ## Region 6: from blocks to the array -/

section Region6
variable (V : (c : Dev nD) → (b : Ref sig .tc) → Buf (Elt Ideal) ((c : Thread nD τ).loc b))

/-- The printed index maps, decided over the 25 grid points: the two row windows and the output move with the point on
    the row axis; the weights and biases stay whole. -/
theorem idx_facts6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_14.index t (0 : Fin 2) = t.val
    ∧ win6_14.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 1) = 0
    ∧ win6_9.index t (0 : Fin 1) = 0
    ∧ win6_10.index t (0 : Fin 1) = 0
    ∧ win6_11.index t (0 : Fin 1) = 0
    ∧ win6_12.index t (0 : Fin 1) = 0
    ∧ win6_13.index t (0 : Fin 1) = 0 :=
  (by decide +kernel : ∀ t : Fin grid6.N, _)

/-- Row p of window 0's block at point t is row 4000 t + p of its array. -/
theorem rows6_0 (c : Dev nD) (t : Fin cfg6.N) (p : Fin 4000) (k : Fin 64) (r : Fin 100000) (hr : r.val = t.val * 4000 + p.val) :
    (iblk6 V c 0 t : Vec Ideal S4000x64 .f32) (ix2 p k) = (V c main_v65 : S100000x64.Idx → EReal) (ix2 r k) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v65 : S100000x64.Idx → EReal) _ = _
  refine congrArg (V c main_v65 : S100000x64.Idx → EReal) (funext fun ax => Fin.ext ?_)
  match ax with
  | ⟨0, _⟩ => show win6_0.index t (0 : Fin 2) * 4000 + 1 * p.val = r.val; rw [e0_0, hr]; omega
  | ⟨1, _⟩ => show win6_0.index t (1 : Fin 2) * 64 + 1 * k.val = k.val; rw [e0_1]; omega

/-- Row p of window 1's block at point t is row 4000 t + p of its array. -/
theorem rows6_1 (c : Dev nD) (t : Fin cfg6.N) (p : Fin 4000) (k : Fin 64) (r : Fin 100000) (hr : r.val = t.val * 4000 + p.val) :
    (iblk6 V c 1 t : Vec Ideal S4000x64 .f32) (ix2 p k) = (V c main_v44 : S100000x64.Idx → EReal) (ix2 r k) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v44 : S100000x64.Idx → EReal) _ = _
  refine congrArg (V c main_v44 : S100000x64.Idx → EReal) (funext fun ax => Fin.ext ?_)
  match ax with
  | ⟨0, _⟩ => show win6_1.index t (0 : Fin 2) * 4000 + 1 * p.val = r.val; rw [e1_0, hr]; omega
  | ⟨1, _⟩ => show win6_1.index t (1 : Fin 2) * 64 + 1 * k.val = k.val; rw [e1_1]; omega

/-- Window 2's block is its whole [64, 64] array. -/
theorem whole6_2 (c : Dev nD) (t : Fin cfg6.N) (a b : Fin 64) :
    (iblk6 V c 2 t : Vec Ideal S64x64 .f32) (ix2 a b) = (V c main_v76 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v76 : S64x64.Idx → EReal) _ = _
  refine congrArg (V c main_v76 : S64x64.Idx → EReal) (funext fun ax => Fin.ext ?_)
  match ax with
  | ⟨0, _⟩ => show win6_2.index t (0 : Fin 2) * 64 + 1 * a.val = a.val; rw [e2_0]; omega
  | ⟨1, _⟩ => show win6_2.index t (1 : Fin 2) * 64 + 1 * b.val = b.val; rw [e2_1]; omega

/-- Window 3's block is its whole [64, 64] array. -/
theorem whole6_3 (c : Dev nD) (t : Fin cfg6.N) (a b : Fin 64) :
    (iblk6 V c 3 t : Vec Ideal S64x64 .f32) (ix2 a b) = (V c main_v77 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v77 : S64x64.Idx → EReal) _ = _
  refine congrArg (V c main_v77 : S64x64.Idx → EReal) (funext fun ax => Fin.ext ?_)
  match ax with
  | ⟨0, _⟩ => show win6_3.index t (0 : Fin 2) * 64 + 1 * a.val = a.val; rw [e3_0]; omega
  | ⟨1, _⟩ => show win6_3.index t (1 : Fin 2) * 64 + 1 * b.val = b.val; rw [e3_1]; omega

/-- Window 4's block is its whole [64, 64] array. -/
theorem whole6_4 (c : Dev nD) (t : Fin cfg6.N) (a b : Fin 64) :
    (iblk6 V c 4 t : Vec Ideal S64x64 .f32) (ix2 a b) = (V c main_v78 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v78 : S64x64.Idx → EReal) _ = _
  refine congrArg (V c main_v78 : S64x64.Idx → EReal) (funext fun ax => Fin.ext ?_)
  match ax with
  | ⟨0, _⟩ => show win6_4.index t (0 : Fin 2) * 64 + 1 * a.val = a.val; rw [e4_0]; omega
  | ⟨1, _⟩ => show win6_4.index t (1 : Fin 2) * 64 + 1 * b.val = b.val; rw [e4_1]; omega

/-- Window 5's block is its whole [64, 64] array. -/
theorem whole6_5 (c : Dev nD) (t : Fin cfg6.N) (a b : Fin 64) :
    (iblk6 V c 5 t : Vec Ideal S64x64 .f32) (ix2 a b) = (V c main_v79 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v79 : S64x64.Idx → EReal) _ = _
  refine congrArg (V c main_v79 : S64x64.Idx → EReal) (funext fun ax => Fin.ext ?_)
  match ax with
  | ⟨0, _⟩ => show win6_5.index t (0 : Fin 2) * 64 + 1 * a.val = a.val; rw [e5_0]; omega
  | ⟨1, _⟩ => show win6_5.index t (1 : Fin 2) * 64 + 1 * b.val = b.val; rw [e5_1]; omega

/-- Window 6's block is its whole [64, 64] array. -/
theorem whole6_6 (c : Dev nD) (t : Fin cfg6.N) (a b : Fin 64) :
    (iblk6 V c 6 t : Vec Ideal S64x64 .f32) (ix2 a b) = (V c main_v80 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v80 : S64x64.Idx → EReal) _ = _
  refine congrArg (V c main_v80 : S64x64.Idx → EReal) (funext fun ax => Fin.ext ?_)
  match ax with
  | ⟨0, _⟩ => show win6_6.index t (0 : Fin 2) * 64 + 1 * a.val = a.val; rw [e6_0]; omega
  | ⟨1, _⟩ => show win6_6.index t (1 : Fin 2) * 64 + 1 * b.val = b.val; rw [e6_1]; omega

/-- Window 7's block is its whole [64, 64] array. -/
theorem whole6_7 (c : Dev nD) (t : Fin cfg6.N) (a b : Fin 64) :
    (iblk6 V c 7 t : Vec Ideal S64x64 .f32) (ix2 a b) = (V c main_v81 : S64x64.Idx → EReal) (ix2 a b) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v81 : S64x64.Idx → EReal) _ = _
  refine congrArg (V c main_v81 : S64x64.Idx → EReal) (funext fun ax => Fin.ext ?_)
  match ax with
  | ⟨0, _⟩ => show win6_7.index t (0 : Fin 2) * 64 + 1 * a.val = a.val; rw [e7_0]; omega
  | ⟨1, _⟩ => show win6_7.index t (1 : Fin 2) * 64 + 1 * b.val = b.val; rw [e7_1]; omega

/-- Window 8's block is its whole 64-bias. -/
theorem whole6_8 (c : Dev nD) (t : Fin cfg6.N) (a : Fin 64) :
    (iblk6 V c 8 t : Vec Ideal S64 .f32) (ix1 a) = (V c main_v82 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v82 : S64.Idx → EReal) _ = _
  refine congrArg (V c main_v82 : S64.Idx → EReal) (funext fun ax => Fin.ext ?_)
  match ax with
  | ⟨0, _⟩ => show win6_8.index t (0 : Fin 1) * 64 + 1 * a.val = a.val; rw [e8_0]; omega

/-- Window 9's block is its whole 64-bias. -/
theorem whole6_9 (c : Dev nD) (t : Fin cfg6.N) (a : Fin 64) :
    (iblk6 V c 9 t : Vec Ideal S64 .f32) (ix1 a) = (V c main_v83 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v83 : S64.Idx → EReal) _ = _
  refine congrArg (V c main_v83 : S64.Idx → EReal) (funext fun ax => Fin.ext ?_)
  match ax with
  | ⟨0, _⟩ => show win6_9.index t (0 : Fin 1) * 64 + 1 * a.val = a.val; rw [e9_0]; omega

/-- Window 10's block is its whole 64-bias. -/
theorem whole6_10 (c : Dev nD) (t : Fin cfg6.N) (a : Fin 64) :
    (iblk6 V c 10 t : Vec Ideal S64 .f32) (ix1 a) = (V c main_v84 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v84 : S64.Idx → EReal) _ = _
  refine congrArg (V c main_v84 : S64.Idx → EReal) (funext fun ax => Fin.ext ?_)
  match ax with
  | ⟨0, _⟩ => show win6_10.index t (0 : Fin 1) * 64 + 1 * a.val = a.val; rw [e10_0]; omega

/-- Window 11's block is its whole 64-bias. -/
theorem whole6_11 (c : Dev nD) (t : Fin cfg6.N) (a : Fin 64) :
    (iblk6 V c 11 t : Vec Ideal S64 .f32) (ix1 a) = (V c main_v85 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v85 : S64.Idx → EReal) _ = _
  refine congrArg (V c main_v85 : S64.Idx → EReal) (funext fun ax => Fin.ext ?_)
  match ax with
  | ⟨0, _⟩ => show win6_11.index t (0 : Fin 1) * 64 + 1 * a.val = a.val; rw [e11_0]; omega

/-- Window 12's block is its whole 64-bias. -/
theorem whole6_12 (c : Dev nD) (t : Fin cfg6.N) (a : Fin 64) :
    (iblk6 V c 12 t : Vec Ideal S64 .f32) (ix1 a) = (V c main_v86 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v86 : S64.Idx → EReal) _ = _
  refine congrArg (V c main_v86 : S64.Idx → EReal) (funext fun ax => Fin.ext ?_)
  match ax with
  | ⟨0, _⟩ => show win6_12.index t (0 : Fin 1) * 64 + 1 * a.val = a.val; rw [e12_0]; omega

/-- Window 13's block is its whole 64-bias. -/
theorem whole6_13 (c : Dev nD) (t : Fin cfg6.N) (a : Fin 64) :
    (iblk6 V c 13 t : Vec Ideal S64 .f32) (ix1 a) = (V c main_v87 : S64.Idx → EReal) (ix1 a) := by
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  unfold iblk6
  rw [View.read_apply]
  show (V c main_v87 : S64.Idx → EReal) _ = _
  refine congrArg (V c main_v87 : S64.Idx → EReal) (funext fun ax => Fin.ext ?_)
  match ax with
  | ⟨0, _⟩ => show win6_13.index t (0 : Fin 1) * 64 + 1 * a.val = a.val; rw [e13_0]; omega

/-- WHAT POINT t WRITES BACK is block t of the specification's array: rows 4000 t .. 4000 t + 3999 of the cell. -/
theorem flushed6_eq (c : Dev nD) (t : Fin cfg6.N) :
    (dat6 (F := Ideal) V c).flushed 14 t = ((cfg6.win 14).blk t).view.read (Elt Ideal) (Cert.Spec.gru (V c main_v65) (V c main_v44) (V c main_v76) (V c main_v77) (V c main_v78) (V c main_v79) (V c main_v80) (V c main_v81) (V c main_v82) (V c main_v83) (V c main_v84) (V c main_v85) (V c main_v86) (V c main_v87)) := by
  show (cfg6.win 14).cut (grid6.coords t) ((dat6 (F := Ideal) V c).after 14 t) = _
  rw [after6_14]
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  funext j
  show out6_14 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) j
    = Cert.Spec.gru (V c main_v65) (V c main_v44) (V c main_v76) (V c main_v77) (V c main_v78) (V c main_v79) (V c main_v80) (V c main_v81) (V c main_v82) (V c main_v83) (V c main_v84) (V c main_v85) (V c main_v86) (V c main_v87) (((cfg6.win 14).blk t).view.emb j)
  have hr : ((((cfg6.win 14).blk t).view.emb j) 0).val = t.val * 4000 + (j 0).val := by
    show win6_14.index t (0 : Fin 2) * 4000 + 1 * (j 0).val = _; rw [e14_0]; omega
  have hs : ((((cfg6.win 14).blk t).view.emb j) 1).val = (j 1).val := by
    show win6_14.index t (1 : Fin 2) * 64 + 1 * (j 1).val = _; rw [e14_1]; omega
  refine (congrArg (out6_14 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t)) (eq_ix2 (n0 := 4000) (n1 := 64) j)).trans ?_
  have hi : ((cfg6.win 14).blk t).view.emb j = ix2 (n0 := 100000) (n1 := 64) ((((cfg6.win 14).blk t).view.emb j) 0) (j 1) := by
    funext ax; apply Fin.ext
    match ax with
    | ⟨0, _⟩ => rfl
    | ⟨1, _⟩ => exact hs
  refine Eq.trans ?_ (congrArg (Cert.Spec.gru (V c main_v65) (V c main_v44) (V c main_v76) (V c main_v77) (V c main_v78) (V c main_v79) (V c main_v80) (V c main_v81) (V c main_v82) (V c main_v83) (V c main_v84) (V c main_v85) (V c main_v86) (V c main_v87)) hi).symm
  rw [out6_eq]
  exact cell_of_reads (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t)
    (V c main_v65) (V c main_v44) (V c main_v76) (V c main_v77) (V c main_v78) (V c main_v79) (V c main_v80) (V c main_v81) (V c main_v82) (V c main_v83) (V c main_v84) (V c main_v85) (V c main_v86) (V c main_v87)
    (j 0) (j 1) ((((cfg6.win 14).blk t).view.emb j) 0) (j 1)
    (fun k => rows6_0 V c t (j 0) k _ hr) (fun k => rows6_1 V c t (j 0) k _ hr)
    (fun k => whole6_2 V c t k (j 1)) (fun k => whole6_3 V c t k (j 1)) (fun k => whole6_4 V c t k (j 1)) (fun k => whole6_5 V c t k (j 1)) (fun k => whole6_6 V c t k (j 1)) (fun k => whole6_7 V c t k (j 1))
    (whole6_8 V c t (j 1)) (whole6_9 V c t (j 1)) (whole6_10 V c t (j 1)) (whole6_11 V c t (j 1)) (whole6_12 V c t (j 1)) (whole6_13 V c t (j 1))
    (rows6_1 V c t (j 0) (j 1) _ hr)

/-- An index of the array is in point t's block iff each coordinate is in the block's range on its axis. -/
theorem mem_blk6 (t : Fin cfg6.N) (i : S100000x64.Idx) :
    i ∈ ((cfg6.win 14).blk t).view.set ↔ ∀ a : Fin 2, win6_14.index t a * S4000x64.size a ≤ (i a).val ∧ (i a).val < win6_14.index t a * S4000x64.size a + S4000x64.size a := by
  show i ∈ ((View.whole main_v88).slice (win6_14.rect t)).set ↔ _
  rw [View.set_slice_whole, Rect.mem_set_unit]
  exact Iff.rfl

/-- Every row is written: row n by point n / 4000. -/
theorem cover6 (i : S100000x64.Idx) : ∃ t : Fin cfg6.N, (cfg6.win 14).flush t = true ∧ i ∈ ((cfg6.win 14).blk t).view.set := by
  have hi0 : (i 0).val < 100000 := idx2_lt0 i
  have hi1 : (i 1).val < 64 := idx2_lt1 i
  have hN : cfg6.N = 25 := N_6
  obtain ⟨t, ht⟩ : ∃ t : Fin cfg6.N, t.val = (i 0).val / 4000 := ⟨⟨(i 0).val / 4000, by rw [hN]; omega⟩, rfl⟩
  obtain ⟨e0_0, e0_1, e1_0, e1_1, e14_0, e14_1, e2_0, e2_1, e3_0, e3_1, e4_0, e4_1, e5_0, e5_1, e6_0, e6_1, e7_0, e7_1, e8_0, e9_0, e10_0, e11_0, e12_0, e13_0⟩ := idx_facts6 t
  refine ⟨t, flush6_14 t, ?_⟩
  rw [mem_blk6]
  intro a
  match a with
  | ⟨0, _⟩ => show win6_14.index t (0 : Fin 2) * 4000 ≤ (i 0).val ∧ (i 0).val < win6_14.index t (0 : Fin 2) * 4000 + 4000; rw [e14_0, ht]; omega
  | ⟨1, _⟩ => show win6_14.index t (1 : Fin 2) * 64 ≤ (i 1).val ∧ (i 1).val < win6_14.index t (1 : Fin 2) * 64 + 64; rw [e14_1]; omega

/-- THE ARRAY after region 6: the cell of the region's fourteen input arrays, index by index. -/
theorem value6 (c : Dev nD) :
    (dat6 (F := Ideal) V c).arrAt 14 cfg6.N = Cert.Spec.gru (V c main_v65) (V c main_v44) (V c main_v76) (V c main_v77) (V c main_v78) (V c main_v79) (V c main_v80) (V c main_v81) (V c main_v82) (V c main_v83) (V c main_v84) (V c main_v85) (V c main_v86) (V c main_v87) :=
  (dat6 (F := Ideal) V c).arrAt_eq_of_cover 14 (Cert.Spec.gru (V c main_v65) (V c main_v44) (V c main_v76) (V c main_v77) (V c main_v78) (V c main_v79) (V c main_v80) (V c main_v81) (V c main_v82) (V c main_v83) (V c main_v84) (V c main_v85) (V c main_v86) (V c main_v87))
    (fun t _ => flushed6_eq V c t) (cover6)

end Region6

end Cert.KernelIdeal.RegionGru

end
-- ==== Proof.RegionMlp.lean ====
/-
  The pair scorer (the last region of the edge-gated graph network), read as one whole-array function.

  WHAT THE REGION COMPUTES. For each of the 8192 node pairs p, from the source row hs[p, :], the target row hd[p, :] and
  the pair query qp[p, :] (64 entries each):
    * the feature row f[p, :] = [hs | hd | hs * hd | qp] of width 256 (a concatenation along the columns: column k
      below 64 reads hs at k, below 128 reads hd at k - 64, below 192 reads the product at k - 128, else qp at k - 192);
    * the hidden row   g[p, j] = max ((sum over k < 256 of f[p, k] * W1[k, j]) + b1[j]) 0;
    * the logit        l[p]    = (sum over k < 64 of g[p, k] * W2[k, 0]) + b2[0];
    * the loss         (max l 0 - l * label[p]) + log1p (exp (- |l|)),  |l| = max l (-l).
  This is Cert.Spec.pairLoss of the eight arrays, index by index.

  WHICH LAWS ARE USED. On the extended reals the format changes (f32 to bf16) are identities and a cast to the same
  shape is the identity. A matrix product into the zero accumulator is the finite sum over the contraction index of the
  operands' products; with one contracted axis that index is its one coordinate, so the sum is re-indexed over Fin 256
  (resp. Fin 64) through that bijection, the left operand read at (row, k) and the right at (k, column). A bias vector
  viewed as one row and broadcast down the rows reads the vector at the column. The literal 0.0 is the real 0, and
  0 - x = -x. No distributivity and no reordering of a sum is needed: the kernel's sums are the specification's sums
  term by term.

  HOW BLOCKS TILE THE ARRAY. The grid has ONE point and every window is whole: each index map is constantly zero, a
  block's coordinate is index * size + 1 * (the coordinate inside the block) = that coordinate, so each input block IS
  its array and the one output block covers the loss column. Hence what the point writes back is the block of the pair
  loss of the arrays as the region finds them, and the loss column ends holding exactly that function.
-/
import proofs.«422311_j73100343378050_3_alg».proof.Proof.Gen.KernelIdeal.Frame
import proofs.«422311_j73100343378050_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionMlp

open Idealize.ShloMosaic Idealize.ShloMosaic.TcCoe Idealize.SL.Sem Cert.KernelIdeal Cert.KernelIdeal.Gen
open Idealize.ShloMosaic.ValueIdx
open Idealize.ShloMosaic.Pipeline (Dat)

/-! ## The feature row: the four-piece concatenation read at a column -/

/-- The concatenation [hs | hd | hs * hd | qp] along the columns is the specification's feature matrix: a column below
    64 falls in the first piece, below 128 in the second (64 less), below 192 in the third (128 less), else in the
    fourth (192 less). -/
theorem concat_eq_feat (hs hd qp : FVec Ideal S8192x64 .f32)
    (h : Shape.Concatenates [S8192x64, S8192x64, S8192x64, S8192x64] S8192x256 1) :
    concatenate S8192x256 1 [⟨S8192x64, hs⟩, ⟨S8192x64, hd⟩, ⟨S8192x64, (mulf hs hd : FVec Ideal S8192x64 .f32)⟩, ⟨S8192x64, qp⟩] h
      = Cert.Spec.feat hs hd qp := by
  funext j
  have hj : (j 1).val < 256 := idx2_lt1 j
  unfold Cert.Spec.feat
  split_ifs with h0 h1 h2
  · refine concatenate_apply_piece (t := S8192x256) (1 : Fin S8192x256.rank)
      [⟨S8192x64, hs⟩, ⟨S8192x64, hd⟩, ⟨S8192x64, (mulf hs hd : FVec Ideal S8192x64 .f32)⟩, ⟨S8192x64, qp⟩] h j
      0 (by show 0 < 4; omega) S8192x64 hs rfl rfl 0 rfl _ (fun b hb => ?_) ?_
    · match b with
      | ⟨0, _⟩ => rfl
      | ⟨1, _⟩ => exact absurd rfl hb
    · exact Nat.zero_add _
  · refine concatenate_apply_piece (t := S8192x256) (1 : Fin S8192x256.rank)
      [⟨S8192x64, hs⟩, ⟨S8192x64, hd⟩, ⟨S8192x64, (mulf hs hd : FVec Ideal S8192x64 .f32)⟩, ⟨S8192x64, qp⟩] h j
      1 (by show 1 < 4; omega) S8192x64 hd rfl rfl 64 rfl _ (fun b hb => ?_) ?_
    · match b with
      | ⟨0, _⟩ => rfl
      | ⟨1, _⟩ => exact absurd rfl hb
    · show 64 + ((j 1).val - 64) = (j 1).val
      omega
  · refine concatenate_apply_piece (t := S8192x256) (1 : Fin S8192x256.rank)
      [⟨S8192x64, hs⟩, ⟨S8192x64, hd⟩, ⟨S8192x64, (mulf hs hd : FVec Ideal S8192x64 .f32)⟩, ⟨S8192x64, qp⟩] h j
      2 (by show 2 < 4; omega) S8192x64 (mulf hs hd : FVec Ideal S8192x64 .f32) rfl rfl 128 rfl
      (ix2 (j 0) ⟨(j 1).val - 128, by omega⟩) (fun b hb => ?_) ?_
    · match b with
      | ⟨0, _⟩ => rfl
      | ⟨1, _⟩ => exact absurd rfl hb
    · show 128 + ((j 1).val - 128) = (j 1).val
      omega
  · refine concatenate_apply_piece (t := S8192x256) (1 : Fin S8192x256.rank)
      [⟨S8192x64, hs⟩, ⟨S8192x64, hd⟩, ⟨S8192x64, (mulf hs hd : FVec Ideal S8192x64 .f32)⟩, ⟨S8192x64, qp⟩] h j
      3 (by show 3 < 4; omega) S8192x64 qp rfl rfl 192 rfl _ (fun b hb => ?_) ?_
    · match b with
      | ⟨0, _⟩ => rfl
      | ⟨1, _⟩ => exact absurd rfl hb
    · show 192 + ((j 1).val - 192) = (j 1).val
      omega

/-! ## The two products as finite sums

A tpu.matmul into the zero accumulator is, at the extended reals, the sum over the contraction index of the operands'
products (Ideal.matmul_constant_zero_apply); with ONE contracted axis that index is its one coordinate (contrEquiv1),
and the operand indices are (row, k) on the left and (k, column) on the right. -/

/-- The left operand's row is the output's row. -/
theorem lhs_w1_0 (i : S8192x64.Idx) (q : dot_S8192x256_S256x64_S8192x64_1_0_0_1_n_n.contr.Idx) :
    (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide),
    dif_pos (show (0 : Fin S8192x256.rank) ∈ dot_S8192x256_S256x64_S8192x64_1_0_0_1_n_n.lhsNonContracting by decide)]
  rfl
/-- The left operand's column is the contracted coordinate. -/
theorem lhs_w1_1 (i : S8192x64.Idx) (q : dot_S8192x256_S256x64_S8192x64_1_0_0_1_n_n.contr.Idx) :
    (dot_S8192x256_S256x64_S8192x64_1_0_0_1_n_n.lhsIdx i q 1).val = (q ⟨0, by decide⟩).val :=
  dot_S8192x256_S256x64_S8192x64_1_0_0_1_n_n.lhsIdx_val_of_single rfl i q
/-- The right operand's row is the contracted coordinate. -/
theorem rhs_w1_0 (i : S8192x64.Idx) (q : dot_S8192x256_S256x64_S8192x64_1_0_0_1_n_n.contr.Idx) :
    (dot_S8192x256_S256x64_S8192x64_1_0_0_1_n_n.rhsIdx i q 0).val = (q ⟨0, by decide⟩).val :=
  dot_S8192x256_S256x64_S8192x64_1_0_0_1_n_n.rhsIdx_val_of_single rfl i q
/-- The right operand's column is the output's column. -/
theorem rhs_w1_1 (i : S8192x64.Idx) (q : dot_S8192x256_S256x64_S8192x64_1_0_0_1_n_n.contr.Idx) :
    (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide),
    dif_pos (show (1 : Fin S256x64.rank) ∈ dot_S8192x256_S256x64_S8192x64_1_0_0_1_n_n.rhsNonContracting by decide)]
  rfl

/-- The hidden layer's product: entry (p, q) of f @ w is the 256-term sum. -/
theorem matmul_w1_apply (f : FVec Ideal S8192x256 .bf16) (w : FVec Ideal S256x64 .bf16) (p : Fin 8192) (q : Fin 64) :
    matmul dot_S8192x256_S256x64_S8192x64_1_0_0_1_n_n none f w (constant (F := Ideal) S8192x64 .f32 0x00000000#32) (ix2 p q)
      = ∑ k : Fin 256, f (ix2 p k) * w (ix2 k q) := by
  simp only [matmul]
  rw [Ideal.matmul_constant_zero_apply,
    ← Equiv.sum_comp (contrEquiv1 dot_S8192x256_S256x64_S8192x64_1_0_0_1_n_n 256 rfl rfl).symm]
  refine Finset.sum_congr rfl fun k _ => ?_
  have hk := contrEquiv1_symm_val dot_S8192x256_S256x64_S8192x64_1_0_0_1_n_n 256 rfl rfl k
  have el : dot_S8192x256_S256x64_S8192x64_1_0_0_1_n_n.lhsIdx (ix2 p q)
      ((contrEquiv1 dot_S8192x256_S256x64_S8192x64_1_0_0_1_n_n 256 rfl rfl).symm k) = ix2 p k :=
    funext fun a => Fin.ext (by
      match a with
      | ⟨0, _⟩ => exact lhs_w1_0 _ _
      | ⟨1, _⟩ => exact (lhs_w1_1 _ _).trans hk)
  have er : dot_S8192x256_S256x64_S8192x64_1_0_0_1_n_n.rhsIdx (ix2 p q)
      ((contrEquiv1 dot_S8192x256_S256x64_S8192x64_1_0_0_1_n_n 256 rfl rfl).symm k) = ix2 k q :=
    funext fun a => Fin.ext (by
      match a with
      | ⟨0, _⟩ => exact (rhs_w1_0 _ _).trans hk
      | ⟨1, _⟩ => exact rhs_w1_1 _ _)
  rw [el, er]

/-- The left operand's row is the output's row. -/
theorem lhs_w2_0 (i : S8192x1.Idx) (q : dot_S8192x64_S64x1_S8192x1_1_0_0_1_n_n.contr.Idx) :
    (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch by decide),
    dif_pos (show (0 : Fin S8192x64.rank) ∈ dot_S8192x64_S64x1_S8192x1_1_0_0_1_n_n.lhsNonContracting by decide)]
  rfl
/-- The left operand's column is the contracted coordinate. -/
theorem lhs_w2_1 (i : S8192x1.Idx) (q : dot_S8192x64_S64x1_S8192x1_1_0_0_1_n_n.contr.Idx) :
    (dot_S8192x64_S64x1_S8192x1_1_0_0_1_n_n.lhsIdx i q 1).val = (q ⟨0, by decide⟩).val :=
  dot_S8192x64_S64x1_S8192x1_1_0_0_1_n_n.lhsIdx_val_of_single rfl i q
/-- The right operand's row is the contracted coordinate. -/
theorem rhs_w2_0 (i : S8192x1.Idx) (q : dot_S8192x64_S64x1_S8192x1_1_0_0_1_n_n.contr.Idx) :
    (dot_S8192x64_S64x1_S8192x1_1_0_0_1_n_n.rhsIdx i q 0).val = (q ⟨0, by decide⟩).val :=
  dot_S8192x64_S64x1_S8192x1_1_0_0_1_n_n.rhsIdx_val_of_single rfl i q
/-- The right operand's column is the output's column. -/
theorem rhs_w2_1 (i : S8192x1.Idx) (q : dot_S8192x64_S64x1_S8192x1_1_0_0_1_n_n.contr.Idx) :
    (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch by decide),
    dif_pos (show (1 : Fin S64x1.rank) ∈ dot_S8192x64_S64x1_S8192x1_1_0_0_1_n_n.rhsNonContracting by decide)]
  rfl

/-- The output layer's product: entry (p, q) of g @ w is the 64-term sum. -/
theorem matmul_w2_apply (g : FVec Ideal S8192x64 .bf16) (w : FVec Ideal S64x1 .bf16) (p : Fin 8192) (q : Fin 1) :
    matmul dot_S8192x64_S64x1_S8192x1_1_0_0_1_n_n none g w (constant (F := Ideal) S8192x1 .f32 0x00000000#32) (ix2 p q)
      = ∑ k : Fin 64, g (ix2 p k) * w (ix2 k q) := by
  simp only [matmul]
  rw [Ideal.matmul_constant_zero_apply,
    ← Equiv.sum_comp (contrEquiv1 dot_S8192x64_S64x1_S8192x1_1_0_0_1_n_n 64 rfl rfl).symm]
  refine Finset.sum_congr rfl fun k _ => ?_
  have hk := contrEquiv1_symm_val dot_S8192x64_S64x1_S8192x1_1_0_0_1_n_n 64 rfl rfl k
  have el : dot_S8192x64_S64x1_S8192x1_1_0_0_1_n_n.lhsIdx (ix2 p q)
      ((contrEquiv1 dot_S8192x64_S64x1_S8192x1_1_0_0_1_n_n 64 rfl rfl).symm k) = ix2 p k :=
    funext fun a => Fin.ext (by
      match a with
      | ⟨0, _⟩ => exact lhs_w2_0 _ _
      | ⟨1, _⟩ => exact (lhs_w2_1 _ _).trans hk)
  have er : dot_S8192x64_S64x1_S8192x1_1_0_0_1_n_n.rhsIdx (ix2 p q)
      ((contrEquiv1 dot_S8192x64_S64x1_S8192x1_1_0_0_1_n_n 64 rfl rfl).symm k) = ix2 k q :=
    funext fun a => Fin.ext (by
      match a with
      | ⟨0, _⟩ => exact (rhs_w2_0 _ _).trans hk
      | ⟨1, _⟩ => exact rhs_w2_1 _ _)
  rw [el, er]

/-! ## The two biases: a vector as one row, broadcast down the rows -/

/-- The hidden bias: [64] as [1, 64], broadcast to [8192, 64], reads b1 at the column. -/
theorem bias_row_apply {α : Type} (b : S64.Idx → α) (h1 : S64.ShapeCasts S1x64) (h2 : S1x64.Broadcasts S8192x64)
    (p : Fin 8192) (q : Fin 64) :
    broadcastTo S8192x64 (shapeCast S1x64 b h1) h2 (ix2 p q) = b (ix1 q) := by
  rw [broadcastTo_1b_ab_apply, shapeCast_a_1a_apply]

/-- The output bias: [1] as [1, 1], broadcast to [8192, 1], reads b2 at the column. -/
theorem bias_one_apply {α : Type} (b : S1.Idx → α) (h1 : S1.ShapeCasts S1x1) (h2 : S1x1.Broadcasts S8192x1)
    (p : Fin 8192) (q : Fin 1) :
    broadcastTo S8192x1 (shapeCast S1x1 b h1) h2 (ix2 p q) = b (ix1 q) := by
  rw [broadcastTo_1b_ab_apply, shapeCast_a_1a_apply]

/-! ## The payload at an index -/

section Pointwise
variable {s : Shape} {φ : FTy}
/-- An absolute value at an index is the larger of the element and its negation … -/
theorem absf_apply (a : FVec Ideal s φ) (i : s.Idx) : absf a i = max (a i) (-(a i)) := rfl
/-- … an exponential the exponential of the element … -/
theorem exp_apply (a : FVec Ideal s φ) (i : s.Idx) : Idealize.ShloMosaic.exp a i = Ideal.exp (a i) := rfl
/-- … and log (1 + x) that of the element. -/
theorem log1p_apply (a : FVec Ideal s φ) (i : s.Idx) : Idealize.ShloMosaic.log1p a i = Ideal.log1p (a i) := rfl
end Pointwise

/-- THE PAYLOAD IS THE PAIR LOSS of the eight loaded blocks: the same-shape casts and the format changes are
    identities, the concatenation is the feature matrix, each product into the zero accumulator is its finite sum, each
    bias is read at the column, the literal 0.0 is the real 0, and 0 - |l| is -|l|. -/
theorem pay_eq (x0 x1 x2 : Vec Ideal S8192x64 .f32) (x3 : Vec Ideal S256x64 .f32) (x4 : Vec Ideal S64 .f32)
    (x5 : Vec Ideal S64x1 .f32) (x6 : Vec Ideal S1 .f32) (x7 : Vec Ideal S8192x1 .f32) :
    k7_pay1 (F := Ideal) x0 x1 x2 x3 x4 x5 x6 x7 = Cert.Spec.pairLoss x0 x1 x2 x3 x4 x5 x6 x7 := by
  funext i
  obtain ⟨p, q, rfl⟩ : ∃ (p : Fin 8192) (q : Fin 1), i = ix2 p q := ⟨i 0, i 1, eq_ix2 i⟩
  unfold k7_pay1
  simp only [shapeCast_self, concat_eq_feat]
  simp only [addf_apply, subf_apply, mulf_apply, maximumf_apply, absf_apply, exp_apply, log1p_apply, broadcast_apply,
    truncf_apply, matmul_w2_apply, matmul_w1_apply, bias_row_apply, bias_one_apply,
    Ideal.ofBits_def, Ideal.ofBits_zero_f32, zero_sub]
  rfl

/-! ## From the one block to the array

The grid has one point and every index map is constantly zero, so each window's block is its whole array: a block's
coordinate is index * size + 1 * (the coordinate inside the block), and the index is zero. -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block index of the source rows is zero on every axis, decided over the grid. -/
theorem idx_zero_0 : ∀ t : Fin cfg7.N, win7_0.index t (0 : Fin 2) = 0 ∧ win7_0.index t (1 : Fin 2) = 0 :=
  (by decide +kernel : ∀ t : Fin grid7.N, _)
/-- The block index of the target rows is zero on every axis, decided over the grid. -/
theorem idx_zero_1 : ∀ t : Fin cfg7.N, win7_1.index t (0 : Fin 2) = 0 ∧ win7_1.index t (1 : Fin 2) = 0 :=
  (by decide +kernel : ∀ t : Fin grid7.N, _)
/-- The block index of the pair query is zero on every axis, decided over the grid. -/
theorem idx_zero_2 : ∀ t : Fin cfg7.N, win7_2.index t (0 : Fin 2) = 0 ∧ win7_2.index t (1 : Fin 2) = 0 :=
  (by decide +kernel : ∀ t : Fin grid7.N, _)
/-- The block index of the hidden weight is zero on every axis, decided over the grid. -/
theorem idx_zero_3 : ∀ t : Fin cfg7.N, win7_3.index t (0 : Fin 2) = 0 ∧ win7_3.index t (1 : Fin 2) = 0 :=
  (by decide +kernel : ∀ t : Fin grid7.N, _)
/-- The block index of the hidden bias is zero on every axis, decided over the grid. -/
theorem idx_zero_4 : ∀ t : Fin cfg7.N, win7_4.index t (0 : Fin 1) = 0 :=
  (by decide +kernel : ∀ t : Fin grid7.N, _)
/-- The block index of the output weight is zero on every axis, decided over the grid. -/
theorem idx_zero_5 : ∀ t : Fin cfg7.N, win7_5.index t (0 : Fin 2) = 0 ∧ win7_5.index t (1 : Fin 2) = 0 :=
  (by decide +kernel : ∀ t : Fin grid7.N, _)
/-- The block index of the output bias is zero on every axis, decided over the grid. -/
theorem idx_zero_6 : ∀ t : Fin cfg7.N, win7_6.index t (0 : Fin 1) = 0 :=
  (by decide +kernel : ∀ t : Fin grid7.N, _)
/-- The block index of the labels is zero on every axis, decided over the grid. -/
theorem idx_zero_7 : ∀ t : Fin cfg7.N, win7_7.index t (0 : Fin 2) = 0 ∧ win7_7.index t (1 : Fin 2) = 0 :=
  (by decide +kernel : ∀ t : Fin grid7.N, _)
/-- The block index of the loss column is zero on every axis, decided over the grid. -/
theorem idx_zero_8 : ∀ t : Fin cfg7.N, win7_8.index t (0 : Fin 2) = 0 ∧ win7_8.index t (1 : Fin 2) = 0 :=
  (by decide +kernel : ∀ t : Fin grid7.N, _)

/-- The block of the source rows is the whole array. -/
theorem iblk_0 (c : Dev nD) (t : Fin cfg7.N) :
    (iblk7 V c 0 t : Vec Ideal S8192x64 .f32) = (V c main_v89 : S8192x64.Idx → Elt Ideal .f32) := by
  obtain ⟨e0, e1⟩ := idx_zero_0 t
  funext x
  unfold iblk7
  rw [View.read_apply]
  show V c main_v89 _ = V c main_v89 x
  congr 1
  funext a
  apply Fin.ext
  match a with
  | ⟨0, _⟩ => show win7_0.index t (0 : Fin 2) * 8192 + 1 * (x 0).val = (x 0).val; rw [e0]; omega
  | ⟨1, _⟩ => show win7_0.index t (1 : Fin 2) * 64 + 1 * (x 1).val = (x 1).val; rw [e1]; omega
/-- The block of the target rows is the whole array. -/
theorem iblk_1 (c : Dev nD) (t : Fin cfg7.N) :
    (iblk7 V c 1 t : Vec Ideal S8192x64 .f32) = (V c main_v90 : S8192x64.Idx → Elt Ideal .f32) := by
  obtain ⟨e0, e1⟩ := idx_zero_1 t
  funext x
  unfold iblk7
  rw [View.read_apply]
  show V c main_v90 _ = V c main_v90 x
  congr 1
  funext a
  apply Fin.ext
  match a with
  | ⟨0, _⟩ => show win7_1.index t (0 : Fin 2) * 8192 + 1 * (x 0).val = (x 0).val; rw [e0]; omega
  | ⟨1, _⟩ => show win7_1.index t (1 : Fin 2) * 64 + 1 * (x 1).val = (x 1).val; rw [e1]; omega
/-- The block of the pair query is the whole array. -/
theorem iblk_2 (c : Dev nD) (t : Fin cfg7.N) :
    (iblk7 V c 2 t : Vec Ideal S8192x64 .f32) = (V c main_arg7 : S8192x64.Idx → Elt Ideal .f32) := by
  obtain ⟨e0, e1⟩ := idx_zero_2 t
  funext x
  unfold iblk7
  rw [View.read_apply]
  show V c main_arg7 _ = V c main_arg7 x
  congr 1
  funext a
  apply Fin.ext
  match a with
  | ⟨0, _⟩ => show win7_2.index t (0 : Fin 2) * 8192 + 1 * (x 0).val = (x 0).val; rw [e0]; omega
  | ⟨1, _⟩ => show win7_2.index t (1 : Fin 2) * 64 + 1 * (x 1).val = (x 1).val; rw [e1]; omega
/-- The block of the hidden weight is the whole array. -/
theorem iblk_3 (c : Dev nD) (t : Fin cfg7.N) :
    (iblk7 V c 3 t : Vec Ideal S256x64 .f32) = (V c main_arg18 : S256x64.Idx → Elt Ideal .f32) := by
  obtain ⟨e0, e1⟩ := idx_zero_3 t
  funext x
  unfold iblk7
  rw [View.read_apply]
  show V c main_arg18 _ = V c main_arg18 x
  congr 1
  funext a
  apply Fin.ext
  match a with
  | ⟨0, _⟩ => show win7_3.index t (0 : Fin 2) * 256 + 1 * (x 0).val = (x 0).val; rw [e0]; omega
  | ⟨1, _⟩ => show win7_3.index t (1 : Fin 2) * 64 + 1 * (x 1).val = (x 1).val; rw [e1]; omega
/-- The block of the hidden bias is the whole array. -/
theorem iblk_4 (c : Dev nD) (t : Fin cfg7.N) :
    (iblk7 V c 4 t : Vec Ideal S64 .f32) = (V c main_arg19 : S64.Idx → Elt Ideal .f32) := by
  have e0 := idx_zero_4 t
  funext x
  unfold iblk7
  rw [View.read_apply]
  show V c main_arg19 _ = V c main_arg19 x
  congr 1
  funext a
  apply Fin.ext
  match a with
  | ⟨0, _⟩ => show win7_4.index t (0 : Fin 1) * 64 + 1 * (x 0).val = (x 0).val; rw [e0]; omega
/-- The block of the output weight is the whole array. -/
theorem iblk_5 (c : Dev nD) (t : Fin cfg7.N) :
    (iblk7 V c 5 t : Vec Ideal S64x1 .f32) = (V c main_arg20 : S64x1.Idx → Elt Ideal .f32) := by
  obtain ⟨e0, e1⟩ := idx_zero_5 t
  funext x
  unfold iblk7
  rw [View.read_apply]
  show V c main_arg20 _ = V c main_arg20 x
  congr 1
  funext a
  apply Fin.ext
  match a with
  | ⟨0, _⟩ => show win7_5.index t (0 : Fin 2) * 64 + 1 * (x 0).val = (x 0).val; rw [e0]; omega
  | ⟨1, _⟩ => show win7_5.index t (1 : Fin 2) * 1 + 1 * (x 1).val = (x 1).val; rw [e1]; omega
/-- The block of the output bias is the whole array. -/
theorem iblk_6 (c : Dev nD) (t : Fin cfg7.N) :
    (iblk7 V c 6 t : Vec Ideal S1 .f32) = (V c main_arg21 : S1.Idx → Elt Ideal .f32) := by
  have e0 := idx_zero_6 t
  funext x
  unfold iblk7
  rw [View.read_apply]
  show V c main_arg21 _ = V c main_arg21 x
  congr 1
  funext a
  apply Fin.ext
  match a with
  | ⟨0, _⟩ => show win7_6.index t (0 : Fin 1) * 1 + 1 * (x 0).val = (x 0).val; rw [e0]; omega
/-- The block of the labels is the whole array. -/
theorem iblk_7 (c : Dev nD) (t : Fin cfg7.N) :
    (iblk7 V c 7 t : Vec Ideal S8192x1 .f32) = (V c main_v91 : S8192x1.Idx → Elt Ideal .f32) := by
  obtain ⟨e0, e1⟩ := idx_zero_7 t
  funext x
  unfold iblk7
  rw [View.read_apply]
  show V c main_v91 _ = V c main_v91 x
  congr 1
  funext a
  apply Fin.ext
  match a with
  | ⟨0, _⟩ => show win7_7.index t (0 : Fin 2) * 8192 + 1 * (x 0).val = (x 0).val; rw [e0]; omega
  | ⟨1, _⟩ => show win7_7.index t (1 : Fin 2) * 1 + 1 * (x 1).val = (x 1).val; rw [e1]; omega

/-- The one block of the loss column, read back from a whole-array function, is that function. -/
theorem read_blk_8 (t : Fin cfg7.N) (G : S8192x1.Idx → Elt Ideal .f32) :
    (((cfg7.win 8).blk t).view.read (Elt Ideal) G : Vec Ideal S8192x1 .f32) = G := by
  obtain ⟨e0, e1⟩ := idx_zero_8 t
  funext x
  rw [View.read_apply]
  show G _ = G x
  congr 1
  funext a
  apply Fin.ext
  match a with
  | ⟨0, _⟩ => show win7_8.index t (0 : Fin 2) * 8192 + 1 * (x 0).val = (x 0).val; rw [e0]; omega
  | ⟨1, _⟩ => show win7_8.index t (1 : Fin 2) * 1 + 1 * (x 1).val = (x 1).val; rw [e1]; omega

/-- WHAT THE ONE POINT WRITES BACK is the block of the pair loss of the arrays as the region finds them. -/
theorem flushed_eq (c : Dev nD) (t : Fin cfg7.N) :
    (dat7 (F := Ideal) V c).flushed 8 t
      = ((cfg7.win 8).blk t).view.read (Elt Ideal) (Cert.Spec.pairLoss (V c main_v89) (V c main_v90) (V c main_arg7) (V c main_arg18) (V c main_arg19) (V c main_arg20) (V c main_arg21) (V c main_v91)) := by
  show (cfg7.win 8).cut (grid7.coords t) ((dat7 V c).after 8 t) = _
  rw [after7_8]
  unfold out7_8
  rw [View.canon_unit_zero hz2]
  simp only [View.ld_unit_zero (S := S8192x64) hz2, View.ld_unit_zero (S := S256x64) hz2, View.ld_unit_zero (S := S64) hz1,
    View.ld_unit_zero (S := S64x1) hz2, View.ld_unit_zero (S := S1) hz1, View.ld_unit_zero (S := S8192x1) hz2]
  rw [pay_eq, iblk_0 V c t, iblk_1 V c t, iblk_2 V c t, iblk_3 V c t, iblk_4 V c t, iblk_5 V c t, iblk_6 V c t, iblk_7 V c t]
  exact (read_blk_8 t (Cert.Spec.pairLoss (V c main_v89) (V c main_v90) (V c main_arg7) (V c main_arg18) (V c main_arg19) (V c main_arg20) (V c main_arg21) (V c main_v91))).symm

/-- An index of the loss column is in the point's block iff each coordinate is in the block's range on its axis. -/
theorem mem_blk (t : Fin cfg7.N) (i : S8192x1.Idx) :
    i ∈ ((cfg7.win 8).blk t).view.set
      ↔ ∀ a : Fin 2, win7_8.index t a * S8192x1.size a ≤ (i a).val ∧ (i a).val < win7_8.index t a * S8192x1.size a + S8192x1.size a := by
  show i ∈ ((View.whole main_v92).slice (win7_8.rect t)).set ↔ _
  rw [View.set_slice_whole, Rect.mem_set_unit]
  exact Iff.rfl

/-- The one point's block covers the loss column. -/
theorem cover (i : S8192x1.Idx) :
    ∃ t : Fin cfg7.N, (cfg7.win 8).flush t = true ∧ i ∈ ((cfg7.win 8).blk t).view.set := by
  have hN : cfg7.N = 1 := N_7
  refine ⟨⟨0, by omega⟩, flush7_8 _, ?_⟩
  obtain ⟨e0, e1⟩ := idx_zero_8 ⟨0, by omega⟩
  rw [mem_blk]
  intro a
  have h0 : (i 0).val < 8192 := (i 0).isLt
  have h1 : (i 1).val < 1 := (i 1).isLt
  match a with
  | ⟨0, _⟩ =>
    show win7_8.index ⟨0, _⟩ (0 : Fin 2) * 8192 ≤ (i 0).val ∧ (i 0).val < win7_8.index ⟨0, _⟩ (0 : Fin 2) * 8192 + 8192
    rw [e0]; omega
  | ⟨1, _⟩ =>
    show win7_8.index ⟨0, _⟩ (1 : Fin 2) * 1 ≤ (i 1).val ∧ (i 1).val < win7_8.index ⟨0, _⟩ (1 : Fin 2) * 1 + 1
    rw [e1]; omega

/-- THE LOSS COLUMN AFTER THE REGION: the one point's block covers the array, so it ends holding the pair loss of the
    arrays as the region finds them. -/
theorem value7 (c : Dev nD) :
    (dat7 (F := Ideal) V c).arrAt 8 cfg7.N = Cert.Spec.pairLoss (V c main_v89) (V c main_v90) (V c main_arg7) (V c main_arg18) (V c main_arg19) (V c main_arg20) (V c main_arg21) (V c main_v91) :=
  (dat7 (F := Ideal) V c).arrAt_eq_of_cover 8 (Cert.Spec.pairLoss (V c main_v89) (V c main_v90) (V c main_arg7) (V c main_arg18) (V c main_arg19) (V c main_arg20) (V c main_arg21) (V c main_v91)) (fun t _ => flushed_eq V c t) cover

end Cert.KernelIdeal.RegionMlp

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.LibIndexWords.lean ====
import Idealize.ShloMosaic.PureOps.Vector
import Idealize.ShloMosaic.Lib.StableHlo.Predicate

/-!
# Index words: 32-bit words whose signed value is a small natural number

An index into a table of `N` rows travels as a 32-bit two's-complement word `x`. When its signed value
`x.toInt` is already a row number `k < N`, the arithmetic a program wraps around it does nothing:

* clipping into a range that holds it, `minimum(hi, maximum(lo, x))`, gives `x` back (`clip_of_mem`);
* the wrap of a negative index, `select(x < 0, x + n, x)`, takes the second branch (`wrap_of_nonneg`);
* the clamp of a start index into the table, `min x.toInt.toNat (N - 1)`, is `k` (`clamp_of_eq`,
  `clamp_fin_of_eq`).

Each is stated at one element, for the operations on words (`IntOp.maxsi`, `IntOp.minsi`, `IntOp.cmpi`,
`IntOp.addi`, `Scalar.select`) that the elementwise operations on arrays apply at every index; the
array forms follow by function extensionality (`clip_vec_of_mem`, `wrap_vec_of_nonneg`). The last
section moves between a word and its value: the word of a small natural number has that value, and a
word is determined by its signed value.
-/

namespace Cert.LibIndexWords

open Idealize.ShloMosaic

/-! ## The signed order, read on the signed values -/

/-- `a` is not strictly below `b` in the signed order exactly when `b.toInt ≤ a.toInt`. -/
theorem slt_eq_false_of_le {a b : BitVec 32} (h : b.toInt ≤ a.toInt) : a.slt b = false := by
  simp only [BitVec.slt, decide_eq_false_iff_not, not_lt]
  exact h

/-! ## Clipping -/

/-- Clipping into a range leaves a word of that range alone. With `lo ≤ x ≤ hi` as signed values,
    `maximum(lo, x)` keeps `x` (it would take `lo` only if `x` were strictly below it) and then
    `minimum(hi, x)` keeps `x` (it would take `hi` only if `hi` were strictly below `x`). -/
theorem clip_of_mem (x lo hi : BitVec 32) (hlo : lo.toInt ≤ x.toInt) (hhi : x.toInt ≤ hi.toInt) :
    IntOp.minsi hi (IntOp.maxsi lo x) = x := by
  have hmax : IntOp.maxsi lo x = x := by
    unfold IntOp.maxsi
    rw [slt_eq_false_of_le hlo]
    rfl
  rw [hmax]
  unfold IntOp.minsi
  rw [slt_eq_false_of_le hhi]
  rfl

/-- The same with the range given by a row count: a word whose value is a row number `k < N` is left
    alone by the clip to `[0, N - 1]`, whatever word `hi` carries the value `N - 1`. -/
theorem clip_of_fin {N : Nat} (x hi : BitVec 32) (k : Fin N) (hx : x.toInt = (k.val : ℤ))
    (hhi : hi.toInt = ((N - 1 : ℕ) : ℤ)) : IntOp.minsi hi (IntOp.maxsi 0#32 x) = x := by
  have h0 : (0#32 : BitVec 32).toInt = 0 := by decide
  have hk := k.isLt
  exact clip_of_mem x 0#32 hi (by rw [h0, hx]; omega) (by rw [hx, hhi]; omega)

/-- Clipping a whole array of words, each within the bounds at its own position, gives the array back. -/
theorem clip_vec_of_mem {s : Shape} (x lo hi : IVec s 32)
    (h : ∀ i, (lo i).toInt ≤ (x i).toInt ∧ (x i).toInt ≤ (hi i).toInt) : minsi hi (maxsi lo x) = x :=
  funext fun i => clip_of_mem (x i) (lo i) (hi i) (h i).1 (h i).2

/-! ## Wrapping a negative index -/

/-- The wrap `select(x < 0, x + n, x)` of a word that is not negative is the word: the signed comparison
    with zero answers the bit `0`, and the selection on bit `0` takes its second branch. -/
theorem wrap_of_nonneg (x n : BitVec 32) (hx : 0 ≤ x.toInt) :
    Scalar.select (IntOp.cmpi .slt x 0#32) (IntOp.addi x n) x = x := by
  have h0 : (0#32 : BitVec 32).toInt = 0 := by decide
  have hlt : x.slt 0#32 = false := slt_eq_false_of_le (by rw [h0]; exact hx)
  unfold IntOp.cmpi Scalar.select
  rw [hlt]
  rfl

/-- Wrapping a whole array of words, none of them negative, gives the array back; `zero` is any array
    that holds the word `0` everywhere (a broadcast constant) and `n` any array of offsets. -/
theorem wrap_vec_of_nonneg {s : Shape} (x zero n : IVec s 32) (hz : ∀ i, zero i = 0#32)
    (hx : ∀ i, 0 ≤ (x i).toInt) : select (cmpi .slt x zero) (addi x n) x = x :=
  funext fun i => by
    show Scalar.select (IntOp.cmpi .slt (x i) (zero i)) (IntOp.addi (x i) (n i)) (x i) = x i
    rw [hz i]
    exact wrap_of_nonneg (x i) (n i) (hx i)

/-! ## Clamping a start index into a table -/

/-- A start index whose signed value is a row number `k` of a table of `N` rows is clamped to `k`: read
    as a natural number it is `k`, and `k ≤ N - 1`. -/
theorem clamp_of_eq (x : BitVec 32) (N : Nat) (k : Fin N) (hx : x.toInt = (k.val : ℤ)) :
    min x.toInt.toNat (N - 1) = k.val := by
  have hk := k.isLt
  rw [hx, Int.toNat_natCast]
  exact Nat.min_eq_left (by omega)

/-- The clamped start index, as a row of the table, is `k` (whatever the proof that it is a row). -/
theorem clamp_fin_of_eq (x : BitVec 32) (N : Nat) (k : Fin N) (hx : x.toInt = (k.val : ℤ))
    (h : min x.toInt.toNat (N - 1) < N) : (⟨min x.toInt.toNat (N - 1), h⟩ : Fin N) = k :=
  Fin.ext (clamp_of_eq x N k hx)

/-! ## Between a word and its value -/

/-- The word of a natural number below `2 ^ 31` has that number as its signed value
    (`StableHlo.Predicate.toInt_ofNat_small`). -/
theorem toInt_ofNat_of_lt (n : ℕ) (hn : n < 2 ^ 31) : (BitVec.ofNat 32 n).toInt = (n : ℤ) :=
  StableHlo.Predicate.toInt_ofNat_small n hn

/-- The word of a row number of a table of at most `2 ^ 31` rows has that row number as its signed value. -/
theorem toInt_ofNat_fin {N : Nat} (hN : N ≤ 2 ^ 31) (k : Fin N) : (BitVec.ofNat 32 k.val).toInt = (k.val : ℤ) :=
  toInt_ofNat_of_lt k.val (lt_of_lt_of_le k.isLt hN)

/-- At ten thousand rows. -/
theorem toInt_ofNat_fin10000 (k : Fin 10000) : (BitVec.ofNat 32 k.val).toInt = (k.val : ℤ) :=
  toInt_ofNat_fin (by decide) k

/-- A word is determined by its signed value. -/
theorem eq_of_toInt_eq {x y : BitVec 32} (h : x.toInt = y.toInt) : x = y := BitVec.eq_of_toInt_eq h

/-- A word whose signed value is a natural number below `2 ^ 31` is the word of that number. -/
theorem eq_ofNat_of_toInt_eq {x : BitVec 32} {n : ℕ} (hn : n < 2 ^ 31) (hx : x.toInt = (n : ℤ)) :
    x = BitVec.ofNat 32 n :=
  eq_of_toInt_eq (by rw [hx, toInt_ofNat_of_lt n hn])

/-- A word whose signed value lies in `[0, N)` names a row of a table of `N` rows: its value read as a
    natural number is below `N`, and is the signed value again. -/
theorem toInt_eq_fin_of_mem {x : BitVec 32} {N : Nat} (h0 : 0 ≤ x.toInt) (hN : x.toInt < (N : ℤ)) :
    ∃ k : Fin N, x.toInt = (k.val : ℤ) :=
  ⟨⟨x.toInt.toNat, by omega⟩, by simp only [Int.toNat_of_nonneg h0]⟩

end Cert.LibIndexWords
-- ==== Proof.KLayer1.lean ====
/-
  The kernel program's node table after the projection and after the first layer, read off the fold of buffer contents
  through @main.

  After the projection's region its output buffer holds proj (features, weight, bias) of the launch arrays: h0.
  The first layer then runs as: host operations cut the message weight and bias out of the stacked arrays; a region
  applies the message linear to h0; host operations cut the gate vector and bias; a region computes the edge gates from
  the edge attributes and queries; host operations look up the message-linear rows by row 0 of the edge index, multiply
  each by its edge's gate, add the products into the node rows that row 1 of the edge index names (the segment sum), and
  cut the GRU's six weight blocks and six bias blocks; the GRU region updates h0 with the aggregated messages: h1.

  FIRST HALF: the arrays the host operations make, read index by index on the extended reals.
  * One layer's parameters are cut out of the stacked input arrays by a slice at leading index 0 and a reshape that drops
    the unit axis (the gate vector is then transposed into a row; the GRU's stacked [192, 64] weights are transposed and
    cut into three column blocks of 64; the stacked 192-biases are cut into three blocks of 64). Each such array is the
    Model's cut of the same input: wm, bm, wrow, beta, wblock, bblock at layer 0.
  * The row lookup table[idx] is spelt as: wrap a negative index word (add the row count), gather with the start clamped
    into the table, AND-reduce an in-bounds mask, and select the gathered row or a NaN row. For index words that are
    node ids (below 100000 as natural numbers) the wrap is the identity, every mask bit is 1, and the select takes the
    gathered row, whose row number is the word clamped to the last row: the Model's rowsOf.
  * A gate column broadcast along the rows and multiplied into the looked-up rows is the Model's gated message array.

  SECOND HALF: every buffer is read where it is used by walking the fold back. A stretch of host operations that does not
  write the buffer leaves it as it was; a region leaves every buffer that is not one of its arrays, and each of its input
  arrays, as it was; a buffer a stretch does write holds that operation's function of the stretch's entry contents. The
  values each region leaves in its output array are hypotheses (one per region, for every entry valuation).
  Buffers: main_v0 carries h0 from the projection's region through the message-linear region (an input there) to the GRU
  region; main_v2, main_v4 carry the message weight and bias; main_v5 the message-linear table, read by the lookup;
  main_v8, main_v10 the gate row and bias; main_v11 the gates; main_v13 row 0 of the edge index; main_v14 the looked-up
  rows; main_v21 the segment sum of the gated rows; main_v32 .. main_v37 the GRU's weight blocks and main_v38 ..
  main_v43 its bias blocks; main_v44 the GRU region's output, h1.
-/
import proofs.«422311_j73100343378050_3_alg».proof.Proof.Gen.KernelIdeal.Frame
import proofs.«422311_j73100343378050_3_alg».proof.Proof.Model
import proofs.«422311_j73100343378050_3_alg».proof.Proof.Seg
import proofs.«422311_j73100343378050_3_alg».proof.Proof.LibScatterGatherRows
import proofs.«422311_j73100343378050_3_alg».proof.Proof.LibIndexWords
import Idealize.ShloMosaic.Lib.Pipeline.Value
import Idealize.ShloMosaic.Lib.ValueIdx
import Idealize.ShloMosaic.Lib.StableHlo.Predicate
import Idealize.ShloMosaic.Lib.StableHlo.Run
import Idealize.ShloMosaic.PureOps.Reduce

set_option maxRecDepth 16384

noncomputable section

namespace Cert.KernelIdeal.KThread.Layer1

open Idealize.ShloMosaic Idealize.ShloMosaic.ValueIdx Cert.KernelIdeal Cert.KernelIdeal.Gen

/-! ## One layer's parameters: slice at leading index 0, drop the unit axis -/

/-- The message weight: entry (p, q) of the cut is entry (0, p, q) of the stacked array. -/
theorem wm_cut (x : FVec Ideal S2x64x64 .f32) :
    shapeCast S64x64 (extractStridedSlice S1x64x64 ![0, 0, 0] x slices_S2x64x64_S1x64x64_0_0_0) shapeCasts_S1x64x64_S64x64
      = Cert.Model.wm x 0 := by
  funext i
  obtain ⟨p, q, rfl⟩ : ∃ (p : Fin 64) (q : Fin 64), i = ix2 p q := ⟨i 0, i 1, eq_ix2 i⟩
  refine (shapeCast_apply _ _ (ix2 p q) (ix3 (0 : Fin 1) p q) (by
    rw [Shape.rowMajor_val_three, Shape.rowMajor_val_two]
    show ((0 : Nat) * 64 + p.val) * 64 + q.val = p.val * 64 + q.val
    omega)).trans ?_
  refine (extractStridedSlice_apply _ _ _ _ (ix3 (0 : Fin 2) p q) (fun a => match a with
    | ⟨0, _⟩ => by show (0 : Nat) = 0 + 0; omega
    | ⟨1, _⟩ => by show p.val = 0 + p.val; omega
    | ⟨2, _⟩ => by show q.val = 0 + q.val; omega)).trans ?_
  rfl

/-- The message bias: entry p of the cut is entry (0, p) of the stacked array. -/
theorem bm_cut (x : FVec Ideal S2x64 .f32) :
    shapeCast S64 (extractStridedSlice S1x64 ![0, 0] x slices_S2x64_S1x64_0_0) shapeCasts_S1x64_S64
      = Cert.Model.bm x 0 := by
  funext i
  obtain ⟨p, rfl⟩ : ∃ (p : Fin 64), i = ix1 p := ⟨i 0, eq_ix1 i⟩
  refine (shapeCast_apply _ _ (ix1 p) (ix2 (0 : Fin 1) p) (by
    rw [Shape.rowMajor_val_two, Shape.rowMajor_val_one]
    show (0 : Nat) * 64 + p.val = p.val
    omega)).trans ?_
  refine (extractStridedSlice_apply _ _ _ _ (ix2 (0 : Fin 2) p) (fun a => match a with
    | ⟨0, _⟩ => by show (0 : Nat) = 0 + 0; omega
    | ⟨1, _⟩ => by show p.val = 0 + p.val; omega)).trans ?_
  rfl

/-- The gate vector as a row: entry (0, q) of the transposed cut is entry (0, q, 0) of the stacked array. -/
theorem wrow_cut (x : FVec Ideal S2x64x1 .f32) :
    transpose S1x64 [1, 0]
        (shapeCast S64x1 (extractStridedSlice S1x64x1 ![0, 0, 0] x slices_S2x64x1_S1x64x1_0_0_0) shapeCasts_S1x64x1_S64x1)
        transposes_S64x1_S1x64_1_0
      = Cert.Model.wrow x 0 := by
  funext i
  obtain ⟨z, q, rfl⟩ : ∃ (z : Fin 1) (q : Fin 64), i = ix2 z q := ⟨i 0, i 1, eq_ix2 i⟩
  have hz : z.val = 0 := by have := z.isLt; omega
  refine (transpose_apply _ _ _ (ix2 z q) (ix2 q z) (fun b => match b with | ⟨0, _⟩ => rfl | ⟨1, _⟩ => rfl)).trans ?_
  refine (shapeCast_apply _ _ (ix2 q z) (ix3 (0 : Fin 1) q (0 : Fin 1)) (by
    rw [Shape.rowMajor_val_three, Shape.rowMajor_val_two]
    show ((0 : Nat) * 64 + q.val) * 1 + 0 = q.val * 1 + z.val
    omega)).trans ?_
  refine (extractStridedSlice_apply _ _ _ _ (ix3 (0 : Fin 2) q (0 : Fin 1)) (fun a => match a with
    | ⟨0, _⟩ => by show (0 : Nat) = 0 + 0; omega
    | ⟨1, _⟩ => by show q.val = 0 + q.val; omega
    | ⟨2, _⟩ => by show (0 : Nat) = 0 + 0; omega)).trans ?_
  rfl

/-- The gate bias: the one entry of the cut is entry (0, 0) of the stacked array. -/
theorem beta_cut (x : FVec Ideal S2x1 .f32) :
    shapeCast S1 (extractStridedSlice S1x1 ![0, 0] x slices_S2x1_S1x1_0_0) shapeCasts_S1x1_S1
      = Cert.Model.beta x 0 := by
  funext i
  obtain ⟨z, rfl⟩ : ∃ (z : Fin 1), i = ix1 z := ⟨i 0, eq_ix1 i⟩
  refine (shapeCast_apply _ _ (ix1 z) (ix2 (0 : Fin 1) z) (by
    rw [Shape.rowMajor_val_two, Shape.rowMajor_val_one]
    show (0 : Nat) * 1 + z.val = z.val
    omega)).trans ?_
  refine (extractStridedSlice_apply _ _ _ _ (ix2 (0 : Fin 2) z) (fun a => match a with
    | ⟨0, _⟩ => by show (0 : Nat) = 0 + 0; omega
    | ⟨1, _⟩ => by show z.val = 0 + z.val; omega)).trans ?_
  rfl

/-- Gate block g of a stacked GRU weight, transposed: entry (p, q) of the column block at offset 64 g of the transposed
    cut is entry (0, 64 g + q, p) of the stacked array. -/
theorem wblock_cut (x : FVec Ideal S2x192x64 .f32) (g : Fin 3) (h : S64x192.Slices ![0, 64 * g.val] S64x64) :
    extractStridedSlice S64x64 ![0, 64 * g.val]
        (transpose S64x192 [1, 0]
          (shapeCast S192x64 (extractStridedSlice S1x192x64 ![0, 0, 0] x slices_S2x192x64_S1x192x64_0_0_0) shapeCasts_S1x192x64_S192x64)
          transposes_S192x64_S64x192_1_0) h
      = Cert.Model.wblock x 0 g := by
  funext i
  obtain ⟨p, q, rfl⟩ : ∃ (p : Fin 64) (q : Fin 64), i = ix2 p q := ⟨i 0, i 1, eq_ix2 i⟩
  have hg : g.val < 3 := g.isLt
  have hq : q.val < 64 := q.isLt
  have hr : 64 * g.val + q.val < 192 := by omega
  refine (extractStridedSlice_apply _ _ _ (ix2 p q) (ix2 p (⟨64 * g.val + q.val, hr⟩ : Fin 192)) (fun a => match a with
    | ⟨0, _⟩ => by show p.val = 0 + p.val; omega
    | ⟨1, _⟩ => by show 64 * g.val + q.val = 64 * g.val + q.val; rfl)).trans ?_
  refine (transpose_apply _ _ _ (ix2 p (⟨64 * g.val + q.val, hr⟩ : Fin 192)) (ix2 (⟨64 * g.val + q.val, hr⟩ : Fin 192) p)
    (fun b => match b with | ⟨0, _⟩ => rfl | ⟨1, _⟩ => rfl)).trans ?_
  refine (shapeCast_apply _ _ (ix2 (⟨64 * g.val + q.val, hr⟩ : Fin 192) p) (ix3 (0 : Fin 1) (⟨64 * g.val + q.val, hr⟩ : Fin 192) p) (by
    rw [Shape.rowMajor_val_three, Shape.rowMajor_val_two]
    show ((0 : Nat) * 192 + (64 * g.val + q.val)) * 64 + p.val = (64 * g.val + q.val) * 64 + p.val
    omega)).trans ?_
  refine (extractStridedSlice_apply _ _ _ _ (ix3 (0 : Fin 2) (⟨64 * g.val + q.val, hr⟩ : Fin 192) p) (fun a => match a with
    | ⟨0, _⟩ => by show (0 : Nat) = 0 + 0; omega
    | ⟨1, _⟩ => by show 64 * g.val + q.val = 0 + (64 * g.val + q.val); omega
    | ⟨2, _⟩ => by show p.val = 0 + p.val; omega)).trans ?_
  rfl

/-- Gate block g of a stacked GRU bias: entry p of the block at offset 64 g of the cut is entry (0, 64 g + p) of the
    stacked array. -/
theorem bblock_cut (x : FVec Ideal S2x192 .f32) (g : Fin 3) (h : S192.Slices ![64 * g.val] S64) :
    extractStridedSlice S64 ![64 * g.val]
        (shapeCast S192 (extractStridedSlice S1x192 ![0, 0] x slices_S2x192_S1x192_0_0) shapeCasts_S1x192_S192) h
      = Cert.Model.bblock x 0 g := by
  funext i
  obtain ⟨p, rfl⟩ : ∃ (p : Fin 64), i = ix1 p := ⟨i 0, eq_ix1 i⟩
  have hg : g.val < 3 := g.isLt
  have hp : p.val < 64 := p.isLt
  have hr : 64 * g.val + p.val < 192 := by omega
  refine (extractStridedSlice_apply _ _ _ (ix1 p) (ix1 (⟨64 * g.val + p.val, hr⟩ : Fin 192)) (fun a => match a with
    | ⟨0, _⟩ => by show 64 * g.val + p.val = 64 * g.val + p.val; rfl)).trans ?_
  refine (shapeCast_apply _ _ (ix1 (⟨64 * g.val + p.val, hr⟩ : Fin 192)) (ix2 (0 : Fin 1) (⟨64 * g.val + p.val, hr⟩ : Fin 192)) (by
    rw [Shape.rowMajor_val_two, Shape.rowMajor_val_one]
    show (0 : Nat) * 192 + (64 * g.val + p.val) = 64 * g.val + p.val
    omega)).trans ?_
  refine (extractStridedSlice_apply _ _ _ _ (ix2 (0 : Fin 2) (⟨64 * g.val + p.val, hr⟩ : Fin 192)) (fun a => match a with
    | ⟨0, _⟩ => by show (0 : Nat) = 0 + 0; omega
    | ⟨1, _⟩ => by show 64 * g.val + p.val = 0 + (64 * g.val + p.val); omega)).trans ?_
  rfl

/-! ## Row 0 of the edge index -/

/-- Row 0 of the edge index, as a vector of 1600000 words: the slice of row 0 with its unit axis dropped. -/
def edgeRow0 (x1 : IVec S2x1600000 32) : IVec S1600000 32 :=
  shapeCast S1600000 (extractStridedSlice S1x1600000 ![0, 0] x1 slices_S2x1600000_S1x1600000_0_0) shapeCasts_S1x1600000_S1600000

/-- Its word e is the edge index's entry (0, e). -/
theorem edgeRow0_apply (x1 : IVec S2x1600000 32) (e : Fin 1600000) : edgeRow0 x1 (ix1 e) = x1 (ix2 0 e) := by
  unfold edgeRow0
  refine (shapeCast_apply _ _ (ix1 e) (ix2 (0 : Fin 1) e) (by
    rw [Shape.rowMajor_val_two, Shape.rowMajor_val_one]
    show (0 : Nat) * 1600000 + e.val = e.val
    omega)).trans ?_
  refine (extractStridedSlice_apply _ _ _ _ (ix2 (0 : Fin 2) e) (fun a => match a with
    | ⟨0, _⟩ => by show (0 : Nat) = 0 + 0; omega
    | ⟨1, _⟩ => by show e.val = 0 + e.val; omega)).trans ?_
  rfl

/-! ## The row lookup -/

/-- The index column of a row lookup: each word wrapped if negative (the row count added), laid out as a column. -/
def wrapCol (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The row lookup as the program spells it: gather the rows at the wrapped indices (start clamped into the table), and
    keep a gathered row only where the wrapped index is in bounds (0 ≤ index ≤ 99999); elsewhere the row is NaN. -/
def takeRows (tbl : FVec Ideal S100000x64 .f32) (idx : IVec S1600000 32) : FVec Ideal S1600000x64 .f32 :=
  select
    (broadcastInDim S1600000x64 ![0] bcast_S1600000_S1600000x64_0
      (Host.reduce IntOp.andi
        (andi
          (cmpi .sge (wrapCol idx) (broadcastInDim S1600000x1 ![] bcast_S_S1600000x1 (constantI S_ 32 0#32)))
          (cmpi .sle (wrapCol idx)
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 tbl (wrapCol idx))
    (broadcastInDim S1600000x64 ![] bcast_S_S1600000x64 (constant (F := Ideal) S_ .f32 0x7FC00000#32))

/-- A left fold by AND over bits that are all 1, from 1, is 1. -/
theorem foldl_andi_ones {ι : Type} (x : ι → BitVec 1) (hx : ∀ i, x i = 1#1) :
    ∀ (l : List ι) (r : BitVec 1), r = 1#1 → l.foldl (fun r i => IntOp.andi r (x i)) r = 1#1
  | [], _, hr => hr
  | i :: l, r, hr => by
    rw [List.foldl_cons]
    exact foldl_andi_ones x hx l _ (by rw [hr, hx i]; decide)

/-- An AND-reduction of a mask whose bits are all 1, from the bit 1, is 1 at every result index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl]
  exact foldl_andi_ones x hx _ _ hi

/-- A word below 100000 is not negative as a signed value. -/
theorem toInt_nonneg_of_lt {w : BitVec 32} (hw : w.toNat < 100000) : 0 ≤ w.toInt := by
  rw [StableHlo.Predicate.toInt_eq_toNat_of_lt (by omega)]
  exact Int.natCast_nonneg _

/-- On node ids the wrap is the identity: the index column at (e, 0) is word e. -/
theorem wrapCol_apply (idx : IVec S1600000 32) (hr : ∀ e : Fin 1600000, (idx (ix1 e)).toNat < 100000)
    (e : Fin 1600000) (z : Fin 1) : wrapCol idx (ix2 e z) = idx (ix1 e) := by
  have hw : select (cmpi .slt idx (broadcastInDim S1600000 ![] bcast_S_S1600000 (constantI S_ 32 0#32)))
      (addi idx (broadcastInDim S1600000 ![] bcast_S_S1600000 (constantI S_ 32 100000#32))) idx = idx :=
    Cert.LibIndexWords.wrap_vec_of_nonneg idx
      (broadcastInDim S1600000 ![] bcast_S_S1600000 (constantI S_ 32 0#32))
      (broadcastInDim S1600000 ![] bcast_S_S1600000 (constantI S_ 32 100000#32)) (fun _ => rfl) (fun j => by
        obtain ⟨e', rfl⟩ : ∃ e' : Fin 1600000, j = ix1 e' := ⟨j 0, eq_ix1 j⟩
        exact toInt_nonneg_of_lt (hr e'))
  unfold wrapCol
  refine (broadcastInDim_apply _ _ _ (ix2 e z) (ix1 e) (fun a => match a with | ⟨0, _⟩ => rfl)).trans ?_
  exact congrFun hw (ix1 e)

/-- The clamped start index of a node id, read signed, is the node id clamped to the last row. -/
theorem clampRow_eq (w' w : BitVec 32) (e : w' = w) (hw : w.toNat < 100000) (h1 : min w'.toInt.toNat (100000 - 1) < 100000)
    (h2 : min w.toNat 99999 < 100000) :
    (⟨min w'.toInt.toNat (100000 - 1), h1⟩ : Fin 100000) = ⟨min w.toNat 99999, h2⟩ := by
  subst e
  apply Fin.ext
  show min w'.toInt.toNat (100000 - 1) = min w'.toNat 99999
  rw [StableHlo.Predicate.toInt_eq_toNat_of_lt (by omega), Int.toNat_natCast]

/-- Every bit of the in-bounds mask of node ids is 1. -/
theorem inBounds_ones (idx : IVec S1600000 32) (hr : ∀ e : Fin 1600000, (idx (ix1 e)).toNat < 100000)
    (j : S1600000x1.Idx) :
    (andi
      (cmpi .sge (wrapCol idx) (broadcastInDim S1600000x1 ![] bcast_S_S1600000x1 (constantI S_ 32 0#32)))
      (cmpi .sle (wrapCol idx)
        (broadcastInDim S1600000x1 ![0, 1] bcast_S1x1_S1600000x1_0_1
          (broadcastInDim S1x1 ![1] bcast_S1_S1x1_1 (constantI S1 32 99999#32))))) j = 1#1 := by
  obtain ⟨e, z, rfl⟩ : ∃ (e : Fin 1600000) (z : Fin 1), j = ix2 e z := ⟨j 0, j 1, eq_ix2 j⟩
  have hj : (idx (ix1 e)).toNat < 100000 := hr e
  show IntOp.andi (IntOp.cmpi .sge (wrapCol idx (ix2 e z)) 0#32) (IntOp.cmpi .sle (wrapCol idx (ix2 e z)) 99999#32) = 1#1
  rw [wrapCol_apply idx hr e z]
  have h1 : IntOp.cmpi .sge (idx (ix1 e)) 0#32 = 1#1 :=
    (StableHlo.Predicate.sge_iff_toNat (by omega) (by decide)).mpr (by show (0 : Nat) ≤ _; omega)
  have h2 : IntOp.cmpi .sle (idx (ix1 e)) 99999#32 = 1#1 :=
    (StableHlo.Predicate.sle_iff_toNat (by omega) (by decide)).mpr (by show _ ≤ (99999 : Nat); omega)
  rw [h1, h2]
  decide

/-- The mask bit of every row of node ids is 1. -/
theorem maskBit_one (idx : IVec S1600000 32) (hr : ∀ e : Fin 1600000, (idx (ix1 e)).toNat < 100000)
    (e : Fin 1600000) (k : Fin 64) :
    broadcastInDim S1600000x64 ![0] bcast_S1600000_S1600000x64_0
      (Host.reduce IntOp.andi
        (andi
          (cmpi .sge (wrapCol idx) (broadcastInDim S1600000x1 ![] bcast_S_S1600000x1 (constantI S_ 32 0#32)))
          (cmpi .sle (wrapCol idx)
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_) (ix2 e k) = 1#1 := by
  refine (broadcastInDim_apply _ _ _ (ix2 e k) (ix1 e) (fun a => match a with | ⟨0, _⟩ => rfl)).trans ?_
  exact reduce_andi_ones _ _ _ _ _ (inBounds_ones idx hr) rfl

/-- THE ROW LOOKUP ON NODE IDS: when every index word is below 100000 as a natural number, row e of the lookup is the
    table's row "word e, clamped to the last row". -/
theorem takeRows_eq (tbl : FVec Ideal S100000x64 .f32) (idx : IVec S1600000 32)
    (hr : ∀ e : Fin 1600000, (idx (ix1 e)).toNat < 100000) :
    takeRows tbl idx = Cert.Model.rowsOf tbl (fun e : Fin 1600000 => idx (ix1 e)) := by
  funext i
  obtain ⟨e, k, rfl⟩ : ∃ (e : Fin 1600000) (k : Fin 64), i = ix2 e k := ⟨i 0, i 1, eq_ix2 i⟩
  have hw : (idx (ix1 e)).toNat < 100000 := hr e
  unfold takeRows
  -- the mask bit of row e is 1: the select takes the gathered row
  rw [select_apply, maskBit_one idx hr e k, select_one]
  -- the gathered row: the start index is word e, read signed and clamped
  refine (Cert.LibScatterGatherRows.gather_rows_ideal gather_S100000x64_S1600000x1_S1600000x64_1_0_n_n_0_1_164
    rfl rfl rfl rfl rfl tbl (wrapCol idx) e k (by decide)).trans ?_
  exact congrArg (fun r : Fin 100000 => tbl (ix2 r k))
    (clampRow_eq (wrapCol idx (ix2 e 0)) (idx (ix1 e)) (wrapCol_apply idx hr e 0) hw _ _)

/-- The row lookup by row 0 of the edge index, when its words are node ids. -/
theorem takeRows_edge (tbl : FVec Ideal S100000x64 .f32) (x1 : IVec S2x1600000 32)
    (hr : ∀ e : Fin 1600000, (x1 (ix2 0 e)).toNat < 100000) :
    takeRows tbl (edgeRow0 x1) = Cert.Model.rowsOf tbl (fun e : Fin 1600000 => x1 (ix2 0 e)) := by
  rw [takeRows_eq tbl (edgeRow0 x1) (fun e => by rw [edgeRow0_apply]; exact hr e)]
  exact congrArg (Cert.Model.rowsOf tbl) (funext fun e => edgeRow0_apply x1 e)

/-! ## The gated messages -/

/-- A gate column broadcast along the rows, times an array of rows: entry (e, k) is gate e times the row's entry. -/
theorem gated_eq (g : FVec Ideal S1600000x1 .f32) (r : FVec Ideal S1600000x64 .f32) :
    mulf (broadcastInDim S1600000x64 ![0, 1] bcast_S1600000x1_S1600000x64_0_1 g) r = fun i => g (ix2 (i 0) 0) * r i := by
  funext i
  rw [mulf_apply]
  congr 1
  exact broadcastInDim_apply _ _ _ i (ix2 (i 0) (0 : Fin 1)) (fun a => match a with | ⟨0, _⟩ => rfl | ⟨1, _⟩ => rfl)

end Cert.KernelIdeal.KThread.Layer1

namespace Cert.KernelIdeal.KThread

open Idealize.ShloMosaic Idealize.ShloMosaic.TcCoe Idealize.ShloMosaic.ValueIdx Idealize.SL.Sem Cert.KernelIdeal Cert.KernelIdeal.Gen

namespace Layer1

/-- One step back through a stretch of host operations none of which writes the buffer read. -/
macro "l1_host " ops:ident : tactic => `(tactic|
  refine (StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_)

/-- One step back through a region none of whose arrays is the buffer read. -/
macro "l1_region " lem:ident b:ident : tactic => `(tactic| refine ($lem _ _ _ $b (by decide)).trans ?_)

/-- A launch array read at the first layer's region entries, walked back to the launch memory. -/
macro "l1_from_W3 " b:ident : tactic => `(tactic|
  (l1_region W3_of_ne $b; l1_host hostOps1; l1_region W1_of_ne $b; rfl))
macro "l1_from_W5 " b:ident : tactic => `(tactic|
  (l1_region W5_of_ne $b; l1_host hostOps2; l1_from_W3 $b))
macro "l1_from_W7 " b:ident : tactic => `(tactic|
  (l1_host hostOps3_1; l1_host hostOps3; l1_from_W5 $b))

/-! ## Equal arguments, equal values -/

theorem congr3 {α β γ δ : Type} (f : α → β → γ → δ) {a a' : α} {b b' : β} {c c' : γ}
    (ha : a = a') (hb : b = b') (hc : c = c') : f a b c = f a' b' c' := by subst ha hb hc; rfl

theorem congr4 {α β γ δ ε : Type} (f : α → β → γ → δ → ε) {a a' : α} {b b' : β} {c c' : γ} {d d' : δ}
    (ha : a = a') (hb : b = b') (hc : c = c') (hd : d = d') : f a b c d = f a' b' c' d' := by subst ha hb hc hd; rfl

open Cert.Spec in
theorem gru_congr {a a' h h' : Mat 100000 64} {w1 w1' w2 w2' w3 w3' w4 w4' w5 w5' w6 w6' : Mat 64 64}
    {b1 b1' b2 b2' b3 b3' b4 b4' b5 b5' b6 b6' : Row 64}
    (ea : a = a') (eh : h = h') (e1 : w1 = w1') (e2 : w2 = w2') (e3 : w3 = w3') (e4 : w4 = w4') (e5 : w5 = w5') (e6 : w6 = w6')
    (f1 : b1 = b1') (f2 : b2 = b2') (f3 : b3 = b3') (f4 : b4 = b4') (f5 : b5 = b5') (f6 : b6 = b6') :
    gru a h w1 w2 w3 w4 w5 w6 b1 b2 b3 b4 b5 b6 = gru a' h' w1' w2' w3' w4' w5' w6' b1' b2' b3' b4' b5' b6' := by
  subst ea eh e1 e2 e3 e4 e5 e6 f1 f2 f3 f4 f5 f6; rfl

variable (m : (ℓ : Loc nD τ sig) → Buf (Elt Ideal) ℓ) (ρ : Dev nD → PrngReg) (c : Dev nD)

/-! ## The launch arrays where the first layer reads them -/

theorem W1_arg10 : W1 m ρ c (Proc.devRef .tc main_arg10) = m ((c : Thread nD τ).loc main_arg10) := by
  l1_region W1_of_ne main_arg10; rfl
theorem W1_arg11 : W1 m ρ c (Proc.devRef .tc main_arg11) = m ((c : Thread nD τ).loc main_arg11) := by
  l1_region W1_of_ne main_arg11; rfl
theorem W3_arg12 : W3 m ρ c (Proc.devRef .tc main_arg12) = m ((c : Thread nD τ).loc main_arg12) := by
  l1_from_W3 main_arg12
theorem W3_arg13 : W3 m ρ c (Proc.devRef .tc main_arg13) = m ((c : Thread nD τ).loc main_arg13) := by
  l1_from_W3 main_arg13
theorem W4_arg2 : W4 m ρ c (Proc.devRef .tc main_arg2) = m ((c : Thread nD τ).loc main_arg2) := by
  l1_host hostOps2; l1_from_W3 main_arg2
theorem W4_arg3 : W4 m ρ c (Proc.devRef .tc main_arg3) = m ((c : Thread nD τ).loc main_arg3) := by
  l1_host hostOps2; l1_from_W3 main_arg3
theorem W5_arg1 : W5 m ρ c (Proc.devRef .tc main_arg1) = m ((c : Thread nD τ).loc main_arg1) := by
  l1_from_W5 main_arg1
theorem W7_arg1 : W7 m ρ c (Proc.devRef .tc main_arg1) = m ((c : Thread nD τ).loc main_arg1) := by
  l1_from_W7 main_arg1
theorem W7_arg14 : W7 m ρ c (Proc.devRef .tc main_arg14) = m ((c : Thread nD τ).loc main_arg14) := by
  l1_from_W7 main_arg14
theorem W7_arg15 : W7 m ρ c (Proc.devRef .tc main_arg15) = m ((c : Thread nD τ).loc main_arg15) := by
  l1_from_W7 main_arg15
theorem W7_arg16 : W7 m ρ c (Proc.devRef .tc main_arg16) = m ((c : Thread nD τ).loc main_arg16) := by
  l1_from_W7 main_arg16
theorem W7_arg17 : W7 m ρ c (Proc.devRef .tc main_arg17) = m ((c : Thread nD τ).loc main_arg17) := by
  l1_from_W7 main_arg17

/-! ## What each region leaves, as hypotheses: one per region, for every entry valuation -/

/-- The projection region leaves proj of its three input arrays. -/
abbrev Hv0 : Prop := ∀ (V : (c : Dev nD) → (b : Ref sig .tc) → Buf (Elt Ideal) ((c : Thread nD τ).loc b)) (c : Dev nD),
  (dat0 (F := Ideal) V c).arrAt 3 cfg0.N = Cert.Spec.proj (V c main_arg0) (V c main_arg8) (V c main_arg9)
/-- The message-linear region leaves lin64 of its three input arrays. -/
abbrev Hv1 : Prop := ∀ (V : (c : Dev nD) → (b : Ref sig .tc) → Buf (Elt Ideal) ((c : Thread nD τ).loc b)) (c : Dev nD),
  (dat1 (F := Ideal) V c).arrAt 3 cfg1.N = Cert.Spec.lin64 (V c main_v0) (V c main_v2) (V c main_v4)
/-- The gate region leaves gate of its four input arrays. -/
abbrev Hv2 : Prop := ∀ (V : (c : Dev nD) → (b : Ref sig .tc) → Buf (Elt Ideal) ((c : Thread nD τ).loc b)) (c : Dev nD),
  (dat2 (F := Ideal) V c).arrAt 4 cfg2.N = Cert.Spec.gate (V c main_arg2) (V c main_arg3) (V c main_v8) (V c main_v10)
/-- The GRU region leaves gru of its fourteen input arrays. -/
abbrev Hv3 : Prop := ∀ (V : (c : Dev nD) → (b : Ref sig .tc) → Buf (Elt Ideal) ((c : Thread nD τ).loc b)) (c : Dev nD),
  (dat3 (F := Ideal) V c).arrAt 14 cfg3.N = Cert.Spec.gru (V c main_v21) (V c main_v0) (V c main_v32) (V c main_v33) (V c main_v34)
    (V c main_v35) (V c main_v36) (V c main_v37) (V c main_v38) (V c main_v39) (V c main_v40) (V c main_v41) (V c main_v42) (V c main_v43)

/-! ## The node table after the projection -/

/-- After the projection's region its output buffer holds the Model's h0 of the launch arrays. -/
theorem W1_v0 (hv0 : Hv0) :
    W1 m ρ c (Proc.devRef .tc main_v0) = Cert.Model.h0 (m ((c : Thread nD τ).loc main_arg0))
      (m ((c : Thread nD τ).loc main_arg8)) (m ((c : Thread nD τ).loc main_arg9)) :=
  (W1_arr m ρ c 3).trans ((hv0 (V0 m ρ) c).trans rfl)

/-- The message-linear region reads it unchanged. -/
theorem V2_v0 (hv0 : Hv0) :
    V2 m ρ c main_v0 = Cert.Model.h0 (m ((c : Thread nD τ).loc main_arg0))
      (m ((c : Thread nD τ).loc main_arg8)) (m ((c : Thread nD τ).loc main_arg9)) := by
  show W2 m ρ c (Proc.devRef .tc main_v0) = _
  l1_host hostOps1
  exact W1_v0 m ρ c hv0

/-- The GRU region reads it unchanged: three host stretches, the gate region, one host stretch and the message-linear
    region (which reads it through an input window) leave it as it was. -/
theorem V8_v0 (hv0 : Hv0) :
    V8 m ρ c main_v0 = Cert.Model.h0 (m ((c : Thread nD τ).loc main_arg0))
      (m ((c : Thread nD τ).loc main_arg8)) (m ((c : Thread nD τ).loc main_arg9)) := by
  show W8 m ρ c (Proc.devRef .tc main_v0) = _
  l1_host hostOps3_2; l1_host hostOps3_1; l1_host hostOps3
  l1_region W5_of_ne main_v0
  l1_host hostOps2
  refine ((W3_arr m ρ c 0).trans (((dat1 (V2 m ρ) c).arrAt_in 0 rfl _).trans (A_eq1 (V2 m ρ) c 0))).trans ?_
  exact V2_v0 m ρ c hv0

/-! ## The message linear -/

/-- The message weight the region reads is the Model's cut of the stacked weights. -/
theorem V2_v2 : V2 m ρ c main_v2 = Cert.Model.wm (m ((c : Thread nD τ).loc main_arg10)) 0 := by
  refine Eq.trans (b := shapeCast S64x64 (extractStridedSlice S1x64x64 ![0, 0, 0]
    (W1 m ρ c (Proc.devRef .tc main_arg10)) slices_S2x64x64_S1x64x64_0_0_0) shapeCasts_S1x64x64_S64x64) ?_ ?_
  · show StableHlo.after hostOps1 (W1 m ρ c) (Proc.devRef .tc main_v2) = _
    after_results; rfl
  · rw [W1_arg10]; exact wm_cut _

/-- The message bias the region reads is the Model's cut of the stacked biases. -/
theorem V2_v4 : V2 m ρ c main_v4 = Cert.Model.bm (m ((c : Thread nD τ).loc main_arg11)) 0 := by
  refine Eq.trans (b := shapeCast S64 (extractStridedSlice S1x64 ![0, 0]
    (W1 m ρ c (Proc.devRef .tc main_arg11)) slices_S2x64_S1x64_0_0) shapeCasts_S1x64_S64) ?_ ?_
  · show StableHlo.after hostOps1 (W1 m ρ c) (Proc.devRef .tc main_v4) = _
    after_results; rfl
  · rw [W1_arg11]; exact bm_cut _

/-- The message-linear region leaves lin64 of h0 and the layer's message parameters. -/
theorem W3_v5 (hv0 : Hv0) (hv1 : Hv1) :
    W3 m ρ c (Proc.devRef .tc main_v5) = Cert.Spec.lin64
      (Cert.Model.h0 (m ((c : Thread nD τ).loc main_arg0)) (m ((c : Thread nD τ).loc main_arg8)) (m ((c : Thread nD τ).loc main_arg9)))
      (Cert.Model.wm (m ((c : Thread nD τ).loc main_arg10)) 0) (Cert.Model.bm (m ((c : Thread nD τ).loc main_arg11)) 0) :=
  (W3_arr m ρ c 3).trans ((hv1 (V2 m ρ) c).trans
    (congr3 Cert.Spec.lin64 (V2_v0 m ρ c hv0) (V2_v2 m ρ c) (V2_v4 m ρ c)))

/-- The row lookup reads it unchanged. -/
theorem W6_v5 : W6 m ρ c (Proc.devRef .tc main_v5) = W3 m ρ c (Proc.devRef .tc main_v5) := by
  l1_host hostOps3; l1_region W5_of_ne main_v5; l1_host hostOps2; rfl

/-! ## The edge gates -/

theorem V4_arg2 : V4 m ρ c main_arg2 = m ((c : Thread nD τ).loc main_arg2) := W4_arg2 m ρ c
theorem V4_arg3 : V4 m ρ c main_arg3 = m ((c : Thread nD τ).loc main_arg3) := W4_arg3 m ρ c

/-- The gate row the region reads is the Model's cut of the stacked gate vectors. -/
theorem V4_v8 : V4 m ρ c main_v8 = Cert.Model.wrow (m ((c : Thread nD τ).loc main_arg12)) 0 := by
  refine Eq.trans (b := transpose S1x64 [1, 0] (shapeCast S64x1 (extractStridedSlice S1x64x1 ![0, 0, 0]
    (W3 m ρ c (Proc.devRef .tc main_arg12)) slices_S2x64x1_S1x64x1_0_0_0) shapeCasts_S1x64x1_S64x1) transposes_S64x1_S1x64_1_0) ?_ ?_
  · show StableHlo.after hostOps2 (W3 m ρ c) (Proc.devRef .tc main_v8) = _
    after_results; rfl
  · rw [W3_arg12]; exact wrow_cut _

/-- The gate bias the region reads is the Model's cut of the stacked gate biases. -/
theorem V4_v10 : V4 m ρ c main_v10 = Cert.Model.beta (m ((c : Thread nD τ).loc main_arg13)) 0 := by
  refine Eq.trans (b := shapeCast S1 (extractStridedSlice S1x1 ![0, 0]
    (W3 m ρ c (Proc.devRef .tc main_arg13)) slices_S2x1_S1x1_0_0) shapeCasts_S1x1_S1) ?_ ?_
  · show StableHlo.after hostOps2 (W3 m ρ c) (Proc.devRef .tc main_v10) = _
    after_results; rfl
  · rw [W3_arg13]; exact beta_cut _

/-- The gate region leaves the gates of the edge attributes and queries under the layer's gate parameters. -/
theorem W5_v11 (hv2 : Hv2) :
    W5 m ρ c (Proc.devRef .tc main_v11) = Cert.Spec.gate (m ((c : Thread nD τ).loc main_arg2)) (m ((c : Thread nD τ).loc main_arg3))
      (Cert.Model.wrow (m ((c : Thread nD τ).loc main_arg12)) 0) (Cert.Model.beta (m ((c : Thread nD τ).loc main_arg13)) 0) :=
  (W5_arr m ρ c 4).trans ((hv2 (V4 m ρ) c).trans
    (congr4 Cert.Spec.gate (V4_arg2 m ρ c) (V4_arg3 m ρ c) (V4_v8 m ρ c) (V4_v10 m ρ c)))

/-- The multiplication by the gates reads them unchanged. -/
theorem W7_v11 : W7 m ρ c (Proc.devRef .tc main_v11) = W5 m ρ c (Proc.devRef .tc main_v11) := by
  l1_host hostOps3_1; l1_host hostOps3; rfl

/-! ## The looked-up rows, the gated messages and their segment sum -/

/-- The index vector of the lookup is row 0 of the edge index. -/
theorem W6_v13 : W6 m ρ c (Proc.devRef .tc main_v13) = edgeRow0 (m ((c : Thread nD τ).loc main_arg1)) := by
  refine Eq.trans (b := edgeRow0 (W5 m ρ c (Proc.devRef .tc main_arg1))) ?_ ?_
  · show StableHlo.after hostOps3 (W5 m ρ c) (Proc.devRef .tc main_v13) = _
    after_results; rfl
  · rw [W5_arg1]

/-- Contents moved to a typed reference's buffer type and back are the contents. -/
theorem ofBuf_toBuf {Val : EltTy → Type} {T : BufTy} (x : StableHlo.TRef sig T) (v : T.Contents Val) :
    x.ofBuf (x.toBuf v) = v := by
  unfold StableHlo.TRef.ofBuf StableHlo.TRef.toBuf
  simp only [cast_cast, cast_eq]

/-- At a literal reference the move between the buffer's type and the value's type is the identity. -/
theorem toBuf_v14 (X : (⟨S1600000x64, .f32⟩ : BufTy).Contents (Elt Ideal)) :
    StableHlo.TRef.toBuf (Val := Elt Ideal) (StableHlo.TRef.of main_v14 : StableHlo.TRef sig ⟨S1600000x64, .f32⟩) X = X := rfl
theorem ofBuf_v13 (X : main_v13.ty.Contents (Elt Ideal)) :
    StableHlo.TRef.ofBuf (Val := Elt Ideal) (StableHlo.TRef.of main_v13 : StableHlo.TRef sig ⟨S1600000, .i32⟩) X = X := rfl
theorem ofBuf_v5 (X : main_v5.ty.Contents (Elt Ideal)) :
    StableHlo.TRef.ofBuf (Val := Elt Ideal) (StableHlo.TRef.of main_v5 : StableHlo.TRef sig ⟨S100000x64, .f32⟩) X = X := rfl

/-- The lookup's stretch, from any entry contents: its result buffer holds the row lookup of the table buffer by the
    index-vector buffer. -/
theorem at_v14 (Wv : Valuation τ sig (Elt Ideal)) :
    StableHlo.after hostOps3_1 Wv (Proc.devRef .tc main_v14)
      = takeRows (Wv (Proc.devRef .tc main_v5)) (Wv (Proc.devRef .tc main_v13)) := by
  after_results_simp
  simp only [ofBuf_toBuf]
  rw [toBuf_v14, ofBuf_v13, ofBuf_v5]
  unfold takeRows wrapCol
  rfl

/-- The lookup's result buffer holds the row lookup of the message-linear table by row 0 of the edge index. -/
theorem W7_v14 : W7 m ρ c (Proc.devRef .tc main_v14)
    = takeRows (W6 m ρ c (Proc.devRef .tc main_v5)) (W6 m ρ c (Proc.devRef .tc main_v13)) :=
  at_v14 (W6 m ρ c)

/-- On node ids it is the Model's rows of the message linear of h0. -/
theorem W7_v14_rows (hv0 : Hv0) (hv1 : Hv1)
    (hr : ∀ e : Fin 1600000, ((m ((c : Thread nD τ).loc main_arg1)) (ix2 0 e)).toNat < 100000) :
    W7 m ρ c (Proc.devRef .tc main_v14) = Cert.Model.rowsOf
      (Cert.Spec.lin64 (Cert.Model.h0 (m ((c : Thread nD τ).loc main_arg0)) (m ((c : Thread nD τ).loc main_arg8)) (m ((c : Thread nD τ).loc main_arg9))) (Cert.Model.wm (m ((c : Thread nD τ).loc main_arg10)) 0) (Cert.Model.bm (m ((c : Thread nD τ).loc main_arg11)) 0))
      (fun e : Fin 1600000 => (m ((c : Thread nD τ).loc main_arg1)) (ix2 0 e)) := by
  rw [W7_v14, W6_v13, W6_v5, W3_v5 m ρ c hv0 hv1]
  exact takeRows_edge _ _ hr

/-- The last stretch before the GRU region, from any entry contents: the aggregate buffer holds the segment sum, by row 1
    of the edge-index buffer, of the gate buffer broadcast along the rows times the looked-up rows. -/
theorem at_v21 (Wv : Valuation τ sig (Elt Ideal)) :
    StableHlo.after hostOps3_2 Wv (Proc.devRef .tc main_v21) = Cert.Seg.ksegsum (Wv (Proc.devRef .tc main_arg1))
      (mulf (broadcastInDim S1600000x64 ![0, 1] bcast_S1600000x1_S1600000x64_0_1 (Wv (Proc.devRef .tc main_v11)))
        (Wv (Proc.devRef .tc main_v14))) := by
  after_results_simp; rfl

/-- The GRU region's first input is the segment sum of the Model's gated messages of h0. -/
theorem V8_v21 (hv0 : Hv0) (hv1 : Hv1) (hv2 : Hv2)
    (hr : ∀ e : Fin 1600000, ((m ((c : Thread nD τ).loc main_arg1)) (ix2 0 e)).toNat < 100000) :
    V8 m ρ c main_v21 = Cert.Seg.ksegsum (m ((c : Thread nD τ).loc main_arg1))
      (Cert.Model.msg (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13)) 0 (Cert.Model.h0 (m ((c : Thread nD τ).loc main_arg0)) (m ((c : Thread nD τ).loc main_arg8)) (m ((c : Thread nD τ).loc main_arg9)))) := by
  refine (at_v21 (W7 m ρ c)).trans ?_
  rw [W7_arg1, W7_v11, W5_v11 m ρ c hv2, W7_v14_rows m ρ c hv0 hv1 hr, gated_eq]
  rfl

/-! ## The GRU's parameters: six weight blocks, six bias blocks (each read from any entry contents of the stretch, then at
    the fold's) -/

theorem at_v32 (Wv : Valuation τ sig (Elt Ideal)) :
    StableHlo.after hostOps3_2 Wv (Proc.devRef .tc main_v32) = extractStridedSlice S64x64 ![0, 0]
      (transpose S64x192 [1, 0] (shapeCast S192x64 (extractStridedSlice S1x192x64 ![0, 0, 0]
        (Wv (Proc.devRef .tc main_arg14)) slices_S2x192x64_S1x192x64_0_0_0) shapeCasts_S1x192x64_S192x64)
        transposes_S192x64_S64x192_1_0) slices_S64x192_S64x64_0_0 := by
  after_results_simp; rfl
theorem V8_v32 : V8 m ρ c main_v32 = Cert.Model.wblock (m ((c : Thread nD τ).loc main_arg14)) 0 0 := by
  refine (at_v32 (W7 m ρ c)).trans ?_
  rw [W7_arg14]; exact wblock_cut _ 0 _

theorem at_v33 (Wv : Valuation τ sig (Elt Ideal)) :
    StableHlo.after hostOps3_2 Wv (Proc.devRef .tc main_v33) = extractStridedSlice S64x64 ![0, 64]
      (transpose S64x192 [1, 0] (shapeCast S192x64 (extractStridedSlice S1x192x64 ![0, 0, 0]
        (Wv (Proc.devRef .tc main_arg14)) slices_S2x192x64_S1x192x64_0_0_0) shapeCasts_S1x192x64_S192x64)
        transposes_S192x64_S64x192_1_0) slices_S64x192_S64x64_0_64 := by
  after_results_simp; rfl
theorem V8_v33 : V8 m ρ c main_v33 = Cert.Model.wblock (m ((c : Thread nD τ).loc main_arg14)) 0 1 := by
  refine (at_v33 (W7 m ρ c)).trans ?_
  rw [W7_arg14]; exact wblock_cut _ 1 _

theorem at_v34 (Wv : Valuation τ sig (Elt Ideal)) :
    StableHlo.after hostOps3_2 Wv (Proc.devRef .tc main_v34) = extractStridedSlice S64x64 ![0, 128]
      (transpose S64x192 [1, 0] (shapeCast S192x64 (extractStridedSlice S1x192x64 ![0, 0, 0]
        (Wv (Proc.devRef .tc main_arg14)) slices_S2x192x64_S1x192x64_0_0_0) shapeCasts_S1x192x64_S192x64)
        transposes_S192x64_S64x192_1_0) slices_S64x192_S64x64_0_128 := by
  after_results_simp; rfl
theorem V8_v34 : V8 m ρ c main_v34 = Cert.Model.wblock (m ((c : Thread nD τ).loc main_arg14)) 0 2 := by
  refine (at_v34 (W7 m ρ c)).trans ?_
  rw [W7_arg14]; exact wblock_cut _ 2 _

theorem at_v35 (Wv : Valuation τ sig (Elt Ideal)) :
    StableHlo.after hostOps3_2 Wv (Proc.devRef .tc main_v35) = extractStridedSlice S64x64 ![0, 0]
      (transpose S64x192 [1, 0] (shapeCast S192x64 (extractStridedSlice S1x192x64 ![0, 0, 0]
        (Wv (Proc.devRef .tc main_arg15)) slices_S2x192x64_S1x192x64_0_0_0) shapeCasts_S1x192x64_S192x64)
        transposes_S192x64_S64x192_1_0) slices_S64x192_S64x64_0_0 := by
  after_results_simp; rfl
theorem V8_v35 : V8 m ρ c main_v35 = Cert.Model.wblock (m ((c : Thread nD τ).loc main_arg15)) 0 0 := by
  refine (at_v35 (W7 m ρ c)).trans ?_
  rw [W7_arg15]; exact wblock_cut _ 0 _

theorem at_v36 (Wv : Valuation τ sig (Elt Ideal)) :
    StableHlo.after hostOps3_2 Wv (Proc.devRef .tc main_v36) = extractStridedSlice S64x64 ![0, 64]
      (transpose S64x192 [1, 0] (shapeCast S192x64 (extractStridedSlice S1x192x64 ![0, 0, 0]
        (Wv (Proc.devRef .tc main_arg15)) slices_S2x192x64_S1x192x64_0_0_0) shapeCasts_S1x192x64_S192x64)
        transposes_S192x64_S64x192_1_0) slices_S64x192_S64x64_0_64 := by
  after_results_simp; rfl
theorem V8_v36 : V8 m ρ c main_v36 = Cert.Model.wblock (m ((c : Thread nD τ).loc main_arg15)) 0 1 := by
  refine (at_v36 (W7 m ρ c)).trans ?_
  rw [W7_arg15]; exact wblock_cut _ 1 _

theorem at_v37 (Wv : Valuation τ sig (Elt Ideal)) :
    StableHlo.after hostOps3_2 Wv (Proc.devRef .tc main_v37) = extractStridedSlice S64x64 ![0, 128]
      (transpose S64x192 [1, 0] (shapeCast S192x64 (extractStridedSlice S1x192x64 ![0, 0, 0]
        (Wv (Proc.devRef .tc main_arg15)) slices_S2x192x64_S1x192x64_0_0_0) shapeCasts_S1x192x64_S192x64)
        transposes_S192x64_S64x192_1_0) slices_S64x192_S64x64_0_128 := by
  after_results_simp; rfl
theorem V8_v37 : V8 m ρ c main_v37 = Cert.Model.wblock (m ((c : Thread nD τ).loc main_arg15)) 0 2 := by
  refine (at_v37 (W7 m ρ c)).trans ?_
  rw [W7_arg15]; exact wblock_cut _ 2 _

theorem at_v38 (Wv : Valuation τ sig (Elt Ideal)) :
    StableHlo.after hostOps3_2 Wv (Proc.devRef .tc main_v38) = extractStridedSlice S64 ![0]
      (shapeCast S192 (extractStridedSlice S1x192 ![0, 0]
        (Wv (Proc.devRef .tc main_arg16)) slices_S2x192_S1x192_0_0) shapeCasts_S1x192_S192) slices_S192_S64_0 := by
  after_results_simp; rfl
theorem V8_v38 : V8 m ρ c main_v38 = Cert.Model.bblock (m ((c : Thread nD τ).loc main_arg16)) 0 0 := by
  refine (at_v38 (W7 m ρ c)).trans ?_
  rw [W7_arg16]; exact bblock_cut _ 0 _

theorem at_v39 (Wv : Valuation τ sig (Elt Ideal)) :
    StableHlo.after hostOps3_2 Wv (Proc.devRef .tc main_v39) = extractStridedSlice S64 ![64]
      (shapeCast S192 (extractStridedSlice S1x192 ![0, 0]
        (Wv (Proc.devRef .tc main_arg16)) slices_S2x192_S1x192_0_0) shapeCasts_S1x192_S192) slices_S192_S64_64 := by
  after_results_simp; rfl
theorem V8_v39 : V8 m ρ c main_v39 = Cert.Model.bblock (m ((c : Thread nD τ).loc main_arg16)) 0 1 := by
  refine (at_v39 (W7 m ρ c)).trans ?_
  rw [W7_arg16]; exact bblock_cut _ 1 _

theorem at_v40 (Wv : Valuation τ sig (Elt Ideal)) :
    StableHlo.after hostOps3_2 Wv (Proc.devRef .tc main_v40) = extractStridedSlice S64 ![128]
      (shapeCast S192 (extractStridedSlice S1x192 ![0, 0]
        (Wv (Proc.devRef .tc main_arg16)) slices_S2x192_S1x192_0_0) shapeCasts_S1x192_S192) slices_S192_S64_128 := by
  after_results_simp; rfl
theorem V8_v40 : V8 m ρ c main_v40 = Cert.Model.bblock (m ((c : Thread nD τ).loc main_arg16)) 0 2 := by
  refine (at_v40 (W7 m ρ c)).trans ?_
  rw [W7_arg16]; exact bblock_cut _ 2 _

theorem at_v41 (Wv : Valuation τ sig (Elt Ideal)) :
    StableHlo.after hostOps3_2 Wv (Proc.devRef .tc main_v41) = extractStridedSlice S64 ![0]
      (shapeCast S192 (extractStridedSlice S1x192 ![0, 0]
        (Wv (Proc.devRef .tc main_arg17)) slices_S2x192_S1x192_0_0) shapeCasts_S1x192_S192) slices_S192_S64_0 := by
  after_results_simp; rfl
theorem V8_v41 : V8 m ρ c main_v41 = Cert.Model.bblock (m ((c : Thread nD τ).loc main_arg17)) 0 0 := by
  refine (at_v41 (W7 m ρ c)).trans ?_
  rw [W7_arg17]; exact bblock_cut _ 0 _

theorem at_v42 (Wv : Valuation τ sig (Elt Ideal)) :
    StableHlo.after hostOps3_2 Wv (Proc.devRef .tc main_v42) = extractStridedSlice S64 ![64]
      (shapeCast S192 (extractStridedSlice S1x192 ![0, 0]
        (Wv (Proc.devRef .tc main_arg17)) slices_S2x192_S1x192_0_0) shapeCasts_S1x192_S192) slices_S192_S64_64 := by
  after_results_simp; rfl
theorem V8_v42 : V8 m ρ c main_v42 = Cert.Model.bblock (m ((c : Thread nD τ).loc main_arg17)) 0 1 := by
  refine (at_v42 (W7 m ρ c)).trans ?_
  rw [W7_arg17]; exact bblock_cut _ 1 _

theorem at_v43 (Wv : Valuation τ sig (Elt Ideal)) :
    StableHlo.after hostOps3_2 Wv (Proc.devRef .tc main_v43) = extractStridedSlice S64 ![128]
      (shapeCast S192 (extractStridedSlice S1x192 ![0, 0]
        (Wv (Proc.devRef .tc main_arg17)) slices_S2x192_S1x192_0_0) shapeCasts_S1x192_S192) slices_S192_S64_128 := by
  after_results_simp; rfl
theorem V8_v43 : V8 m ρ c main_v43 = Cert.Model.bblock (m ((c : Thread nD τ).loc main_arg17)) 0 2 := by
  refine (at_v43 (W7 m ρ c)).trans ?_
  rw [W7_arg17]; exact bblock_cut _ 2 _

end Layer1

open Layer1

variable (m : (ℓ : Loc nD τ sig) → Buf (Elt Ideal) ℓ) (ρ : Dev nD → PrngReg) (c : Dev nD)

/-! ## The node table after the projection and after the first layer -/

/-- After the projection's region the node table is the Model's h0 of the launch arrays. -/
theorem h0_eq
    (hv0 : ∀ (V : (c : Dev nD) → (b : Ref sig .tc) → Buf (Elt Ideal) ((c : Thread nD τ).loc b)) (c : Dev nD),
      (dat0 (F := Ideal) V c).arrAt 3 cfg0.N = Cert.Spec.proj (V c main_arg0) (V c main_arg8) (V c main_arg9)) :
    W1 m ρ c (Proc.devRef .tc main_v0) = Cert.Model.h0 (m ((c : Thread nD τ).loc main_arg0)) (m ((c : Thread nD τ).loc main_arg8)) (m ((c : Thread nD τ).loc main_arg9)) :=
  W1_v0 m ρ c hv0

/-- After the first layer's GRU region the node table is the Model's h1 of the launch arrays, with the segment sum as the
    kernel program spells it, when row 0 of the edge index holds node ids. -/
theorem h1_eq
    (hv0 : ∀ (V : (c : Dev nD) → (b : Ref sig .tc) → Buf (Elt Ideal) ((c : Thread nD τ).loc b)) (c : Dev nD),
      (dat0 (F := Ideal) V c).arrAt 3 cfg0.N = Cert.Spec.proj (V c main_arg0) (V c main_arg8) (V c main_arg9))
    (hv1 : ∀ (V : (c : Dev nD) → (b : Ref sig .tc) → Buf (Elt Ideal) ((c : Thread nD τ).loc b)) (c : Dev nD),
      (dat1 (F := Ideal) V c).arrAt 3 cfg1.N = Cert.Spec.lin64 (V c main_v0) (V c main_v2) (V c main_v4))
    (hv2 : ∀ (V : (c : Dev nD) → (b : Ref sig .tc) → Buf (Elt Ideal) ((c : Thread nD τ).loc b)) (c : Dev nD),
      (dat2 (F := Ideal) V c).arrAt 4 cfg2.N = Cert.Spec.gate (V c main_arg2) (V c main_arg3) (V c main_v8) (V c main_v10))
    (hv3 : ∀ (V : (c : Dev nD) → (b : Ref sig .tc) → Buf (Elt Ideal) ((c : Thread nD τ).loc b)) (c : Dev nD),
      (dat3 (F := Ideal) V c).arrAt 14 cfg3.N = Cert.Spec.gru (V c main_v21) (V c main_v0) (V c main_v32) (V c main_v33) (V c main_v34)
        (V c main_v35) (V c main_v36) (V c main_v37) (V c main_v38) (V c main_v39) (V c main_v40) (V c main_v41) (V c main_v42) (V c main_v43))
    (hr : ∀ e : Fin 1600000, ((m ((c : Thread nD τ).loc main_arg1)) (ix2 0 e)).toNat < 100000) :
    W9 m ρ c (Proc.devRef .tc main_v44) = Cert.Model.h1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (Cert.Seg.ksegsum (m ((c : Thread nD τ).loc main_arg1))) :=
  (W9_arr m ρ c 14).trans ((hv3 (V8 m ρ) c).trans
    (gru_congr (V8_v21 m ρ c hv0 hv1 hv2 hr) (V8_v0 m ρ c hv0)
      (V8_v32 m ρ c) (V8_v33 m ρ c) (V8_v34 m ρ c) (V8_v35 m ρ c) (V8_v36 m ρ c) (V8_v37 m ρ c)
      (V8_v38 m ρ c) (V8_v39 m ρ c) (V8_v40 m ρ c) (V8_v41 m ρ c) (V8_v42 m ρ c) (V8_v43 m ρ c)))

end Cert.KernelIdeal.KThread

end
-- ==== Proof.KLayer2.lean ====
/-
  THE NODE TABLE AFTER THE SECOND LAYER, READ OFF THE KERNEL PROGRAM'S FOLD.

  After the first layer's GRU region the node table sits in the buffer that region wrote (call it h). The second layer
  of @main is, in order:
    * host operations that cut layer 1's message weight and bias out of the stacked arrays;
    * the message-linear region: every node's row of h times that weight, plus that bias;
    * host operations that cut layer 1's gate vector (laid out as a row) and gate bias;
    * the gate region: per edge, the logistic of the dot of (edge attribute * edge query) with the gate row, plus the bias;
    * host operations: the first row of the edge index as a vector of words; a row lookup of the message linear's
      output by those words (wrap a negative word, gather with the start clamped, keep the row where the word is in
      bounds); the gate column spread over the 64 columns times the looked-up rows; the scatter-add of those message
      rows into a zero table at the rows the edge index's second row names; and the six 64 x 64 blocks of the two
      transposed GRU weights and the six 64-blocks of the two GRU biases of layer 1;
    * the GRU region on the aggregated messages, h, and those twelve parameter arrays.
  No host operation and no region writes an argument array, and only the first layer's GRU region writes h, so each
  of these is read back, boundary by boundary, to what was launched (or to h). For edge-index words that are node
  numbers the row lookup is the plain lookup of the named row, and the whole is the model's layer 1 applied to h.
-/
import proofs.«422311_j73100343378050_3_alg».proof.Proof.Gen.KernelIdeal.Frame
import proofs.«422311_j73100343378050_3_alg».proof.Proof.Model
import proofs.«422311_j73100343378050_3_alg».proof.Proof.Seg
import proofs.«422311_j73100343378050_3_alg».proof.Proof.LibScatterGatherRows
import proofs.«422311_j73100343378050_3_alg».proof.Proof.LibIndexWords
import Idealize.ShloMosaic.Lib.ValueIdx
import Idealize.ShloMosaic.Lib.ValueLayout
import Idealize.ShloMosaic.Lib.IdealHost
import Idealize.ShloMosaic.Lib.StableHlo.Predicate
import Idealize.ShloMosaic.Lib.StableHlo.Run
import Idealize.ShloMosaic.Lib.ReduceAll
import Idealize.ShloMosaic.PureOps.Reduce

set_option maxRecDepth 16384

noncomputable section

namespace Cert.KernelIdeal.KThread2

open Idealize.ShloMosaic Idealize.ShloMosaic.TcCoe Idealize.ShloMosaic.ValueIdx Idealize.SL.Sem Cert.KernelIdeal Cert.KernelIdeal.Gen

/-! ## Layout operations at an index: two cuts the library does not spell -/

/-- A rank-3 array cut along its leading axis from `o` reads, at `(j, a, e)`, the source at `(k, a, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A vector cut from `o` reads, at `j`, the source at `k = o + j`. -/
theorem slice1_apply {α : Type} {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## The second layer's parameters, as the host operations cut them out of the stacked arrays -/

/-- The message weight: block 1 of the stacked [2, 64, 64] array, its unit axis dropped. -/
theorem wm_cut (x10 : FVec Ideal S2x64x64 .f32) :
    shapeCast S64x64 (extractStridedSlice S1x64x64 ![1, 0, 0] x10 slices_S2x64x64_S1x64x64_1_0_0) shapeCasts_S1x64x64_S64x64
      = Cert.Model.wm x10 1 := by
  funext i
  obtain ⟨p, q, rfl⟩ : ∃ (p : Fin 64) (q : Fin 64), i = ix2 p q := ⟨i 0, i 1, eq_ix2 i⟩
  refine (shapeCast_1ab_ab_apply _ _ p q).trans ?_
  exact slice3_axis0_apply 1 x10 _ (0 : Fin 1) p q (1 : Fin 2) rfl

/-- The message bias: row 1 of the stacked [2, 64] array. -/
theorem bm_cut (x11 : FVec Ideal S2x64 .f32) :
    shapeCast S64 (extractStridedSlice S1x64 ![1, 0] x11 slices_S2x64_S1x64_1_0) shapeCasts_S1x64_S64
      = Cert.Model.bm x11 1 := by
  funext i
  obtain ⟨p, rfl⟩ : ∃ p : Fin 64, i = ix1 p := ⟨i 0, eq_ix1 i⟩
  refine (shapeCast_1a_a_apply _ _ p).trans ?_
  exact slice2_axis0_apply 1 x11 _ (0 : Fin 1) p (1 : Fin 2) rfl

/-- The gate vector: block 1 of the stacked [2, 64, 1] array, laid out as a row. -/
theorem wrow_cut (x12 : FVec Ideal S2x64x1 .f32) :
    transpose S1x64 [1, 0] (shapeCast S64x1 (extractStridedSlice S1x64x1 ![1, 0, 0] x12 slices_S2x64x1_S1x64x1_1_0_0) shapeCasts_S1x64x1_S64x1)
        transposes_S64x1_S1x64_1_0
      = Cert.Model.wrow x12 1 := by
  funext i
  obtain ⟨u, k, rfl⟩ : ∃ (u : Fin 1) (k : Fin 64), i = ix2 u k := ⟨i 0, i 1, eq_ix2 i⟩
  obtain rfl : u = 0 := Subsingleton.elim _ _
  refine (transpose_ix2_apply _ _ (0 : Fin 1) k).trans ?_
  refine (shapeCast_1ab_ab_apply _ _ k (0 : Fin 1)).trans ?_
  exact slice3_axis0_apply 1 x12 _ (0 : Fin 1) k (0 : Fin 1) (1 : Fin 2) rfl

/-- The gate bias: row 1 of the stacked [2, 1] array. -/
theorem beta_cut (x13 : FVec Ideal S2x1 .f32) :
    shapeCast S1 (extractStridedSlice S1x1 ![1, 0] x13 slices_S2x1_S1x1_1_0) shapeCasts_S1x1_S1
      = Cert.Model.beta x13 1 := by
  funext i
  obtain ⟨p, rfl⟩ : ∃ p : Fin 1, i = ix1 p := ⟨i 0, eq_ix1 i⟩
  refine (shapeCast_1a_a_apply _ _ p).trans ?_
  exact slice2_axis0_apply 1 x13 _ (0 : Fin 1) p (1 : Fin 2) rfl

/-- The transposed [64, 192] sheet of block 1 of a stacked [2, 192, 64] weight: entry (k, r) is the stacked entry (1, r, k). -/
theorem sheet_apply (x : FVec Ideal S2x192x64 .f32) (k : Fin 64) (r : Fin 192) :
    transpose S64x192 [1, 0] (shapeCast S192x64 (extractStridedSlice S1x192x64 ![1, 0, 0] x slices_S2x192x64_S1x192x64_1_0_0) shapeCasts_S1x192x64_S192x64)
        transposes_S192x64_S64x192_1_0 (ix2 k r)
      = x (ix3 (1 : Fin 2) r k) := by
  refine (transpose_ix2_apply _ _ k r).trans ?_
  refine (shapeCast_1ab_ab_apply _ _ r k).trans ?_
  exact slice3_axis0_apply 1 x _ (0 : Fin 1) r k (1 : Fin 2) rfl

/-- The bias row of block 1 of a stacked [2, 192] bias: entry r is the stacked entry (1, r). -/
theorem brow_apply (x : FVec Ideal S2x192 .f32) (r : Fin 192) :
    shapeCast S192 (extractStridedSlice S1x192 ![1, 0] x slices_S2x192_S1x192_1_0) shapeCasts_S1x192_S192 (ix1 r)
      = x (ix2 (1 : Fin 2) r) := by
  refine (shapeCast_1a_a_apply _ _ r).trans ?_
  exact slice2_axis0_apply 1 x _ (0 : Fin 1) r (1 : Fin 2) rfl

/-- Gate block 0 (columns 0 .. 63 of the transposed sheet) of a stacked GRU weight of layer 1. -/
theorem wblock0_cut (x : FVec Ideal S2x192x64 .f32) :
    extractStridedSlice S64x64 ![0, 0] (transpose S64x192 [1, 0] (shapeCast S192x64 (extractStridedSlice S1x192x64 ![1, 0, 0] x slices_S2x192x64_S1x192x64_1_0_0) shapeCasts_S1x192x64_S192x64)
        transposes_S192x64_S64x192_1_0) slices_S64x192_S64x64_0_0
      = Cert.Model.wblock x 1 0 := by
  funext i
  obtain ⟨k, j, rfl⟩ : ∃ (k : Fin 64) (j : Fin 64), i = ix2 k j := ⟨i 0, i 1, eq_ix2 i⟩
  refine (slice2_axis1_apply 0 _ _ k j (⟨64 * 0 + j.val, by omega⟩ : Fin 192) (by show 64 * 0 + j.val = 0 + j.val; omega)).trans ?_
  exact sheet_apply x k _

/-- Gate block 1 (columns 64 .. 127). -/
theorem wblock1_cut (x : FVec Ideal S2x192x64 .f32) :
    extractStridedSlice S64x64 ![0, 64] (transpose S64x192 [1, 0] (shapeCast S192x64 (extractStridedSlice S1x192x64 ![1, 0, 0] x slices_S2x192x64_S1x192x64_1_0_0) shapeCasts_S1x192x64_S192x64)
        transposes_S192x64_S64x192_1_0) slices_S64x192_S64x64_0_64
      = Cert.Model.wblock x 1 1 := by
  funext i
  obtain ⟨k, j, rfl⟩ : ∃ (k : Fin 64) (j : Fin 64), i = ix2 k j := ⟨i 0, i 1, eq_ix2 i⟩
  refine (slice2_axis1_apply 64 _ _ k j (⟨64 * 1 + j.val, by omega⟩ : Fin 192) (by show 64 * 1 + j.val = 64 + j.val; omega)).trans ?_
  exact sheet_apply x k _

/-- Gate block 2 (columns 128 .. 191). -/
theorem wblock2_cut (x : FVec Ideal S2x192x64 .f32) :
    extractStridedSlice S64x64 ![0, 128] (transpose S64x192 [1, 0] (shapeCast S192x64 (extractStridedSlice S1x192x64 ![1, 0, 0] x slices_S2x192x64_S1x192x64_1_0_0) shapeCasts_S1x192x64_S192x64)
        transposes_S192x64_S64x192_1_0) slices_S64x192_S64x64_0_128
      = Cert.Model.wblock x 1 2 := by
  funext i
  obtain ⟨k, j, rfl⟩ : ∃ (k : Fin 64) (j : Fin 64), i = ix2 k j := ⟨i 0, i 1, eq_ix2 i⟩
  refine (slice2_axis1_apply 128 _ _ k j (⟨64 * 2 + j.val, by omega⟩ : Fin 192) (by show 64 * 2 + j.val = 128 + j.val; omega)).trans ?_
  exact sheet_apply x k _

/-- Gate block 0 (entries 0 .. 63) of a stacked GRU bias of layer 1. -/
theorem bblock0_cut (x : FVec Ideal S2x192 .f32) :
    extractStridedSlice S64 ![0] (shapeCast S192 (extractStridedSlice S1x192 ![1, 0] x slices_S2x192_S1x192_1_0) shapeCasts_S1x192_S192) slices_S192_S64_0
      = Cert.Model.bblock x 1 0 := by
  funext i
  obtain ⟨j, rfl⟩ : ∃ j : Fin 64, i = ix1 j := ⟨i 0, eq_ix1 i⟩
  refine (slice1_apply 0 _ _ j (⟨64 * 0 + j.val, by omega⟩ : Fin 192) (by show 64 * 0 + j.val = 0 + j.val; omega)).trans ?_
  exact brow_apply x _

/-- Gate block 1 (entries 64 .. 127). -/
theorem bblock1_cut (x : FVec Ideal S2x192 .f32) :
    extractStridedSlice S64 ![64] (shapeCast S192 (extractStridedSlice S1x192 ![1, 0] x slices_S2x192_S1x192_1_0) shapeCasts_S1x192_S192) slices_S192_S64_64
      = Cert.Model.bblock x 1 1 := by
  funext i
  obtain ⟨j, rfl⟩ : ∃ j : Fin 64, i = ix1 j := ⟨i 0, eq_ix1 i⟩
  refine (slice1_apply 64 _ _ j (⟨64 * 1 + j.val, by omega⟩ : Fin 192) (by show 64 * 1 + j.val = 64 + j.val; omega)).trans ?_
  exact brow_apply x _

/-- Gate block 2 (entries 128 .. 191). -/
theorem bblock2_cut (x : FVec Ideal S2x192 .f32) :
    extractStridedSlice S64 ![128] (shapeCast S192 (extractStridedSlice S1x192 ![1, 0] x slices_S2x192_S1x192_1_0) shapeCasts_S1x192_S192) slices_S192_S64_128
      = Cert.Model.bblock x 1 2 := by
  funext i
  obtain ⟨j, rfl⟩ : ∃ j : Fin 64, i = ix1 j := ⟨i 0, eq_ix1 i⟩
  refine (slice1_apply 128 _ _ j (⟨64 * 2 + j.val, by omega⟩ : Fin 192) (by show 64 * 2 + j.val = 128 + j.val; omega)).trans ?_
  exact brow_apply x _

/-! ## The row lookup -/

/-- Word e of the first row of the edge index, cut out as a [1, n] slice and reshaped to a vector. -/
theorem row0_apply (x1 : IVec S2x1600000 32) (e : Fin 1600000) :
    shapeCast S1600000 (extractStridedSlice S1x1600000 ![0, 0] x1 slices_S2x1600000_S1x1600000_0_0) shapeCasts_S1x1600000_S1600000 (ix1 e)
      = x1 (ix2 0 e) :=
  (shapeCast_1a_a_apply _ _ e).trans (slice2_axis0_apply 0 x1 _ (0 : Fin 1) e (0 : Fin 2) rfl)

/-- A left fold by `and` from 1 over words that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_of_all f l fun n hn => h n (List.mem_cons_of_mem _ hn)

/-- The row lookup as the program spells it: wrap a negative index by the table's height, gather with the
    start clamped into the table, and keep the gathered row where the wrapped index is in bounds, else the NaN word. -/
def take (t : FVec Ideal S100000x64 .f32) (idx : IVec S1600000 32) : FVec Ideal S1600000x64 .f32 :=
  let w : IVec S1600000x1 32 := broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)
  select
    (broadcastInDim S1600000x64 ![0] bcast_S1600000_S1600000x64_0
      (Host.reduce IntOp.andi
        (andi (cmpi .sge w (broadcastInDim S1600000x1 ![] bcast_S_S1600000x1 (constantI S_ 32 0#32)))
          (cmpi .sle w (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 t w)
    (broadcastInDim S1600000x64 ![] bcast_S_S1600000x64 (constant (F := Ideal) S_ .f32 0x7FC00000#32))

/-- For index words that are node numbers the lookup reads the named rows. -/
theorem take_eq (t : FVec Ideal S100000x64 .f32) (idx : IVec S1600000 32)
    (hidx : ∀ e : Fin 1600000, (idx (ix1 e)).toNat < 100000) :
    take t idx = Cert.Model.rowsOf t (fun e : Fin 1600000 => idx (ix1 e)) := by
  -- a node number reads the same signed and unsigned
  have hInt : ∀ e : Fin 1600000, (idx (ix1 e)).toInt = ((idx (ix1 e)).toNat : ℤ) := fun e =>
    StableHlo.Predicate.toInt_eq_toNat_of_lt (by have := hidx e; omega)
  -- so the wrap leaves it
  have hwrap : select (cmpi .slt idx (broadcastInDim S1600000 ![] bcast_S_S1600000 (constantI S_ 32 0#32)))
      (addi idx (broadcastInDim S1600000 ![] bcast_S_S1600000 (constantI S_ 32 100000#32))) idx = idx :=
    Cert.LibIndexWords.wrap_vec_of_nonneg idx _ _ (fun _ => rfl) (fun i => by
      obtain ⟨e, rfl⟩ : ∃ e : Fin 1600000, i = ix1 e := ⟨i 0, eq_ix1 i⟩
      rw [hInt e]; exact Int.natCast_nonneg _)
  unfold take
  rw [hwrap]
  -- the index column at (e, u) is word e
  have hcol : ∀ (e : Fin 1600000) (u : Fin 1),
      broadcastInDim S1600000x1 ![0] bcast_S1600000_S1600000x1_0 idx (ix2 e u) = idx (ix1 e) := fun e u =>
    broadcastInDim_apply _ _ idx _ (ix1 e) (fun a => by match a with | ⟨0, _⟩ => rfl)
  funext i
  obtain ⟨e, k, rfl⟩ : ∃ (e : Fin 1600000) (k : Fin 64), i = ix2 e k := ⟨i 0, i 1, eq_ix2 i⟩
  rw [select_apply]
  -- the in-bounds bit of row e is 1
  have hbit : broadcastInDim S1600000x64 ![0] bcast_S1600000_S1600000x64_0
      (Host.reduce IntOp.andi
        (andi (cmpi .sge (broadcastInDim S1600000x1 ![0] bcast_S1600000_S1600000x1_0 idx) (broadcastInDim S1600000x1 ![] bcast_S_S1600000x1 (constantI S_ 32 0#32)))
          (cmpi .sle (broadcastInDim S1600000x1 ![0] bcast_S1600000_S1600000x1_0 idx) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_) (ix2 e k) = 1#1 := by
    refine (broadcastInDim_apply _ _ _ _ (ix1 e) (fun a => by match a with | ⟨0, _⟩ => rfl)).trans ?_
    rw [Host.reduce_eq_foldl]
    refine foldl_andi_of_all _ _ fun n _ => ?_
    obtain ⟨e', u, rfl⟩ : ∃ (e' : Fin 1600000) (u : Fin 1), n = ix2 e' u := ⟨n 0, n 1, eq_ix2 n⟩
    show IntOp.andi (IntOp.cmpi .sge (broadcastInDim S1600000x1 ![0] bcast_S1600000_S1600000x1_0 idx (ix2 e' u)) 0#32)
      (IntOp.cmpi .sle (broadcastInDim S1600000x1 ![0] bcast_S1600000_S1600000x1_0 idx (ix2 e' u)) 99999#32) = 1#1
    rw [hcol e' u]
    have h := hidx e'
    rw [(StableHlo.Predicate.sge_iff_toNat (by omega) (by decide)).2 (by show (0#32 : BitVec 32).toNat ≤ _; exact Nat.zero_le _),
      (StableHlo.Predicate.sle_iff_toNat (by omega) (by decide)).2 (by show _ ≤ (99999#32 : BitVec 32).toNat; show _ ≤ 99999; omega)]
    decide
  rw [hbit, select_one]
  refine (Cert.LibScatterGatherRows.gather_rows_ideal _ rfl rfl rfl rfl rfl t _ e k (by decide)).trans ?_
  show t (ix2 _ k) = t (ix2 _ k)
  refine congrArg (fun r => t (ix2 r k)) (Fin.ext ?_)
  show min (broadcastInDim S1600000x1 ![0] bcast_S1600000_S1600000x1_0 idx (ix2 e 0)).toInt.toNat (100000 - 1) = min (idx (ix1 e)).toNat 99999
  rw [hcol e 0, hInt e, Int.toNat_natCast]

/-! ## The gated messages -/

/-- The gate column spread over the 64 columns, times the looked-up rows, is the layer's message array. -/
theorem msg_eq (x1 : IVec S2x1600000 32) (x2 x3 : FVec Ideal S1600000x64 .f32) (x10 : FVec Ideal S2x64x64 .f32)
    (x11 : FVec Ideal S2x64 .f32) (x12 : FVec Ideal S2x64x1 .f32) (x13 : FVec Ideal S2x1 .f32) (H : FVec Ideal S100000x64 .f32)
    (hr : ∀ e : Fin 1600000, (x1 (ix2 0 e)).toNat < 100000) :
    mulf (broadcastInDim S1600000x64 ![0, 1] bcast_S1600000x1_S1600000x64_0_1
        (Cert.Spec.gate x2 x3 (Cert.Model.wrow x12 1) (Cert.Model.beta x13 1)))
      (take (Cert.Spec.lin64 H (Cert.Model.wm x10 1) (Cert.Model.bm x11 1))
        (shapeCast S1600000 (extractStridedSlice S1x1600000 ![0, 0] x1 slices_S2x1600000_S1x1600000_0_0) shapeCasts_S1x1600000_S1600000))
      = Cert.Model.msg x1 x2 x3 x10 x11 x12 x13 1 H := by
  rw [take_eq _ _ (fun e => by rw [row0_apply]; exact hr e)]
  funext i
  obtain ⟨e, k, rfl⟩ : ∃ (e : Fin 1600000) (k : Fin 64), i = ix2 e k := ⟨i 0, i 1, eq_ix2 i⟩
  rw [mulf_apply]
  unfold Cert.Model.msg
  refine congrArg₂ (· * ·) ?_ ?_
  · exact broadcastInDim_apply _ _ _ _ (ix2 e (0 : Fin 1)) (fun a => by match a with | ⟨0, _⟩ => rfl | ⟨1, _⟩ => rfl)
  · show Cert.Model.rowsOf _ _ (ix2 e k) = Cert.Model.rowsOf _ _ (ix2 e k)
    unfold Cert.Model.rowsOf
    show _ = Cert.Spec.lin64 H (Cert.Model.wm x10 1) (Cert.Model.bm x11 1) (ix2 ⟨min (x1 (ix2 0 e)).toNat 99999, _⟩ k)
    refine congrArg (fun r => Cert.Spec.lin64 H (Cert.Model.wm x10 1) (Cert.Model.bm x11 1) (ix2 r k)) (Fin.ext ?_)
    show min (shapeCast S1600000 (extractStridedSlice S1x1600000 ![0, 0] x1 slices_S2x1600000_S1x1600000_0_0) shapeCasts_S1x1600000_S1600000 (ix1 e)).toNat 99999 = _
    rw [row0_apply]

/-! # The fold -/

/-- Contents moved to a typed reference's buffer type and back are the contents. -/
theorem ofBuf_toBuf {Val : EltTy → Type} {T : BufTy} (x : StableHlo.TRef sig T) (v : T.Contents Val) :
    x.ofBuf (x.toBuf v) = v := by
  unfold StableHlo.TRef.ofBuf StableHlo.TRef.toBuf
  simp only [cast_cast, cast_eq]

/-- At a literal reference the move between the buffer's type and the value's type is the identity. -/
theorem toBuf_v58 (X : (⟨S1600000x64, .f32⟩ : BufTy).Contents (Elt Ideal)) :
    StableHlo.TRef.toBuf (Val := Elt Ideal) (StableHlo.TRef.of main_v58 : StableHlo.TRef sig ⟨S1600000x64, .f32⟩) X = X := rfl
theorem ofBuf_v57 (X : main_v57.ty.Contents (Elt Ideal)) :
    StableHlo.TRef.ofBuf (Val := Elt Ideal) (StableHlo.TRef.of main_v57 : StableHlo.TRef sig ⟨S1600000, .i32⟩) X = X := rfl
theorem ofBuf_v49 (X : main_v49.ty.Contents (Elt Ideal)) :
    StableHlo.TRef.ofBuf (Val := Elt Ideal) (StableHlo.TRef.of main_v49 : StableHlo.TRef sig ⟨S100000x64, .f32⟩) X = X := rfl

/-- The row-lookup stretch, from any entry contents: its result buffer holds the row lookup of the table's buffer by
    the index vector's buffer. -/
theorem take_stretch (Wv : Valuation τ sig (Elt Ideal)) :
    StableHlo.after hostOps6_1 Wv (Proc.devRef .tc main_v58)
      = take (Wv (Proc.devRef .tc main_v49)) (Wv (Proc.devRef .tc main_v57)) := by
  after_results_simp
  simp only [ofBuf_toBuf]
  rw [toBuf_v58, ofBuf_v57, ofBuf_v49]
  unfold take
  rfl

variable (m : (ℓ : Loc nD τ sig) → Buf (Elt Ideal) ℓ) (ρ : Dev nD → PrngReg) (c : Dev nD)

/-! ## One step back through the fold

A buffer that no operation of a host stretch writes keeps its contents across the stretch; a buffer that is not one
of a region's arrays keeps its contents across the region. Each step below rewrites the contents at one boundary to
the contents at the boundary before it. -/

/-- A buffer no operation of the stretch writes keeps its contents. -/
macro "host_skip " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

set_option hygiene false in
macro "back1 " b:ident : tactic => `(tactic| refine ((W1_of_ne m ρ c $b (by decide)).trans ?_))
set_option hygiene false in
macro "back2 " b:ident : tactic =>
  `(tactic| refine ((by host_skip hostOps1 $b : W2 m ρ c (Proc.devRef .tc $b) = W1 m ρ c (Proc.devRef .tc $b)).trans ?_))
set_option hygiene false in
macro "back3 " b:ident : tactic => `(tactic| refine ((W3_of_ne m ρ c $b (by decide)).trans ?_))
set_option hygiene false in
macro "back4 " b:ident : tactic =>
  `(tactic| refine ((by host_skip hostOps2 $b : W4 m ρ c (Proc.devRef .tc $b) = W3 m ρ c (Proc.devRef .tc $b)).trans ?_))
set_option hygiene false in
macro "back5 " b:ident : tactic => `(tactic| refine ((W5_of_ne m ρ c $b (by decide)).trans ?_))
set_option hygiene false in
macro "back6 " b:ident : tactic =>
  `(tactic| refine ((by host_skip hostOps3 $b : W6 m ρ c (Proc.devRef .tc $b) = W5 m ρ c (Proc.devRef .tc $b)).trans ?_))
set_option hygiene false in
macro "back7 " b:ident : tactic =>
  `(tactic| refine ((by host_skip hostOps3_1 $b : W7 m ρ c (Proc.devRef .tc $b) = W6 m ρ c (Proc.devRef .tc $b)).trans ?_))
set_option hygiene false in
macro "back8 " b:ident : tactic =>
  `(tactic| refine ((by host_skip hostOps3_2 $b : W8 m ρ c (Proc.devRef .tc $b) = W7 m ρ c (Proc.devRef .tc $b)).trans ?_))
set_option hygiene false in
macro "back9 " b:ident : tactic => `(tactic| refine ((W9_of_ne m ρ c $b (by decide)).trans ?_))
set_option hygiene false in
macro "back10 " b:ident : tactic =>
  `(tactic| refine ((by host_skip hostOps4 $b : W10 m ρ c (Proc.devRef .tc $b) = W9 m ρ c (Proc.devRef .tc $b)).trans ?_))
set_option hygiene false in
macro "back11 " b:ident : tactic => `(tactic| refine ((W11_of_ne m ρ c $b (by decide)).trans ?_))
set_option hygiene false in
macro "back12 " b:ident : tactic =>
  `(tactic| refine ((by host_skip hostOps5 $b : W12 m ρ c (Proc.devRef .tc $b) = W11 m ρ c (Proc.devRef .tc $b)).trans ?_))
set_option hygiene false in
macro "back13 " b:ident : tactic => `(tactic| refine ((W13_of_ne m ρ c $b (by decide)).trans ?_))
set_option hygiene false in
macro "back14 " b:ident : tactic =>
  `(tactic| refine ((by host_skip hostOps6 $b : W14 m ρ c (Proc.devRef .tc $b) = W13 m ρ c (Proc.devRef .tc $b)).trans ?_))
set_option hygiene false in
macro "back15 " b:ident : tactic =>
  `(tactic| refine ((by host_skip hostOps6_1 $b : W15 m ρ c (Proc.devRef .tc $b) = W14 m ρ c (Proc.devRef .tc $b)).trans ?_))
set_option hygiene false in
macro "back16 " b:ident : tactic =>
  `(tactic| refine ((by host_skip hostOps6_2 $b : W16 m ρ c (Proc.devRef .tc $b) = W15 m ρ c (Proc.devRef .tc $b)).trans ?_))

/-- From the boundary after the first layer back to the launch, for a buffer that no host operation writes and that is
    no region's array before then. -/
macro "back9_launch " b:ident : tactic =>
  `(tactic| (back9 $b; back8 $b; back7 $b; back6 $b; back5 $b; back4 $b; back3 $b; back2 $b; back1 $b; rfl))

/-! ## The argument arrays at the boundaries where the second layer reads them

No host operation writes an argument array and no region writes one: a region that reads it through an input window
leaves it as it found it. So each is, at every boundary, what was launched. -/

theorem arg1_at9 : W9 m ρ c (Proc.devRef .tc main_arg1) = m ((c : Thread nD τ).loc main_arg1) := by
  back9_launch main_arg1
theorem arg10_at9 : W9 m ρ c (Proc.devRef .tc main_arg10) = m ((c : Thread nD τ).loc main_arg10) := by
  back9_launch main_arg10
theorem arg11_at9 : W9 m ρ c (Proc.devRef .tc main_arg11) = m ((c : Thread nD τ).loc main_arg11) := by
  back9_launch main_arg11
theorem arg12_at9 : W9 m ρ c (Proc.devRef .tc main_arg12) = m ((c : Thread nD τ).loc main_arg12) := by
  back9_launch main_arg12
theorem arg13_at9 : W9 m ρ c (Proc.devRef .tc main_arg13) = m ((c : Thread nD τ).loc main_arg13) := by
  back9_launch main_arg13
theorem arg14_at9 : W9 m ρ c (Proc.devRef .tc main_arg14) = m ((c : Thread nD τ).loc main_arg14) := by
  back9_launch main_arg14
theorem arg15_at9 : W9 m ρ c (Proc.devRef .tc main_arg15) = m ((c : Thread nD τ).loc main_arg15) := by
  back9_launch main_arg15
theorem arg16_at9 : W9 m ρ c (Proc.devRef .tc main_arg16) = m ((c : Thread nD τ).loc main_arg16) := by
  back9_launch main_arg16
theorem arg17_at9 : W9 m ρ c (Proc.devRef .tc main_arg17) = m ((c : Thread nD τ).loc main_arg17) := by
  back9_launch main_arg17

/-- The edge attributes are the first layer's gate region's first input array. -/
theorem arg2_at9 : W9 m ρ c (Proc.devRef .tc main_arg2) = m ((c : Thread nD τ).loc main_arg2) := by
  back9 main_arg2; back8 main_arg2; back7 main_arg2; back6 main_arg2
  refine ((W5_arr m ρ c 0).trans (((dat2 (V4 m ρ) c).arrAt_in 0 rfl _).trans (A_eq2 (V4 m ρ) c 0))).trans ?_
  back4 main_arg2; back3 main_arg2; back2 main_arg2; back1 main_arg2; rfl
/-- The edge queries are its second. -/
theorem arg3_at9 : W9 m ρ c (Proc.devRef .tc main_arg3) = m ((c : Thread nD τ).loc main_arg3) := by
  back9 main_arg3; back8 main_arg3; back7 main_arg3; back6 main_arg3
  refine ((W5_arr m ρ c 1).trans (((dat2 (V4 m ρ) c).arrAt_in 1 rfl _).trans (A_eq2 (V4 m ρ) c 1))).trans ?_
  back4 main_arg3; back3 main_arg3; back2 main_arg3; back1 main_arg3; rfl

theorem arg2_at12 : W12 m ρ c (Proc.devRef .tc main_arg2) = m ((c : Thread nD τ).loc main_arg2) := by
  back12 main_arg2; back11 main_arg2; back10 main_arg2; exact arg2_at9 m ρ c
theorem arg3_at12 : W12 m ρ c (Proc.devRef .tc main_arg3) = m ((c : Thread nD τ).loc main_arg3) := by
  back12 main_arg3; back11 main_arg3; back10 main_arg3; exact arg3_at9 m ρ c
theorem arg12_at11 : W11 m ρ c (Proc.devRef .tc main_arg12) = m ((c : Thread nD τ).loc main_arg12) := by
  back11 main_arg12; back10 main_arg12; exact arg12_at9 m ρ c
theorem arg13_at11 : W11 m ρ c (Proc.devRef .tc main_arg13) = m ((c : Thread nD τ).loc main_arg13) := by
  back11 main_arg13; back10 main_arg13; exact arg13_at9 m ρ c
theorem arg1_at13 : W13 m ρ c (Proc.devRef .tc main_arg1) = m ((c : Thread nD τ).loc main_arg1) := by
  back13 main_arg1; back12 main_arg1; back11 main_arg1; back10 main_arg1; exact arg1_at9 m ρ c
theorem arg1_at15 : W15 m ρ c (Proc.devRef .tc main_arg1) = m ((c : Thread nD τ).loc main_arg1) := by
  back15 main_arg1; back14 main_arg1; exact arg1_at13 m ρ c
theorem arg14_at15 : W15 m ρ c (Proc.devRef .tc main_arg14) = m ((c : Thread nD τ).loc main_arg14) := by
  back15 main_arg14; back14 main_arg14; back13 main_arg14; back12 main_arg14; back11 main_arg14; back10 main_arg14
  exact arg14_at9 m ρ c
theorem arg15_at15 : W15 m ρ c (Proc.devRef .tc main_arg15) = m ((c : Thread nD τ).loc main_arg15) := by
  back15 main_arg15; back14 main_arg15; back13 main_arg15; back12 main_arg15; back11 main_arg15; back10 main_arg15
  exact arg15_at9 m ρ c
theorem arg16_at15 : W15 m ρ c (Proc.devRef .tc main_arg16) = m ((c : Thread nD τ).loc main_arg16) := by
  back15 main_arg16; back14 main_arg16; back13 main_arg16; back12 main_arg16; back11 main_arg16; back10 main_arg16
  exact arg16_at9 m ρ c
theorem arg17_at15 : W15 m ρ c (Proc.devRef .tc main_arg17) = m ((c : Thread nD τ).loc main_arg17) := by
  back15 main_arg17; back14 main_arg17; back13 main_arg17; back12 main_arg17; back11 main_arg17; back10 main_arg17
  exact arg17_at9 m ρ c

/-! ## The node table the first layer left

It is the message linear's first input array and the GRU's second: neither region nor any host operation between
them writes it. -/

theorem v44_at10 : W10 m ρ c (Proc.devRef .tc main_v44) = W9 m ρ c (Proc.devRef .tc main_v44) := by
  back10 main_v44; rfl
theorem v44_at16 : W16 m ρ c (Proc.devRef .tc main_v44) = W9 m ρ c (Proc.devRef .tc main_v44) := by
  back16 main_v44; back15 main_v44; back14 main_v44; back13 main_v44; back12 main_v44
  refine ((W11_arr m ρ c 0).trans (((dat4 (V10 m ρ) c).arrAt_in 0 rfl _).trans (A_eq4 (V10 m ρ) c 0))).trans ?_
  exact v44_at10 m ρ c

/-! ## The arrays the host operations make for the second layer

Each is read off its stretch as the operations' term over the contents before the stretch, and that term is the
model's cut of the launched array. -/

/-- The message weight handed to the message linear. -/
theorem v46_at10 : W10 m ρ c (Proc.devRef .tc main_v46) = Cert.Model.wm (m ((c : Thread nD τ).loc main_arg10)) 1 := by
  have e : W10 m ρ c (Proc.devRef .tc main_v46)
      = shapeCast S64x64 (extractStridedSlice S1x64x64 ![1, 0, 0] (W9 m ρ c (Proc.devRef .tc main_arg10)) slices_S2x64x64_S1x64x64_1_0_0) shapeCasts_S1x64x64_S64x64 := by
    show StableHlo.after hostOps4 (W9 m ρ c) (Proc.devRef .tc main_v46) = _
    after_results
    first | done | rfl
  rw [e, arg10_at9]; exact wm_cut _

/-- The message bias. -/
theorem v48_at10 : W10 m ρ c (Proc.devRef .tc main_v48) = Cert.Model.bm (m ((c : Thread nD τ).loc main_arg11)) 1 := by
  have e : W10 m ρ c (Proc.devRef .tc main_v48)
      = shapeCast S64 (extractStridedSlice S1x64 ![1, 0] (W9 m ρ c (Proc.devRef .tc main_arg11)) slices_S2x64_S1x64_1_0) shapeCasts_S1x64_S64 := by
    show StableHlo.after hostOps4 (W9 m ρ c) (Proc.devRef .tc main_v48) = _
    after_results
    first | done | rfl
  rw [e, arg11_at9]; exact bm_cut _

/-- The gate vector as a row. -/
theorem v52_at12 : W12 m ρ c (Proc.devRef .tc main_v52) = Cert.Model.wrow (m ((c : Thread nD τ).loc main_arg12)) 1 := by
  have e : W12 m ρ c (Proc.devRef .tc main_v52)
      = transpose S1x64 [1, 0] (shapeCast S64x1 (extractStridedSlice S1x64x1 ![1, 0, 0] (W11 m ρ c (Proc.devRef .tc main_arg12)) slices_S2x64x1_S1x64x1_1_0_0) shapeCasts_S1x64x1_S64x1)
          transposes_S64x1_S1x64_1_0 := by
    show StableHlo.after hostOps5 (W11 m ρ c) (Proc.devRef .tc main_v52) = _
    after_results
    first | done | rfl
  rw [e, arg12_at11]; exact wrow_cut _

/-- The gate bias. -/
theorem v54_at12 : W12 m ρ c (Proc.devRef .tc main_v54) = Cert.Model.beta (m ((c : Thread nD τ).loc main_arg13)) 1 := by
  have e : W12 m ρ c (Proc.devRef .tc main_v54)
      = shapeCast S1 (extractStridedSlice S1x1 ![1, 0] (W11 m ρ c (Proc.devRef .tc main_arg13)) slices_S2x1_S1x1_1_0) shapeCasts_S1x1_S1 := by
    show StableHlo.after hostOps5 (W11 m ρ c) (Proc.devRef .tc main_v54) = _
    after_results
    first | done | rfl
  rw [e, arg13_at11]; exact beta_cut _

/-- The index words of the nodes the edges read: the first row of the edge index. -/
theorem v57_at14 : W14 m ρ c (Proc.devRef .tc main_v57)
    = shapeCast S1600000 (extractStridedSlice S1x1600000 ![0, 0] (m ((c : Thread nD τ).loc main_arg1)) slices_S2x1600000_S1x1600000_0_0) shapeCasts_S1x1600000_S1600000 := by
  have e : W14 m ρ c (Proc.devRef .tc main_v57)
      = shapeCast S1600000 (extractStridedSlice S1x1600000 ![0, 0] (W13 m ρ c (Proc.devRef .tc main_arg1)) slices_S2x1600000_S1x1600000_0_0) shapeCasts_S1x1600000_S1600000 := by
    show StableHlo.after hostOps6 (W13 m ρ c) (Proc.devRef .tc main_v57) = _
    after_results
    first | done | rfl
  rw [e, arg1_at13]

/-! ## The two regions before the GRU: the message linear of every node, and the gate of every edge -/

/-- The message linear's output: the linear of the node table the first layer left, with layer 1's weight and bias. -/
theorem v49_at14
    (hv4 : ∀ (V : (c : Dev nD) → (b : Ref sig .tc) → Buf (Elt Ideal) ((c : Thread nD τ).loc b)) (c : Dev nD), (dat4 (F := Ideal) V c).arrAt 3 cfg4.N = Cert.Spec.lin64 (V c main_v44) (V c main_v46) (V c main_v48))
    (H : FVec Ideal S100000x64 .f32) (hprev : W9 m ρ c (Proc.devRef .tc main_v44) = H) :
    W14 m ρ c (Proc.devRef .tc main_v49)
      = Cert.Spec.lin64 H (Cert.Model.wm (m ((c : Thread nD τ).loc main_arg10)) 1) (Cert.Model.bm (m ((c : Thread nD τ).loc main_arg11)) 1) := by
  back14 main_v49; back13 main_v49; back12 main_v49
  refine ((W11_arr m ρ c 3).trans (hv4 (V10 m ρ) c)).trans ?_
  show Cert.Spec.lin64 (W10 m ρ c (Proc.devRef .tc main_v44)) (W10 m ρ c (Proc.devRef .tc main_v46)) (W10 m ρ c (Proc.devRef .tc main_v48)) = _
  rw [v44_at10, hprev, v46_at10, v48_at10]

/-- The gate region's output: the gate of every edge, with layer 1's gate vector and bias. -/
theorem v55_at15
    (hv5 : ∀ (V : (c : Dev nD) → (b : Ref sig .tc) → Buf (Elt Ideal) ((c : Thread nD τ).loc b)) (c : Dev nD), (dat5 (F := Ideal) V c).arrAt 4 cfg5.N = Cert.Spec.gate (V c main_arg2) (V c main_arg3) (V c main_v52) (V c main_v54)) :
    W15 m ρ c (Proc.devRef .tc main_v55)
      = Cert.Spec.gate (m ((c : Thread nD τ).loc main_arg2)) (m ((c : Thread nD τ).loc main_arg3))
          (Cert.Model.wrow (m ((c : Thread nD τ).loc main_arg12)) 1) (Cert.Model.beta (m ((c : Thread nD τ).loc main_arg13)) 1) := by
  back15 main_v55; back14 main_v55
  refine ((W13_arr m ρ c 4).trans (hv5 (V12 m ρ) c)).trans ?_
  show Cert.Spec.gate (W12 m ρ c (Proc.devRef .tc main_arg2)) (W12 m ρ c (Proc.devRef .tc main_arg3)) (W12 m ρ c (Proc.devRef .tc main_v52)) (W12 m ρ c (Proc.devRef .tc main_v54)) = _
  rw [arg2_at12, arg3_at12, v52_at12, v54_at12]

/-- The looked-up rows: the row lookup of the message linear's output by the first row of the edge index. -/
theorem v58_at15 : W15 m ρ c (Proc.devRef .tc main_v58)
    = take (W14 m ρ c (Proc.devRef .tc main_v49)) (W14 m ρ c (Proc.devRef .tc main_v57)) :=
  take_stretch (W14 m ρ c)

/-! ## The GRU's inputs -/

/-- The aggregated messages: the segment sum of the gated messages of layer 1. -/
theorem v65_at16
    (hv4 : ∀ (V : (c : Dev nD) → (b : Ref sig .tc) → Buf (Elt Ideal) ((c : Thread nD τ).loc b)) (c : Dev nD), (dat4 (F := Ideal) V c).arrAt 3 cfg4.N = Cert.Spec.lin64 (V c main_v44) (V c main_v46) (V c main_v48))
    (hv5 : ∀ (V : (c : Dev nD) → (b : Ref sig .tc) → Buf (Elt Ideal) ((c : Thread nD τ).loc b)) (c : Dev nD), (dat5 (F := Ideal) V c).arrAt 4 cfg5.N = Cert.Spec.gate (V c main_arg2) (V c main_arg3) (V c main_v52) (V c main_v54))
    (hr : ∀ e : Fin 1600000, ((m ((c : Thread nD τ).loc main_arg1)) (ix2 0 e)).toNat < 100000)
    (H : FVec Ideal S100000x64 .f32) (hprev : W9 m ρ c (Proc.devRef .tc main_v44) = H) :
    W16 m ρ c (Proc.devRef .tc main_v65)
      = Cert.Seg.ksegsum (m ((c : Thread nD τ).loc main_arg1))
          (Cert.Model.msg (m ((c : Thread nD τ).loc main_arg1)) (m ((c : Thread nD τ).loc main_arg2)) (m ((c : Thread nD τ).loc main_arg3))
            (m ((c : Thread nD τ).loc main_arg10)) (m ((c : Thread nD τ).loc main_arg11)) (m ((c : Thread nD τ).loc main_arg12))
            (m ((c : Thread nD τ).loc main_arg13)) 1 H) := by
  have e : W16 m ρ c (Proc.devRef .tc main_v65)
      = Cert.Seg.ksegsum (W15 m ρ c (Proc.devRef .tc main_arg1))
          (mulf (broadcastInDim S1600000x64 ![0, 1] bcast_S1600000x1_S1600000x64_0_1 (W15 m ρ c (Proc.devRef .tc main_v55)))
            (W15 m ρ c (Proc.devRef .tc main_v58))) := by
    show StableHlo.after hostOps6_2 (W15 m ρ c) (Proc.devRef .tc main_v65) = _
    after_results_simp
    first | done | rfl
  rw [e, arg1_at15, v55_at15 m ρ c hv5, v58_at15, v49_at14 m ρ c hv4 H hprev, v57_at14]
  exact congrArg (Cert.Seg.ksegsum (m ((c : Thread nD τ).loc main_arg1)))
    (msg_eq (m ((c : Thread nD τ).loc main_arg1)) (m ((c : Thread nD τ).loc main_arg2)) (m ((c : Thread nD τ).loc main_arg3))
      (m ((c : Thread nD τ).loc main_arg10)) (m ((c : Thread nD τ).loc main_arg11)) (m ((c : Thread nD τ).loc main_arg12))
      (m ((c : Thread nD τ).loc main_arg13)) H hr)

/-- The input weight of the reset gate. -/
theorem v76_at16 : W16 m ρ c (Proc.devRef .tc main_v76) = Cert.Model.wblock (m ((c : Thread nD τ).loc main_arg14)) 1 0 := by
  have e : W16 m ρ c (Proc.devRef .tc main_v76)
      = extractStridedSlice S64x64 ![0, 0] (transpose S64x192 [1, 0] (shapeCast S192x64 (extractStridedSlice S1x192x64 ![1, 0, 0] (W15 m ρ c (Proc.devRef .tc main_arg14)) slices_S2x192x64_S1x192x64_1_0_0) shapeCasts_S1x192x64_S192x64) transposes_S192x64_S64x192_1_0) slices_S64x192_S64x64_0_0 := by
    show StableHlo.after hostOps6_2 (W15 m ρ c) (Proc.devRef .tc main_v76) = _
    after_results_simp
    first | done | rfl
  rw [e, arg14_at15]; exact wblock0_cut _
/-- The input weight of the update gate. -/
theorem v77_at16 : W16 m ρ c (Proc.devRef .tc main_v77) = Cert.Model.wblock (m ((c : Thread nD τ).loc main_arg14)) 1 1 := by
  have e : W16 m ρ c (Proc.devRef .tc main_v77)
      = extractStridedSlice S64x64 ![0, 64] (transpose S64x192 [1, 0] (shapeCast S192x64 (extractStridedSlice S1x192x64 ![1, 0, 0] (W15 m ρ c (Proc.devRef .tc main_arg14)) slices_S2x192x64_S1x192x64_1_0_0) shapeCasts_S1x192x64_S192x64) transposes_S192x64_S64x192_1_0) slices_S64x192_S64x64_0_64 := by
    show StableHlo.after hostOps6_2 (W15 m ρ c) (Proc.devRef .tc main_v77) = _
    after_results_simp
    first | done | rfl
  rw [e, arg14_at15]; exact wblock1_cut _
/-- The input weight of the candidate. -/
theorem v78_at16 : W16 m ρ c (Proc.devRef .tc main_v78) = Cert.Model.wblock (m ((c : Thread nD τ).loc main_arg14)) 1 2 := by
  have e : W16 m ρ c (Proc.devRef .tc main_v78)
      = extractStridedSlice S64x64 ![0, 128] (transpose S64x192 [1, 0] (shapeCast S192x64 (extractStridedSlice S1x192x64 ![1, 0, 0] (W15 m ρ c (Proc.devRef .tc main_arg14)) slices_S2x192x64_S1x192x64_1_0_0) shapeCasts_S1x192x64_S192x64) transposes_S192x64_S64x192_1_0) slices_S64x192_S64x64_0_128 := by
    show StableHlo.after hostOps6_2 (W15 m ρ c) (Proc.devRef .tc main_v78) = _
    after_results_simp
    first | done | rfl
  rw [e, arg14_at15]; exact wblock2_cut _
/-- The hidden weight of the reset gate. -/
theorem v79_at16 : W16 m ρ c (Proc.devRef .tc main_v79) = Cert.Model.wblock (m ((c : Thread nD τ).loc main_arg15)) 1 0 := by
  have e : W16 m ρ c (Proc.devRef .tc main_v79)
      = extractStridedSlice S64x64 ![0, 0] (transpose S64x192 [1, 0] (shapeCast S192x64 (extractStridedSlice S1x192x64 ![1, 0, 0] (W15 m ρ c (Proc.devRef .tc main_arg15)) slices_S2x192x64_S1x192x64_1_0_0) shapeCasts_S1x192x64_S192x64) transposes_S192x64_S64x192_1_0) slices_S64x192_S64x64_0_0 := by
    show StableHlo.after hostOps6_2 (W15 m ρ c) (Proc.devRef .tc main_v79) = _
    after_results_simp
    first | done | rfl
  rw [e, arg15_at15]; exact wblock0_cut _
/-- The hidden weight of the update gate. -/
theorem v80_at16 : W16 m ρ c (Proc.devRef .tc main_v80) = Cert.Model.wblock (m ((c : Thread nD τ).loc main_arg15)) 1 1 := by
  have e : W16 m ρ c (Proc.devRef .tc main_v80)
      = extractStridedSlice S64x64 ![0, 64] (transpose S64x192 [1, 0] (shapeCast S192x64 (extractStridedSlice S1x192x64 ![1, 0, 0] (W15 m ρ c (Proc.devRef .tc main_arg15)) slices_S2x192x64_S1x192x64_1_0_0) shapeCasts_S1x192x64_S192x64) transposes_S192x64_S64x192_1_0) slices_S64x192_S64x64_0_64 := by
    show StableHlo.after hostOps6_2 (W15 m ρ c) (Proc.devRef .tc main_v80) = _
    after_results_simp
    first | done | rfl
  rw [e, arg15_at15]; exact wblock1_cut _
/-- The hidden weight of the candidate. -/
theorem v81_at16 : W16 m ρ c (Proc.devRef .tc main_v81) = Cert.Model.wblock (m ((c : Thread nD τ).loc main_arg15)) 1 2 := by
  have e : W16 m ρ c (Proc.devRef .tc main_v81)
      = extractStridedSlice S64x64 ![0, 128] (transpose S64x192 [1, 0] (shapeCast S192x64 (extractStridedSlice S1x192x64 ![1, 0, 0] (W15 m ρ c (Proc.devRef .tc main_arg15)) slices_S2x192x64_S1x192x64_1_0_0) shapeCasts_S1x192x64_S192x64) transposes_S192x64_S64x192_1_0) slices_S64x192_S64x64_0_128 := by
    show StableHlo.after hostOps6_2 (W15 m ρ c) (Proc.devRef .tc main_v81) = _
    after_results_simp
    first | done | rfl
  rw [e, arg15_at15]; exact wblock2_cut _
/-- The input bias of the reset gate. -/
theorem v82_at16 : W16 m ρ c (Proc.devRef .tc main_v82) = Cert.Model.bblock (m ((c : Thread nD τ).loc main_arg16)) 1 0 := by
  have e : W16 m ρ c (Proc.devRef .tc main_v82)
      = extractStridedSlice S64 ![0] (shapeCast S192 (extractStridedSlice S1x192 ![1, 0] (W15 m ρ c (Proc.devRef .tc main_arg16)) slices_S2x192_S1x192_1_0) shapeCasts_S1x192_S192) slices_S192_S64_0 := by
    show StableHlo.after hostOps6_2 (W15 m ρ c) (Proc.devRef .tc main_v82) = _
    after_results_simp
    first | done | rfl
  rw [e, arg16_at15]; exact bblock0_cut _
/-- The input bias of the update gate. -/
theorem v83_at16 : W16 m ρ c (Proc.devRef .tc main_v83) = Cert.Model.bblock (m ((c : Thread nD τ).loc main_arg16)) 1 1 := by
  have e : W16 m ρ c (Proc.devRef .tc main_v83)
      = extractStridedSlice S64 ![64] (shapeCast S192 (extractStridedSlice S1x192 ![1, 0] (W15 m ρ c (Proc.devRef .tc main_arg16)) slices_S2x192_S1x192_1_0) shapeCasts_S1x192_S192) slices_S192_S64_64 := by
    show StableHlo.after hostOps6_2 (W15 m ρ c) (Proc.devRef .tc main_v83) = _
    after_results_simp
    first | done | rfl
  rw [e, arg16_at15]; exact bblock1_cut _
/-- The input bias of the candidate. -/
theorem v84_at16 : W16 m ρ c (Proc.devRef .tc main_v84) = Cert.Model.bblock (m ((c : Thread nD τ).loc main_arg16)) 1 2 := by
  have e : W16 m ρ c (Proc.devRef .tc main_v84)
      = extractStridedSlice S64 ![128] (shapeCast S192 (extractStridedSlice S1x192 ![1, 0] (W15 m ρ c (Proc.devRef .tc main_arg16)) slices_S2x192_S1x192_1_0) shapeCasts_S1x192_S192) slices_S192_S64_128 := by
    show StableHlo.after hostOps6_2 (W15 m ρ c) (Proc.devRef .tc main_v84) = _
    after_results_simp
    first | done | rfl
  rw [e, arg16_at15]; exact bblock2_cut _
/-- The hidden bias of the reset gate. -/
theorem v85_at16 : W16 m ρ c (Proc.devRef .tc main_v85) = Cert.Model.bblock (m ((c : Thread nD τ).loc main_arg17)) 1 0 := by
  have e : W16 m ρ c (Proc.devRef .tc main_v85)
      = extractStridedSlice S64 ![0] (shapeCast S192 (extractStridedSlice S1x192 ![1, 0] (W15 m ρ c (Proc.devRef .tc main_arg17)) slices_S2x192_S1x192_1_0) shapeCasts_S1x192_S192) slices_S192_S64_0 := by
    show StableHlo.after hostOps6_2 (W15 m ρ c) (Proc.devRef .tc main_v85) = _
    after_results_simp
    first | done | rfl
  rw [e, arg17_at15]; exact bblock0_cut _
/-- The hidden bias of the update gate. -/
theorem v86_at16 : W16 m ρ c (Proc.devRef .tc main_v86) = Cert.Model.bblock (m ((c : Thread nD τ).loc main_arg17)) 1 1 := by
  have e : W16 m ρ c (Proc.devRef .tc main_v86)
      = extractStridedSlice S64 ![64] (shapeCast S192 (extractStridedSlice S1x192 ![1, 0] (W15 m ρ c (Proc.devRef .tc main_arg17)) slices_S2x192_S1x192_1_0) shapeCasts_S1x192_S192) slices_S192_S64_64 := by
    show StableHlo.after hostOps6_2 (W15 m ρ c) (Proc.devRef .tc main_v86) = _
    after_results_simp
    first | done | rfl
  rw [e, arg17_at15]; exact bblock1_cut _
/-- The hidden bias of the candidate. -/
theorem v87_at16 : W16 m ρ c (Proc.devRef .tc main_v87) = Cert.Model.bblock (m ((c : Thread nD τ).loc main_arg17)) 1 2 := by
  have e : W16 m ρ c (Proc.devRef .tc main_v87)
      = extractStridedSlice S64 ![128] (shapeCast S192 (extractStridedSlice S1x192 ![1, 0] (W15 m ρ c (Proc.devRef .tc main_arg17)) slices_S2x192_S1x192_1_0) shapeCasts_S1x192_S192) slices_S192_S64_128 := by
    show StableHlo.after hostOps6_2 (W15 m ρ c) (Proc.devRef .tc main_v87) = _
    after_results_simp
    first | done | rfl
  rw [e, arg17_at15]; exact bblock2_cut _

/-! ## The node table after the second layer -/

/-- The GRU region's output array is the model's layer 1 of the node table the first layer left. -/
theorem h2_eq
    (hv4 : ∀ (V : (c : Dev nD) → (b : Ref sig .tc) → Buf (Elt Ideal) ((c : Thread nD τ).loc b)) (c : Dev nD), (dat4 (F := Ideal) V c).arrAt 3 cfg4.N = Cert.Spec.lin64 (V c main_v44) (V c main_v46) (V c main_v48))
    (hv5 : ∀ (V : (c : Dev nD) → (b : Ref sig .tc) → Buf (Elt Ideal) ((c : Thread nD τ).loc b)) (c : Dev nD), (dat5 (F := Ideal) V c).arrAt 4 cfg5.N = Cert.Spec.gate (V c main_arg2) (V c main_arg3) (V c main_v52) (V c main_v54))
    (hv6 : ∀ (V : (c : Dev nD) → (b : Ref sig .tc) → Buf (Elt Ideal) ((c : Thread nD τ).loc b)) (c : Dev nD), (dat6 (F := Ideal) V c).arrAt 14 cfg6.N = Cert.Spec.gru (V c main_v65) (V c main_v44) (V c main_v76) (V c main_v77) (V c main_v78) (V c main_v79) (V c main_v80) (V c main_v81) (V c main_v82) (V c main_v83) (V c main_v84) (V c main_v85) (V c main_v86) (V c main_v87))
    (hr : ∀ e : Fin 1600000, ((m ((c : Thread nD τ).loc main_arg1)) (ix2 0 e)).toNat < 100000)
    (H : FVec Ideal S100000x64 .f32) (hprev : W9 m ρ c (Proc.devRef .tc main_v44) = H) :
    W17 m ρ c (Proc.devRef .tc main_v88) = Cert.Model.layer (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (Cert.Seg.ksegsum (m ((c : Thread nD τ).loc main_arg1))) 1 H := by
  refine ((W17_arr m ρ c 14).trans (hv6 (V16 m ρ) c)).trans ?_
  show Cert.Spec.gru (W16 m ρ c (Proc.devRef .tc main_v65)) (W16 m ρ c (Proc.devRef .tc main_v44))
    (W16 m ρ c (Proc.devRef .tc main_v76)) (W16 m ρ c (Proc.devRef .tc main_v77)) (W16 m ρ c (Proc.devRef .tc main_v78))
    (W16 m ρ c (Proc.devRef .tc main_v79)) (W16 m ρ c (Proc.devRef .tc main_v80)) (W16 m ρ c (Proc.devRef .tc main_v81))
    (W16 m ρ c (Proc.devRef .tc main_v82)) (W16 m ρ c (Proc.devRef .tc main_v83)) (W16 m ρ c (Proc.devRef .tc main_v84))
    (W16 m ρ c (Proc.devRef .tc main_v85)) (W16 m ρ c (Proc.devRef .tc main_v86)) (W16 m ρ c (Proc.devRef .tc main_v87)) = _
  rw [v65_at16 m ρ c hv4 hv5 hr H hprev, v44_at16, hprev, v76_at16, v77_at16, v78_at16, v79_at16, v80_at16, v81_at16,
    v82_at16, v83_at16, v84_at16, v85_at16, v86_at16, v87_at16]
  rfl

end Cert.KernelIdeal.KThread2

end
-- ==== Proof.KFinal.lean ====
/-
  THE PROGRAM'S RESULT, READ OFF ITS LAST STRETCH: from the node table the second layer left, to the mean loss.

  After the second layer's GRU region the node table H ([100000, 64]) stands in one buffer (boundary 17). What follows:

  * TWO ROW LOOKUPS of H, the first by the 8192 source words (argument 4), the second by the 8192 target words
    (argument 5). Each is spelt out by the program as: move a negative word up by the table's 100000 rows; lay the words
    out as an [8192, 1] column; gather H's rows at that column, the start row read signed and clamped into [0, 99999];
    per word, the bit "0 ≤ word and word ≤ 99999", and-reduced over the column's one-entry axis from the bit 1; keep the
    gathered row where that bit is 1, and a row of the word 0x7FC00000 where it is 0. For a word that is a node id
    (below 100000) the word is not negative, so it is not moved; both comparisons hold, so the bit is 1 and the gathered
    row is kept; and the clamp of the word, read signed, is the word read as a natural number, capped at 99999: the
    model's row lookup.
  * THE LABEL COLUMN: the 8192 labels (argument 6) broadcast along a new one-entry axis; entry (p, 0) is label p.
  * THE SCORER REGION, whose output array is (by hypothesis, at any entry contents) the specification's per-pair loss
    column of its eight input arrays: the two looked-up tables, the pair queries (argument 7), the two affine maps
    (arguments 18 .. 21) and the label column.
  * THE FINAL STRETCH: the loss column summed over both axes from the zero word, divided by the word 0x46000000. On the
    extended reals the sum from the zero word over the [8192, 1] index set is the plain sum of the 8192 entries (p, 0),
    and the host's quotient is the ideal division: the model's mean loss.

  WHICH BUFFER CARRIES WHAT. The argument arrays are written by no stretch and no region (a region reads one through an
  input window and hands the array back as it found it), so each holds its launch contents at every boundary: read
  forward from the boundary in question to the end, where it is known to be as launched. The node table is not written
  by the first lookup; the first looked-up table is not written by the second lookup nor by the label stretch; the second
  looked-up table is not written by the label stretch.
-/
import proofs.«422311_j73100343378050_3_alg».proof.Proof.Gen.KernelIdeal.Frame
import proofs.«422311_j73100343378050_3_alg».proof.Proof.Model
import proofs.«422311_j73100343378050_3_alg».proof.Proof.Seg
import proofs.«422311_j73100343378050_3_alg».proof.Proof.LibScatterGatherRows
import proofs.«422311_j73100343378050_3_alg».proof.Proof.LibIndexWords
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.KThread3

open Idealize.ShloMosaic Idealize.ShloMosaic.TcCoe Idealize.ShloMosaic.ValueIdx Idealize.SL.Sem Cert.KernelIdeal Cert.KernelIdeal.Gen

/-! ## Index words that are node ids -/

/-- A left fold of "and" over one-bit words, started at the word 1, all of whose terms are 1, is 1. -/
theorem foldl_andi_one {ι : Type} (g : ι → BitVec 1) (hg : ∀ n, g n = 1#1) (l : List ι) :
    l.foldl (fun r n => IntOp.andi r (g n)) 1#1 = 1#1 := by
  induction l with
  | nil => rfl
  | cons n l ih =>
    rw [List.foldl_cons, hg n, show IntOp.andi 1#1 1#1 = 1#1 from by decide]
    exact ih

/-- An index word below 100000 has the same value read signed and unsigned. -/
theorem toInt_of_lt {w : BitVec 32} (h : w.toNat < 100000) : w.toInt = (w.toNat : ℤ) :=
  StableHlo.Predicate.toInt_eq_toNat_of_lt (by omega)

/-- The index column a row lookup gathers with: each of the 8192 index words, a negative one moved up by the
    table's 100000 rows, laid out as an [8192, 1] column. -/
def idxCol (a : IVec S8192 32) : IVec S8192x1 32 :=
  broadcastInDim S8192x1 ![0] bcast_S8192_S8192x1_0
    (select (cmpi .slt a (broadcastInDim S8192 ![] bcast_S_S8192 (constantI S_ 32 0#32)))
      (addi a (broadcastInDim S8192 ![] bcast_S_S8192 (constantI S_ 32 100000#32))) a)

/-- At a word that is a node id the column holds the word itself: it is not negative, so it is not moved. -/
theorem idxCol_apply (a : IVec S8192 32) (j : S8192x1.Idx) (h : (a (ix1 (j 0))).toNat < 100000) :
    idxCol a j = a (ix1 (j 0)) := by
  unfold idxCol
  refine (broadcastInDim_apply (![0] : Fin 1 → Fin 2) bcast_S8192_S8192x1_0 _ j (ix1 (j 0))
    (fun b => match b with | ⟨0, _⟩ => rfl)).trans ?_
  exact Cert.LibIndexWords.wrap_of_nonneg (a (ix1 (j 0))) 100000#32
    (by rw [toInt_of_lt h]; exact Int.natCast_nonneg _)

/-- The in-table bit of each index word: "0 ≤ word" and "word ≤ 99999", and-ed, then and-reduced along the
    column's one-entry axis from the bit 1. -/
def rowMask (a : IVec S8192 32) : IVec S8192 1 :=
  Host.reduce IntOp.andi
    (andi (cmpi .sge (idxCol a) (broadcastInDim S8192x1 ![] bcast_S_S8192x1 (constantI S_ 32 0#32)))
      (cmpi .sle (idxCol a) (broadcastInDim S8192x1 ![0, 1] bcast_S1x1_S8192x1_0_1
        (broadcastInDim S1x1 ![1] bcast_S1_S1x1_1 (constantI S1 32 99999#32)))))
    (constantI S_ 1 1#1) reducesTo_S8192x1_S8192_d1 h_S_

/-- Both comparisons hold at a node id. -/
theorem inTable (a : IVec S8192 32) (ha : ∀ p : Fin 8192, (a (ix1 p)).toNat < 100000) (j : S8192x1.Idx) :
    andi (cmpi .sge (idxCol a) (broadcastInDim S8192x1 ![] bcast_S_S8192x1 (constantI S_ 32 0#32)))
      (cmpi .sle (idxCol a) (broadcastInDim S8192x1 ![0, 1] bcast_S1x1_S8192x1_0_1
        (broadcastInDim S1x1 ![1] bcast_S1_S1x1_1 (constantI S1 32 99999#32)))) j = 1#1 := by
  show IntOp.andi (IntOp.cmpi .sge (idxCol a j) 0#32) (IntOp.cmpi .sle (idxCol a j) 99999#32) = 1#1
  have h := ha (j 0)
  rw [idxCol_apply a j h]
  have hge : IntOp.cmpi .sge (a (ix1 (j 0))) 0#32 = 1#1 :=
    (StableHlo.Predicate.sge_iff_toNat (by omega) (by decide)).mpr (Nat.zero_le _)
  have hle : IntOp.cmpi .sle (a (ix1 (j 0))) 99999#32 = 1#1 :=
    (StableHlo.Predicate.sle_iff_toNat (by omega) (by decide)).mpr (by show _ ≤ 99999; omega)
  rw [hge, hle]
  decide

/-- So every in-table bit is 1. -/
theorem rowMask_apply (a : IVec S8192 32) (ha : ∀ p : Fin 8192, (a (ix1 p)).toNat < 100000) (q : S8192.Idx) :
    rowMask a q = 1#1 := by
  unfold rowMask Host.reduce
  exact foldl_andi_one _ (fun n => inTable a ha _) _

/-- One row lookup as the program spells it: gather the table's rows at the index column (the start row clamped
    into the table), and keep a gathered row where the in-table bit is 1, else a row of the word 0x7FC00000. -/
def takeRows (x : FVec Ideal S100000x64 .f32) (a : IVec S8192 32) : FVec Ideal S8192x64 .f32 :=
  select (broadcastInDim S8192x64 ![0] bcast_S8192_S8192x64_0 (rowMask a))
    (Host.gather gather_S100000x64_S8192x1_S8192x64_1_0_n_n_0_1_164 x (idxCol a))
    (broadcastInDim S8192x64 ![] bcast_S_S8192x64 (constant (F := Ideal) S_ .f32 0x7FC00000#32))

/-- With node ids for index words, the lookup is the model's: row p of the result is the table's row "word p". -/
theorem takeRows_eq (x : FVec Ideal S100000x64 .f32) (a : IVec S8192 32)
    (ha : ∀ p : Fin 8192, (a (ix1 p)).toNat < 100000) :
    takeRows x a = Cert.Model.rowsOf x (fun p => a (ix1 p)) := by
  funext i
  obtain ⟨p, k, rfl⟩ : ∃ (p : Fin 8192) (k : Fin 64), i = ix2 p k := ⟨i 0, i 1, eq_ix2 i⟩
  have hmask : broadcastInDim S8192x64 ![0] bcast_S8192_S8192x64_0 (rowMask a) (ix2 p k) = 1#1 :=
    (broadcastInDim_apply (![0] : Fin 1 → Fin 2) bcast_S8192_S8192x64_0 (rowMask a) (ix2 p k) (ix1 p)
      (fun b => match b with | ⟨0, _⟩ => rfl)).trans (rowMask_apply a ha (ix1 p))
  have hcol : idxCol a (ix2 p 0) = a (ix1 p) := idxCol_apply a (ix2 p 0) (ha p)
  have hnat : ((a (ix1 p)).toInt).toNat = (a (ix1 p)).toNat := by
    rw [toInt_of_lt (ha p)]; exact Int.toNat_natCast _
  show Scalar.select (broadcastInDim S8192x64 ![0] bcast_S8192_S8192x64_0 (rowMask a) (ix2 p k))
      (Host.gather gather_S100000x64_S8192x1_S8192x64_1_0_n_n_0_1_164 x (idxCol a) (ix2 p k)) _ = _
  rw [hmask, select_one]
  refine (Cert.LibScatterGatherRows.gather_rows_ideal gather_S100000x64_S8192x1_S8192x64_1_0_n_n_0_1_164
    rfl rfl rfl rfl rfl x (idxCol a) p k (by decide)).trans ?_
  exact congrArg x (congrArg (fun r => ix2 r k) (Fin.ext (by
    show min (idxCol a (ix2 p 0)).toInt.toNat (100000 - 1) = min (a (ix1 p)).toNat 99999
    rw [hcol, hnat])))

/-! ## The labels, and the mean -/

/-- The label vector as an [8192, 1] column: entry (p, 0) is label p. -/
theorem labelCol_eq (x6 : FVec Ideal S8192 .f32) :
    broadcastInDim S8192x1 ![0] bcast_S8192_S8192x1_0 x6 = fun i => x6 (ix1 (i 0)) :=
  funext fun i => broadcastInDim_apply (![0] : Fin 1 → Fin 2) bcast_S8192_S8192x1_0 x6 i (ix1 (i 0))
    (fun b => match b with | ⟨0, _⟩ => rfl)

/-- The sum of an [8192, 1] column over both axes, from the zero word, divided by the word 0x46000000: the zero word is
    the real 0, the column's index set is its 8192 rows (the second axis has one entry), the host's quotient is the
    ideal division. -/
theorem mean_eq (y : FVec Ideal S8192x1 .f32) :
    Host.divf (Host.reduceAdd y (constant (F := Ideal) S_ .f32 0x00000000#32) reducesTo_S8192x1_S_d0_1 h_S_)
        (constant (F := Ideal) S_ .f32 0x46000000#32)
      = fun _ => Ideal.div (∑ p : Fin 8192, y (ix2 p 0)) (Ideal.ofBits .f32 0x46000000#32) := by
  funext i
  show Ideal.div (Ideal.hostReduceAdd reducesTo_S8192x1_S_d0_1 y (Ideal.ofBits .f32 0x00000000#32) i)
      (Ideal.ofBits .f32 0x46000000#32) = _
  rw [Ideal.hostReduceAdd_total reducesTo_S8192x1_S_d0_1 (fun b => b.elim0) y _ i, Ideal.ofBits_zero_f32, zero_add,
    sum_idx2]
  exact congrArg (fun s => Ideal.div s (Ideal.ofBits .f32 0x46000000#32))
    (Finset.sum_congr rfl fun p _ => Fin.sum_univ_one _)

/-! ## The four stretches' results as functions of the entry contents

Each is stated at ANY contents Wv of the buffers when the stretch is entered: the result buffer holds the stretch's
operations applied, in order, to what Wv holds at the buffers the stretch reads. -/

/-- The first lookup stretch: the row lookup of the node table's buffer by the source words' buffer. -/
theorem take_src (Wv : Valuation τ sig (Elt Ideal)) : StableHlo.after hostOps7 Wv (Proc.devRef .tc main_v89)
    = takeRows (Wv (Proc.devRef .tc main_v88)) (Wv (Proc.devRef .tc main_arg4)) := by
  after_results_simp
  rfl

/-- The second lookup stretch: the same lookup by the target words' buffer. -/
theorem take_dst (Wv : Valuation τ sig (Elt Ideal)) : StableHlo.after hostOps7_1 Wv (Proc.devRef .tc main_v90)
    = takeRows (Wv (Proc.devRef .tc main_v88)) (Wv (Proc.devRef .tc main_arg5)) := by
  after_results_simp
  rfl

/-- The label stretch: the label vector broadcast along a new second axis. -/
theorem label_col (Wv : Valuation τ sig (Elt Ideal)) : StableHlo.after hostOps7_2 Wv (Proc.devRef .tc main_v91)
    = broadcastInDim S8192x1 ![0] bcast_S8192_S8192x1_0 (Wv (Proc.devRef .tc main_arg6)) := by
  after_results_simp

/-- The final stretch: the loss column summed over both axes from the zero word, divided by the word 0x46000000. -/
theorem mean_tail (Wv : Valuation τ sig (Elt Ideal)) : StableHlo.after hostOps8 Wv (Proc.devRef .tc main_v94)
    = Host.divf (Host.reduceAdd (Wv (Proc.devRef .tc main_v92)) (constant (F := Ideal) S_ .f32 0x00000000#32)
        reducesTo_S8192x1_S_d0_1 h_S_) (constant (F := Ideal) S_ .f32 0x46000000#32) := by
  after_results_simp

/-! ## The walk through the last stretch of the program

The boundaries: 17 after the second layer's GRU region; 18 after the first row lookup (by the source words, from the
node table); 19 after the second row lookup (by the target words); 20 after the label column is made (the scorer
region's entry); 21 after the scorer region; 22 after the final sum and division. -/

variable (m : (ℓ : Loc nD τ sig) → Buf (Elt Ideal) ℓ) (ρ : Dev nD → PrngReg) (c : Dev nD)

/-- A stretch of host operations leaves a buffer that none of them writes: every operation's written buffer is a
    different reference. -/
macro "host_skip " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ### The source words (argument 4) from boundary 17 on -/

theorem arg4_18 : W18 m ρ c (Proc.devRef .tc main_arg4) = W17 m ρ c (Proc.devRef .tc main_arg4) := by host_skip hostOps7
theorem arg4_19 : W19 m ρ c (Proc.devRef .tc main_arg4) = W18 m ρ c (Proc.devRef .tc main_arg4) := by host_skip hostOps7_1
theorem arg4_20 : W20 m ρ c (Proc.devRef .tc main_arg4) = W19 m ρ c (Proc.devRef .tc main_arg4) := by host_skip hostOps7_2
theorem arg4_22 : W22 m ρ c (Proc.devRef .tc main_arg4) = W21 m ρ c (Proc.devRef .tc main_arg4) := by host_skip hostOps8
/-- No later stretch or region writes the source words, and they end as launched: at boundary 17 they are the
    launch contents. -/
theorem arg4_at17 : W17 m ρ c (Proc.devRef .tc main_arg4) = m ((c : Thread nD τ).loc main_arg4) :=
  calc W17 m ρ c (Proc.devRef .tc main_arg4)
    _ = W18 m ρ c (Proc.devRef .tc main_arg4) := (arg4_18 m ρ c).symm
    _ = W19 m ρ c (Proc.devRef .tc main_arg4) := (arg4_19 m ρ c).symm
    _ = W20 m ρ c (Proc.devRef .tc main_arg4) := (arg4_20 m ρ c).symm
    _ = W21 m ρ c (Proc.devRef .tc main_arg4) := (W21_of_ne m ρ c main_arg4 (by decide)).symm
    _ = W22 m ρ c (Proc.devRef .tc main_arg4) := (arg4_22 m ρ c).symm
    _ = m ((c : Thread nD τ).loc main_arg4) := W22_main_arg4 m ρ c

/-! ### The target words (argument 5) from boundary 18 on -/

theorem arg5_19 : W19 m ρ c (Proc.devRef .tc main_arg5) = W18 m ρ c (Proc.devRef .tc main_arg5) := by host_skip hostOps7_1
theorem arg5_20 : W20 m ρ c (Proc.devRef .tc main_arg5) = W19 m ρ c (Proc.devRef .tc main_arg5) := by host_skip hostOps7_2
theorem arg5_22 : W22 m ρ c (Proc.devRef .tc main_arg5) = W21 m ρ c (Proc.devRef .tc main_arg5) := by host_skip hostOps8
theorem arg5_at18 : W18 m ρ c (Proc.devRef .tc main_arg5) = m ((c : Thread nD τ).loc main_arg5) :=
  calc W18 m ρ c (Proc.devRef .tc main_arg5)
    _ = W19 m ρ c (Proc.devRef .tc main_arg5) := (arg5_19 m ρ c).symm
    _ = W20 m ρ c (Proc.devRef .tc main_arg5) := (arg5_20 m ρ c).symm
    _ = W21 m ρ c (Proc.devRef .tc main_arg5) := (W21_of_ne m ρ c main_arg5 (by decide)).symm
    _ = W22 m ρ c (Proc.devRef .tc main_arg5) := (arg5_22 m ρ c).symm
    _ = m ((c : Thread nD τ).loc main_arg5) := W22_main_arg5 m ρ c

/-! ### The labels (argument 6) from boundary 19 on -/

theorem arg6_20 : W20 m ρ c (Proc.devRef .tc main_arg6) = W19 m ρ c (Proc.devRef .tc main_arg6) := by host_skip hostOps7_2
theorem arg6_22 : W22 m ρ c (Proc.devRef .tc main_arg6) = W21 m ρ c (Proc.devRef .tc main_arg6) := by host_skip hostOps8
theorem arg6_at19 : W19 m ρ c (Proc.devRef .tc main_arg6) = m ((c : Thread nD τ).loc main_arg6) :=
  calc W19 m ρ c (Proc.devRef .tc main_arg6)
    _ = W20 m ρ c (Proc.devRef .tc main_arg6) := (arg6_20 m ρ c).symm
    _ = W21 m ρ c (Proc.devRef .tc main_arg6) := (W21_of_ne m ρ c main_arg6 (by decide)).symm
    _ = W22 m ρ c (Proc.devRef .tc main_arg6) := (arg6_22 m ρ c).symm
    _ = m ((c : Thread nD τ).loc main_arg6) := W22_main_arg6 m ρ c

/-! ### The scorer region's argument windows at its entry (boundary 20): the region hands an input window's
    array back as it found it, and the final stretch does not write it -/

theorem arg7_22 : W22 m ρ c (Proc.devRef .tc main_arg7) = W21 m ρ c (Proc.devRef .tc main_arg7) := by host_skip hostOps8
theorem arg7_at20 : W20 m ρ c (Proc.devRef .tc main_arg7) = m ((c : Thread nD τ).loc main_arg7) :=
  calc W20 m ρ c (Proc.devRef .tc main_arg7)
    _ = W21 m ρ c (Proc.devRef .tc main_arg7) :=
        ((W21_arr m ρ c 2).trans (((dat7 (V20 m ρ) c).arrAt_in 2 rfl _).trans (A_eq7 (V20 m ρ) c 2))).symm
    _ = W22 m ρ c (Proc.devRef .tc main_arg7) := (arg7_22 m ρ c).symm
    _ = m ((c : Thread nD τ).loc main_arg7) := W22_main_arg7 m ρ c

theorem arg18_22 : W22 m ρ c (Proc.devRef .tc main_arg18) = W21 m ρ c (Proc.devRef .tc main_arg18) := by host_skip hostOps8
theorem arg18_at20 : W20 m ρ c (Proc.devRef .tc main_arg18) = m ((c : Thread nD τ).loc main_arg18) :=
  calc W20 m ρ c (Proc.devRef .tc main_arg18)
    _ = W21 m ρ c (Proc.devRef .tc main_arg18) :=
        ((W21_arr m ρ c 3).trans (((dat7 (V20 m ρ) c).arrAt_in 3 rfl _).trans (A_eq7 (V20 m ρ) c 3))).symm
    _ = W22 m ρ c (Proc.devRef .tc main_arg18) := (arg18_22 m ρ c).symm
    _ = m ((c : Thread nD τ).loc main_arg18) := W22_main_arg18 m ρ c

theorem arg19_22 : W22 m ρ c (Proc.devRef .tc main_arg19) = W21 m ρ c (Proc.devRef .tc main_arg19) := by host_skip hostOps8
theorem arg19_at20 : W20 m ρ c (Proc.devRef .tc main_arg19) = m ((c : Thread nD τ).loc main_arg19) :=
  calc W20 m ρ c (Proc.devRef .tc main_arg19)
    _ = W21 m ρ c (Proc.devRef .tc main_arg19) :=
        ((W21_arr m ρ c 4).trans (((dat7 (V20 m ρ) c).arrAt_in 4 rfl _).trans (A_eq7 (V20 m ρ) c 4))).symm
    _ = W22 m ρ c (Proc.devRef .tc main_arg19) := (arg19_22 m ρ c).symm
    _ = m ((c : Thread nD τ).loc main_arg19) := W22_main_arg19 m ρ c

theorem arg20_22 : W22 m ρ c (Proc.devRef .tc main_arg20) = W21 m ρ c (Proc.devRef .tc main_arg20) := by host_skip hostOps8
theorem arg20_at20 : W20 m ρ c (Proc.devRef .tc main_arg20) = m ((c : Thread nD τ).loc main_arg20) :=
  calc W20 m ρ c (Proc.devRef .tc main_arg20)
    _ = W21 m ρ c (Proc.devRef .tc main_arg20) :=
        ((W21_arr m ρ c 5).trans (((dat7 (V20 m ρ) c).arrAt_in 5 rfl _).trans (A_eq7 (V20 m ρ) c 5))).symm
    _ = W22 m ρ c (Proc.devRef .tc main_arg20) := (arg20_22 m ρ c).symm
    _ = m ((c : Thread nD τ).loc main_arg20) := W22_main_arg20 m ρ c

theorem arg21_22 : W22 m ρ c (Proc.devRef .tc main_arg21) = W21 m ρ c (Proc.devRef .tc main_arg21) := by host_skip hostOps8
theorem arg21_at20 : W20 m ρ c (Proc.devRef .tc main_arg21) = m ((c : Thread nD τ).loc main_arg21) :=
  calc W20 m ρ c (Proc.devRef .tc main_arg21)
    _ = W21 m ρ c (Proc.devRef .tc main_arg21) :=
        ((W21_arr m ρ c 6).trans (((dat7 (V20 m ρ) c).arrAt_in 6 rfl _).trans (A_eq7 (V20 m ρ) c 6))).symm
    _ = W22 m ρ c (Proc.devRef .tc main_arg21) := (arg21_22 m ρ c).symm
    _ = m ((c : Thread nD τ).loc main_arg21) := W22_main_arg21 m ρ c

/-! ### The node table and the two looked-up tables -/

/-- The first lookup does not write the node table. -/
theorem table_18 : W18 m ρ c (Proc.devRef .tc main_v88) = W17 m ρ c (Proc.devRef .tc main_v88) := by host_skip hostOps7

/-- The first lookup's result is the program's row lookup of the node table by the source words, both as they stand at
    boundary 17. -/
theorem src_at18 : W18 m ρ c (Proc.devRef .tc main_v89)
    = takeRows (W17 m ρ c (Proc.devRef .tc main_v88)) (W17 m ρ c (Proc.devRef .tc main_arg4)) :=
  take_src (W17 m ρ c)
theorem src_19 : W19 m ρ c (Proc.devRef .tc main_v89) = W18 m ρ c (Proc.devRef .tc main_v89) := by host_skip hostOps7_1
theorem src_20 : W20 m ρ c (Proc.devRef .tc main_v89) = W19 m ρ c (Proc.devRef .tc main_v89) := by host_skip hostOps7_2

/-- The second lookup's result likewise, by the target words, from boundary 18. -/
theorem dst_at19 : W19 m ρ c (Proc.devRef .tc main_v90)
    = takeRows (W18 m ρ c (Proc.devRef .tc main_v88)) (W18 m ρ c (Proc.devRef .tc main_arg5)) :=
  take_dst (W18 m ρ c)
theorem dst_20 : W20 m ρ c (Proc.devRef .tc main_v90) = W19 m ρ c (Proc.devRef .tc main_v90) := by host_skip hostOps7_2

/-- The label column is the label vector broadcast along a new second axis. -/
theorem lab_at20 : W20 m ρ c (Proc.devRef .tc main_v91)
    = broadcastInDim S8192x1 ![0] bcast_S8192_S8192x1_0 (W19 m ρ c (Proc.devRef .tc main_arg6)) :=
  label_col (W19 m ρ c)

/-- The result buffer after the final stretch: the scorer region's loss column summed over both axes from the zero word,
    divided by the word 0x46000000. -/
theorem res_at22 : W22 m ρ c (Proc.devRef .tc main_v94)
    = Host.divf (Host.reduceAdd (W21 m ρ c (Proc.devRef .tc main_v92)) (constant (F := Ideal) S_ .f32 0x00000000#32)
        reducesTo_S8192x1_S_d0_1 h_S_) (constant (F := Ideal) S_ .f32 0x46000000#32) :=
  mean_tail (W21 m ρ c)

/-! ## The result -/

/-- THE PROGRAM'S RESULT, FROM WHAT THE SECOND LAYER LEFT. Given the scorer region's value (at any entry contents, its
    output array is the specification's per-pair loss column of its eight input arrays), source and target words that are
    node ids, and the node table H standing at boundary 17: the result buffer holds the model's mean loss from H. The two
    looked-up tables are the model's row lookups of H (the words are node ids, so no word is wrapped, every in-table bit is
    1 and the clamp is the identity); the label column's entry (p, 0) is label p; the arguments the scorer reads are the
    launch contents; and the final stretch sums the loss column's 8192 entries from 0 and divides by the word 0x46000000. -/
theorem loss_eq
    (hv7 : ∀ (V : (c : Dev nD) → (b : Ref sig .tc) → Buf (Elt Ideal) ((c : Thread nD τ).loc b)) (c : Dev nD),
      (dat7 (F := Ideal) V c).arrAt 8 cfg7.N = Cert.Spec.pairLoss (V c main_v89) (V c main_v90) (V c main_arg7)
        (V c main_arg18) (V c main_arg19) (V c main_arg20) (V c main_arg21) (V c main_v91))
    (h4 : ∀ p : Fin 8192, ((m ((c : Thread nD τ).loc main_arg4)) (ix1 p)).toNat < 100000)
    (h5 : ∀ p : Fin 8192, ((m ((c : Thread nD τ).loc main_arg5)) (ix1 p)).toNat < 100000)
    (H : FVec Ideal S100000x64 .f32) (hprev : W17 m ρ c (Proc.devRef .tc main_v88) = H) :
    W22 m ρ c (Proc.devRef .tc main_v94) = fun _ => Cert.Model.lossFrom (m ((c : Thread nD τ).loc main_arg4))
      (m ((c : Thread nD τ).loc main_arg5)) (m ((c : Thread nD τ).loc main_arg6)) (m ((c : Thread nD τ).loc main_arg7))
      (m ((c : Thread nD τ).loc main_arg18)) (m ((c : Thread nD τ).loc main_arg19)) (m ((c : Thread nD τ).loc main_arg20))
      (m ((c : Thread nD τ).loc main_arg21)) H := by
  -- the scorer's eight input arrays at its entry
  have e89 : V20 m ρ c main_v89
      = Cert.Model.rowsOf H (fun p : Fin 8192 => (m ((c : Thread nD τ).loc main_arg4)) (ix1 p)) := by
    show W20 m ρ c (Proc.devRef .tc main_v89) = _
    rw [src_20, src_19, src_at18, hprev, arg4_at17]
    exact takeRows_eq H _ h4
  have e90 : V20 m ρ c main_v90
      = Cert.Model.rowsOf H (fun p : Fin 8192 => (m ((c : Thread nD τ).loc main_arg5)) (ix1 p)) := by
    show W20 m ρ c (Proc.devRef .tc main_v90) = _
    rw [dst_20, dst_at19, table_18, hprev, arg5_at18]
    exact takeRows_eq H _ h5
  have e91 : V20 m ρ c main_v91 = fun i => (m ((c : Thread nD τ).loc main_arg6)) (ix1 (i 0)) := by
    show W20 m ρ c (Proc.devRef .tc main_v91) = _
    rw [lab_at20, arg6_at19]
    exact labelCol_eq _
  have e7 : V20 m ρ c main_arg7 = m ((c : Thread nD τ).loc main_arg7) := arg7_at20 m ρ c
  have e18 : V20 m ρ c main_arg18 = m ((c : Thread nD τ).loc main_arg18) := arg18_at20 m ρ c
  have e19 : V20 m ρ c main_arg19 = m ((c : Thread nD τ).loc main_arg19) := arg19_at20 m ρ c
  have e20 : V20 m ρ c main_arg20 = m ((c : Thread nD τ).loc main_arg20) := arg20_at20 m ρ c
  have e21 : V20 m ρ c main_arg21 = m ((c : Thread nD τ).loc main_arg21) := arg21_at20 m ρ c
  -- the scorer's output array after the region
  have hcol : W21 m ρ c (Proc.devRef .tc main_v92)
      = Cert.Model.lossRows (m ((c : Thread nD τ).loc main_arg4)) (m ((c : Thread nD τ).loc main_arg5))
          (m ((c : Thread nD τ).loc main_arg6)) (m ((c : Thread nD τ).loc main_arg7))
          (m ((c : Thread nD τ).loc main_arg18)) (m ((c : Thread nD τ).loc main_arg19))
          (m ((c : Thread nD τ).loc main_arg20)) (m ((c : Thread nD τ).loc main_arg21)) H := by
    refine (W21_arr m ρ c 8).trans ?_
    rw [hv7 (V20 m ρ) c, e89, e90, e91, e7, e18, e19, e20, e21]
    rfl
  rw [res_at22, hcol, mean_eq]
  rfl

end Cert.KernelIdeal.KThread3

end
-- ==== Proof.RLayer1.lean ====
/-
  The reference's node table after the projection and after the first layer is the network model's.

  * the projection: entry (n, j) of x0 @ x8 + x9 is the 1024-term sum plus the bias entry;
  * the edge gate: the reference spells the logistic as 1 / (1 + exp (-t)) on the 64-term dot of (query * attribute) with
    the gate column plus the gate bias; the product of two extended reals commutes, so it is the model's gate;
  * the row lookup: an index word that is a node id (below 100000) is not negative, so the wrap select(w < 0, w + 100000, w)
    is the word, and the gather's clamp min w.toInt.toNat 99999 is min w.toNat 99999, the model's row;
  * the message: the reference applies the message linear to the looked-up rows, the model looks up the per-node linear;
    entry (e, j) of both is literally the same 64-term sum over the looked-up row, plus the same bias entry, times the gate;
  * the aggregation: the scatter-add of the messages is the reference's segment sum, by unfolding;
  * the GRU: each of the two [100000, 192] pre-activation arrays, read at column 64 g + j, is the affine map of gate
    block g (the transposed weight block and the bias block); the column slices pick g = 0, 1, 2; the update
    (1 - z) * n + z * h with r, z the logistic spelt 1 / (1 + exp (-t)) and n the tanh is the model's cell.
-/
import proofs.«422311_j73100343378050_3_alg».proof.Proof.RRead
import proofs.«422311_j73100343378050_3_alg».proof.Proof.Model
import proofs.«422311_j73100343378050_3_alg».proof.Proof.Seg
import proofs.«422311_j73100343378050_3_alg».proof.Proof.LibScatterGatherRows
import proofs.«422311_j73100343378050_3_alg».proof.Proof.LibIndexWords
import Idealize.ShloMosaic.Lib.ValueIdx
import Idealize.ShloMosaic.Lib.IdealHost
import Idealize.ShloMosaic.Lib.StableHlo.Predicate
import Idealize.ShloMosaic.PureOps.Ideal.Laws

noncomputable section

open scoped BigOperators

namespace Cert.ReferenceIdeal.RThread

open Idealize.ShloMosaic Idealize.ShloMosaic.TcCoe Idealize.ShloMosaic.ValueIdx Cert.ReferenceIdeal Cert.ReferenceIdeal.Read

variable (x0 : (⟨S100000x1024, .f32⟩ : BufTy).Contents (Elt Ideal)) (x1 : (⟨S2x1600000, .i32⟩ : BufTy).Contents (Elt Ideal))
  (x2 x3 : (⟨S1600000x64, .f32⟩ : BufTy).Contents (Elt Ideal)) (x8 : (⟨S1024x64, .f32⟩ : BufTy).Contents (Elt Ideal))
  (x9 : (⟨S64, .f32⟩ : BufTy).Contents (Elt Ideal)) (x10 : (⟨S2x64x64, .f32⟩ : BufTy).Contents (Elt Ideal))
  (x11 : (⟨S2x64, .f32⟩ : BufTy).Contents (Elt Ideal)) (x12 : (⟨S2x64x1, .f32⟩ : BufTy).Contents (Elt Ideal))
  (x13 : (⟨S2x1, .f32⟩ : BufTy).Contents (Elt Ideal)) (x14 x15 : (⟨S2x192x64, .f32⟩ : BufTy).Contents (Elt Ideal))
  (x16 x17 : (⟨S2x192, .f32⟩ : BufTy).Contents (Elt Ideal))

/-! ## The projection -/

/-- Entry (n, j) of the projection: the 1024-term sum plus the bias entry. -/
theorem proj_apply (n : Fin 100000) (j : Fin 64) :
    val_main_v3 (F := Ideal) x0 x8 x9 (ix2 n j) = (∑ k : Fin 1024, x0 (ix2 n k) * x8 (ix2 k j)) + x9 (ix1 j) := by
  rw [val_main_v3_apply, val_main_v0_apply, val_main_v2_apply, val_main_v1_apply]
  have el : ∀ k : Fin 1024, lidx_main_v0 (ix2 n j) k = ix2 n k := fun k =>
    funext fun a => Fin.ext (by match a with | ⟨0, _⟩ => rfl | ⟨1, _⟩ => rfl)
  have er : ∀ k : Fin 1024, ridx_main_v0 (ix2 n j) k = ix2 k j := fun k =>
    funext fun a => Fin.ext (by match a with | ⟨0, _⟩ => rfl | ⟨1, _⟩ => rfl)
  have eb : idx_main_v1 (idx_main_v2 (ix2 n j)) = ix1 j :=
    funext fun a => Fin.ext (by match a with | ⟨0, _⟩ => rfl)
  simp only [el, er, eb, Ideal.addf_def]

/-- The reference's node table after the projection is the model's. -/
theorem h0_eq : val_main_v3 (F := Ideal) x0 x8 x9 = Cert.Model.h0 x0 x8 x9 := by
  funext i
  obtain ⟨n, j, rfl⟩ : ∃ (n : Fin 100000) (j : Fin 64), i = ix2 n j := ⟨i 0, i 1, eq_ix2 i⟩
  rw [proj_apply]
  rfl

/-! ## The edge gate of layer 1 -/

/-- The gate of edge e: the reference's 1 / (1 + exp (-t)) is the logistic, and query * attribute is attribute * query. -/
theorem gate_apply (e : Fin 1600000) :
    val_main_v30 (F := Ideal) x2 x3 x12 x13 (ix2 e 0)
      = Cert.Spec.gate x2 x3 (Cert.Model.wrow x12 0) (Cert.Model.beta x13 0) (ix2 e 0) := by
  rw [val_main_v30_apply, val_main_v29_apply, val_main_cst_0_apply, val_main_v28_apply, val_main_v27_apply,
    val_main_cst_apply, val_main_v26_apply, val_main_v25_apply, val_main_v24_apply, val_main_v21_apply,
    val_main_v23_apply, val_main_v22_apply, val_main_v11_apply, val_main_v10_apply]
  have e1 : ∀ k : Fin 64, lidx_main_v21 (ix2 e 0) k = ix2 e k := fun k =>
    funext fun a => Fin.ext (by match a with | ⟨0, _⟩ => rfl | ⟨1, _⟩ => rfl)
  have e2 : ∀ k : Fin 64, idx_main_v8 (idx_main_v9 (ridx_main_v21 (ix2 e 0) k)) = ix3 0 k 0 := fun k =>
    funext fun a => Fin.ext (by
      match a with
      | ⟨0, _⟩ => rfl
      | ⟨1, _⟩ => have hk := k.isLt; show (k.val * 1 + 0) / 1 % 64 = k.val; omega
      | ⟨2, _⟩ => rfl)
  have e3 : idx_main_v10 (idx_main_v11 (idx_main_v22 (idx_main_v23 (ix2 e 0)))) = ix2 0 0 :=
    funext fun a => Fin.ext (by match a with | ⟨0, _⟩ => rfl | ⟨1, _⟩ => rfl)
  simp only [val_main_v20_apply, val_main_v9_apply, val_main_v8_apply, e1, e2, e3, Ideal.hostDivf_def, Ideal.addf_def,
    Ideal.mulf_def, Ideal.hostNegf_def, Ideal.negf_def, Ideal.hostUnary_exp_def, Ideal.ofBits_def, Ideal.ofBits_one_f32]
  have hc : ∀ k : Fin 64, x3 (ix2 e k) * x2 (ix2 e k) = x2 (ix2 e k) * x3 (ix2 e k) := fun k => mul_comm _ _
  simp only [hc]
  rfl

/-! ## The row lookup -/

/-- The wrapped index word of edge e is row 0 of the edge index at e: a node id is not negative. -/
theorem word_apply (e : Fin 1600000) (hr : (x1 (ix2 0 e)).toNat < 100000) :
    val_main_v38 (F := Ideal) x1 (ix2 e 0) = x1 (ix2 0 e) := by
  rw [val_main_v38_apply, val_main_v37_apply, val_main_v34_apply, val_main_v36_apply, val_main_v33_apply,
    val_main_c_apply]
  have h32 : val_main_v32 (F := Ideal) x1 (idx_main_v38 (ix2 e 0)) = x1 (ix2 0 e) := by
    rw [val_main_v32_apply, val_main_v31_apply]
    refine congrArg x1 (funext fun a => Fin.ext ?_)
    match a with
    | ⟨0, _⟩ => rfl
    | ⟨1, _⟩ => exact Nat.mod_eq_of_lt e.isLt
  rw [h32]
  have hi : (x1 (ix2 0 e)).toInt = ((x1 (ix2 0 e)).toNat : ℤ) :=
    StableHlo.Predicate.toInt_eq_toNat_of_lt (by omega)
  exact Cert.LibIndexWords.wrap_of_nonneg _ _ (by rw [hi]; exact Int.natCast_nonneg _)

/-- Row e of the gathered table is the projection's row "word e, clamped to the last row". -/
theorem rows_apply (e : Fin 1600000) (hr : (x1 (ix2 0 e)).toNat < 100000) (k : Fin 64) :
    val_main_v39 (F := Ideal) x0 x1 x8 x9 (ix2 e k)
      = val_main_v3 (F := Ideal) x0 x8 x9 (ix2 ⟨min (x1 (ix2 0 e)).toNat 99999, by omega⟩ k) := by
  unfold val_main_v39
  refine (Cert.LibScatterGatherRows.gather_rows gather_S100000x64_S1600000x1_S1600000x64_1_0_n_n_0_1_164
    rfl rfl rfl rfl rfl _ _ e k (by decide)).trans ?_
  refine congrArg (val_main_v3 (F := Ideal) x0 x8 x9) (congrArg (fun r => ix2 r k) (Fin.ext ?_))
  show min (val_main_v38 (F := Ideal) x1 (ix2 e 0)).toInt.toNat (100000 - 1) = min (x1 (ix2 0 e)).toNat 99999
  rw [word_apply x1 e hr, StableHlo.Predicate.toInt_eq_toNat_of_lt (by omega), Int.toNat_natCast]

/-! ## The gated messages of layer 1 -/

/-- The reference's message array is the model's: the linear map of the looked-up row is the looked-up row of the
    per-node linear map. -/
theorem msg_eq (hr : ∀ e : Fin 1600000, (x1 (ix2 0 e)).toNat < 100000) :
    val_main_v45 (F := Ideal) x0 x1 x2 x3 x8 x9 x10 x11 x12 x13
      = Cert.Model.msg x1 x2 x3 x10 x11 x12 x13 0 (val_main_v3 (F := Ideal) x0 x8 x9) := by
  funext i
  obtain ⟨e, j, rfl⟩ : ∃ (e : Fin 1600000) (j : Fin 64), i = ix2 e j := ⟨i 0, i 1, eq_ix2 i⟩
  rw [val_main_v45_apply, val_main_v44_apply, val_main_v43_apply, val_main_v40_apply, val_main_v42_apply,
    val_main_v41_apply, val_main_v7_apply, val_main_v6_apply]
  have e0 : idx_main_v44 (ix2 e j) = ix2 e 0 :=
    funext fun a => Fin.ext (by match a with | ⟨0, _⟩ => rfl | ⟨1, _⟩ => rfl)
  have e1 : ∀ k : Fin 64, lidx_main_v40 (ix2 e j) k = ix2 e k := fun k =>
    funext fun a => Fin.ext (by match a with | ⟨0, _⟩ => rfl | ⟨1, _⟩ => rfl)
  have e2 : ∀ k : Fin 64, idx_main_v4 (idx_main_v5 (ridx_main_v40 (ix2 e j) k)) = ix3 0 k j := fun k =>
    funext fun a => Fin.ext (by
      have hk := k.isLt
      have hj := j.isLt
      match a with
      | ⟨0, _⟩ => rfl
      | ⟨1, _⟩ => show (k.val * 64 + j.val) / 64 % 64 = k.val; omega
      | ⟨2, _⟩ => show (k.val * 64 + j.val) % 64 = j.val; omega)
  have e3 : idx_main_v6 (idx_main_v7 (idx_main_v41 (idx_main_v42 (ix2 e j)))) = ix2 0 j :=
    funext fun a => Fin.ext (by
      match a with
      | ⟨0, _⟩ => rfl
      | ⟨1, _⟩ => exact Nat.mod_eq_of_lt j.isLt)
  simp only [val_main_v5_apply, val_main_v4_apply, e0, e1, e2, e3, gate_apply x2 x3 x12 x13 e,
    rows_apply x0 x1 x8 x9 e (hr e), Ideal.addf_def, Ideal.mulf_def]
  rfl

/-- The reference's scatter-add of the messages is the segment sum of the model's messages. -/
theorem agg_eq (hr : ∀ e : Fin 1600000, (x1 (ix2 0 e)).toNat < 100000) :
    val_main_v50 (F := Ideal) x0 x1 x2 x3 x8 x9 x10 x11 x12 x13
      = Cert.Seg.rsegsum x1 (Cert.Model.msg x1 x2 x3 x10 x11 x12 x13 0 (val_main_v3 (F := Ideal) x0 x8 x9)) := by
  rw [← msg_eq x0 x1 x2 x3 x8 x9 x10 x11 x12 x13 hr]
  rfl

/-! ## The GRU's pre-activations -/

/-- Column 64 g + j of a [*, 192] array: column j of gate block g. -/
def gateCol (g : Fin 3) (j : Fin 64) : Fin 192 := ⟨64 * g.val + j.val, by have := j.isLt; have := g.isLt; omega⟩

/-- The input-side pre-activation at (n, c): the aggregated row against row c of the stacked weight, plus bias entry c. -/
theorem ipre_apply (n : Fin 100000) (c : Fin 192) :
    val_main_v55 (F := Ideal) x0 x1 x2 x3 x8 x9 x10 x11 x12 x13 x14 x16 (ix2 n c)
      = (∑ k : Fin 64, val_main_v50 (F := Ideal) x0 x1 x2 x3 x8 x9 x10 x11 x12 x13 (ix2 n k) * x14 (ix3 0 c k))
        + x16 (ix2 0 c) := by
  rw [val_main_v55_apply, val_main_v52_apply, val_main_v54_apply, val_main_v53_apply, val_main_v17_apply,
    val_main_v16_apply]
  have e1 : ∀ k : Fin 64, lidx_main_v52 (ix2 n c) k = ix2 n k := fun k =>
    funext fun a => Fin.ext (by match a with | ⟨0, _⟩ => rfl | ⟨1, _⟩ => rfl)
  have e2 : ∀ k : Fin 64, idx_main_v12 (idx_main_v13 (idx_main_v51 (ridx_main_v52 (ix2 n c) k))) = ix3 0 c k := fun k =>
    funext fun a => Fin.ext (by
      have hk := k.isLt
      have hc := c.isLt
      match a with
      | ⟨0, _⟩ => rfl
      | ⟨1, _⟩ => show (c.val * 64 + k.val) / 64 % 192 = c.val; omega
      | ⟨2, _⟩ => show (c.val * 64 + k.val) % 64 = k.val; omega)
  have e3 : idx_main_v16 (idx_main_v17 (idx_main_v53 (idx_main_v54 (ix2 n c)))) = ix2 0 c :=
    funext fun a => Fin.ext (by
      match a with
      | ⟨0, _⟩ => rfl
      | ⟨1, _⟩ => exact Nat.mod_eq_of_lt c.isLt)
  simp only [val_main_v51_apply, val_main_v13_apply, val_main_v12_apply, e1, e2, e3, Ideal.addf_def]

/-- The hidden-side pre-activation at (n, c): the node row against row c of the stacked weight, plus bias entry c. -/
theorem hpre_apply (n : Fin 100000) (c : Fin 192) :
    val_main_v60 (F := Ideal) x0 x8 x9 x15 x17 (ix2 n c)
      = (∑ k : Fin 64, val_main_v3 (F := Ideal) x0 x8 x9 (ix2 n k) * x15 (ix3 0 c k)) + x17 (ix2 0 c) := by
  rw [val_main_v60_apply, val_main_v57_apply, val_main_v59_apply, val_main_v58_apply, val_main_v19_apply,
    val_main_v18_apply]
  have e1 : ∀ k : Fin 64, lidx_main_v57 (ix2 n c) k = ix2 n k := fun k =>
    funext fun a => Fin.ext (by match a with | ⟨0, _⟩ => rfl | ⟨1, _⟩ => rfl)
  have e2 : ∀ k : Fin 64, idx_main_v14 (idx_main_v15 (idx_main_v56 (ridx_main_v57 (ix2 n c) k))) = ix3 0 c k := fun k =>
    funext fun a => Fin.ext (by
      have hk := k.isLt
      have hc := c.isLt
      match a with
      | ⟨0, _⟩ => rfl
      | ⟨1, _⟩ => show (c.val * 64 + k.val) / 64 % 192 = c.val; omega
      | ⟨2, _⟩ => show (c.val * 64 + k.val) % 64 = k.val; omega)
  have e3 : idx_main_v18 (idx_main_v19 (idx_main_v58 (idx_main_v59 (ix2 n c)))) = ix2 0 c :=
    funext fun a => Fin.ext (by
      match a with
      | ⟨0, _⟩ => rfl
      | ⟨1, _⟩ => exact Nat.mod_eq_of_lt c.isLt)
  simp only [val_main_v56_apply, val_main_v15_apply, val_main_v14_apply, e1, e2, e3, Ideal.addf_def]

/-- At column 64 g + j the input-side pre-activation is the affine map of gate block g. -/
theorem ipre_block (g : Fin 3) (n : Fin 100000) (j : Fin 64) :
    val_main_v55 (F := Ideal) x0 x1 x2 x3 x8 x9 x10 x11 x12 x13 x14 x16 (ix2 n (gateCol g j))
      = Cert.Spec.affine (val_main_v50 (F := Ideal) x0 x1 x2 x3 x8 x9 x10 x11 x12 x13) (Cert.Model.wblock x14 0 g)
          (Cert.Model.bblock x16 0 g) (ix2 n j) := by
  rw [ipre_apply]
  rfl

/-- At column 64 g + j the hidden-side pre-activation is the affine map of gate block g. -/
theorem hpre_block (g : Fin 3) (n : Fin 100000) (j : Fin 64) :
    val_main_v60 (F := Ideal) x0 x8 x9 x15 x17 (ix2 n (gateCol g j))
      = Cert.Spec.affine (val_main_v3 (F := Ideal) x0 x8 x9) (Cert.Model.wblock x15 0 g) (Cert.Model.bblock x17 0 g)
          (ix2 n j) := by
  rw [hpre_apply]
  rfl

/-! The six column slices read columns j, 64 + j, 128 + j: gate blocks 0, 1, 2. -/

theorem idx61 (n : Fin 100000) (j : Fin 64) : idx_main_v61 (ix2 n j) = ix2 n (gateCol 0 j) :=
  funext fun a => Fin.ext (by
    match a with
    | ⟨0, _⟩ => rfl
    | ⟨1, _⟩ => show j.val = 64 * 0 + j.val; omega)
theorem idx62 (n : Fin 100000) (j : Fin 64) : idx_main_v62 (ix2 n j) = ix2 n (gateCol 1 j) :=
  funext fun a => Fin.ext (by
    match a with
    | ⟨0, _⟩ => rfl
    | ⟨1, _⟩ => show 64 + j.val = 64 * 1 + j.val; omega)
theorem idx63 (n : Fin 100000) (j : Fin 64) : idx_main_v63 (ix2 n j) = ix2 n (gateCol 2 j) :=
  funext fun a => Fin.ext (by
    match a with
    | ⟨0, _⟩ => rfl
    | ⟨1, _⟩ => show 128 + j.val = 64 * 2 + j.val; omega)
theorem idx64 (n : Fin 100000) (j : Fin 64) : idx_main_v64 (ix2 n j) = ix2 n (gateCol 0 j) :=
  funext fun a => Fin.ext (by
    match a with
    | ⟨0, _⟩ => rfl
    | ⟨1, _⟩ => show j.val = 64 * 0 + j.val; omega)
theorem idx65 (n : Fin 100000) (j : Fin 64) : idx_main_v65 (ix2 n j) = ix2 n (gateCol 1 j) :=
  funext fun a => Fin.ext (by
    match a with
    | ⟨0, _⟩ => rfl
    | ⟨1, _⟩ => show 64 + j.val = 64 * 1 + j.val; omega)
theorem idx66 (n : Fin 100000) (j : Fin 64) : idx_main_v66 (ix2 n j) = ix2 n (gateCol 2 j) :=
  funext fun a => Fin.ext (by
    match a with
    | ⟨0, _⟩ => rfl
    | ⟨1, _⟩ => show 128 + j.val = 64 * 2 + j.val; omega)

/-! ## The GRU update of layer 1 -/

/-- The reference's node table after the first layer is the model's layer 0 applied to the reference's projection. -/
theorem layer1_eq (hr : ∀ e : Fin 1600000, (x1 (ix2 0 e)).toNat < 100000) :
    val_main_v88 (F := Ideal) x0 x1 x2 x3 x8 x9 x10 x11 x12 x13 x14 x15 x16 x17
      = Cert.Model.layer x1 x2 x3 x10 x11 x12 x13 x14 x15 x16 x17 (Cert.Seg.rsegsum x1) 0
          (val_main_v3 (F := Ideal) x0 x8 x9) := by
  funext i
  obtain ⟨n, j, rfl⟩ : ∃ (n : Fin 100000) (j : Fin 64), i = ix2 n j := ⟨i 0, i 1, eq_ix2 i⟩
  rw [val_main_v88_apply, val_main_v86_apply, val_main_v87_apply, val_main_v85_apply, val_main_v84_apply,
    val_main_cst_7_apply, val_main_v83_apply, val_main_v82_apply, val_main_v81_apply, val_main_v80_apply,
    val_main_v79_apply, val_main_cst_6_apply, val_main_v78_apply, val_main_v77_apply, val_main_cst_5_apply,
    val_main_v76_apply, val_main_v75_apply, val_main_v74_apply, val_main_v73_apply, val_main_v72_apply,
    val_main_cst_4_apply, val_main_v71_apply, val_main_v70_apply, val_main_cst_3_apply, val_main_v69_apply,
    val_main_v68_apply, val_main_v67_apply,
    val_main_v61_apply, val_main_v62_apply, val_main_v63_apply, val_main_v64_apply, val_main_v65_apply,
    val_main_v66_apply, idx61, idx62, idx63, idx64, idx65, idx66,
    ipre_block, ipre_block, ipre_block, hpre_block, hpre_block, hpre_block,
    agg_eq x0 x1 x2 x3 x8 x9 x10 x11 x12 x13 hr]
  simp only [Ideal.addf_def, Ideal.subf_def, Ideal.mulf_def, Ideal.hostDivf_def, Ideal.hostNegf_def, Ideal.negf_def,
    Ideal.hostUnary_exp_def, Ideal.hostUnary_tanh_def, Ideal.ofBits_def, Ideal.ofBits_one_f32]
  rfl

/-- The reference's node table after the first layer is the model's. -/
theorem h1_eq (hr : ∀ e : Fin 1600000, (x1 (ix2 0 e)).toNat < 100000) :
    val_main_v88 (F := Ideal) x0 x1 x2 x3 x8 x9 x10 x11 x12 x13 x14 x15 x16 x17
      = Cert.Model.h1 x0 x1 x2 x3 x8 x9 x10 x11 x12 x13 x14 x15 x16 x17 (Cert.Seg.rsegsum x1) := by
  rw [layer1_eq x0 x1 x2 x3 x8 x9 x10 x11 x12 x13 x14 x15 x16 x17 hr, h0_eq x0 x8 x9]
  rfl

end Cert.ReferenceIdeal.RThread

end
-- ==== Proof.RLayer2.lean ====
/-
  The reference's node table after its second layer is the network model's second layer applied to its node table after
  the first.

  The second layer's text reads the stacked parameters at leading index 1 and the first layer's result in place of the
  projection; stage by stage:
  * the edge gate: the reference spells the logistic as 1 / (1 + exp (-t)) on the 64-term dot of (query * attribute) with
    the layer's gate column, plus its gate bias; a product of two extended reals commutes, so this is the model's gate;
  * the row lookup: an index word that is a node id (below 100000) is not negative, so the wrap
    select(w < 0, w + 100000, w) is the word, and the gather's clamp min w.toInt.toNat 99999 is min w.toNat 99999;
  * the message: the reference applies the message linear to the looked-up rows, the model looks up the per-node linear;
    entry (e, j) of either is the same 64-term sum over the looked-up row plus the same bias entry, times the gate;
  * the aggregation: the scatter-add of the messages into a zero table is the segment sum, by unfolding;
  * the GRU: each of the two [100000, 192] pre-activation arrays, read at column 64 g + j, is gate block g's affine map
    (the transposed weight block, the bias block); the six column slices read blocks 0, 1, 2; the update
    (1 - z) * n + z * h, with r and z the logistic spelt 1 / (1 + exp (-t)) and n the tanh, is the model's cell.
-/
import proofs.«422311_j73100343378050_3_alg».proof.Proof.RRead
import proofs.«422311_j73100343378050_3_alg».proof.Proof.Model
import proofs.«422311_j73100343378050_3_alg».proof.Proof.Seg
import proofs.«422311_j73100343378050_3_alg».proof.Proof.LibScatterGatherRows
import proofs.«422311_j73100343378050_3_alg».proof.Proof.LibIndexWords
import Idealize.ShloMosaic.Lib.ValueIdx
import Idealize.ShloMosaic.Lib.IdealHost
import Idealize.ShloMosaic.Lib.StableHlo.Predicate
import Idealize.ShloMosaic.PureOps.Ideal
import Idealize.ShloMosaic.PureOps.Ideal.Laws

noncomputable section

open scoped BigOperators

namespace Cert.ReferenceIdeal.RThread2

open Idealize.ShloMosaic Idealize.ShloMosaic.TcCoe Idealize.ShloMosaic.ValueIdx Cert.ReferenceIdeal Cert.ReferenceIdeal.Read

section Layer2

variable (x0 : (⟨S100000x1024, .f32⟩ : BufTy).Contents (Elt Ideal)) (x1 : (⟨S2x1600000, .i32⟩ : BufTy).Contents (Elt Ideal))
  (x2 x3 : (⟨S1600000x64, .f32⟩ : BufTy).Contents (Elt Ideal)) (x8 : (⟨S1024x64, .f32⟩ : BufTy).Contents (Elt Ideal))
  (x9 : (⟨S64, .f32⟩ : BufTy).Contents (Elt Ideal)) (x10 : (⟨S2x64x64, .f32⟩ : BufTy).Contents (Elt Ideal))
  (x11 : (⟨S2x64, .f32⟩ : BufTy).Contents (Elt Ideal)) (x12 : (⟨S2x64x1, .f32⟩ : BufTy).Contents (Elt Ideal))
  (x13 : (⟨S2x1, .f32⟩ : BufTy).Contents (Elt Ideal)) (x14 x15 : (⟨S2x192x64, .f32⟩ : BufTy).Contents (Elt Ideal))
  (x16 x17 : (⟨S2x192, .f32⟩ : BufTy).Contents (Elt Ideal))

/-! ## The edge gate of the second layer -/

/-- The gate's pre-activation at edge e: the 64-term dot of (attribute * query) with the second layer's gate
    vector, plus that layer's gate bias. The reference multiplies query by attribute; the product commutes. -/
theorem gatePre2 (e : Fin 1600000) (c : Fin 1) :
    val_main_v109 (F := Ideal) x2 x3 x12 x13 (ix2 e c)
      = (∑ k : Fin 64, (x2 (ix2 e k) * x3 (ix2 e k)) * x12 (ix3 1 k 0)) + x13 (ix2 1 0) := by
  rw [val_main_v109_apply, val_main_v106_apply, val_main_v108_apply, val_main_v107_apply, val_main_v96_apply,
    val_main_v95_apply, Ideal.addf_def]
  refine congrArg₂ (· + ·) (Finset.sum_congr rfl fun k _ => ?_) (congrArg x13 ?_)
  · have e1 : lidx_main_v106 (ix2 e c) k = ix2 e k :=
      funext fun a => Fin.ext (by match a with | ⟨0, _⟩ => rfl | ⟨1, _⟩ => rfl)
    have e2 : idx_main_v93 (idx_main_v94 (ridx_main_v106 (ix2 e c) k)) = ix3 1 k 0 :=
      funext fun a => Fin.ext (by
        match a with
        | ⟨0, _⟩ => rfl
        | ⟨1, _⟩ =>
          show (k.val * 1 + c.val) / 1 % 64 = k.val
          have := k.isLt; have := c.isLt; omega
        | ⟨2, _⟩ => rfl)
    rw [val_main_v105_apply, val_main_v94_apply, val_main_v93_apply, e1, e2, Ideal.mulf_def, mul_comm (x3 _) (x2 _)]
  · exact funext fun a => Fin.ext (by match a with | ⟨0, _⟩ => rfl | ⟨1, _⟩ => rfl)

/-- The reference spells the logistic 1 / (1 + exp (-t)); that is the logistic of the gate's pre-activation. -/
theorem gate2_eq :
    val_main_v115 (F := Ideal) x2 x3 x12 x13 = Cert.Spec.gate x2 x3 (Cert.Model.wrow x12 1) (Cert.Model.beta x13 1) := by
  funext i
  obtain ⟨e, c, rfl⟩ : ∃ (e : Fin 1600000) (c : Fin 1), i = ix2 e c := ⟨i 0, i 1, eq_ix2 i⟩
  rw [val_main_v115_apply, val_main_v114_apply, val_main_cst_9_apply, val_main_v113_apply, val_main_v112_apply,
    val_main_cst_8_apply, val_main_v111_apply, val_main_v110_apply, gatePre2]
  simp only [Ideal.hostDivf_def, Ideal.addf_def, Ideal.hostUnary_exp_def, Ideal.hostNegf_def, Ideal.negf_def,
    Ideal.ofBits_def, Ideal.ofBits_one_f32]
  rfl

/-! ## The looked-up rows -/

/-- The wrapped index column of row 0 of the edge index: a word that is a node id is not negative, so the wrap
    select(w < 0, w + 100000, w) leaves it alone. -/
theorem idxcol2 (hr : ∀ e : Fin 1600000, (x1 (ix2 0 e)).toNat < 100000) (e : Fin 1600000) (c : Fin 1) :
    val_main_v123 (F := Ideal) x1 (ix2 e c) = x1 (ix2 0 e) := by
  have e1 : idx_main_v116 (idx_main_v117 (idx_main_v123 (ix2 e c))) = ix2 0 e :=
    funext fun a => Fin.ext (by
      match a with
      | ⟨0, _⟩ => rfl
      | ⟨1, _⟩ => show e.val % 1600000 = e.val; exact Nat.mod_eq_of_lt e.isLt)
  rw [val_main_v123_apply, val_main_v122_apply, val_main_v119_apply, val_main_v121_apply, val_main_v118_apply,
    val_main_c_10_apply, val_main_v117_apply, val_main_v116_apply, e1]
  refine Cert.LibIndexWords.wrap_of_nonneg _ _ ?_
  rw [StableHlo.Predicate.toInt_eq_toNat_of_lt (by have := hr e; omega)]
  exact Int.natCast_nonneg _

/-- The gather of the node table's rows by that column: row e is the table's row "word e as a natural number,
    clamped to the last row". -/
theorem gather2 (hr : ∀ e : Fin 1600000, (x1 (ix2 0 e)).toNat < 100000) (e : Fin 1600000) (k : Fin 64) :
    val_main_v124 (F := Ideal) x0 x1 x2 x3 x8 x9 x10 x11 x12 x13 x14 x15 x16 x17 (ix2 e k)
      = val_main_v88 (F := Ideal) x0 x1 x2 x3 x8 x9 x10 x11 x12 x13 x14 x15 x16 x17
          (ix2 ⟨min (x1 (ix2 0 e)).toNat 99999, by omega⟩ k) := by
  unfold val_main_v124
  refine (Cert.LibScatterGatherRows.gather_rows_ideal (φ := .f32)
    gather_S100000x64_S1600000x1_S1600000x64_1_0_n_n_0_1_164 rfl rfl rfl rfl rfl _ _ e k (by decide)).trans ?_
  refine congrArg (fun r : Fin 100000 =>
    val_main_v88 (F := Ideal) x0 x1 x2 x3 x8 x9 x10 x11 x12 x13 x14 x15 x16 x17 (ix2 r k)) (Fin.ext ?_)
  show min (val_main_v123 (F := Ideal) x1 (ix2 e 0)).toInt.toNat (100000 - 1) = min (x1 (ix2 0 e)).toNat 99999
  rw [idxcol2 x1 hr e 0, StableHlo.Predicate.toInt_eq_toNat_of_lt (by have := hr e; omega), Int.toNat_natCast]

/-! ## The messages -/

/-- The message linear applied to the gathered row: entry (e, j) is the sum over the looked-up row against column j of
    the second layer's message weight, plus that layer's message bias. -/
theorem msgLin2 (hr : ∀ e : Fin 1600000, (x1 (ix2 0 e)).toNat < 100000) (e : Fin 1600000) (j : Fin 64) :
    val_main_v128 (F := Ideal) x0 x1 x2 x3 x8 x9 x10 x11 x12 x13 x14 x15 x16 x17 (ix2 e j)
      = (∑ k : Fin 64, val_main_v88 (F := Ideal) x0 x1 x2 x3 x8 x9 x10 x11 x12 x13 x14 x15 x16 x17
            (ix2 ⟨min (x1 (ix2 0 e)).toNat 99999, by omega⟩ k) * x10 (ix3 1 k j)) + x11 (ix2 1 j) := by
  rw [val_main_v128_apply, val_main_v125_apply, val_main_v127_apply, val_main_v126_apply, val_main_v92_apply,
    val_main_v91_apply, Ideal.addf_def]
  refine congrArg₂ (· + ·) (Finset.sum_congr rfl fun k _ => ?_) (congrArg x11 ?_)
  · have e1 : lidx_main_v125 (ix2 e j) k = ix2 e k :=
      funext fun a => Fin.ext (by match a with | ⟨0, _⟩ => rfl | ⟨1, _⟩ => rfl)
    have e2 : idx_main_v89 (idx_main_v90 (ridx_main_v125 (ix2 e j) k)) = ix3 1 k j :=
      funext fun a => Fin.ext (by
        match a with
        | ⟨0, _⟩ => rfl
        | ⟨1, _⟩ =>
          show (k.val * 64 + j.val) / 64 % 64 = k.val
          have := k.isLt; have := j.isLt; omega
        | ⟨2, _⟩ =>
          show (k.val * 64 + j.val) % 64 = j.val
          have := k.isLt; have := j.isLt; omega)
    rw [e1, gather2 x0 x1 x2 x3 x8 x9 x10 x11 x12 x13 x14 x15 x16 x17 hr e k, val_main_v90_apply, val_main_v89_apply, e2]
  · exact funext fun a => Fin.ext (by
      match a with
      | ⟨0, _⟩ => rfl
      | ⟨1, _⟩ => show j.val % 64 = j.val; exact Nat.mod_eq_of_lt j.isLt)

/-- The gated messages of the second layer are the model's. -/
theorem msg2_eq (hr : ∀ e : Fin 1600000, (x1 (ix2 0 e)).toNat < 100000) :
    val_main_v130 (F := Ideal) x0 x1 x2 x3 x8 x9 x10 x11 x12 x13 x14 x15 x16 x17
      = Cert.Model.msg x1 x2 x3 x10 x11 x12 x13 1
          (val_main_v88 (F := Ideal) x0 x1 x2 x3 x8 x9 x10 x11 x12 x13 x14 x15 x16 x17) := by
  funext i
  obtain ⟨e, j, rfl⟩ : ∃ (e : Fin 1600000) (j : Fin 64), i = ix2 e j := ⟨i 0, i 1, eq_ix2 i⟩
  have e1 : idx_main_v129 (ix2 e j) = ix2 e 0 :=
    funext fun a => Fin.ext (by match a with | ⟨0, _⟩ => rfl | ⟨1, _⟩ => rfl)
  rw [val_main_v130_apply, val_main_v129_apply, msgLin2 x0 x1 x2 x3 x8 x9 x10 x11 x12 x13 x14 x15 x16 x17 hr e j, e1,
    gate2_eq, Ideal.mulf_def]
  rfl

/-- The scatter-add of the messages into a zero table by row 1 of the edge index is the segment sum. -/
theorem seg2_eq :
    val_main_v135 (F := Ideal) x0 x1 x2 x3 x8 x9 x10 x11 x12 x13 x14 x15 x16 x17
      = Cert.Seg.rsegsum x1 (val_main_v130 (F := Ideal) x0 x1 x2 x3 x8 x9 x10 x11 x12 x13 x14 x15 x16 x17) := rfl

/-! ## The GRU's pre-activations -/

/-- Entry (n, c) of aggregated @ Wi^T + bi: the sum over k of the aggregated row against row c of the second layer's
    stacked input weight, plus entry c of its stacked input bias. -/
theorem preI2 (n : Fin 100000) (c : Fin 192) :
    val_main_v140 (F := Ideal) x0 x1 x2 x3 x8 x9 x10 x11 x12 x13 x14 x15 x16 x17 (ix2 n c)
      = (∑ k : Fin 64, val_main_v135 (F := Ideal) x0 x1 x2 x3 x8 x9 x10 x11 x12 x13 x14 x15 x16 x17 (ix2 n k)
            * x14 (ix3 1 c k)) + x16 (ix2 1 c) := by
  rw [val_main_v140_apply, val_main_v137_apply, val_main_v139_apply, val_main_v138_apply, val_main_v102_apply,
    val_main_v101_apply, Ideal.addf_def]
  refine congrArg₂ (· + ·) (Finset.sum_congr rfl fun k _ => ?_) (congrArg x16 ?_)
  · have e1 : lidx_main_v137 (ix2 n c) k = ix2 n k :=
      funext fun a => Fin.ext (by match a with | ⟨0, _⟩ => rfl | ⟨1, _⟩ => rfl)
    have e2 : idx_main_v97 (idx_main_v98 (idx_main_v136 (ridx_main_v137 (ix2 n c) k))) = ix3 1 c k :=
      funext fun a => Fin.ext (by
        match a with
        | ⟨0, _⟩ => rfl
        | ⟨1, _⟩ =>
          show (c.val * 64 + k.val) / 64 % 192 = c.val
          have := k.isLt; have := c.isLt; omega
        | ⟨2, _⟩ =>
          show (c.val * 64 + k.val) % 64 = k.val
          have := k.isLt; have := c.isLt; omega)
    rw [e1, val_main_v136_apply, val_main_v98_apply, val_main_v97_apply, e2]
  · exact funext fun a => Fin.ext (by
      match a with
      | ⟨0, _⟩ => rfl
      | ⟨1, _⟩ => show c.val % 192 = c.val; exact Nat.mod_eq_of_lt c.isLt)

/-- Entry (n, c) of h @ Wh^T + bh, likewise against the stacked hidden weight and bias. -/
theorem preH2 (n : Fin 100000) (c : Fin 192) :
    val_main_v145 (F := Ideal) x0 x1 x2 x3 x8 x9 x10 x11 x12 x13 x14 x15 x16 x17 (ix2 n c)
      = (∑ k : Fin 64, val_main_v88 (F := Ideal) x0 x1 x2 x3 x8 x9 x10 x11 x12 x13 x14 x15 x16 x17 (ix2 n k)
            * x15 (ix3 1 c k)) + x17 (ix2 1 c) := by
  rw [val_main_v145_apply, val_main_v142_apply, val_main_v144_apply, val_main_v143_apply, val_main_v104_apply,
    val_main_v103_apply, Ideal.addf_def]
  refine congrArg₂ (· + ·) (Finset.sum_congr rfl fun k _ => ?_) (congrArg x17 ?_)
  · have e1 : lidx_main_v142 (ix2 n c) k = ix2 n k :=
      funext fun a => Fin.ext (by match a with | ⟨0, _⟩ => rfl | ⟨1, _⟩ => rfl)
    have e2 : idx_main_v99 (idx_main_v100 (idx_main_v141 (ridx_main_v142 (ix2 n c) k))) = ix3 1 c k :=
      funext fun a => Fin.ext (by
        match a with
        | ⟨0, _⟩ => rfl
        | ⟨1, _⟩ =>
          show (c.val * 64 + k.val) / 64 % 192 = c.val
          have := k.isLt; have := c.isLt; omega
        | ⟨2, _⟩ =>
          show (c.val * 64 + k.val) % 64 = k.val
          have := k.isLt; have := c.isLt; omega)
    rw [e1, val_main_v141_apply, val_main_v100_apply, val_main_v99_apply, e2]
  · exact funext fun a => Fin.ext (by
      match a with
      | ⟨0, _⟩ => rfl
      | ⟨1, _⟩ => show c.val % 192 = c.val; exact Nat.mod_eq_of_lt c.isLt)

/-- Column j of gate block g (g = 0, 1, 2 for r, z, n) among the 192 stacked columns. -/
def col (g : Fin 3) (j : Fin 64) : Fin 192 := ⟨64 * g.val + j.val, by have := g.isLt; have := j.isLt; omega⟩

/-- Column 64 g + j of the input-side pre-activation is gate block g's affine map of the aggregated messages. -/
theorem affI2 (hr : ∀ e : Fin 1600000, (x1 (ix2 0 e)).toNat < 100000) (g : Fin 3) (n : Fin 100000) (j : Fin 64) :
    val_main_v140 (F := Ideal) x0 x1 x2 x3 x8 x9 x10 x11 x12 x13 x14 x15 x16 x17 (ix2 n (col g j))
      = Cert.Spec.affine (Cert.Seg.rsegsum x1 (Cert.Model.msg x1 x2 x3 x10 x11 x12 x13 1
            (val_main_v88 (F := Ideal) x0 x1 x2 x3 x8 x9 x10 x11 x12 x13 x14 x15 x16 x17)))
          (Cert.Model.wblock x14 1 g) (Cert.Model.bblock x16 1 g) (ix2 n j) := by
  rw [preI2, seg2_eq, msg2_eq x0 x1 x2 x3 x8 x9 x10 x11 x12 x13 x14 x15 x16 x17 hr]
  rfl

/-- Column 64 g + j of the hidden-side pre-activation is gate block g's affine map of the node table. -/
theorem affH2 (g : Fin 3) (n : Fin 100000) (j : Fin 64) :
    val_main_v145 (F := Ideal) x0 x1 x2 x3 x8 x9 x10 x11 x12 x13 x14 x15 x16 x17 (ix2 n (col g j))
      = Cert.Spec.affine (val_main_v88 (F := Ideal) x0 x1 x2 x3 x8 x9 x10 x11 x12 x13 x14 x15 x16 x17)
          (Cert.Model.wblock x15 1 g) (Cert.Model.bblock x17 1 g) (ix2 n j) := by
  rw [preH2]
  rfl

/-! ## The node table after the second layer -/

/-- The reference's node table after its second layer is the model's layer 1 applied to its table after the first. -/
theorem h2_eq (hr : ∀ e : Fin 1600000, (x1 (ix2 0 e)).toNat < 100000) :
    val_main_v173 (F := Ideal) x0 x1 x2 x3 x8 x9 x10 x11 x12 x13 x14 x15 x16 x17
      = Cert.Model.layer x1 x2 x3 x10 x11 x12 x13 x14 x15 x16 x17 (Cert.Seg.rsegsum x1) 1
          (val_main_v88 (F := Ideal) x0 x1 x2 x3 x8 x9 x10 x11 x12 x13 x14 x15 x16 x17) := by
  funext i
  obtain ⟨n, j, rfl⟩ : ∃ (n : Fin 100000) (j : Fin 64), i = ix2 n j := ⟨i 0, i 1, eq_ix2 i⟩
  have c0 : idx_main_v146 (ix2 n j) = ix2 n (col 0 j) :=
    funext fun a => Fin.ext (by
      match a with
      | ⟨0, _⟩ => rfl
      | ⟨1, _⟩ => show j.val = 64 * 0 + j.val; omega)
  have c1 : idx_main_v147 (ix2 n j) = ix2 n (col 1 j) :=
    funext fun a => Fin.ext (by
      match a with
      | ⟨0, _⟩ => rfl
      | ⟨1, _⟩ => show 64 + j.val = 64 * 1 + j.val; omega)
  have c2 : idx_main_v148 (ix2 n j) = ix2 n (col 2 j) :=
    funext fun a => Fin.ext (by
      match a with
      | ⟨0, _⟩ => rfl
      | ⟨1, _⟩ => show 128 + j.val = 64 * 2 + j.val; omega)
  have d0 : idx_main_v149 (ix2 n j) = ix2 n (col 0 j) :=
    funext fun a => Fin.ext (by
      match a with
      | ⟨0, _⟩ => rfl
      | ⟨1, _⟩ => show j.val = 64 * 0 + j.val; omega)
  have d1 : idx_main_v150 (ix2 n j) = ix2 n (col 1 j) :=
    funext fun a => Fin.ext (by
      match a with
      | ⟨0, _⟩ => rfl
      | ⟨1, _⟩ => show 64 + j.val = 64 * 1 + j.val; omega)
  have d2 : idx_main_v151 (ix2 n j) = ix2 n (col 2 j) :=
    funext fun a => Fin.ext (by
      match a with
      | ⟨0, _⟩ => rfl
      | ⟨1, _⟩ => show 128 + j.val = 64 * 2 + j.val; omega)
  rw [val_main_v173_apply, val_main_v171_apply, val_main_v172_apply, val_main_v170_apply, val_main_v169_apply,
    val_main_cst_17_apply, val_main_v168_apply, val_main_v167_apply, val_main_v166_apply, val_main_v165_apply,
    val_main_v164_apply, val_main_cst_16_apply, val_main_v163_apply, val_main_v162_apply, val_main_cst_15_apply,
    val_main_v161_apply, val_main_v160_apply, val_main_v159_apply, val_main_v158_apply, val_main_v157_apply,
    val_main_cst_14_apply, val_main_v156_apply, val_main_v155_apply, val_main_cst_13_apply, val_main_v154_apply,
    val_main_v153_apply, val_main_v152_apply, val_main_v146_apply, val_main_v147_apply, val_main_v148_apply,
    val_main_v149_apply, val_main_v150_apply, val_main_v151_apply, c0, c1, c2, d0, d1, d2,
    affI2 x0 x1 x2 x3 x8 x9 x10 x11 x12 x13 x14 x15 x16 x17 hr 0 n j,
    affI2 x0 x1 x2 x3 x8 x9 x10 x11 x12 x13 x14 x15 x16 x17 hr 1 n j,
    affI2 x0 x1 x2 x3 x8 x9 x10 x11 x12 x13 x14 x15 x16 x17 hr 2 n j,
    affH2 x0 x1 x2 x3 x8 x9 x10 x11 x12 x13 x14 x15 x16 x17 0 n j,
    affH2 x0 x1 x2 x3 x8 x9 x10 x11 x12 x13 x14 x15 x16 x17 1 n j,
    affH2 x0 x1 x2 x3 x8 x9 x10 x11 x12 x13 x14 x15 x16 x17 2 n j]
  simp only [Ideal.hostDivf_def, Ideal.addf_def, Ideal.subf_def, Ideal.mulf_def, Ideal.hostUnary_exp_def,
    Ideal.hostUnary_tanh_def, Ideal.hostNegf_def, Ideal.negf_def, Ideal.ofBits_def, Ideal.ofBits_one_f32]
  rfl

end Layer2

end Cert.ReferenceIdeal.RThread2

end
-- ==== Proof.RFinal.lean ====
/-
  The reference's result is the network model's mean loss computed from the reference's final node table.

  * the row lookups: the index words of the 8192 pairs' source and target nodes are node ids (below 100000), so the
    wrap select(w < 0, w + 100000, w) is the word and the gather's clamp min w.toInt.toNat 99999 is min w.toNat 99999:
    the gathered rows are the model's looked-up rows of the final node table;
  * the feature row: the concatenation [source | target | source * target | query] along the columns, read at column m,
    is the piece m / 64 at its column m - 64 (m / 64), which is the feature row's nested case split on the column;
  * the scorer: the hidden pre-activation is the 256-term sum of the feature row against a column of the first weight
    plus the bias; the relu is the maximum with the zero word; the logit is the 64-term sum against the second weight's
    column plus its bias;
  * the per-pair loss: (max l 0 - l * y) + log1p (exp (- |l|)) with |l| = max l (-l); the reference holds it as a vector
    (the logit column reshaped), the model as a column read at (p, 0);
  * the mean: the sum from the zero word is the sum; the sum over the rank-1 index set is the sum over the 8192 pairs;
    both sides divide by the same word 0x46000000, which is never evaluated.
-/
import proofs.«422311_j73100343378050_3_alg».proof.Proof.RRead
import proofs.«422311_j73100343378050_3_alg».proof.Proof.Model
import proofs.«422311_j73100343378050_3_alg».proof.Proof.LibScatterGatherRows
import proofs.«422311_j73100343378050_3_alg».proof.Proof.LibIndexWords
import Idealize.ShloMosaic.Lib.Pipeline.Value
import Idealize.ShloMosaic.Lib.ValueIdx
import Idealize.ShloMosaic.Lib.StableHlo.Predicate
import Idealize.ShloMosaic.PureOps.Ideal
import Idealize.ShloMosaic.PureOps.Ideal.Laws

noncomputable section

open scoped BigOperators

namespace Cert.ReferenceIdeal.RThread2

open Idealize.ShloMosaic Idealize.ShloMosaic.TcCoe Idealize.ShloMosaic.ValueIdx Cert.ReferenceIdeal Cert.ReferenceIdeal.Read

/-! ## The feature row, piece by piece -/

section Feat
variable (hs hd qp : Cert.Spec.Mat 8192 64) (p : Fin 8192) (m : Fin 256)

/-- Columns below 64 hold the source row. -/
theorem feat_src (h0 : m.val < 64) : Cert.Spec.feat hs hd qp (ix2 p m) = hs (ix2 p ⟨m.val, h0⟩) := dif_pos h0
/-- Columns 64 to 127 hold the target row. -/
theorem feat_dst (h0 : ¬ m.val < 64) (h1 : m.val < 128) :
    Cert.Spec.feat hs hd qp (ix2 p m) = hd (ix2 p ⟨m.val - 64, by omega⟩) := (dif_neg h0).trans (dif_pos h1)
/-- Columns 128 to 191 hold the product of the two rows. -/
theorem feat_prod (h0 : ¬ m.val < 64) (h1 : ¬ m.val < 128) (h2 : m.val < 192) :
    Cert.Spec.feat hs hd qp (ix2 p m) = hs (ix2 p ⟨m.val - 128, by omega⟩) * hd (ix2 p ⟨m.val - 128, by omega⟩) :=
  (dif_neg h0).trans ((dif_neg h1).trans (dif_pos h2))
/-- Columns 192 to 255 hold the pair query. -/
theorem feat_qry (h0 : ¬ m.val < 64) (h1 : ¬ m.val < 128) (h2 : ¬ m.val < 192) :
    Cert.Spec.feat hs hd qp (ix2 p m) = qp (ix2 p ⟨m.val - 192, by have := m.isLt; omega⟩) :=
  (dif_neg h0).trans ((dif_neg h1).trans (dif_neg h2))

end Feat

section Final

variable (x0 : (⟨S100000x1024, .f32⟩ : BufTy).Contents (Elt Ideal)) (x1 : (⟨S2x1600000, .i32⟩ : BufTy).Contents (Elt Ideal))
  (x2 x3 : (⟨S1600000x64, .f32⟩ : BufTy).Contents (Elt Ideal)) (x4 x5 : (⟨S8192, .i32⟩ : BufTy).Contents (Elt Ideal))
  (x6 : (⟨S8192, .f32⟩ : BufTy).Contents (Elt Ideal)) (x7 : (⟨S8192x64, .f32⟩ : BufTy).Contents (Elt Ideal))
  (x8 : (⟨S1024x64, .f32⟩ : BufTy).Contents (Elt Ideal))
  (x9 : (⟨S64, .f32⟩ : BufTy).Contents (Elt Ideal)) (x10 : (⟨S2x64x64, .f32⟩ : BufTy).Contents (Elt Ideal))
  (x11 : (⟨S2x64, .f32⟩ : BufTy).Contents (Elt Ideal)) (x12 : (⟨S2x64x1, .f32⟩ : BufTy).Contents (Elt Ideal))
  (x13 : (⟨S2x1, .f32⟩ : BufTy).Contents (Elt Ideal)) (x14 x15 : (⟨S2x192x64, .f32⟩ : BufTy).Contents (Elt Ideal))
  (x16 x17 : (⟨S2x192, .f32⟩ : BufTy).Contents (Elt Ideal)) (x18 : (⟨S256x64, .f32⟩ : BufTy).Contents (Elt Ideal))
  (x19 : (⟨S64, .f32⟩ : BufTy).Contents (Elt Ideal)) (x20 : (⟨S64x1, .f32⟩ : BufTy).Contents (Elt Ideal))
  (x21 : (⟨S1, .f32⟩ : BufTy).Contents (Elt Ideal))

/-! ## The looked-up rows of the final node table -/

/-- The wrapped index column of the source nodes: a word that is a node id is not negative, so the wrap leaves it alone. -/
theorem word4 (h4 : ∀ p : Fin 8192, (x4 (ix1 p)).toNat < 100000) (p : Fin 8192) (c : Fin 1) :
    val_main_v179 (F := Ideal) x4 (ix2 p c) = x4 (ix1 p) := by
  have e1 : idx_main_v179 (ix2 p c) = ix1 p := funext fun a => Fin.ext (by match a with | ⟨0, _⟩ => rfl)
  rw [val_main_v179_apply, val_main_v178_apply, val_main_v175_apply, val_main_v177_apply, val_main_v174_apply,
    val_main_c_18_apply, e1]
  refine Cert.LibIndexWords.wrap_of_nonneg _ _ ?_
  rw [StableHlo.Predicate.toInt_eq_toNat_of_lt (by have := h4 p; omega)]
  exact Int.natCast_nonneg _

/-- The gathered source rows: row p is the final node table's row "word p as a natural number, clamped to the last row". -/
theorem rows4 (h4 : ∀ p : Fin 8192, (x4 (ix1 p)).toNat < 100000) (p : Fin 8192) (k : Fin 64) :
    val_main_v180 (F := Ideal) x0 x1 x2 x3 x4 x8 x9 x10 x11 x12 x13 x14 x15 x16 x17 (ix2 p k)
      = val_main_v173 (F := Ideal) x0 x1 x2 x3 x8 x9 x10 x11 x12 x13 x14 x15 x16 x17 (ix2 ⟨min (x4 (ix1 p)).toNat 99999, by omega⟩ k) := by
  unfold val_main_v180
  refine (Cert.LibScatterGatherRows.gather_rows_ideal (φ := .f32)
    gather_S100000x64_S8192x1_S8192x64_1_0_n_n_0_1_164 rfl rfl rfl rfl rfl _ _ p k (by decide)).trans ?_
  refine congrArg (fun r : Fin 100000 => val_main_v173 (F := Ideal) x0 x1 x2 x3 x8 x9 x10 x11 x12 x13 x14 x15 x16 x17 (ix2 r k)) (Fin.ext ?_)
  show min (val_main_v179 (F := Ideal) x4 (ix2 p 0)).toInt.toNat (100000 - 1) = min (x4 (ix1 p)).toNat 99999
  rw [word4 x4 h4 p 0, StableHlo.Predicate.toInt_eq_toNat_of_lt (by have := h4 p; omega), Int.toNat_natCast]

/-- The wrapped index column of the target nodes: a word that is a node id is not negative, so the wrap leaves it alone. -/
theorem word5 (h5 : ∀ p : Fin 8192, (x5 (ix1 p)).toNat < 100000) (p : Fin 8192) (c : Fin 1) :
    val_main_v186 (F := Ideal) x5 (ix2 p c) = x5 (ix1 p) := by
  have e1 : idx_main_v186 (ix2 p c) = ix1 p := funext fun a => Fin.ext (by match a with | ⟨0, _⟩ => rfl)
  rw [val_main_v186_apply, val_main_v185_apply, val_main_v182_apply, val_main_v184_apply, val_main_v181_apply,
    val_main_c_20_apply, e1]
  refine Cert.LibIndexWords.wrap_of_nonneg _ _ ?_
  rw [StableHlo.Predicate.toInt_eq_toNat_of_lt (by have := h5 p; omega)]
  exact Int.natCast_nonneg _

/-- The gathered target rows: row p is the final node table's row "word p as a natural number, clamped to the last row". -/
theorem rows5 (h5 : ∀ p : Fin 8192, (x5 (ix1 p)).toNat < 100000) (p : Fin 8192) (k : Fin 64) :
    val_main_v187 (F := Ideal) x0 x1 x2 x3 x5 x8 x9 x10 x11 x12 x13 x14 x15 x16 x17 (ix2 p k)
      = val_main_v173 (F := Ideal) x0 x1 x2 x3 x8 x9 x10 x11 x12 x13 x14 x15 x16 x17 (ix2 ⟨min (x5 (ix1 p)).toNat 99999, by omega⟩ k) := by
  unfold val_main_v187
  refine (Cert.LibScatterGatherRows.gather_rows_ideal (φ := .f32)
    gather_S100000x64_S8192x1_S8192x64_1_0_n_n_0_1_164 rfl rfl rfl rfl rfl _ _ p k (by decide)).trans ?_
  refine congrArg (fun r : Fin 100000 => val_main_v173 (F := Ideal) x0 x1 x2 x3 x8 x9 x10 x11 x12 x13 x14 x15 x16 x17 (ix2 r k)) (Fin.ext ?_)
  show min (val_main_v186 (F := Ideal) x5 (ix2 p 0)).toInt.toNat (100000 - 1) = min (x5 (ix1 p)).toNat 99999
  rw [word5 x5 h5 p 0, StableHlo.Predicate.toInt_eq_toNat_of_lt (by have := h5 p; omega), Int.toNat_natCast]

/-! ## The feature row -/

/-- The concatenation [source | target | source * target | query] along the columns is the feature row: the column's
    block of 64 says which piece is read, and at which of its columns. -/
theorem feat_eq (h4 : ∀ p : Fin 8192, (x4 (ix1 p)).toNat < 100000) (h5 : ∀ p : Fin 8192, (x5 (ix1 p)).toNat < 100000) :
    val_main_v189 (F := Ideal) x0 x1 x2 x3 x4 x5 x7 x8 x9 x10 x11 x12 x13 x14 x15 x16 x17 = (Cert.Spec.feat (Cert.Model.rowsOf (val_main_v173 (F := Ideal) x0 x1 x2 x3 x8 x9 x10 x11 x12 x13 x14 x15 x16 x17) (fun p : Fin 8192 => x4 (ix1 p))) (Cert.Model.rowsOf (val_main_v173 (F := Ideal) x0 x1 x2 x3 x8 x9 x10 x11 x12 x13 x14 x15 x16 x17) (fun p : Fin 8192 => x5 (ix1 p))) x7) := by
  funext i
  obtain ⟨p, m, rfl⟩ : ∃ (p : Fin 8192) (m : Fin 256), i = ix2 p m := ⟨i 0, i 1, eq_ix2 i⟩
  have hm := m.isLt
  unfold val_main_v189
  by_cases h0 : m.val < 64
  · rw [feat_src _ _ _ p m h0]
    refine (concatenate_apply_piece (1 : Fin S8192x256.rank) _ _ (ix2 p m) 0 (by show 0 < 4; omega) S8192x64 _ rfl rfl 0 rfl
      (ix2 p (⟨m.val, h0⟩ : Fin 64))
      (fun b hb => by match b with | ⟨0, _⟩ => rfl | ⟨1, _⟩ => exact absurd (Fin.ext rfl) hb)
      (by show 0 + m.val = m.val; omega)).trans ?_
    exact rows4 x0 x1 x2 x3 x4 x8 x9 x10 x11 x12 x13 x14 x15 x16 x17 h4 p _
  · by_cases h1 : m.val < 128
    · rw [feat_dst _ _ _ p m h0 h1]
      refine ((concatenate_apply_piece (1 : Fin S8192x256.rank) _ _ (ix2 p m) 1 (by show 1 < 4; omega) S8192x64 _ rfl rfl 64 rfl
      (ix2 p (⟨m.val - 64, by omega⟩ : Fin 64))
      (fun b hb => by match b with | ⟨0, _⟩ => rfl | ⟨1, _⟩ => exact absurd (Fin.ext rfl) hb)
      (by show 64 + (m.val - 64) = m.val; omega))).trans ?_
      exact rows5 x0 x1 x2 x3 x5 x8 x9 x10 x11 x12 x13 x14 x15 x16 x17 h5 p _
    · by_cases h2 : m.val < 192
      · rw [feat_prod _ _ _ p m h0 h1 h2]
        refine ((concatenate_apply_piece (1 : Fin S8192x256.rank) _ _ (ix2 p m) 2 (by show 2 < 4; omega) S8192x64 _ rfl rfl 128 rfl
      (ix2 p (⟨m.val - 128, by omega⟩ : Fin 64))
      (fun b hb => by match b with | ⟨0, _⟩ => rfl | ⟨1, _⟩ => exact absurd (Fin.ext rfl) hb)
      (by show 128 + (m.val - 128) = m.val; omega))).trans ?_
        rw [val_main_v188_apply, Ideal.mulf_def, rows4 x0 x1 x2 x3 x4 x8 x9 x10 x11 x12 x13 x14 x15 x16 x17 h4 p _, rows5 x0 x1 x2 x3 x5 x8 x9 x10 x11 x12 x13 x14 x15 x16 x17 h5 p _]
        rfl
      · rw [feat_qry _ _ _ p m h0 h1 h2]
        exact (concatenate_apply_piece (1 : Fin S8192x256.rank) _ _ (ix2 p m) 3 (by show 3 < 4; omega) S8192x64 _ rfl rfl 192 rfl
      (ix2 p (⟨m.val - 192, by omega⟩ : Fin 64))
      (fun b hb => by match b with | ⟨0, _⟩ => rfl | ⟨1, _⟩ => exact absurd (Fin.ext rfl) hb)
      (by show 192 + (m.val - 192) = m.val; omega))

/-! ## The scorer -/

/-- The hidden layer's pre-activation at (p, k): the 256-term sum of the feature row against column k of the first
    weight, plus the bias entry. -/
theorem hid_eq (h4 : ∀ p : Fin 8192, (x4 (ix1 p)).toNat < 100000) (h5 : ∀ p : Fin 8192, (x5 (ix1 p)).toNat < 100000) (p : Fin 8192) (k : Fin 64) :
    val_main_v193 (F := Ideal) x0 x1 x2 x3 x4 x5 x7 x8 x9 x10 x11 x12 x13 x14 x15 x16 x17 x18 x19 (ix2 p k)
      = (∑ m : Fin 256, (Cert.Spec.feat (Cert.Model.rowsOf (val_main_v173 (F := Ideal) x0 x1 x2 x3 x8 x9 x10 x11 x12 x13 x14 x15 x16 x17) (fun p : Fin 8192 => x4 (ix1 p))) (Cert.Model.rowsOf (val_main_v173 (F := Ideal) x0 x1 x2 x3 x8 x9 x10 x11 x12 x13 x14 x15 x16 x17) (fun p : Fin 8192 => x5 (ix1 p))) x7) (ix2 p m) * x18 (ix2 m k)) + x19 (ix1 k) := by
  rw [val_main_v193_apply, val_main_v190_apply, val_main_v192_apply, val_main_v191_apply, Ideal.addf_def,
    feat_eq x0 x1 x2 x3 x4 x5 x7 x8 x9 x10 x11 x12 x13 x14 x15 x16 x17 h4 h5]
  refine congrArg₂ (· + ·) (Finset.sum_congr rfl fun m _ => ?_) (congrArg x19 ?_)
  · have e1 : lidx_main_v190 (ix2 p k) m = ix2 p m :=
      funext fun a => Fin.ext (by match a with | ⟨0, _⟩ => rfl | ⟨1, _⟩ => rfl)
    have e2 : ridx_main_v190 (ix2 p k) m = ix2 m k :=
      funext fun a => Fin.ext (by match a with | ⟨0, _⟩ => rfl | ⟨1, _⟩ => rfl)
    rw [e1, e2]
  · exact funext fun a => Fin.ext (by match a with | ⟨0, _⟩ => rfl)

/-- The logit of pair p: the hidden layer's relu against the second weight's column, plus its bias. -/
theorem logit_eq (h4 : ∀ p : Fin 8192, (x4 (ix1 p)).toNat < 100000) (h5 : ∀ p : Fin 8192, (x5 (ix1 p)).toNat < 100000) (p : Fin 8192) :
    val_main_v198 (F := Ideal) x0 x1 x2 x3 x4 x5 x7 x8 x9 x10 x11 x12 x13 x14 x15 x16 x17 x18 x19 x20 x21 (ix2 p 0)
      = Cert.Spec.logit (Cert.Spec.feat (Cert.Model.rowsOf (val_main_v173 (F := Ideal) x0 x1 x2 x3 x8 x9 x10 x11 x12 x13 x14 x15 x16 x17) (fun p : Fin 8192 => x4 (ix1 p))) (Cert.Model.rowsOf (val_main_v173 (F := Ideal) x0 x1 x2 x3 x8 x9 x10 x11 x12 x13 x14 x15 x16 x17) (fun p : Fin 8192 => x5 (ix1 p))) x7) x18 x19 x20 x21 (ix2 p 0) := by
  have key : val_main_v198 (F := Ideal) x0 x1 x2 x3 x4 x5 x7 x8 x9 x10 x11 x12 x13 x14 x15 x16 x17 x18 x19 x20 x21 (ix2 p 0)
      = (∑ k : Fin 64, max ((∑ m : Fin 256, (Cert.Spec.feat (Cert.Model.rowsOf (val_main_v173 (F := Ideal) x0 x1 x2 x3 x8 x9 x10 x11 x12 x13 x14 x15 x16 x17) (fun p : Fin 8192 => x4 (ix1 p))) (Cert.Model.rowsOf (val_main_v173 (F := Ideal) x0 x1 x2 x3 x8 x9 x10 x11 x12 x13 x14 x15 x16 x17) (fun p : Fin 8192 => x5 (ix1 p))) x7) (ix2 p m) * x18 (ix2 m k)) + x19 (ix1 k)) 0 * x20 (ix2 k 0))
        + x21 (ix1 0) := by
    rw [val_main_v198_apply, val_main_v195_apply, val_main_v197_apply, val_main_v196_apply, Ideal.addf_def]
    refine congrArg₂ (· + ·) (Finset.sum_congr rfl fun k _ => ?_) (congrArg x21 ?_)
    · have e1 : lidx_main_v195 (ix2 p 0) k = ix2 p k :=
        funext fun a => Fin.ext (by match a with | ⟨0, _⟩ => rfl | ⟨1, _⟩ => rfl)
      have e2 : ridx_main_v195 (ix2 p 0) k = ix2 k 0 :=
        funext fun a => Fin.ext (by match a with | ⟨0, _⟩ => rfl | ⟨1, _⟩ => rfl)
      rw [e1, e2, val_main_v194_apply, hid_eq x0 x1 x2 x3 x4 x5 x7 x8 x9 x10 x11 x12 x13 x14 x15 x16 x17 x18 x19 h4 h5 p k, val_main_call0_v0_apply, val_main_call0_cst_apply,
        Ideal.maximumf_def, Ideal.ofBits_def, Ideal.ofBits_zero_f32]
    · exact funext fun a => Fin.ext (by match a with | ⟨0, _⟩ => rfl)
  rw [key]
  rfl

/-! ## The per-pair loss and its mean -/

/-- The reference's per-pair loss vector at p is the model's loss column at (p, 0): the absolute value is
    max l (-l), and the reshape of the logit column reads (p, 0). -/
theorem pair_eq (h4 : ∀ p : Fin 8192, (x4 (ix1 p)).toNat < 100000) (h5 : ∀ p : Fin 8192, (x5 (ix1 p)).toNat < 100000) (p : Fin 8192) :
    val_main_v208 (F := Ideal) x0 x1 x2 x3 x4 x5 x6 x7 x8 x9 x10 x11 x12 x13 x14 x15 x16 x17 x18 x19 x20 x21 (ix1 p)
      = Cert.Model.lossRows x4 x5 x6 x7 x18 x19 x20 x21 (val_main_v173 (F := Ideal) x0 x1 x2 x3 x8 x9 x10 x11 x12 x13 x14 x15 x16 x17) (ix2 p 0) := by
  have e1 : idx_main_v199 (ix1 p) = ix2 p 0 :=
    funext fun a => Fin.ext (by
      match a with
      | ⟨0, _⟩ => show p.val / 1 = p.val; exact Nat.div_one _
      | ⟨1, _⟩ => rfl)
  rw [val_main_v208_apply, val_main_v203_apply, val_main_v201_apply, val_main_v202_apply, val_main_v207_apply,
    val_main_v206_apply, val_main_v205_apply, val_main_v204_apply, val_main_v199_apply, val_main_v200_apply,
    val_main_cst_22_apply, e1, logit_eq x0 x1 x2 x3 x4 x5 x7 x8 x9 x10 x11 x12 x13 x14 x15 x16 x17 x18 x19 x20 x21 h4 h5 p]
  simp only [Ideal.addf_def, Ideal.subf_def, Ideal.mulf_def, Ideal.maximumf_def, Ideal.hostUnary_log1p_def,
    Ideal.hostUnary_exp_def, Ideal.hostNegf_def, Ideal.negf_def, Ideal.hostAbsf_def, Ideal.ofBits_def,
    Ideal.ofBits_zero_f32]
  rfl

/-- The reference's result is the model's mean loss from the reference's final node table: the sum from the zero word
    is the sum, the sum over the rank-1 index set is the sum over the 8192 pairs, and both divide by the same word. -/
theorem loss_eq (h4 : ∀ p : Fin 8192, (x4 (ix1 p)).toNat < 100000) (h5 : ∀ p : Fin 8192, (x5 (ix1 p)).toNat < 100000) :
    val_main_v210 (F := Ideal) x0 x1 x2 x3 x4 x5 x6 x7 x8 x9 x10 x11 x12 x13 x14 x15 x16 x17 x18 x19 x20 x21
      = fun _ => Cert.Model.lossFrom x4 x5 x6 x7 x18 x19 x20 x21 (val_main_v173 (F := Ideal) x0 x1 x2 x3 x8 x9 x10 x11 x12 x13 x14 x15 x16 x17) := by
  funext i
  rw [val_main_v210_apply, val_main_v209_apply, val_main_cst_24_apply, val_main_cst_23_apply]
  simp only [Ideal.hostDivf_def, Ideal.ofBits_def, Ideal.ofBits_zero_f32, zero_add]
  unfold Cert.Model.lossFrom
  refine congrArg (fun s => Ideal.div s (Ideal.ofBits .f32 0x46000000#32)) ?_
  refine (Cert.LibScatterGatherRows.sum_idx1 _).trans (Finset.sum_congr rfl fun p _ => ?_)
  exact pair_eq x0 x1 x2 x3 x4 x5 x6 x7 x8 x9 x10 x11 x12 x13 x14 x15 x16 x17 x18 x19 x20 x21 h4 h5 p

end Final

end Cert.ReferenceIdeal.RThread2

end
-- ==== Proof.lean ====
/-
  The certificate of the two-layer edge-gated graph network kernel against its jnp reference, on the extended reals.

  Both programs compute one function of the 22 input arrays (Proof/Model.lean): a projection of the node features,
  two rounds of "gate each edge, look up the per-node message linear at the edge's source, add the gated messages
  into the edge's target, update every node by a GRU cell", then a scorer on 8192 node pairs and the mean of a
  binary cross-entropy. The kernel runs the dense stages as eight tiled pallas_calls and hoists the message linear
  from the edges to the nodes; the reference applies it to the gathered rows. Entry by entry the two are the same
  finite sums of the same products, so no law beyond commutativity and associativity of + and * on the extended
  reals is used, and the finiteness part of the precondition is never opened.
  What IS used of the precondition: the three index arrays that look up node rows hold node ids (0 ≤ id < 100000).
  Outside that range the kernel's lookup fills a row with the NaN word and the reference's clamps the index.

  * The three frames: the kernel's two by the generated frame of its eight regions; the reference's is its run with the
    result dropped.
  * preserves: the ideal pass rewrote nothing.
  * algebraic: the kernel program's run ends with its result buffer at the fold through @main's 22 segments
    (Proof/KRun.lean); that fold is the Model (KLayer1, KLayer2, KFinal over the five region modules); the reference's
    run, written by hand over its stages (Proof/RRun.lean), ends at its last stage, which is the Model too (RLayer1,
    RLayer2, RFinal); the two Models are
    one because the arguments agree and the two programs' segment sums are one function (Proof/Seg.lean).
-/
import proofs.«422311_j73100343378050_3_alg».proof.Defs
import proofs.«422311_j73100343378050_3_alg».proof.Proof.Gen.Kernel
import proofs.«422311_j73100343378050_3_alg».proof.Proof.Gen.Kernel.Skeleton
import proofs.«422311_j73100343378050_3_alg».proof.Proof.Gen.Kernel.Launch
import proofs.«422311_j73100343378050_3_alg».proof.Proof.Gen.Kernel.Points
import proofs.«422311_j73100343378050_3_alg».proof.Proof.Gen.Kernel.Frame
import proofs.«422311_j73100343378050_3_alg».proof.Proof.Gen.KernelIdeal
import proofs.«422311_j73100343378050_3_alg».proof.Proof.Gen.KernelIdeal.Skeleton
import proofs.«422311_j73100343378050_3_alg».proof.Proof.Gen.KernelIdeal.Launch
import proofs.«422311_j73100343378050_3_alg».proof.Proof.Gen.KernelIdeal.Points
import proofs.«422311_j73100343378050_3_alg».proof.Proof.Gen.KernelIdeal.Frame
import proofs.«422311_j73100343378050_3_alg».proof.Proof.Gen.ReferenceIdeal
import proofs.«422311_j73100343378050_3_alg».proof.Proof.RRead
import proofs.«422311_j73100343378050_3_alg».proof.Proof.RRun
import proofs.«422311_j73100343378050_3_alg».proof.Proof.Gen.Pre_finite_inputs
import proofs.«422311_j73100343378050_3_alg».proof.Proof.Model
import proofs.«422311_j73100343378050_3_alg».proof.Proof.Seg
import proofs.«422311_j73100343378050_3_alg».proof.Proof.PreFacts
import proofs.«422311_j73100343378050_3_alg».proof.Proof.KRun
import proofs.«422311_j73100343378050_3_alg».proof.Proof.RegionProj
import proofs.«422311_j73100343378050_3_alg».proof.Proof.RegionLin
import proofs.«422311_j73100343378050_3_alg».proof.Proof.RegionGate
import proofs.«422311_j73100343378050_3_alg».proof.Proof.RegionGru
import proofs.«422311_j73100343378050_3_alg».proof.Proof.RegionMlp
import proofs.«422311_j73100343378050_3_alg».proof.Proof.KLayer1
import proofs.«422311_j73100343378050_3_alg».proof.Proof.KLayer2
import proofs.«422311_j73100343378050_3_alg».proof.Proof.KFinal
import proofs.«422311_j73100343378050_3_alg».proof.Proof.RLayer1
import proofs.«422311_j73100343378050_3_alg».proof.Proof.RLayer2
import proofs.«422311_j73100343378050_3_alg».proof.Proof.RFinal
import Idealize.ShloMosaic.Adequacy
import Idealize.ShloMosaic.Init

noncomputable section

namespace Cert.Proof

open Idealize.ShloMosaic Idealize.ShloMosaic.TcCoe Idealize.ShloMosaic.ValueIdx Idealize.SL.Sem

/-! ## The kernel program's result is the Model -/

/-- The fold through the kernel program's 22 segments leaves the Model's loss in the result buffer, for a launch
    memory whose three lookup index arrays hold node ids. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hr : ∀ e : Fin 1600000, ((m ((c.tc : Thread Cert.KernelIdeal.nD Cert.KernelIdeal.τ).loc Cert.KernelIdeal.main_arg1)) (ix2 0 e)).toNat < 100000)
    (h4 : ∀ p : Fin 8192, ((m ((c.tc : Thread Cert.KernelIdeal.nD Cert.KernelIdeal.τ).loc Cert.KernelIdeal.main_arg4)) (ix1 p)).toNat < 100000)
    (h5 : ∀ p : Fin 8192, ((m ((c.tc : Thread Cert.KernelIdeal.nD Cert.KernelIdeal.τ).loc Cert.KernelIdeal.main_arg5)) (ix1 p)).toNat < 100000) :
    Cert.KernelIdeal.Gen.W22 m ρ c (Proc.devRef .tc Cert.KernelIdeal.main_v94)
      = fun _ => Cert.Model.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (Cert.Seg.ksegsum (m ((c.tc : Thread Cert.KernelIdeal.nD Cert.KernelIdeal.τ).loc Cert.KernelIdeal.main_arg1))) :=
  Cert.KernelIdeal.KThread3.loss_eq m ρ c Cert.KernelIdeal.RegionMlp.value7 h4 h5 _
    (Cert.KernelIdeal.KThread2.h2_eq m ρ c Cert.KernelIdeal.RegionLin.value4 Cert.KernelIdeal.RegionGate.value5
      Cert.KernelIdeal.RegionGru.value6 hr _
      (Cert.KernelIdeal.KThread.h1_eq m ρ c Cert.KernelIdeal.RegionProj.value Cert.KernelIdeal.RegionLin.value1
        Cert.KernelIdeal.RegionGate.value2 Cert.KernelIdeal.RegionGru.value3 hr))

/-! ## The reference's result is the Model -/

open Cert.ReferenceIdeal.Read in
/-- The reference's composed result term is the Model's loss, for arguments whose three lookup index arrays hold
    node ids. -/
theorem reference_value (m : (ℓ : Loc Cert.ReferenceIdeal.nD Cert.ReferenceIdeal.τ Cert.ReferenceIdeal.sig) → Buf (Elt Ideal) ℓ)
    (c : Dev Cert.ReferenceIdeal.nD)
    (hr : ∀ e : Fin 1600000, ((m ((c.tc : Thread Cert.ReferenceIdeal.nD Cert.ReferenceIdeal.τ).loc Cert.ReferenceIdeal.main_arg1)) (ix2 0 e)).toNat < 100000)
    (h4 : ∀ p : Fin 8192, ((m ((c.tc : Thread Cert.ReferenceIdeal.nD Cert.ReferenceIdeal.τ).loc Cert.ReferenceIdeal.main_arg4)) (ix1 p)).toNat < 100000)
    (h5 : ∀ p : Fin 8192, ((m ((c.tc : Thread Cert.ReferenceIdeal.nD Cert.ReferenceIdeal.τ).loc Cert.ReferenceIdeal.main_arg5)) (ix1 p)).toNat < 100000) :
    val_main_v210 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))
      = fun _ => Cert.Model.loss (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (Cert.Seg.rsegsum (m ((c.tc : Thread Cert.ReferenceIdeal.nD Cert.ReferenceIdeal.τ).loc Cert.ReferenceIdeal.main_arg1))) := by
  rw [Cert.ReferenceIdeal.RThread2.loss_eq _ _ _ _ _ _ _ _ _ _ _ _ _ _ _ _ _ _ _ _ _ _ h4 h5,
    Cert.ReferenceIdeal.RThread2.h2_eq _ _ _ _ _ _ _ _ _ _ _ _ _ _ hr,
    Cert.ReferenceIdeal.RThread.h1_eq _ _ _ _ _ _ _ _ _ _ _ _ _ _ hr]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RRun.run (F := Ideal) m ρ)

/-- Run from memories that agree on the 22 arguments, under the precondition, both programs end with the Model's loss
    of those arguments in their result buffers. -/
theorem algebraic : Cert.algebraic_KernelIdeal_ReferenceIdeal := by
  intro m ρ m' ρ' hpre hagree
  have hR := fun c => Cert.PreFacts.index_ranges _ _ _ _ _ _ _ _ _ _ _ _ _ _ _ _ _ _ _ _ _ _ (hpre c)
  refine ⟨fun c => fun _ => Cert.Model.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (Cert.Seg.ksegsum (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (kernel_value m ρ c (hR c).1 (hR c).2.1 (hR c).2.2), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RRun.run (F := Ideal) m' ρ')
    obtain ⟨e0, e1, e2, e3, e4, e5, e6, e7, e8, e9, e10, e11, e12, e13, e14, e15, e16, e17, e18, e19, e20, e21⟩ := hagree c
    rw [reference_value m' c (by rw [e1]; exact (hR c).1) (by rw [e4]; exact (hR c).2.1) (by rw [e5]; exact (hR c).2.2),
      e0, e1, e2, e3, e4, e5, e6, e7, e8, e9, e10, e11, e12, e13, e14, e15, e16, e17, e18, e19, e20, e21,
      ← Cert.Seg.ksegsum_eq_rsegsum]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
